-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v594) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x262144 : Shape := ⟨3, ![1, 3, 262144]⟩
abbrev S1x96x256x256 : Shape := ⟨4, ![1, 96, 256, 256]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S59x128 : Shape := ⟨2, ![59, 128]⟩
abbrev S128x3 : Shape := ⟨2, ![128, 3]⟩
abbrev S3 : Shape := ⟨1, ![3]⟩
abbrev S_ : Shape := ⟨0, ![]⟩

class Facts : Prop where
  bcast_S_S1x3x262144 : S_.BroadcastsInDim S1x3x262144 (![] : Fin 0 → Fin S1x3x262144.rank)
  reducesTo_S1x3x262144_S_d0_1_2 : S1x3x262144.ReducesTo [0, 1, 2] S_
  h_S_ : 0 < S_.numel
  bcast_S_S1x96x256x256 : S_.BroadcastsInDim S1x96x256x256 (![] : Fin 0 → Fin S1x96x256x256.rank)
  reducesTo_S1x96x256x256_S_d0_1_2_3 : S1x96x256x256.ReducesTo [0, 1, 2, 3] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S59x128 : S_.BroadcastsInDim S59x128 (![] : Fin 0 → Fin S59x128.rank)
  reducesTo_S59x128_S_d0_1 : S59x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S3 .f32) (main_v63 : IVec S_ 1) (main_v67 : IVec S_ 1) : IVec S_ 1 :=
  let main_v68 : IVec S_ 1 := andi main_v63 main_v67
  let main_v69 : FVec F S3 .f32 := Host.absf main_arg14
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S128x3 .f32) (main_arg14 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x3 .f32 := Host.absf main_arg13
  let main_cst_24 : FVec F S_ .f32 := constant S_ .f32 0x7F800000#32
  let main_v65 : FVec F S128x3 .f32 := broadcastInDim S128x3 ![] bcast_S_S128x3 main_cst_24
  let main_v66 : IVec S128x3 1 := cmpf .olt main_v64 main_v65
  let main_c_25 : IVec S_ 1 := constantI S_ 1 1#1
  let main_v67 : IVec S_ 1 := (fun x v => Host.reduce IntOp.andi x v reducesTo_S128x3_S_d0_1 h_S_) main_v66 main_c_25
  fn_part4 (F := F) main_arg14 main_v63 main_v67

def fn_part2 {F : FTy → Type} [FloatOps F] (main_arg7 : FVec F S128x1 .f32) (main_arg8 : FVec F S1 .f32) (main_arg9 : FVec F S59x128 .f32) (main_arg10 : FVec F S128 .f32) (main_arg11 : FVec F S128x128 .f32) (main_arg12 : FVec F S128 .f32) (main_arg13 : FVec F S128x3 .f32) (main_arg14 : FVec F S3 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S59x128 .f32 := Host.absf main_arg9
  let main_cst_16 : FVec F S_ .f32 := constant S_ .f32 0x7F800000#32
  let main_v45 : FVec F S59x128 .f32 := broadcastInDim S59x128 ![] bcast_S_S59x128 main_cst_16
  let main_v46 : IVec S59x128 1 := cmpf .olt main_v44 main_v45
  let main_c_17 : IVec S_ 1 := constantI S_ 1 1#1
  let main_v47 : IVec S_ 1 := (fun x v => Host.reduce IntOp.andi x v reducesTo_S59x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128x128 .f32) (main_arg6 : FVec F S128 .f32) (main_arg7 : FVec F S128x1 .f32) (main_arg8 : FVec F S1 .f32) (main_arg9 : FVec F S59x128 .f32) (main_arg10 : FVec F S128 .f32) (main_arg11 : FVec F S128x128 .f32) (main_arg12 : FVec F S128 .f32) (main_arg13 : FVec F S128x3 .f32) (main_arg14 : FVec F S3 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1x3x262144 .f32) (main_arg1 : FVec F S1x3x262144 .f32) (main_arg2 : FVec F S1x96x256x256 .f32) (main_arg3 : FVec F S32x128 .f32) (main_arg4 : FVec F S128 .f32) (main_arg5 : FVec F S128x128 .f32) (main_arg6 : FVec F S128 .f32) (main_arg7 : FVec F S128x1 .f32) (main_arg8 : FVec F S1 .f32) (main_arg9 : FVec F S59x128 .f32) (main_arg10 : FVec F S128 .f32) (main_arg11 : FVec F S128x128 .f32) (main_arg12 : FVec F S128 .f32) (main_arg13 : FVec F S128x3 .f32) (main_arg14 : FVec F S3 .f32) : IVec S_ 1 :=
  let main_v0 : FVec F S1x3x262144 .f32 := Host.absf main_arg0
  let main_cst : FVec F S_ .f32 := constant S_ .f32 0x7F800000#32
  let main_v1 : FVec F S1x3x262144 .f32 := broadcastInDim S1x3x262144 ![] bcast_S_S1x3x262144 main_cst
  let main_v2 : IVec S1x3x262144 1 := cmpf .olt main_v0 main_v1
  let main_c : IVec S_ 1 := constantI S_ 1 1#1
  let main_v3 : IVec S_ 1 := (fun x v => Host.reduce IntOp.andi x v reducesTo_S1x3x262144_S_d0_1_2 h_S_) main_v2 main_c
  let main_v4 : FVec F S1x3x262144 .f32 := Host.absf main_arg1
  let main_cst_0 : FVec F S_ .f32 := constant S_ .f32 0x7F800000#32
  let main_v5 : FVec F S1x3x262144 .f32 := broadcastInDim S1x3x262144 ![] bcast_S_S1x3x262144 main_cst_0
  let main_v6 : IVec S1x3x262144 1 := cmpf .olt main_v4 main_v5
  let main_c_1 : IVec S_ 1 := constantI S_ 1 1#1
  let main_v7 : IVec S_ 1 := (fun x v => Host.reduce IntOp.andi x v reducesTo_S1x3x262144_S_d0_1_2 h_S_) main_v6 main_c_1
  let main_v8 : IVec S_ 1 := andi main_v3 main_v7
  let main_v9 : FVec F S1x96x256x256 .f32 := Host.absf main_arg2
  let main_cst_2 : FVec F S_ .f32 := constant S_ .f32 0x7F800000#32
  let main_v10 : FVec F S1x96x256x256 .f32 := broadcastInDim S1x96x256x256 ![] bcast_S_S1x96x256x256 main_cst_2
  let main_v11 : IVec S1x96x256x256 1 := cmpf .olt main_v9 main_v10
  let main_c_3 : IVec S_ 1 := constantI S_ 1 1#1
  let main_v12 : IVec S_ 1 := (fun x v => Host.reduce IntOp.andi x v reducesTo_S1x96x256x256_S_d0_1_2_3 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1x3x262144 : Shape := ⟨3, ![1, 3, 262144]⟩
abbrev S1x96x256x256 : Shape := ⟨4, ![1, 96, 256, 256]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S59x128 : Shape := ⟨2, ![59, 128]⟩
abbrev S128x3 : Shape := ⟨2, ![128, 3]⟩
abbrev S3 : Shape := ⟨1, ![3]⟩
abbrev S1x32x256x256 : Shape := ⟨4, ![1, 32, 256, 256]⟩
abbrev S32x256x256 : Shape := ⟨3, ![32, 256, 256]⟩
abbrev S8192x256 : Shape := ⟨2, ![8192, 256]⟩
abbrev S128x32 : Shape := ⟨2, ![128, 32]⟩
abbrev S_ : Shape := ⟨0, ![]⟩
abbrev S128x27 : Shape := ⟨2, ![128, 27]⟩
abbrev S128x59 : Shape := ⟨2, ![128, 59]⟩
abbrev S256x59 : Shape := ⟨2, ![256, 59]⟩
abbrev S256 : Shape := ⟨1, ![256]⟩
abbrev S128x256 : Shape := ⟨2, ![128, 256]⟩
abbrev S256x256 : Shape := ⟨2, ![256, 256]⟩
abbrev S1x128 : Shape := ⟨2, ![1, 128]⟩
abbrev S1x256 : Shape := ⟨2, ![1, 256]⟩
abbrev S3x128 : Shape := ⟨2, ![3, 128]⟩
abbrev S3x256 : Shape := ⟨2, ![3, 256]⟩
abbrev S4x256 : Shape := ⟨2, ![4, 256]⟩
abbrev S4 : Shape := ⟨1, ![4]⟩
abbrev S1x4x262144 : Shape := ⟨3, ![1, 4, 262144]⟩
abbrev S1x3x1024 : Shape := ⟨3, ![1, 3, 1024]⟩
abbrev S1x4x1024 : Shape := ⟨3, ![1, 4, 1024]⟩
abbrev S3x1024 : Shape := ⟨2, ![3, 1024]⟩
abbrev S1x1024 : Shape := ⟨2, ![1, 1024]⟩
abbrev S1024 : Shape := ⟨1, ![1024]⟩
abbrev S256x1024 : Shape := ⟨2, ![256, 1024]⟩
abbrev S1x256x1024 : Shape := ⟨3, ![1, 256, 1024]⟩
abbrev S2048x256 : Shape := ⟨2, ![2048, 256]⟩
abbrev S2048x1024 : Shape := ⟨2, ![2048, 1024]⟩
abbrev S8x256x1024 : Shape := ⟨3, ![8, 256, 1024]⟩
abbrev S8x1024 : Shape := ⟨2, ![8, 1024]⟩
abbrev S32x1024 : Shape := ⟨2, ![32, 1024]⟩
abbrev S12x1024 : Shape := ⟨2, ![12, 1024]⟩
abbrev S27x1024 : Shape := ⟨2, ![27, 1024]⟩
abbrev S59x1024 : Shape := ⟨2, ![59, 1024]⟩
abbrev S256x1 : Shape := ⟨2, ![256, 1]⟩
abbrev S4x1024 : Shape := ⟨2, ![4, 1024]⟩
abbrev S4x1 : Shape := ⟨2, ![4, 1]⟩

abbrev nBuf : Space → Nat
  | .hbm => 58
  | .vmem => 15
  | .smem => 0
  | _ => 0

abbrev bufTy : (tb : Table) → Fin (tcTables nBuf tb) → BufTy
  | .hbm, ⟨0, _⟩ => ⟨S1x3x262144, .f32⟩
  | .hbm, ⟨1, _⟩ => ⟨S1x3x262144, .f32⟩
  | .hbm, ⟨2, _⟩ => ⟨S1x96x256x256, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S59x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x3, .f32⟩
  | .hbm, ⟨14, _⟩ => ⟨S3, .f32⟩
  | .hbm, ⟨15, _⟩ => ⟨S1x32x256x256, .f32⟩
  | .hbm, ⟨16, _⟩ => ⟨S32x256x256, .f32⟩
  | .hbm, ⟨17, _⟩ => ⟨S32x256x256, .f32⟩
  | .hbm, ⟨18, _⟩ => ⟨S8192x256, .f32⟩
  | .hbm, ⟨19, _⟩ => ⟨S8192x256, .bf16⟩
  | .hbm, ⟨20, _⟩ => ⟨S1x32x256x256, .f32⟩
  | .hbm, ⟨21, _⟩ => ⟨S32x256x256, .f32⟩
  | .hbm, ⟨22, _⟩ => ⟨S32x256x256, .f32⟩
  | .hbm, ⟨23, _⟩ => ⟨S8192x256, .f32⟩
  | .hbm, ⟨24, _⟩ => ⟨S8192x256, .bf16⟩
  | .hbm, ⟨25, _⟩ => ⟨S1x32x256x256, .f32⟩
  | .hbm, ⟨26, _⟩ => ⟨S32x256x256, .f32⟩
  | .hbm, ⟨27, _⟩ => ⟨S32x256x256, .f32⟩
  | .hbm, ⟨28, _⟩ => ⟨S8192x256, .f32⟩
  | .hbm, ⟨29, _⟩ => ⟨S8192x256, .bf16⟩
  | .hbm, ⟨30, _⟩ => ⟨S128x32, .f32⟩
  | .hbm, ⟨31, _⟩ => ⟨S_, .f32⟩
  | .hbm, ⟨32, _⟩ => ⟨S128x27, .f32⟩
  | .hbm, ⟨33, _⟩ => ⟨S128x59, .f32⟩
  | .hbm, ⟨34, _⟩ => ⟨S128x59, .f32⟩
  | .hbm, ⟨35, _⟩ => ⟨S256x59, .f32⟩
  | .hbm, ⟨36, _⟩ => ⟨S256, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x256, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x256, .f32⟩
  | .hbm, ⟨45, _⟩ => ⟨S256x256, .f32⟩
  | .hbm, ⟨46, _⟩ => ⟨S256, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x256, .f32⟩
  | .hbm, ⟨51, _⟩ => ⟨S_, .f32⟩
  | .hbm, ⟨52, _⟩ => ⟨S3x128, .f32⟩
  | .hbm, ⟨53, _⟩ => ⟨S3x128, .f32⟩
  | .hbm, ⟨54, _⟩ => ⟨S3x256, .f32⟩
  | .hbm, ⟨55, _⟩ => ⟨S4x256, .f32⟩
  | .hbm, ⟨56, _⟩ => ⟨S4, .f32⟩
  | .hbm, ⟨57, _⟩ => ⟨S1x4x262144, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S8192x256, .bf16⟩
  | .local _ .vmem, ⟨5, _⟩ => ⟨S8192x256, .bf16⟩
  | .local _ .vmem, ⟨6, _⟩ => ⟨S8192x256, .bf16⟩
  | .local _ .vmem, ⟨7, _⟩ => ⟨S256x59, .f32⟩
  | .local _ .vmem, ⟨8, _⟩ => ⟨S256, .f32⟩
  | .local _ .vmem, ⟨9, _⟩ => ⟨S256x256, .f32⟩
  | .local _ .vmem, ⟨10, _⟩ => ⟨S256, .f32⟩
  | .local _ .vmem, ⟨11, _⟩ => ⟨S4x256, .f32⟩
  | .local _ .vmem, ⟨12, _⟩ => ⟨S4, .f32⟩
  | .local _ .vmem, ⟨13, _⟩ => ⟨S1x4x1024, .f32⟩
  | .local _ .vmem, ⟨14, _⟩ => ⟨S1x4x1024, .f32⟩
  | _, _ => ⟨S1x3x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x59 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x4x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1x96x256x256_S1x32x256x256_0_0_0_0 : S1x96x256x256.Slices ![0, 0, 0, 0] S1x32x256x256
  shapeCasts_S1x32x256x256_S32x256x256 : S1x32x256x256.ShapeCasts S32x256x256
  transposes_S32x256x256_S32x256x256_0_2_1 : S32x256x256.Transposes [0, 2, 1] S32x256x256
  shapeCasts_S32x256x256_S8192x256 : S32x256x256.ShapeCasts S8192x256
  bitsLt_bf16_f32 : FTy.bits .bf16 < FTy.bits .f32
  slices_S1x96x256x256_S1x32x256x256_0_32_0_0 : S1x96x256x256.Slices ![0, 32, 0, 0] S1x32x256x256
  slices_S1x96x256x256_S1x32x256x256_0_64_0_0 : S1x96x256x256.Slices ![0, 64, 0, 0] S1x32x256x256
  transposes_S32x128_S128x32_1_0 : S32x128.Transposes [1, 0] S128x32
  bcast_S_S128x27 : S_.BroadcastsInDim S128x27 (![] : Fin 0 → Fin S128x27.rank)
  concatenates_S128x32_S128x27_S128x59_d1 : Shape.Concatenates [S128x32, S128x27] S128x59 1
  transposes_S59x128_S128x59_1_0 : S59x128.Transposes [1, 0] S128x59
  concatenates_S128x59_S128x59_S256x59_d0 : Shape.Concatenates [S128x59, S128x59] S256x59 0
  concatenates_S128_S128_S256_d0 : Shape.Concatenates [S128, S128] S256 0
  transposes_S128x128_S128x128_1_0 : S128x128.Transposes [1, 0] S128x128
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  transposes_S128x1_S1x128_1_0 : S128x1.Transposes [1, 0] S1x128
  bcast_S_S1x128 : S_.BroadcastsInDim S1x128 (![] : Fin 0 → Fin S1x128.rank)
  concatenates_S1x128_S1x128_S1x256_d1 : Shape.Concatenates [S1x128, S1x128] S1x256 1
  bcast_S_S3x128 : S_.BroadcastsInDim S3x128 (![] : Fin 0 → Fin S3x128.rank)
  transposes_S128x3_S3x128_1_0 : S128x3.Transposes [1, 0] S3x128
  concatenates_S3x128_S3x128_S3x256_d1 : Shape.Concatenates [S3x128, S3x128] S3x256 1
  concatenates_S1x256_S3x256_S4x256_d0 : Shape.Concatenates [S1x256, S3x256] S4x256 0
  concatenates_S1_S3_S4_d0 : Shape.Concatenates [S1, S3] S4 0
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S3x1024_o0_0_S1x1024 : S3x1024.Slices ![0, 0] S1x1024
  shapeCasts_S1x1024_S1024 : S1x1024.ShapeCasts S1024
  slices_S3x1024_o1_0_S1x1024 : S3x1024.Slices ![1, 0] S1x1024
  slices_S3x1024_o2_0_S1x1024 : S3x1024.Slices ![2, 0] S1x1024
  shapeCasts_S1024_S1x1024 : S1024.ShapeCasts S1x1024
  iota_S256x1024_d0_w32 : S256x1024.Iotas .tc 32 [0]
  broadcasts_S1x1024_S256x1024 : S1x1024.Broadcasts S256x1024
  natLt_1_32 : 1 < 32
  shapeCasts_S256x1024_S1x256x1024 : S256x1024.ShapeCasts S1x256x1024
  inb_S8192x256_S2048x256_0_0 : ∀ a, (![0, 0] : Fin 2 → Nat) a + S2048x256.size a ≤ S8192x256.size a
  h_S2048x256 : 0 < S2048x256.numel
  shapeCasts_S2048x256_S2048x256 : S2048x256.ShapeCasts S2048x256
  shapeCasts_S2048x1024_S8x256x1024 : S2048x1024.ShapeCasts S8x256x1024
  broadcasts_S1x256x1024_S8x256x1024 : S1x256x1024.Broadcasts S8x256x1024
  reduces_S8x256x1024_S8x1024 : S8x256x1024.Reduces [1] S8x1024
  inb_S8192x256_S2048x256_2048_0 : ∀ a, (![2048, 0] : Fin 2 → Nat) a + S2048x256.size a ≤ S8192x256.size a
  inb_S8192x256_S2048x256_4096_0 : ∀ a, (![4096, 0] : Fin 2 → Nat) a + S2048x256.size a ≤ S8192x256.size a
  inb_S8192x256_S2048x256_6144_0 : ∀ a, (![6144, 0] : Fin 2 → Nat) a + S2048x256.size a ≤ S8192x256.size a
  concatenates_S8x1024_S8x1024_S8x1024_S8x1024_S32x1024_d0 : Shape.Concatenates [S8x1024, S8x1024, S8x1024, S8x1024] S32x1024 0
  concatenates_S3x1024_S3x1024_S3x1024_S3x1024_S12x1024_d0 : Shape.Concatenates [S3x1024, S3x1024, S3x1024, S3x1024] S12x1024 0
  concatenates_S3x1024_S12x1024_S12x1024_S27x1024_d0 : Shape.Concatenates [S3x1024, S12x1024, S12x1024] S27x1024 0
  concatenates_S32x1024_S27x1024_S59x1024_d0 : Shape.Concatenates [S32x1024, S27x1024] S59x1024 0
  inb_S256x59_S256x59_0_0 : ∀ a, (![0, 0] : Fin 2 → Nat) a + S256x59.size a ≤ S256x59.size a
  h_S256x59 : 0 < S256x59.numel
  shapeCasts_S256x59_S256x59 : S256x59.ShapeCasts S256x59
  inb_S256_S256_0 : ∀ a, (![0] : Fin 1 → Nat) a + S256.size a ≤ S256.size a
  h_S256 : 0 < S256.numel
  shapeCasts_S256_S256 : S256.ShapeCasts S256
  shapeCasts_S256_S256x1 : S256.ShapeCasts S256x1
  broadcasts_S256x1_S256x1024 : S256x1.Broadcasts S256x1024
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4_S4_0 : ∀ a, (![0] : Fin 1 → Nat) a + S4.size a ≤ S4.size a
  h_S4 : 0 < S4.numel
  shapeCasts_S4_S4 : S4.ShapeCasts S4
  shapeCasts_S4_S4x1 : S4.ShapeCasts S4x1
  broadcasts_S4x1_S4x1024 : S4x1.Broadcasts S4x1024
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  shapeCasts_S4x1024_S1x4x1024 : S4x1024.ShapeCasts S1x4x1024
  dot_S2048x256_S256x1024_S2048x1024_1_0_0_1_n_n_wf : DotDims.WF S2048x256 S256x1024 S2048x1024 [1] [0] [0] [1] [] []
  dot_S256x59_S59x1024_S256x1024_1_0_0_1_n_n_wf : DotDims.WF S256x59 S59x1024 S256x1024 [1] [0] [0] [1] [] []
  dot_S256x256_S256x1024_S256x1024_1_0_0_1_n_n_wf : DotDims.WF S256x256 S256x1024 S256x1024 [1] [0] [0] [1] [] []
  dot_S4x256_S256x1024_S4x1024_1_0_0_1_n_n_wf : DotDims.WF S4x256 S256x1024 S4x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S1x3x262144.size a
  hwx0_0 : ∀ i : grid0.Coords, EltTy.bits .f32 = 32 ∨ (Rect.block (s := S1x3x262144) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S1x3x262144.size a
  hwx0_1 : ∀ i : grid0.Coords, EltTy.bits .f32 = 32 ∨ (Rect.block (s := S1x3x262144) S1x3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .bf16 = 32 ∨ (Rect.block (s := S8192x256) S8192x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S8192x256.size a
  hwx0_3 : ∀ i : grid0.Coords, EltTy.bits .bf16 = 32 ∨ (Rect.block (s := S8192x256) S8192x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x256.size a ≤ S8192x256.size a
  hwx0_4 : ∀ i : grid0.Coords, EltTy.bits .bf16 = 32 ∨ (Rect.block (s := S8192x256) S8192x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x59.size a ≤ S256x59.size a
  hwx0_5 : ∀ i : grid0.Coords, EltTy.bits .f32 = 32 ∨ (Rect.block (s := S256x59) S256x59.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x256.size a ≤ S4x256.size a
  hwx0_9 : ∀ i : grid0.Coords, EltTy.bits .f32 = 32 ∨ (Rect.block (s := S4x256) S4x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4.size a ≤ S4.size a
  hwx0_10 : ∀ i : grid0.Coords, EltTy.bits .f32 = 32 ∨ (Rect.block (s := S4) S4.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x4x1024.size a ≤ S1x4x262144.size a
  hwx0_11 : ∀ i : grid0.Coords, EltTy.bits .f32 = 32 ∨ (Rect.block (s := S1x4x262144) S1x4x1024.size (cc0_transform_11 i) (hinb0_11 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S256x59_S59x1024_S256x1024_1_0_0_1_n_n : DotDims S256x59 S59x1024 S256x1024 where
  lhsContracting := [1]
  rhsContracting := [0]
  lhsNonContracting := [0]
  rhsNonContracting := [1]
  lhsBatch := []
  rhsBatch := []
  wf := dot_S256x59_S59x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S4x256_S256x1024_S4x1024_1_0_0_1_n_n : DotDims S4x256 S256x1024 S4x1024 where
  lhsContracting := [1]
  rhsContracting := [0]
  lhsNonContracting := [0]
  rhsNonContracting := [1]
  lhsBatch := []
  rhsBatch := []
  wf := dot_S4x256_S256x1024_S4x1024_1_0_0_1_n_n_wf

abbrev win0_0 : Pipeline.Window sig grid0 :=
  Pipeline.Window.ofSpec (Memref.whole main_arg0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S8192x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S256x59.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S4x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S1x4x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1x3x262144 : Shape := ⟨3, ![1, 3, 262144]⟩
abbrev S1x96x256x256 : Shape := ⟨4, ![1, 96, 256, 256]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S59x128 : Shape := ⟨2, ![59, 128]⟩
abbrev S128x3 : Shape := ⟨2, ![128, 3]⟩
abbrev S3 : Shape := ⟨1, ![3]⟩
abbrev S1x32x256x256 : Shape := ⟨4, ![1, 32, 256, 256]⟩
abbrev S1x1x262144 : Shape := ⟨3, ![1, 1, 262144]⟩
abbrev S1x262144 : Shape := ⟨2, ![1, 262144]⟩
abbrev S_ : Shape := ⟨0, ![]⟩
abbrev S1x262144x1 : Shape := ⟨3, ![1, 262144, 1]⟩
abbrev S1x262144x2 : Shape := ⟨3, ![1, 262144, 2]⟩
abbrev S1x32x262144 : Shape := ⟨3, ![1, 32, 262144]⟩
abbrev S1x262144x32 : Shape := ⟨3, ![1, 262144, 32]⟩
abbrev S262144x32 : Shape := ⟨2, ![262144, 32]⟩
abbrev S262144x128 : Shape := ⟨2, ![262144, 128]⟩
abbrev S1x128 : Shape := ⟨2, ![1, 128]⟩
abbrev S262144x1 : Shape := ⟨2, ![262144, 1]⟩
abbrev S1x1 : Shape := ⟨2, ![1, 1]⟩
abbrev S1x262144x3 : Shape := ⟨3, ![1, 262144, 3]⟩
abbrev S262144x3 : Shape := ⟨2, ![262144, 3]⟩
abbrev S4 : Shape := ⟨1, ![4]⟩
abbrev S262144x1x3 : Shape := ⟨3, ![262144, 1, 3]⟩
abbrev S1x4x1 : Shape := ⟨3, ![1, 4, 1]⟩
abbrev S262144x4x3 : Shape := ⟨3, ![262144, 4, 3]⟩
abbrev S262144x12 : Shape := ⟨2, ![262144, 12]⟩
abbrev S262144x27 : Shape := ⟨2, ![262144, 27]⟩
abbrev S262144x59 : Shape := ⟨2, ![262144, 59]⟩
abbrev S1x3 : Shape := ⟨2, ![1, 3]⟩
abbrev S1x4x262144 : Shape := ⟨3, ![1, 4, 262144]⟩

abbrev nBuf : Space → Nat
  | .hbm => 925
  | .vmem => 0
  | .smem => 0
  | _ => 0

abbrev hbmTy0_0 (i : Nat) : BufTy := match i % 128 with
  | 0 => ⟨S1x3x262144, .f32⟩
  | 1 => ⟨S1x3x262144, .f32⟩
  | 2 => ⟨S1x96x256x256, .f32⟩
  | 3 => ⟨S32x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S59x128, .f32⟩
  | 10 => ⟨S128, .f32⟩
  | 11 => ⟨S128x128, .f32⟩
  | 12 => ⟨S128, .f32⟩
  | 13 => ⟨S128x3, .f32⟩
  | 14 => ⟨S3, .f32⟩
  | 15 => ⟨S1x32x256x256, .f32⟩
  | 16 => ⟨S1x32x256x256, .f32⟩
  | 17 => ⟨S1x32x256x256, .f32⟩
  | 18 => ⟨S1x1x262144, .f32⟩
  | 19 => ⟨S1x262144, .f32⟩
  | 20 => ⟨S1x1x262144, .f32⟩
  | 21 => ⟨S1x262144, .f32⟩
  | 22 => ⟨S1x1x262144, .f32⟩
  | 23 => ⟨S1x262144, .f32⟩
  | 24 => ⟨S_, .f32⟩
  | 25 => ⟨S1x262144, .f32⟩
  | 26 => ⟨S1x262144, .f32⟩
  | 27 => ⟨S_, .f32⟩
  | 28 => ⟨S1x262144, .f32⟩
  | 29 => ⟨S1x262144, .f32⟩
  | 30 => ⟨S_, .f32⟩
  | 31 => ⟨S1x262144, .f32⟩
  | 32 => ⟨S1x262144, .f32⟩
  | 33 => ⟨S_, .f32⟩
  | 34 => ⟨S1x262144, .f32⟩
  | 35 => ⟨S1x262144, .f32⟩
  | 36 => ⟨S_, .f32⟩
  | 37 => ⟨S1x262144, .f32⟩
  | 38 => ⟨S1x262144, .f32⟩
  | 39 => ⟨S_, .f32⟩
  | 40 => ⟨S1x262144, .f32⟩
  | 41 => ⟨S1x262144, .f32⟩
  | 42 => ⟨S1x262144, .f32⟩
  | 43 => ⟨S1x262144, .f32⟩
  | 44 => ⟨S1x262144, .f32⟩
  | 45 => ⟨S1x262144, .f32⟩
  | 46 => ⟨S1x262144, .i32⟩
  | 47 => ⟨S1x262144, .i32⟩
  | 48 => ⟨S_, .i32⟩
  | 49 => ⟨S1x262144, .i32⟩
  | 50 => ⟨S1x262144, .i1⟩
  | 51 => ⟨S_, .i32⟩
  | 52 => ⟨S1x262144, .i32⟩
  | 53 => ⟨S1x262144, .i1⟩
  | 54 => ⟨S1x262144, .i1⟩
  | 55 => ⟨S_, .i32⟩
  | 56 => ⟨S1x262144, .i32⟩
  | 57 => ⟨S1x262144, .i1⟩
  | 58 => ⟨S1x262144, .i1⟩
  | 59 => ⟨S_, .i32⟩
  | 60 => ⟨S1x262144, .i32⟩
  | 61 => ⟨S1x262144, .i1⟩
  | 62 => ⟨S1x262144, .i1⟩
  | 63 => ⟨S1x262144, .f32⟩
  | 64 => ⟨S_, .i32⟩
  | 65 => ⟨S_, .i32⟩
  | 66 => ⟨S_, .i32⟩
  | 67 => ⟨S1x262144, .i32⟩
  | 68 => ⟨S1x262144, .i32⟩
  | 69 => ⟨S_, .i32⟩
  | 70 => ⟨S1x262144, .i32⟩
  | 71 => ⟨S1x262144, .i32⟩
  | 72 => ⟨S_, .i32⟩
  | 73 => ⟨S_, .i32⟩
  | 74 => ⟨S_, .i32⟩
  | 75 => ⟨S1x262144, .i32⟩
  | 76 => ⟨S1x262144, .i32⟩
  | 77 => ⟨S_, .i32⟩
  | 78 => ⟨S1x262144, .i32⟩
  | 79 => ⟨S1x262144, .i32⟩
  | 80 => ⟨S_, .i32⟩
  | 81 => ⟨S1x262144, .i32⟩
  | 82 => ⟨S1x262144, .i1⟩
  | 83 => ⟨S_, .i32⟩
  | 84 => ⟨S1x262144, .i32⟩
  | 85 => ⟨S1x262144, .i32⟩
  | 86 => ⟨S1x262144, .i32⟩
  | 87 => ⟨S_, .i32⟩
  | 88 => ⟨S1x262144, .i32⟩
  | 89 => ⟨S1x262144, .i1⟩
  | 90 => ⟨S_, .i32⟩
  | 91 => ⟨S1x262144, .i32⟩
  | 92 => ⟨S1x262144, .i32⟩
  | 93 => ⟨S1x262144, .i32⟩
  | 94 => ⟨S1x262144x1, .i32⟩
  | 95 => ⟨S1x262144x1, .i32⟩
  | 96 => ⟨S1x262144x2, .i32⟩
  | 97 => ⟨S1x32x262144, .f32⟩
  | 98 => ⟨S1x1x262144, .f32⟩
  | 99 => ⟨S1x32x262144, .f32⟩
  | 100 => ⟨S1x32x262144, .f32⟩
  | 101 => ⟨S_, .f32⟩
  | 102 => ⟨S1x262144, .f32⟩
  | 103 => ⟨S1x262144, .f32⟩
  | 104 => ⟨S_, .f32⟩
  | 105 => ⟨S1x262144, .f32⟩
  | 106 => ⟨S1x262144, .f32⟩
  | 107 => ⟨S1x262144, .f32⟩
  | 108 => ⟨S1x1x262144, .f32⟩
  | 109 => ⟨S1x32x262144, .f32⟩
  | 110 => ⟨S1x32x262144, .f32⟩
  | 111 => ⟨S_, .i32⟩
  | 112 => ⟨S1x262144, .i32⟩
  | 113 => ⟨S1x262144, .i32⟩
  | 114 => ⟨S_, .i32⟩
  | 115 => ⟨S1x262144, .i32⟩
  | 116 => ⟨S1x262144, .i1⟩
  | 117 => ⟨S_, .i32⟩
  | 118 => ⟨S1x262144, .i32⟩
  | 119 => ⟨S1x262144, .i1⟩
  | 120 => ⟨S1x262144, .i1⟩
  | 121 => ⟨S_, .i32⟩
  | 122 => ⟨S1x262144, .i32⟩
  | 123 => ⟨S1x262144, .i1⟩
  | 124 => ⟨S1x262144, .i1⟩
  | 125 => ⟨S_, .i32⟩
  | 126 => ⟨S1x262144, .i32⟩
  | 127 => ⟨S1x262144, .i1⟩
  | _ => ⟨S1x3x262144, .f32⟩

abbrev hbmTy0_1 (i : Nat) : BufTy := match i % 128 with
  | 0 => ⟨S1x262144, .i1⟩
  | 1 => ⟨S1x262144, .f32⟩
  | 2 => ⟨S_, .i32⟩
  | 3 => ⟨S_, .i32⟩
  | 4 => ⟨S_, .i32⟩
  | 5 => ⟨S1x262144, .i32⟩
  | 6 => ⟨S1x262144, .i32⟩
  | 7 => ⟨S_, .i32⟩
  | 8 => ⟨S1x262144, .i32⟩
  | 9 => ⟨S1x262144, .i32⟩
  | 10 => ⟨S_, .i32⟩
  | 11 => ⟨S_, .i32⟩
  | 12 => ⟨S_, .i32⟩
  | 13 => ⟨S1x262144, .i32⟩
  | 14 => ⟨S1x262144, .i32⟩
  | 15 => ⟨S_, .i32⟩
  | 16 => ⟨S1x262144, .i32⟩
  | 17 => ⟨S1x262144, .i32⟩
  | 18 => ⟨S_, .i32⟩
  | 19 => ⟨S1x262144, .i32⟩
  | 20 => ⟨S1x262144, .i1⟩
  | 21 => ⟨S_, .i32⟩
  | 22 => ⟨S1x262144, .i32⟩
  | 23 => ⟨S1x262144, .i32⟩
  | 24 => ⟨S1x262144, .i32⟩
  | 25 => ⟨S_, .i32⟩
  | 26 => ⟨S1x262144, .i32⟩
  | 27 => ⟨S1x262144, .i1⟩
  | 28 => ⟨S_, .i32⟩
  | 29 => ⟨S1x262144, .i32⟩
  | 30 => ⟨S1x262144, .i32⟩
  | 31 => ⟨S1x262144, .i32⟩
  | 32 => ⟨S1x262144x1, .i32⟩
  | 33 => ⟨S1x262144x1, .i32⟩
  | 34 => ⟨S1x262144x2, .i32⟩
  | 35 => ⟨S1x32x262144, .f32⟩
  | 36 => ⟨S1x1x262144, .f32⟩
  | 37 => ⟨S1x32x262144, .f32⟩
  | 38 => ⟨S1x32x262144, .f32⟩
  | 39 => ⟨S_, .f32⟩
  | 40 => ⟨S1x262144, .f32⟩
  | 41 => ⟨S1x262144, .f32⟩
  | 42 => ⟨S1x262144, .f32⟩
  | 43 => ⟨S1x1x262144, .f32⟩
  | 44 => ⟨S1x32x262144, .f32⟩
  | 45 => ⟨S1x32x262144, .f32⟩
  | 46 => ⟨S1x32x262144, .f32⟩
  | 47 => ⟨S_, .i32⟩
  | 48 => ⟨S1x262144, .i32⟩
  | 49 => ⟨S1x262144, .i32⟩
  | 50 => ⟨S_, .i32⟩
  | 51 => ⟨S1x262144, .i32⟩
  | 52 => ⟨S1x262144, .i1⟩
  | 53 => ⟨S_, .i32⟩
  | 54 => ⟨S1x262144, .i32⟩
  | 55 => ⟨S1x262144, .i1⟩
  | 56 => ⟨S1x262144, .i1⟩
  | 57 => ⟨S_, .i32⟩
  | 58 => ⟨S1x262144, .i32⟩
  | 59 => ⟨S1x262144, .i1⟩
  | 60 => ⟨S1x262144, .i1⟩
  | 61 => ⟨S_, .i32⟩
  | 62 => ⟨S1x262144, .i32⟩
  | 63 => ⟨S1x262144, .i1⟩
  | 64 => ⟨S1x262144, .i1⟩
  | 65 => ⟨S1x262144, .f32⟩
  | 66 => ⟨S_, .i32⟩
  | 67 => ⟨S_, .i32⟩
  | 68 => ⟨S_, .i32⟩
  | 69 => ⟨S1x262144, .i32⟩
  | 70 => ⟨S1x262144, .i32⟩
  | 71 => ⟨S_, .i32⟩
  | 72 => ⟨S1x262144, .i32⟩
  | 73 => ⟨S1x262144, .i32⟩
  | 74 => ⟨S_, .i32⟩
  | 75 => ⟨S_, .i32⟩
  | 76 => ⟨S_, .i32⟩
  | 77 => ⟨S1x262144, .i32⟩
  | 78 => ⟨S1x262144, .i32⟩
  | 79 => ⟨S_, .i32⟩
  | 80 => ⟨S1x262144, .i32⟩
  | 81 => ⟨S1x262144, .i32⟩
  | 82 => ⟨S_, .i32⟩
  | 83 => ⟨S1x262144, .i32⟩
  | 84 => ⟨S1x262144, .i1⟩
  | 85 => ⟨S_, .i32⟩
  | 86 => ⟨S1x262144, .i32⟩
  | 87 => ⟨S1x262144, .i32⟩
  | 88 => ⟨S1x262144, .i32⟩
  | 89 => ⟨S_, .i32⟩
  | 90 => ⟨S1x262144, .i32⟩
  | 91 => ⟨S1x262144, .i1⟩
  | 92 => ⟨S_, .i32⟩
  | 93 => ⟨S1x262144, .i32⟩
  | 94 => ⟨S1x262144, .i32⟩
  | 95 => ⟨S1x262144, .i32⟩
  | 96 => ⟨S1x262144x1, .i32⟩
  | 97 => ⟨S1x262144x1, .i32⟩
  | 98 => ⟨S1x262144x2, .i32⟩
  | 99 => ⟨S1x32x262144, .f32⟩
  | 100 => ⟨S1x1x262144, .f32⟩
  | 101 => ⟨S1x32x262144, .f32⟩
  | 102 => ⟨S1x32x262144, .f32⟩
  | 103 => ⟨S_, .f32⟩
  | 104 => ⟨S1x262144, .f32⟩
  | 105 => ⟨S1x262144, .f32⟩
  | 106 => ⟨S1x262144, .f32⟩
  | 107 => ⟨S1x1x262144, .f32⟩
  | 108 => ⟨S1x32x262144, .f32⟩
  | 109 => ⟨S1x32x262144, .f32⟩
  | 110 => ⟨S1x32x262144, .f32⟩
  | 111 => ⟨S_, .i32⟩
  | 112 => ⟨S1x262144, .i32⟩
  | 113 => ⟨S1x262144, .i32⟩
  | 114 => ⟨S_, .i32⟩
  | 115 => ⟨S1x262144, .i32⟩
  | 116 => ⟨S1x262144, .i32⟩
  | 117 => ⟨S_, .i32⟩
  | 118 => ⟨S1x262144, .i32⟩
  | 119 => ⟨S1x262144, .i1⟩
  | 120 => ⟨S_, .i32⟩
  | 121 => ⟨S1x262144, .i32⟩
  | 122 => ⟨S1x262144, .i1⟩
  | 123 => ⟨S1x262144, .i1⟩
  | 124 => ⟨S_, .i32⟩
  | 125 => ⟨S1x262144, .i32⟩
  | 126 => ⟨S1x262144, .i1⟩
  | 127 => ⟨S1x262144, .i1⟩
  | _ => ⟨S1x3x262144, .f32⟩

abbrev hbmTy0_2 (i : Nat) : BufTy := match i % 128 with
  | 0 => ⟨S_, .i32⟩
  | 1 => ⟨S1x262144, .i32⟩
  | 2 => ⟨S1x262144, .i1⟩
  | 3 => ⟨S1x262144, .i1⟩
  | 4 => ⟨S1x262144, .f32⟩
  | 5 => ⟨S_, .i32⟩
  | 6 => ⟨S_, .i32⟩
  | 7 => ⟨S_, .i32⟩
  | 8 => ⟨S1x262144, .i32⟩
  | 9 => ⟨S1x262144, .i32⟩
  | 10 => ⟨S_, .i32⟩
  | 11 => ⟨S1x262144, .i32⟩
  | 12 => ⟨S1x262144, .i32⟩
  | 13 => ⟨S_, .i32⟩
  | 14 => ⟨S_, .i32⟩
  | 15 => ⟨S_, .i32⟩
  | 16 => ⟨S1x262144, .i32⟩
  | 17 => ⟨S1x262144, .i32⟩
  | 18 => ⟨S_, .i32⟩
  | 19 => ⟨S1x262144, .i32⟩
  | 20 => ⟨S1x262144, .i32⟩
  | 21 => ⟨S_, .i32⟩
  | 22 => ⟨S1x262144, .i32⟩
  | 23 => ⟨S1x262144, .i1⟩
  | 24 => ⟨S_, .i32⟩
  | 25 => ⟨S1x262144, .i32⟩
  | 26 => ⟨S1x262144, .i32⟩
  | 27 => ⟨S1x262144, .i32⟩
  | 28 => ⟨S_, .i32⟩
  | 29 => ⟨S1x262144, .i32⟩
  | 30 => ⟨S1x262144, .i1⟩
  | 31 => ⟨S_, .i32⟩
  | 32 => ⟨S1x262144, .i32⟩
  | 33 => ⟨S1x262144, .i32⟩
  | 34 => ⟨S1x262144, .i32⟩
  | 35 => ⟨S1x262144x1, .i32⟩
  | 36 => ⟨S1x262144x1, .i32⟩
  | 37 => ⟨S1x262144x2, .i32⟩
  | 38 => ⟨S1x32x262144, .f32⟩
  | 39 => ⟨S1x1x262144, .f32⟩
  | 40 => ⟨S1x32x262144, .f32⟩
  | 41 => ⟨S1x32x262144, .f32⟩
  | 42 => ⟨S1x262144, .f32⟩
  | 43 => ⟨S1x1x262144, .f32⟩
  | 44 => ⟨S1x32x262144, .f32⟩
  | 45 => ⟨S1x32x262144, .f32⟩
  | 46 => ⟨S1x32x262144, .f32⟩
  | 47 => ⟨S_, .f32⟩
  | 48 => ⟨S1x262144, .f32⟩
  | 49 => ⟨S1x262144, .f32⟩
  | 50 => ⟨S_, .f32⟩
  | 51 => ⟨S1x262144, .f32⟩
  | 52 => ⟨S1x262144, .f32⟩
  | 53 => ⟨S_, .f32⟩
  | 54 => ⟨S1x262144, .f32⟩
  | 55 => ⟨S1x262144, .f32⟩
  | 56 => ⟨S_, .f32⟩
  | 57 => ⟨S1x262144, .f32⟩
  | 58 => ⟨S1x262144, .f32⟩
  | 59 => ⟨S_, .f32⟩
  | 60 => ⟨S1x262144, .f32⟩
  | 61 => ⟨S1x262144, .f32⟩
  | 62 => ⟨S_, .f32⟩
  | 63 => ⟨S1x262144, .f32⟩
  | 64 => ⟨S1x262144, .f32⟩
  | 65 => ⟨S1x262144, .f32⟩
  | 66 => ⟨S1x262144, .f32⟩
  | 67 => ⟨S1x262144, .f32⟩
  | 68 => ⟨S1x262144, .f32⟩
  | 69 => ⟨S1x262144, .i32⟩
  | 70 => ⟨S1x262144, .i32⟩
  | 71 => ⟨S_, .i32⟩
  | 72 => ⟨S1x262144, .i32⟩
  | 73 => ⟨S1x262144, .i1⟩
  | 74 => ⟨S_, .i32⟩
  | 75 => ⟨S1x262144, .i32⟩
  | 76 => ⟨S1x262144, .i1⟩
  | 77 => ⟨S1x262144, .i1⟩
  | 78 => ⟨S_, .i32⟩
  | 79 => ⟨S1x262144, .i32⟩
  | 80 => ⟨S1x262144, .i1⟩
  | 81 => ⟨S1x262144, .i1⟩
  | 82 => ⟨S_, .i32⟩
  | 83 => ⟨S1x262144, .i32⟩
  | 84 => ⟨S1x262144, .i1⟩
  | 85 => ⟨S1x262144, .i1⟩
  | 86 => ⟨S1x262144, .f32⟩
  | 87 => ⟨S_, .i32⟩
  | 88 => ⟨S_, .i32⟩
  | 89 => ⟨S_, .i32⟩
  | 90 => ⟨S1x262144, .i32⟩
  | 91 => ⟨S1x262144, .i32⟩
  | 92 => ⟨S_, .i32⟩
  | 93 => ⟨S1x262144, .i32⟩
  | 94 => ⟨S1x262144, .i32⟩
  | 95 => ⟨S_, .i32⟩
  | 96 => ⟨S_, .i32⟩
  | 97 => ⟨S_, .i32⟩
  | 98 => ⟨S1x262144, .i32⟩
  | 99 => ⟨S1x262144, .i32⟩
  | 100 => ⟨S_, .i32⟩
  | 101 => ⟨S1x262144, .i32⟩
  | 102 => ⟨S1x262144, .i32⟩
  | 103 => ⟨S_, .i32⟩
  | 104 => ⟨S1x262144, .i32⟩
  | 105 => ⟨S1x262144, .i1⟩
  | 106 => ⟨S_, .i32⟩
  | 107 => ⟨S1x262144, .i32⟩
  | 108 => ⟨S1x262144, .i32⟩
  | 109 => ⟨S1x262144, .i32⟩
  | 110 => ⟨S_, .i32⟩
  | 111 => ⟨S1x262144, .i32⟩
  | 112 => ⟨S1x262144, .i1⟩
  | 113 => ⟨S_, .i32⟩
  | 114 => ⟨S1x262144, .i32⟩
  | 115 => ⟨S1x262144, .i32⟩
  | 116 => ⟨S1x262144, .i32⟩
  | 117 => ⟨S1x262144x1, .i32⟩
  | 118 => ⟨S1x262144x1, .i32⟩
  | 119 => ⟨S1x262144x2, .i32⟩
  | 120 => ⟨S1x32x262144, .f32⟩
  | 121 => ⟨S1x1x262144, .f32⟩
  | 122 => ⟨S1x32x262144, .f32⟩
  | 123 => ⟨S1x32x262144, .f32⟩
  | 124 => ⟨S_, .f32⟩
  | 125 => ⟨S1x262144, .f32⟩
  | 126 => ⟨S1x262144, .f32⟩
  | 127 => ⟨S_, .f32⟩
  | _ => ⟨S1x3x262144, .f32⟩

abbrev hbmTy0_3 (i : Nat) : BufTy := match i % 128 with
  | 0 => ⟨S1x262144, .f32⟩
  | 1 => ⟨S1x262144, .f32⟩
  | 2 => ⟨S1x262144, .f32⟩
  | 3 => ⟨S1x1x262144, .f32⟩
  | 4 => ⟨S1x32x262144, .f32⟩
  | 5 => ⟨S1x32x262144, .f32⟩
  | 6 => ⟨S_, .i32⟩
  | 7 => ⟨S1x262144, .i32⟩
  | 8 => ⟨S1x262144, .i32⟩
  | 9 => ⟨S_, .i32⟩
  | 10 => ⟨S1x262144, .i32⟩
  | 11 => ⟨S1x262144, .i1⟩
  | 12 => ⟨S_, .i32⟩
  | 13 => ⟨S1x262144, .i32⟩
  | 14 => ⟨S1x262144, .i1⟩
  | 15 => ⟨S1x262144, .i1⟩
  | 16 => ⟨S_, .i32⟩
  | 17 => ⟨S1x262144, .i32⟩
  | 18 => ⟨S1x262144, .i1⟩
  | 19 => ⟨S1x262144, .i1⟩
  | 20 => ⟨S_, .i32⟩
  | 21 => ⟨S1x262144, .i32⟩
  | 22 => ⟨S1x262144, .i1⟩
  | 23 => ⟨S1x262144, .i1⟩
  | 24 => ⟨S1x262144, .f32⟩
  | 25 => ⟨S_, .i32⟩
  | 26 => ⟨S_, .i32⟩
  | 27 => ⟨S_, .i32⟩
  | 28 => ⟨S1x262144, .i32⟩
  | 29 => ⟨S1x262144, .i32⟩
  | 30 => ⟨S_, .i32⟩
  | 31 => ⟨S1x262144, .i32⟩
  | 32 => ⟨S1x262144, .i32⟩
  | 33 => ⟨S_, .i32⟩
  | 34 => ⟨S_, .i32⟩
  | 35 => ⟨S_, .i32⟩
  | 36 => ⟨S1x262144, .i32⟩
  | 37 => ⟨S1x262144, .i32⟩
  | 38 => ⟨S_, .i32⟩
  | 39 => ⟨S1x262144, .i32⟩
  | 40 => ⟨S1x262144, .i32⟩
  | 41 => ⟨S_, .i32⟩
  | 42 => ⟨S1x262144, .i32⟩
  | 43 => ⟨S1x262144, .i1⟩
  | 44 => ⟨S_, .i32⟩
  | 45 => ⟨S1x262144, .i32⟩
  | 46 => ⟨S1x262144, .i32⟩
  | 47 => ⟨S1x262144, .i32⟩
  | 48 => ⟨S_, .i32⟩
  | 49 => ⟨S1x262144, .i32⟩
  | 50 => ⟨S1x262144, .i1⟩
  | 51 => ⟨S_, .i32⟩
  | 52 => ⟨S1x262144, .i32⟩
  | 53 => ⟨S1x262144, .i32⟩
  | 54 => ⟨S1x262144, .i32⟩
  | 55 => ⟨S1x262144x1, .i32⟩
  | 56 => ⟨S1x262144x1, .i32⟩
  | 57 => ⟨S1x262144x2, .i32⟩
  | 58 => ⟨S1x32x262144, .f32⟩
  | 59 => ⟨S1x1x262144, .f32⟩
  | 60 => ⟨S1x32x262144, .f32⟩
  | 61 => ⟨S1x32x262144, .f32⟩
  | 62 => ⟨S_, .f32⟩
  | 63 => ⟨S1x262144, .f32⟩
  | 64 => ⟨S1x262144, .f32⟩
  | 65 => ⟨S1x262144, .f32⟩
  | 66 => ⟨S1x1x262144, .f32⟩
  | 67 => ⟨S1x32x262144, .f32⟩
  | 68 => ⟨S1x32x262144, .f32⟩
  | 69 => ⟨S1x32x262144, .f32⟩
  | 70 => ⟨S_, .i32⟩
  | 71 => ⟨S1x262144, .i32⟩
  | 72 => ⟨S1x262144, .i32⟩
  | 73 => ⟨S_, .i32⟩
  | 74 => ⟨S1x262144, .i32⟩
  | 75 => ⟨S1x262144, .i1⟩
  | 76 => ⟨S_, .i32⟩
  | 77 => ⟨S1x262144, .i32⟩
  | 78 => ⟨S1x262144, .i1⟩
  | 79 => ⟨S1x262144, .i1⟩
  | 80 => ⟨S_, .i32⟩
  | 81 => ⟨S1x262144, .i32⟩
  | 82 => ⟨S1x262144, .i1⟩
  | 83 => ⟨S1x262144, .i1⟩
  | 84 => ⟨S_, .i32⟩
  | 85 => ⟨S1x262144, .i32⟩
  | 86 => ⟨S1x262144, .i1⟩
  | 87 => ⟨S1x262144, .i1⟩
  | 88 => ⟨S1x262144, .f32⟩
  | 89 => ⟨S_, .i32⟩
  | 90 => ⟨S_, .i32⟩
  | 91 => ⟨S_, .i32⟩
  | 92 => ⟨S1x262144, .i32⟩
  | 93 => ⟨S1x262144, .i32⟩
  | 94 => ⟨S_, .i32⟩
  | 95 => ⟨S1x262144, .i32⟩
  | 96 => ⟨S1x262144, .i32⟩
  | 97 => ⟨S_, .i32⟩
  | 98 => ⟨S_, .i32⟩
  | 99 => ⟨S_, .i32⟩
  | 100 => ⟨S1x262144, .i32⟩
  | 101 => ⟨S1x262144, .i32⟩
  | 102 => ⟨S_, .i32⟩
  | 103 => ⟨S1x262144, .i32⟩
  | 104 => ⟨S1x262144, .i32⟩
  | 105 => ⟨S_, .i32⟩
  | 106 => ⟨S1x262144, .i32⟩
  | 107 => ⟨S1x262144, .i1⟩
  | 108 => ⟨S_, .i32⟩
  | 109 => ⟨S1x262144, .i32⟩
  | 110 => ⟨S1x262144, .i32⟩
  | 111 => ⟨S1x262144, .i32⟩
  | 112 => ⟨S_, .i32⟩
  | 113 => ⟨S1x262144, .i32⟩
  | 114 => ⟨S1x262144, .i1⟩
  | 115 => ⟨S_, .i32⟩
  | 116 => ⟨S1x262144, .i32⟩
  | 117 => ⟨S1x262144, .i32⟩
  | 118 => ⟨S1x262144, .i32⟩
  | 119 => ⟨S1x262144x1, .i32⟩
  | 120 => ⟨S1x262144x1, .i32⟩
  | 121 => ⟨S1x262144x2, .i32⟩
  | 122 => ⟨S1x32x262144, .f32⟩
  | 123 => ⟨S1x1x262144, .f32⟩
  | 124 => ⟨S1x32x262144, .f32⟩
  | 125 => ⟨S1x32x262144, .f32⟩
  | 126 => ⟨S_, .f32⟩
  | 127 => ⟨S1x262144, .f32⟩
  | _ => ⟨S1x3x262144, .f32⟩

abbrev hbmTy0_4 (i : Nat) : BufTy := match i % 128 with
  | 0 => ⟨S1x262144, .f32⟩
  | 1 => ⟨S1x262144, .f32⟩
  | 2 => ⟨S1x1x262144, .f32⟩
  | 3 => ⟨S1x32x262144, .f32⟩
  | 4 => ⟨S1x32x262144, .f32⟩
  | 5 => ⟨S1x32x262144, .f32⟩
  | 6 => ⟨S_, .i32⟩
  | 7 => ⟨S1x262144, .i32⟩
  | 8 => ⟨S1x262144, .i32⟩
  | 9 => ⟨S_, .i32⟩
  | 10 => ⟨S1x262144, .i32⟩
  | 11 => ⟨S1x262144, .i32⟩
  | 12 => ⟨S_, .i32⟩
  | 13 => ⟨S1x262144, .i32⟩
  | 14 => ⟨S1x262144, .i1⟩
  | 15 => ⟨S_, .i32⟩
  | 16 => ⟨S1x262144, .i32⟩
  | 17 => ⟨S1x262144, .i1⟩
  | 18 => ⟨S1x262144, .i1⟩
  | 19 => ⟨S_, .i32⟩
  | 20 => ⟨S1x262144, .i32⟩
  | 21 => ⟨S1x262144, .i1⟩
  | 22 => ⟨S1x262144, .i1⟩
  | 23 => ⟨S_, .i32⟩
  | 24 => ⟨S1x262144, .i32⟩
  | 25 => ⟨S1x262144, .i1⟩
  | 26 => ⟨S1x262144, .i1⟩
  | 27 => ⟨S1x262144, .f32⟩
  | 28 => ⟨S_, .i32⟩
  | 29 => ⟨S_, .i32⟩
  | 30 => ⟨S_, .i32⟩
  | 31 => ⟨S1x262144, .i32⟩
  | 32 => ⟨S1x262144, .i32⟩
  | 33 => ⟨S_, .i32⟩
  | 34 => ⟨S1x262144, .i32⟩
  | 35 => ⟨S1x262144, .i32⟩
  | 36 => ⟨S_, .i32⟩
  | 37 => ⟨S_, .i32⟩
  | 38 => ⟨S_, .i32⟩
  | 39 => ⟨S1x262144, .i32⟩
  | 40 => ⟨S1x262144, .i32⟩
  | 41 => ⟨S_, .i32⟩
  | 42 => ⟨S1x262144, .i32⟩
  | 43 => ⟨S1x262144, .i32⟩
  | 44 => ⟨S_, .i32⟩
  | 45 => ⟨S1x262144, .i32⟩
  | 46 => ⟨S1x262144, .i1⟩
  | 47 => ⟨S_, .i32⟩
  | 48 => ⟨S1x262144, .i32⟩
  | 49 => ⟨S1x262144, .i32⟩
  | 50 => ⟨S1x262144, .i32⟩
  | 51 => ⟨S_, .i32⟩
  | 52 => ⟨S1x262144, .i32⟩
  | 53 => ⟨S1x262144, .i1⟩
  | 54 => ⟨S_, .i32⟩
  | 55 => ⟨S1x262144, .i32⟩
  | 56 => ⟨S1x262144, .i32⟩
  | 57 => ⟨S1x262144, .i32⟩
  | 58 => ⟨S1x262144x1, .i32⟩
  | 59 => ⟨S1x262144x1, .i32⟩
  | 60 => ⟨S1x262144x2, .i32⟩
  | 61 => ⟨S1x32x262144, .f32⟩
  | 62 => ⟨S1x1x262144, .f32⟩
  | 63 => ⟨S1x32x262144, .f32⟩
  | 64 => ⟨S1x32x262144, .f32⟩
  | 65 => ⟨S1x262144, .f32⟩
  | 66 => ⟨S1x1x262144, .f32⟩
  | 67 => ⟨S1x32x262144, .f32⟩
  | 68 => ⟨S1x32x262144, .f32⟩
  | 69 => ⟨S1x32x262144, .f32⟩
  | 70 => ⟨S1x32x262144, .f32⟩
  | 71 => ⟨S_, .f32⟩
  | 72 => ⟨S1x262144, .f32⟩
  | 73 => ⟨S1x262144, .f32⟩
  | 74 => ⟨S_, .f32⟩
  | 75 => ⟨S1x262144, .f32⟩
  | 76 => ⟨S1x262144, .f32⟩
  | 77 => ⟨S_, .f32⟩
  | 78 => ⟨S1x262144, .f32⟩
  | 79 => ⟨S1x262144, .f32⟩
  | 80 => ⟨S_, .f32⟩
  | 81 => ⟨S1x262144, .f32⟩
  | 82 => ⟨S1x262144, .f32⟩
  | 83 => ⟨S_, .f32⟩
  | 84 => ⟨S1x262144, .f32⟩
  | 85 => ⟨S1x262144, .f32⟩
  | 86 => ⟨S_, .f32⟩
  | 87 => ⟨S1x262144, .f32⟩
  | 88 => ⟨S1x262144, .f32⟩
  | 89 => ⟨S1x262144, .f32⟩
  | 90 => ⟨S1x262144, .f32⟩
  | 91 => ⟨S1x262144, .f32⟩
  | 92 => ⟨S1x262144, .f32⟩
  | 93 => ⟨S1x262144, .i32⟩
  | 94 => ⟨S1x262144, .i32⟩
  | 95 => ⟨S_, .i32⟩
  | 96 => ⟨S1x262144, .i32⟩
  | 97 => ⟨S1x262144, .i1⟩
  | 98 => ⟨S_, .i32⟩
  | 99 => ⟨S1x262144, .i32⟩
  | 100 => ⟨S1x262144, .i1⟩
  | 101 => ⟨S1x262144, .i1⟩
  | 102 => ⟨S_, .i32⟩
  | 103 => ⟨S1x262144, .i32⟩
  | 104 => ⟨S1x262144, .i1⟩
  | 105 => ⟨S1x262144, .i1⟩
  | 106 => ⟨S_, .i32⟩
  | 107 => ⟨S1x262144, .i32⟩
  | 108 => ⟨S1x262144, .i1⟩
  | 109 => ⟨S1x262144, .i1⟩
  | 110 => ⟨S1x262144, .f32⟩
  | 111 => ⟨S_, .i32⟩
  | 112 => ⟨S_, .i32⟩
  | 113 => ⟨S_, .i32⟩
  | 114 => ⟨S1x262144, .i32⟩
  | 115 => ⟨S1x262144, .i32⟩
  | 116 => ⟨S_, .i32⟩
  | 117 => ⟨S1x262144, .i32⟩
  | 118 => ⟨S1x262144, .i32⟩
  | 119 => ⟨S_, .i32⟩
  | 120 => ⟨S_, .i32⟩
  | 121 => ⟨S_, .i32⟩
  | 122 => ⟨S1x262144, .i32⟩
  | 123 => ⟨S1x262144, .i32⟩
  | 124 => ⟨S_, .i32⟩
  | 125 => ⟨S1x262144, .i32⟩
  | 126 => ⟨S1x262144, .i32⟩
  | 127 => ⟨S_, .i32⟩
  | _ => ⟨S1x3x262144, .f32⟩

abbrev hbmTy0_5 (i : Nat) : BufTy := match i % 128 with
  | 0 => ⟨S1x262144, .i32⟩
  | 1 => ⟨S1x262144, .i1⟩
  | 2 => ⟨S_, .i32⟩
  | 3 => ⟨S1x262144, .i32⟩
  | 4 => ⟨S1x262144, .i32⟩
  | 5 => ⟨S1x262144, .i32⟩
  | 6 => ⟨S_, .i32⟩
  | 7 => ⟨S1x262144, .i32⟩
  | 8 => ⟨S1x262144, .i1⟩
  | 9 => ⟨S_, .i32⟩
  | 10 => ⟨S1x262144, .i32⟩
  | 11 => ⟨S1x262144, .i32⟩
  | 12 => ⟨S1x262144, .i32⟩
  | 13 => ⟨S1x262144x1, .i32⟩
  | 14 => ⟨S1x262144x1, .i32⟩
  | 15 => ⟨S1x262144x2, .i32⟩
  | 16 => ⟨S1x32x262144, .f32⟩
  | 17 => ⟨S1x1x262144, .f32⟩
  | 18 => ⟨S1x32x262144, .f32⟩
  | 19 => ⟨S1x32x262144, .f32⟩
  | 20 => ⟨S_, .f32⟩
  | 21 => ⟨S1x262144, .f32⟩
  | 22 => ⟨S1x262144, .f32⟩
  | 23 => ⟨S_, .f32⟩
  | 24 => ⟨S1x262144, .f32⟩
  | 25 => ⟨S1x262144, .f32⟩
  | 26 => ⟨S1x262144, .f32⟩
  | 27 => ⟨S1x1x262144, .f32⟩
  | 28 => ⟨S1x32x262144, .f32⟩
  | 29 => ⟨S1x32x262144, .f32⟩
  | 30 => ⟨S_, .i32⟩
  | 31 => ⟨S1x262144, .i32⟩
  | 32 => ⟨S1x262144, .i32⟩
  | 33 => ⟨S_, .i32⟩
  | 34 => ⟨S1x262144, .i32⟩
  | 35 => ⟨S1x262144, .i1⟩
  | 36 => ⟨S_, .i32⟩
  | 37 => ⟨S1x262144, .i32⟩
  | 38 => ⟨S1x262144, .i1⟩
  | 39 => ⟨S1x262144, .i1⟩
  | 40 => ⟨S_, .i32⟩
  | 41 => ⟨S1x262144, .i32⟩
  | 42 => ⟨S1x262144, .i1⟩
  | 43 => ⟨S1x262144, .i1⟩
  | 44 => ⟨S_, .i32⟩
  | 45 => ⟨S1x262144, .i32⟩
  | 46 => ⟨S1x262144, .i1⟩
  | 47 => ⟨S1x262144, .i1⟩
  | 48 => ⟨S1x262144, .f32⟩
  | 49 => ⟨S_, .i32⟩
  | 50 => ⟨S_, .i32⟩
  | 51 => ⟨S_, .i32⟩
  | 52 => ⟨S1x262144, .i32⟩
  | 53 => ⟨S1x262144, .i32⟩
  | 54 => ⟨S_, .i32⟩
  | 55 => ⟨S1x262144, .i32⟩
  | 56 => ⟨S1x262144, .i32⟩
  | 57 => ⟨S_, .i32⟩
  | 58 => ⟨S_, .i32⟩
  | 59 => ⟨S_, .i32⟩
  | 60 => ⟨S1x262144, .i32⟩
  | 61 => ⟨S1x262144, .i32⟩
  | 62 => ⟨S_, .i32⟩
  | 63 => ⟨S1x262144, .i32⟩
  | 64 => ⟨S1x262144, .i32⟩
  | 65 => ⟨S_, .i32⟩
  | 66 => ⟨S1x262144, .i32⟩
  | 67 => ⟨S1x262144, .i1⟩
  | 68 => ⟨S_, .i32⟩
  | 69 => ⟨S1x262144, .i32⟩
  | 70 => ⟨S1x262144, .i32⟩
  | 71 => ⟨S1x262144, .i32⟩
  | 72 => ⟨S_, .i32⟩
  | 73 => ⟨S1x262144, .i32⟩
  | 74 => ⟨S1x262144, .i1⟩
  | 75 => ⟨S_, .i32⟩
  | 76 => ⟨S1x262144, .i32⟩
  | 77 => ⟨S1x262144, .i32⟩
  | 78 => ⟨S1x262144, .i32⟩
  | 79 => ⟨S1x262144x1, .i32⟩
  | 80 => ⟨S1x262144x1, .i32⟩
  | 81 => ⟨S1x262144x2, .i32⟩
  | 82 => ⟨S1x32x262144, .f32⟩
  | 83 => ⟨S1x1x262144, .f32⟩
  | 84 => ⟨S1x32x262144, .f32⟩
  | 85 => ⟨S1x32x262144, .f32⟩
  | 86 => ⟨S_, .f32⟩
  | 87 => ⟨S1x262144, .f32⟩
  | 88 => ⟨S1x262144, .f32⟩
  | 89 => ⟨S1x262144, .f32⟩
  | 90 => ⟨S1x1x262144, .f32⟩
  | 91 => ⟨S1x32x262144, .f32⟩
  | 92 => ⟨S1x32x262144, .f32⟩
  | 93 => ⟨S1x32x262144, .f32⟩
  | 94 => ⟨S_, .i32⟩
  | 95 => ⟨S1x262144, .i32⟩
  | 96 => ⟨S1x262144, .i32⟩
  | 97 => ⟨S_, .i32⟩
  | 98 => ⟨S1x262144, .i32⟩
  | 99 => ⟨S1x262144, .i1⟩
  | 100 => ⟨S_, .i32⟩
  | 101 => ⟨S1x262144, .i32⟩
  | 102 => ⟨S1x262144, .i1⟩
  | 103 => ⟨S1x262144, .i1⟩
  | 104 => ⟨S_, .i32⟩
  | 105 => ⟨S1x262144, .i32⟩
  | 106 => ⟨S1x262144, .i1⟩
  | 107 => ⟨S1x262144, .i1⟩
  | 108 => ⟨S_, .i32⟩
  | 109 => ⟨S1x262144, .i32⟩
  | 110 => ⟨S1x262144, .i1⟩
  | 111 => ⟨S1x262144, .i1⟩
  | 112 => ⟨S1x262144, .f32⟩
  | 113 => ⟨S_, .i32⟩
  | 114 => ⟨S_, .i32⟩
  | 115 => ⟨S_, .i32⟩
  | 116 => ⟨S1x262144, .i32⟩
  | 117 => ⟨S1x262144, .i32⟩
  | 118 => ⟨S_, .i32⟩
  | 119 => ⟨S1x262144, .i32⟩
  | 120 => ⟨S1x262144, .i32⟩
  | 121 => ⟨S_, .i32⟩
  | 122 => ⟨S_, .i32⟩
  | 123 => ⟨S_, .i32⟩
  | 124 => ⟨S1x262144, .i32⟩
  | 125 => ⟨S1x262144, .i32⟩
  | 126 => ⟨S_, .i32⟩
  | 127 => ⟨S1x262144, .i32⟩
  | _ => ⟨S1x3x262144, .f32⟩

abbrev hbmTy0_6 (i : Nat) : BufTy := match i % 128 with
  | 0 => ⟨S1x262144, .i32⟩
  | 1 => ⟨S_, .i32⟩
  | 2 => ⟨S1x262144, .i32⟩
  | 3 => ⟨S1x262144, .i1⟩
  | 4 => ⟨S_, .i32⟩
  | 5 => ⟨S1x262144, .i32⟩
  | 6 => ⟨S1x262144, .i32⟩
  | 7 => ⟨S1x262144, .i32⟩
  | 8 => ⟨S_, .i32⟩
  | 9 => ⟨S1x262144, .i32⟩
  | 10 => ⟨S1x262144, .i1⟩
  | 11 => ⟨S_, .i32⟩
  | 12 => ⟨S1x262144, .i32⟩
  | 13 => ⟨S1x262144, .i32⟩
  | 14 => ⟨S1x262144, .i32⟩
  | 15 => ⟨S1x262144x1, .i32⟩
  | 16 => ⟨S1x262144x1, .i32⟩
  | 17 => ⟨S1x262144x2, .i32⟩
  | 18 => ⟨S1x32x262144, .f32⟩
  | 19 => ⟨S1x1x262144, .f32⟩
  | 20 => ⟨S1x32x262144, .f32⟩
  | 21 => ⟨S1x32x262144, .f32⟩
  | 22 => ⟨S_, .f32⟩
  | 23 => ⟨S1x262144, .f32⟩
  | 24 => ⟨S1x262144, .f32⟩
  | 25 => ⟨S1x262144, .f32⟩
  | 26 => ⟨S1x1x262144, .f32⟩
  | 27 => ⟨S1x32x262144, .f32⟩
  | 28 => ⟨S1x32x262144, .f32⟩
  | 29 => ⟨S1x32x262144, .f32⟩
  | 30 => ⟨S_, .i32⟩
  | 31 => ⟨S1x262144, .i32⟩
  | 32 => ⟨S1x262144, .i32⟩
  | 33 => ⟨S_, .i32⟩
  | 34 => ⟨S1x262144, .i32⟩
  | 35 => ⟨S1x262144, .i32⟩
  | 36 => ⟨S_, .i32⟩
  | 37 => ⟨S1x262144, .i32⟩
  | 38 => ⟨S1x262144, .i1⟩
  | 39 => ⟨S_, .i32⟩
  | 40 => ⟨S1x262144, .i32⟩
  | 41 => ⟨S1x262144, .i1⟩
  | 42 => ⟨S1x262144, .i1⟩
  | 43 => ⟨S_, .i32⟩
  | 44 => ⟨S1x262144, .i32⟩
  | 45 => ⟨S1x262144, .i1⟩
  | 46 => ⟨S1x262144, .i1⟩
  | 47 => ⟨S_, .i32⟩
  | 48 => ⟨S1x262144, .i32⟩
  | 49 => ⟨S1x262144, .i1⟩
  | 50 => ⟨S1x262144, .i1⟩
  | 51 => ⟨S1x262144, .f32⟩
  | 52 => ⟨S_, .i32⟩
  | 53 => ⟨S_, .i32⟩
  | 54 => ⟨S_, .i32⟩
  | 55 => ⟨S1x262144, .i32⟩
  | 56 => ⟨S1x262144, .i32⟩
  | 57 => ⟨S_, .i32⟩
  | 58 => ⟨S1x262144, .i32⟩
  | 59 => ⟨S1x262144, .i32⟩
  | 60 => ⟨S_, .i32⟩
  | 61 => ⟨S_, .i32⟩
  | 62 => ⟨S_, .i32⟩
  | 63 => ⟨S1x262144, .i32⟩
  | 64 => ⟨S1x262144, .i32⟩
  | 65 => ⟨S_, .i32⟩
  | 66 => ⟨S1x262144, .i32⟩
  | 67 => ⟨S1x262144, .i32⟩
  | 68 => ⟨S_, .i32⟩
  | 69 => ⟨S1x262144, .i32⟩
  | 70 => ⟨S1x262144, .i1⟩
  | 71 => ⟨S_, .i32⟩
  | 72 => ⟨S1x262144, .i32⟩
  | 73 => ⟨S1x262144, .i32⟩
  | 74 => ⟨S1x262144, .i32⟩
  | 75 => ⟨S_, .i32⟩
  | 76 => ⟨S1x262144, .i32⟩
  | 77 => ⟨S1x262144, .i1⟩
  | 78 => ⟨S_, .i32⟩
  | 79 => ⟨S1x262144, .i32⟩
  | 80 => ⟨S1x262144, .i32⟩
  | 81 => ⟨S1x262144, .i32⟩
  | 82 => ⟨S1x262144x1, .i32⟩
  | 83 => ⟨S1x262144x1, .i32⟩
  | 84 => ⟨S1x262144x2, .i32⟩
  | 85 => ⟨S1x32x262144, .f32⟩
  | 86 => ⟨S1x1x262144, .f32⟩
  | 87 => ⟨S1x32x262144, .f32⟩
  | 88 => ⟨S1x32x262144, .f32⟩
  | 89 => ⟨S1x262144, .f32⟩
  | 90 => ⟨S1x1x262144, .f32⟩
  | 91 => ⟨S1x32x262144, .f32⟩
  | 92 => ⟨S1x32x262144, .f32⟩
  | 93 => ⟨S1x32x262144, .f32⟩
  | 94 => ⟨S1x32x262144, .f32⟩
  | 95 => ⟨S1x262144x32, .f32⟩
  | 96 => ⟨S262144x32, .f32⟩
  | 97 => ⟨S262144x128, .f32⟩
  | 98 => ⟨S1x128, .f32⟩
  | 99 => ⟨S262144x128, .f32⟩
  | 100 => ⟨S262144x128, .f32⟩
  | 101 => ⟨S_, .f32⟩
  | 102 => ⟨S262144x128, .f32⟩
  | 103 => ⟨S262144x128, .f32⟩
  | 104 => ⟨S262144x128, .f32⟩
  | 105 => ⟨S1x128, .f32⟩
  | 106 => ⟨S262144x128, .f32⟩
  | 107 => ⟨S262144x128, .f32⟩
  | 108 => ⟨S_, .f32⟩
  | 109 => ⟨S262144x128, .f32⟩
  | 110 => ⟨S262144x128, .f32⟩
  | 111 => ⟨S262144x1, .f32⟩
  | 112 => ⟨S1x1, .f32⟩
  | 113 => ⟨S262144x1, .f32⟩
  | 114 => ⟨S262144x1, .f32⟩
  | 115 => ⟨S1x262144x3, .f32⟩
  | 116 => ⟨S262144x3, .f32⟩
  | 117 => ⟨S4, .i32⟩
  | 118 => ⟨S4, .f32⟩
  | 119 => ⟨S_, .f32⟩
  | 120 => ⟨S4, .f32⟩
  | 121 => ⟨S4, .f32⟩
  | 122 => ⟨S4, .f32⟩
  | 123 => ⟨S262144x1x3, .f32⟩
  | 124 => ⟨S1x4x1, .f32⟩
  | 125 => ⟨S262144x4x3, .f32⟩
  | 126 => ⟨S262144x4x3, .f32⟩
  | 127 => ⟨S262144x4x3, .f32⟩
  | _ => ⟨S1x3x262144, .f32⟩

abbrev hbmTy0_7 (i : Nat) : BufTy := match i % 128 with
  | 0 => ⟨S262144x4x3, .f32⟩
  | 1 => ⟨S262144x12, .f32⟩
  | 2 => ⟨S262144x4x3, .f32⟩
  | 3 => ⟨S262144x12, .f32⟩
  | 4 => ⟨S262144x27, .f32⟩
  | 5 => ⟨S262144x59, .f32⟩
  | 6 => ⟨S262144x128, .f32⟩
  | 7 => ⟨S1x128, .f32⟩
  | 8 => ⟨S262144x128, .f32⟩
  | 9 => ⟨S262144x128, .f32⟩
  | 10 => ⟨S_, .f32⟩
  | 11 => ⟨S262144x128, .f32⟩
  | 12 => ⟨S262144x128, .f32⟩
  | 13 => ⟨S262144x128, .f32⟩
  | 14 => ⟨S1x128, .f32⟩
  | 15 => ⟨S262144x128, .f32⟩
  | 16 => ⟨S262144x128, .f32⟩
  | 17 => ⟨S_, .f32⟩
  | 18 => ⟨S262144x128, .f32⟩
  | 19 => ⟨S262144x128, .f32⟩
  | 20 => ⟨S262144x3, .f32⟩
  | 21 => ⟨S1x3, .f32⟩
  | 22 => ⟨S262144x3, .f32⟩
  | 23 => ⟨S262144x3, .f32⟩
  | 24 => ⟨S1x262144x1, .f32⟩
  | 25 => ⟨S1x1x262144, .f32⟩
  | 26 => ⟨S1x262144x3, .f32⟩
  | 27 => ⟨S1x3x262144, .f32⟩
  | 28 => ⟨S1x4x262144, .f32⟩
  | _ => ⟨S1x3x262144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1x3x262144, .f32⟩

abbrev bufTy : (tb : Table) → Fin (tcTables nBuf tb) → BufTy
  | .hbm, ⟨i, _⟩ => hbmTy i
  | _, _ => ⟨S1x3x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_c_9 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v39 : Ref sig .tc := ⟨.hbm, 71, rfl⟩
abbrev main_c_10 : Ref sig .tc := ⟨.hbm, 72, rfl⟩
abbrev main_c_11 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v40 : Ref sig .tc := ⟨.hbm, 79, rfl⟩
abbrev main_c_12 : Ref sig .tc := ⟨.hbm, 80, rfl⟩
abbrev main_v41 : Ref sig .tc := ⟨.hbm, 81, rfl⟩
abbrev main_v42 : Ref sig .tc := ⟨.hbm, 82, rfl⟩
abbrev main_c_13 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_c_14 : Ref sig .tc := ⟨.hbm, 87, rfl⟩
abbrev main_v46 : Ref sig .tc := ⟨.hbm, 88, rfl⟩
abbrev main_v47 : Ref sig .tc := ⟨.hbm, 89, rfl⟩
abbrev main_c_15 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_16 : Ref sig .tc := ⟨.hbm, 101, rfl⟩
abbrev main_v58 : Ref sig .tc := ⟨.hbm, 102, rfl⟩
abbrev main_v59 : Ref sig .tc := ⟨.hbm, 103, rfl⟩
abbrev main_cst_17 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_18 : Ref sig .tc := ⟨.hbm, 111, rfl⟩
abbrev main_v66 : Ref sig .tc := ⟨.hbm, 112, rfl⟩
abbrev main_v67 : Ref sig .tc := ⟨.hbm, 113, rfl⟩
abbrev main_c_19 : Ref sig .tc := ⟨.hbm, 114, rfl⟩
abbrev main_v68 : Ref sig .tc := ⟨.hbm, 115, rfl⟩
abbrev main_v69 : Ref sig .tc := ⟨.hbm, 116, rfl⟩
abbrev main_c_20 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_c_21 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_c_22 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_c_23 : Ref sig .tc := ⟨.hbm, 130, rfl⟩
abbrev main_c_24 : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_v80 : Ref sig .tc := ⟨.hbm, 137, rfl⟩
abbrev main_c_25 : Ref sig .tc := ⟨.hbm, 138, rfl⟩
abbrev main_c_26 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_v81 : Ref sig .tc := ⟨.hbm, 145, rfl⟩
abbrev main_c_27 : Ref sig .tc := ⟨.hbm, 146, rfl⟩
abbrev main_v82 : Ref sig .tc := ⟨.hbm, 147, rfl⟩
abbrev main_v83 : Ref sig .tc := ⟨.hbm, 148, rfl⟩
abbrev main_c_28 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_c_29 : Ref sig .tc := ⟨.hbm, 153, rfl⟩
abbrev main_v87 : Ref sig .tc := ⟨.hbm, 154, rfl⟩
abbrev main_v88 : Ref sig .tc := ⟨.hbm, 155, rfl⟩
abbrev main_c_30 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_cst_31 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_c_32 : Ref sig .tc := ⟨.hbm, 175, rfl⟩
abbrev main_v106 : Ref sig .tc := ⟨.hbm, 176, rfl⟩
abbrev main_v107 : Ref sig .tc := ⟨.hbm, 177, rfl⟩
abbrev main_c_33 : Ref sig .tc := ⟨.hbm, 178, rfl⟩
abbrev main_v108 : Ref sig .tc := ⟨.hbm, 179, rfl⟩
abbrev main_v109 : Ref sig .tc := ⟨.hbm, 180, rfl⟩
abbrev main_c_34 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_c_35 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_c_36 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_c_37 : Ref sig .tc := ⟨.hbm, 194, rfl⟩
abbrev main_c_38 : Ref sig .tc := ⟨.hbm, 195, rfl⟩
abbrev main_call4_v0 : Ref sig .tc := ⟨.hbm, 196, rfl⟩
abbrev main_call4_v1 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_v120 : Ref sig .tc := ⟨.hbm, 201, rfl⟩
abbrev main_c_39 : Ref sig .tc := ⟨.hbm, 202, rfl⟩
abbrev main_c_40 : Ref sig .tc := ⟨.hbm, 203, rfl⟩
abbrev main_call5_v0 : Ref sig .tc := ⟨.hbm, 204, rfl⟩
abbrev main_call5_v1 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_v121 : Ref sig .tc := ⟨.hbm, 209, rfl⟩
abbrev main_c_41 : Ref sig .tc := ⟨.hbm, 210, rfl⟩
abbrev main_v122 : Ref sig .tc := ⟨.hbm, 211, rfl⟩
abbrev main_v123 : Ref sig .tc := ⟨.hbm, 212, rfl⟩
abbrev main_c_42 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_c_43 : Ref sig .tc := ⟨.hbm, 217, rfl⟩
abbrev main_v127 : Ref sig .tc := ⟨.hbm, 218, rfl⟩
abbrev main_v128 : Ref sig .tc := ⟨.hbm, 219, rfl⟩
abbrev main_c_44 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_45 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_c_46 : Ref sig .tc := ⟨.hbm, 239, rfl⟩
abbrev main_v146 : Ref sig .tc := ⟨.hbm, 240, rfl⟩
abbrev main_v147 : Ref sig .tc := ⟨.hbm, 241, rfl⟩
abbrev main_c_47 : Ref sig .tc := ⟨.hbm, 242, rfl⟩
abbrev main_v148 : Ref sig .tc := ⟨.hbm, 243, rfl⟩
abbrev main_v149 : Ref sig .tc := ⟨.hbm, 244, rfl⟩
abbrev main_c_48 : Ref sig .tc := ⟨.hbm, 245, rfl⟩
abbrev main_v150 : Ref sig .tc := ⟨.hbm, 246, rfl⟩
abbrev main_v151 : Ref sig .tc := ⟨.hbm, 247, rfl⟩
abbrev main_c_49 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_c_50 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_c_51 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_c_52 : Ref sig .tc := ⟨.hbm, 261, rfl⟩
abbrev main_c_53 : Ref sig .tc := ⟨.hbm, 262, rfl⟩
abbrev main_call6_v0 : Ref sig .tc := ⟨.hbm, 263, rfl⟩
abbrev main_call6_v1 : Ref sig .tc := ⟨.hbm, 264, rfl⟩
abbrev main_call6_v2 : Ref sig .tc := ⟨.hbm, 265, rfl⟩
abbrev main_call6_v3 : Ref sig .tc := ⟨.hbm, 266, rfl⟩
abbrev main_call6_v4 : Ref sig .tc := ⟨.hbm, 267, rfl⟩
abbrev main_v162 : Ref sig .tc := ⟨.hbm, 268, rfl⟩
abbrev main_c_54 : Ref sig .tc := ⟨.hbm, 269, rfl⟩
abbrev main_c_55 : Ref sig .tc := ⟨.hbm, 270, rfl⟩
abbrev main_call7_v0 : Ref sig .tc := ⟨.hbm, 271, rfl⟩
abbrev main_call7_v1 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_v163 : Ref sig .tc := ⟨.hbm, 276, rfl⟩
abbrev main_c_56 : Ref sig .tc := ⟨.hbm, 277, rfl⟩
abbrev main_v164 : Ref sig .tc := ⟨.hbm, 278, rfl⟩
abbrev main_v165 : Ref sig .tc := ⟨.hbm, 279, rfl⟩
abbrev main_c_57 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_c_58 : Ref sig .tc := ⟨.hbm, 284, rfl⟩
abbrev main_v169 : Ref sig .tc := ⟨.hbm, 285, rfl⟩
abbrev main_v170 : Ref sig .tc := ⟨.hbm, 286, rfl⟩
abbrev main_c_59 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_cst_60 : Ref sig .tc := ⟨.hbm, 303, rfl⟩
abbrev main_v186 : Ref sig .tc := ⟨.hbm, 304, rfl⟩
abbrev main_v187 : Ref sig .tc := ⟨.hbm, 305, rfl⟩
abbrev main_cst_61 : Ref sig .tc := ⟨.hbm, 306, rfl⟩
abbrev main_v188 : Ref sig .tc := ⟨.hbm, 307, rfl⟩
abbrev main_v189 : Ref sig .tc := ⟨.hbm, 308, rfl⟩
abbrev main_cst_62 : Ref sig .tc := ⟨.hbm, 309, rfl⟩
abbrev main_v190 : Ref sig .tc := ⟨.hbm, 310, rfl⟩
abbrev main_v191 : Ref sig .tc := ⟨.hbm, 311, rfl⟩
abbrev main_cst_63 : Ref sig .tc := ⟨.hbm, 312, rfl⟩
abbrev main_v192 : Ref sig .tc := ⟨.hbm, 313, rfl⟩
abbrev main_v193 : Ref sig .tc := ⟨.hbm, 314, rfl⟩
abbrev main_cst_64 : Ref sig .tc := ⟨.hbm, 315, rfl⟩
abbrev main_v194 : Ref sig .tc := ⟨.hbm, 316, rfl⟩
abbrev main_v195 : Ref sig .tc := ⟨.hbm, 317, rfl⟩
abbrev main_cst_65 : Ref sig .tc := ⟨.hbm, 318, rfl⟩
abbrev main_v196 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_v200 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_c_66 : Ref sig .tc := ⟨.hbm, 327, rfl⟩
abbrev main_v204 : Ref sig .tc := ⟨.hbm, 328, rfl⟩
abbrev main_v205 : Ref sig .tc := ⟨.hbm, 329, rfl⟩
abbrev main_c_67 : Ref sig .tc := ⟨.hbm, 330, rfl⟩
abbrev main_v206 : Ref sig .tc := ⟨.hbm, 331, rfl⟩
abbrev main_v207 : Ref sig .tc := ⟨.hbm, 332, rfl⟩
abbrev main_v208 : Ref sig .tc := ⟨.hbm, 333, rfl⟩
abbrev main_c_68 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_c_69 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_c_70 : Ref sig .tc := ⟨.hbm, 343, rfl⟩
abbrev main_c_71 : Ref sig .tc := ⟨.hbm, 344, rfl⟩
abbrev main_call8_v0 : Ref sig .tc := ⟨.hbm, 345, rfl⟩
abbrev main_call8_v1 : Ref sig .tc := ⟨.hbm, 346, rfl⟩
abbrev main_call8_v2 : Ref sig .tc := ⟨.hbm, 347, rfl⟩
abbrev main_call8_v3 : Ref sig .tc := ⟨.hbm, 348, rfl⟩
abbrev main_call8_v4 : Ref sig .tc := ⟨.hbm, 349, rfl⟩
abbrev main_v216 : Ref sig .tc := ⟨.hbm, 350, rfl⟩
abbrev main_c_72 : Ref sig .tc := ⟨.hbm, 351, rfl⟩
abbrev main_c_73 : Ref sig .tc := ⟨.hbm, 352, rfl⟩
abbrev main_call9_v0 : Ref sig .tc := ⟨.hbm, 353, rfl⟩
abbrev main_call9_v1 : Ref sig .tc := ⟨.hbm, 354, rfl⟩
abbrev main_call9_v2 : Ref sig .tc := ⟨.hbm, 355, rfl⟩
abbrev main_call9_v3 : Ref sig .tc := ⟨.hbm, 356, rfl⟩
abbrev main_call9_v4 : Ref sig .tc := ⟨.hbm, 357, rfl⟩
abbrev main_v217 : Ref sig .tc := ⟨.hbm, 358, rfl⟩
abbrev main_c_74 : Ref sig .tc := ⟨.hbm, 359, rfl⟩
abbrev main_v218 : Ref sig .tc := ⟨.hbm, 360, rfl⟩
abbrev main_v219 : Ref sig .tc := ⟨.hbm, 361, rfl⟩
abbrev main_c_75 : Ref sig .tc := ⟨.hbm, 362, rfl⟩
abbrev main_v220 : Ref sig .tc := ⟨.hbm, 363, rfl⟩
abbrev main_v221 : Ref sig .tc := ⟨.hbm, 364, rfl⟩
abbrev main_v222 : Ref sig .tc := ⟨.hbm, 365, rfl⟩
abbrev main_c_76 : Ref sig .tc := ⟨.hbm, 366, rfl⟩
abbrev main_v223 : Ref sig .tc := ⟨.hbm, 367, rfl⟩
abbrev main_v224 : Ref sig .tc := ⟨.hbm, 368, rfl⟩
abbrev main_c_77 : Ref sig .tc := ⟨.hbm, 369, rfl⟩
abbrev main_v225 : Ref sig .tc := ⟨.hbm, 370, rfl⟩
abbrev main_v226 : Ref sig .tc := ⟨.hbm, 371, rfl⟩
abbrev main_v227 : Ref sig .tc := ⟨.hbm, 372, rfl⟩
abbrev main_v228 : Ref sig .tc := ⟨.hbm, 373, rfl⟩
abbrev main_v229 : Ref sig .tc := ⟨.hbm, 374, rfl⟩
abbrev main_v230 : Ref sig .tc := ⟨.hbm, 375, rfl⟩
abbrev main_v231 : Ref sig .tc := ⟨.hbm, 376, rfl⟩
abbrev main_v232 : Ref sig .tc := ⟨.hbm, 377, rfl⟩
abbrev main_v233 : Ref sig .tc := ⟨.hbm, 378, rfl⟩
abbrev main_v234 : Ref sig .tc := ⟨.hbm, 379, rfl⟩
abbrev main_cst_78 : Ref sig .tc := ⟨.hbm, 380, rfl⟩
abbrev main_v235 : Ref sig .tc := ⟨.hbm, 381, rfl⟩
abbrev main_v236 : Ref sig .tc := ⟨.hbm, 382, rfl⟩
abbrev main_cst_79 : Ref sig .tc := ⟨.hbm, 383, rfl⟩
abbrev main_v237 : Ref sig .tc := ⟨.hbm, 384, rfl⟩
abbrev main_v238 : Ref sig .tc := ⟨.hbm, 385, rfl⟩
abbrev main_v239 : Ref sig .tc := ⟨.hbm, 386, rfl⟩
abbrev main_v240 : Ref sig .tc := ⟨.hbm, 387, rfl⟩
abbrev main_v241 : Ref sig .tc := ⟨.hbm, 388, rfl⟩
abbrev main_v242 : Ref sig .tc := ⟨.hbm, 389, rfl⟩
abbrev main_c_80 : Ref sig .tc := ⟨.hbm, 390, rfl⟩
abbrev main_v243 : Ref sig .tc := ⟨.hbm, 391, rfl⟩
abbrev main_v244 : Ref sig .tc := ⟨.hbm, 392, rfl⟩
abbrev main_c_81 : Ref sig .tc := ⟨.hbm, 393, rfl⟩
abbrev main_v245 : Ref sig .tc := ⟨.hbm, 394, rfl⟩
abbrev main_v246 : Ref sig .tc := ⟨.hbm, 395, rfl⟩
abbrev main_c_82 : Ref sig .tc := ⟨.hbm, 396, rfl⟩
abbrev main_v247 : Ref sig .tc := ⟨.hbm, 397, rfl⟩
abbrev main_v248 : Ref sig .tc := ⟨.hbm, 398, rfl⟩
abbrev main_v249 : Ref sig .tc := ⟨.hbm, 399, rfl⟩
abbrev main_c_83 : Ref sig .tc := ⟨.hbm, 400, rfl⟩
abbrev main_v250 : Ref sig .tc := ⟨.hbm, 401, rfl⟩
abbrev main_v251 : Ref sig .tc := ⟨.hbm, 402, rfl⟩
abbrev main_v252 : Ref sig .tc := ⟨.hbm, 403, rfl⟩
abbrev main_c_84 : Ref sig .tc := ⟨.hbm, 404, rfl⟩
abbrev main_v253 : Ref sig .tc := ⟨.hbm, 405, rfl⟩
abbrev main_v254 : Ref sig .tc := ⟨.hbm, 406, rfl⟩
abbrev main_v255 : Ref sig .tc := ⟨.hbm, 407, rfl⟩
abbrev main_v256 : Ref sig .tc := ⟨.hbm, 408, rfl⟩
abbrev main_c_85 : Ref sig .tc := ⟨.hbm, 409, rfl⟩
abbrev main_c_86 : Ref sig .tc := ⟨.hbm, 410, rfl⟩
abbrev main_call10_v0 : Ref sig .tc := ⟨.hbm, 411, rfl⟩
abbrev main_call10_v1 : Ref sig .tc := ⟨.hbm, 412, rfl⟩
abbrev main_call10_v2 : Ref sig .tc := ⟨.hbm, 413, rfl⟩
abbrev main_call10_v3 : Ref sig .tc := ⟨.hbm, 414, rfl⟩
abbrev main_call10_v4 : Ref sig .tc := ⟨.hbm, 415, rfl⟩
abbrev main_v257 : Ref sig .tc := ⟨.hbm, 416, rfl⟩
abbrev main_c_87 : Ref sig .tc := ⟨.hbm, 417, rfl⟩
abbrev main_c_88 : Ref sig .tc := ⟨.hbm, 418, rfl⟩
abbrev main_call11_v0 : Ref sig .tc := ⟨.hbm, 419, rfl⟩
abbrev main_call11_v1 : Ref sig .tc := ⟨.hbm, 420, rfl⟩
abbrev main_call11_v2 : Ref sig .tc := ⟨.hbm, 421, rfl⟩
abbrev main_call11_v3 : Ref sig .tc := ⟨.hbm, 422, rfl⟩
abbrev main_call11_v4 : Ref sig .tc := ⟨.hbm, 423, rfl⟩
abbrev main_v258 : Ref sig .tc := ⟨.hbm, 424, rfl⟩
abbrev main_c_89 : Ref sig .tc := ⟨.hbm, 425, rfl⟩
abbrev main_v259 : Ref sig .tc := ⟨.hbm, 426, rfl⟩
abbrev main_v260 : Ref sig .tc := ⟨.hbm, 427, rfl⟩
abbrev main_c_90 : Ref sig .tc := ⟨.hbm, 428, rfl⟩
abbrev main_v261 : Ref sig .tc := ⟨.hbm, 429, rfl⟩
abbrev main_v262 : Ref sig .tc := ⟨.hbm, 430, rfl⟩
abbrev main_v263 : Ref sig .tc := ⟨.hbm, 431, rfl⟩
abbrev main_c_91 : Ref sig .tc := ⟨.hbm, 432, rfl⟩
abbrev main_v264 : Ref sig .tc := ⟨.hbm, 433, rfl⟩
abbrev main_v265 : Ref sig .tc := ⟨.hbm, 434, rfl⟩
abbrev main_c_92 : Ref sig .tc := ⟨.hbm, 435, rfl⟩
abbrev main_v266 : Ref sig .tc := ⟨.hbm, 436, rfl⟩
abbrev main_v267 : Ref sig .tc := ⟨.hbm, 437, rfl⟩
abbrev main_v268 : Ref sig .tc := ⟨.hbm, 438, rfl⟩
abbrev main_v269 : Ref sig .tc := ⟨.hbm, 439, rfl⟩
abbrev main_v270 : Ref sig .tc := ⟨.hbm, 440, rfl⟩
abbrev main_v271 : Ref sig .tc := ⟨.hbm, 441, rfl⟩
abbrev main_v272 : Ref sig .tc := ⟨.hbm, 442, rfl⟩
abbrev main_v273 : Ref sig .tc := ⟨.hbm, 443, rfl⟩
abbrev main_v274 : Ref sig .tc := ⟨.hbm, 444, rfl⟩
abbrev main_v275 : Ref sig .tc := ⟨.hbm, 445, rfl⟩
abbrev main_cst_93 : Ref sig .tc := ⟨.hbm, 446, rfl⟩
abbrev main_v276 : Ref sig .tc := ⟨.hbm, 447, rfl⟩
abbrev main_v277 : Ref sig .tc := ⟨.hbm, 448, rfl⟩
abbrev main_v278 : Ref sig .tc := ⟨.hbm, 449, rfl⟩
abbrev main_v279 : Ref sig .tc := ⟨.hbm, 450, rfl⟩
abbrev main_v280 : Ref sig .tc := ⟨.hbm, 451, rfl⟩
abbrev main_v281 : Ref sig .tc := ⟨.hbm, 452, rfl⟩
abbrev main_v282 : Ref sig .tc := ⟨.hbm, 453, rfl⟩
abbrev main_c_94 : Ref sig .tc := ⟨.hbm, 454, rfl⟩
abbrev main_v283 : Ref sig .tc := ⟨.hbm, 455, rfl⟩
abbrev main_v284 : Ref sig .tc := ⟨.hbm, 456, rfl⟩
abbrev main_c_95 : Ref sig .tc := ⟨.hbm, 457, rfl⟩
abbrev main_v285 : Ref sig .tc := ⟨.hbm, 458, rfl⟩
abbrev main_v286 : Ref sig .tc := ⟨.hbm, 459, rfl⟩
abbrev main_c_96 : Ref sig .tc := ⟨.hbm, 460, rfl⟩
abbrev main_v287 : Ref sig .tc := ⟨.hbm, 461, rfl⟩
abbrev main_v288 : Ref sig .tc := ⟨.hbm, 462, rfl⟩
abbrev main_v289 : Ref sig .tc := ⟨.hbm, 463, rfl⟩
abbrev main_c_97 : Ref sig .tc := ⟨.hbm, 464, rfl⟩
abbrev main_v290 : Ref sig .tc := ⟨.hbm, 465, rfl⟩
abbrev main_v291 : Ref sig .tc := ⟨.hbm, 466, rfl⟩
abbrev main_v292 : Ref sig .tc := ⟨.hbm, 467, rfl⟩
abbrev main_c_98 : Ref sig .tc := ⟨.hbm, 468, rfl⟩
abbrev main_v293 : Ref sig .tc := ⟨.hbm, 469, rfl⟩
abbrev main_v294 : Ref sig .tc := ⟨.hbm, 470, rfl⟩
abbrev main_v295 : Ref sig .tc := ⟨.hbm, 471, rfl⟩
abbrev main_v296 : Ref sig .tc := ⟨.hbm, 472, rfl⟩
abbrev main_c_99 : Ref sig .tc := ⟨.hbm, 473, rfl⟩
abbrev main_c_100 : Ref sig .tc := ⟨.hbm, 474, rfl⟩
abbrev main_call12_v0 : Ref sig .tc := ⟨.hbm, 475, rfl⟩
abbrev main_call12_v1 : Ref sig .tc := ⟨.hbm, 476, rfl⟩
abbrev main_call12_v2 : Ref sig .tc := ⟨.hbm, 477, rfl⟩
abbrev main_call12_v3 : Ref sig .tc := ⟨.hbm, 478, rfl⟩
abbrev main_call12_v4 : Ref sig .tc := ⟨.hbm, 479, rfl⟩
abbrev main_v297 : Ref sig .tc := ⟨.hbm, 480, rfl⟩
abbrev main_c_101 : Ref sig .tc := ⟨.hbm, 481, rfl⟩
abbrev main_c_102 : Ref sig .tc := ⟨.hbm, 482, rfl⟩
abbrev main_call13_v0 : Ref sig .tc := ⟨.hbm, 483, rfl⟩
abbrev main_call13_v1 : Ref sig .tc := ⟨.hbm, 484, rfl⟩
abbrev main_call13_v2 : Ref sig .tc := ⟨.hbm, 485, rfl⟩
abbrev main_call13_v3 : Ref sig .tc := ⟨.hbm, 486, rfl⟩
abbrev main_call13_v4 : Ref sig .tc := ⟨.hbm, 487, rfl⟩
abbrev main_v298 : Ref sig .tc := ⟨.hbm, 488, rfl⟩
abbrev main_c_103 : Ref sig .tc := ⟨.hbm, 489, rfl⟩
abbrev main_v299 : Ref sig .tc := ⟨.hbm, 490, rfl⟩
abbrev main_v300 : Ref sig .tc := ⟨.hbm, 491, rfl⟩
abbrev main_c_104 : Ref sig .tc := ⟨.hbm, 492, rfl⟩
abbrev main_v301 : Ref sig .tc := ⟨.hbm, 493, rfl⟩
abbrev main_v302 : Ref sig .tc := ⟨.hbm, 494, rfl⟩
abbrev main_v303 : Ref sig .tc := ⟨.hbm, 495, rfl⟩
abbrev main_c_105 : Ref sig .tc := ⟨.hbm, 496, rfl⟩
abbrev main_v304 : Ref sig .tc := ⟨.hbm, 497, rfl⟩
abbrev main_v305 : Ref sig .tc := ⟨.hbm, 498, rfl⟩
abbrev main_c_106 : Ref sig .tc := ⟨.hbm, 499, rfl⟩
abbrev main_v306 : Ref sig .tc := ⟨.hbm, 500, rfl⟩
abbrev main_v307 : Ref sig .tc := ⟨.hbm, 501, rfl⟩
abbrev main_v308 : Ref sig .tc := ⟨.hbm, 502, rfl⟩
abbrev main_v309 : Ref sig .tc := ⟨.hbm, 503, rfl⟩
abbrev main_v310 : Ref sig .tc := ⟨.hbm, 504, rfl⟩
abbrev main_v311 : Ref sig .tc := ⟨.hbm, 505, rfl⟩
abbrev main_v312 : Ref sig .tc := ⟨.hbm, 506, rfl⟩
abbrev main_v313 : Ref sig .tc := ⟨.hbm, 507, rfl⟩
abbrev main_v314 : Ref sig .tc := ⟨.hbm, 508, rfl⟩
abbrev main_v315 : Ref sig .tc := ⟨.hbm, 509, rfl⟩
abbrev main_cst_107 : Ref sig .tc := ⟨.hbm, 510, rfl⟩
abbrev main_v316 : Ref sig .tc := ⟨.hbm, 511, rfl⟩
abbrev main_v317 : Ref sig .tc := ⟨.hbm, 512, rfl⟩
abbrev main_v318 : Ref sig .tc := ⟨.hbm, 513, rfl⟩
abbrev main_v319 : Ref sig .tc := ⟨.hbm, 514, rfl⟩
abbrev main_v320 : Ref sig .tc := ⟨.hbm, 515, rfl⟩
abbrev main_v321 : Ref sig .tc := ⟨.hbm, 516, rfl⟩
abbrev main_v322 : Ref sig .tc := ⟨.hbm, 517, rfl⟩
abbrev main_c_108 : Ref sig .tc := ⟨.hbm, 518, rfl⟩
abbrev main_v323 : Ref sig .tc := ⟨.hbm, 519, rfl⟩
abbrev main_v324 : Ref sig .tc := ⟨.hbm, 520, rfl⟩
abbrev main_c_109 : Ref sig .tc := ⟨.hbm, 521, rfl⟩
abbrev main_v325 : Ref sig .tc := ⟨.hbm, 522, rfl⟩
abbrev main_v326 : Ref sig .tc := ⟨.hbm, 523, rfl⟩
abbrev main_c_110 : Ref sig .tc := ⟨.hbm, 524, rfl⟩
abbrev main_v327 : Ref sig .tc := ⟨.hbm, 525, rfl⟩
abbrev main_v328 : Ref sig .tc := ⟨.hbm, 526, rfl⟩
abbrev main_c_111 : Ref sig .tc := ⟨.hbm, 527, rfl⟩
abbrev main_v329 : Ref sig .tc := ⟨.hbm, 528, rfl⟩
abbrev main_v330 : Ref sig .tc := ⟨.hbm, 529, rfl⟩
abbrev main_v331 : Ref sig .tc := ⟨.hbm, 530, rfl⟩
abbrev main_c_112 : Ref sig .tc := ⟨.hbm, 531, rfl⟩
abbrev main_v332 : Ref sig .tc := ⟨.hbm, 532, rfl⟩
abbrev main_v333 : Ref sig .tc := ⟨.hbm, 533, rfl⟩
abbrev main_v334 : Ref sig .tc := ⟨.hbm, 534, rfl⟩
abbrev main_c_113 : Ref sig .tc := ⟨.hbm, 535, rfl⟩
abbrev main_v335 : Ref sig .tc := ⟨.hbm, 536, rfl⟩
abbrev main_v336 : Ref sig .tc := ⟨.hbm, 537, rfl⟩
abbrev main_v337 : Ref sig .tc := ⟨.hbm, 538, rfl⟩
abbrev main_v338 : Ref sig .tc := ⟨.hbm, 539, rfl⟩
abbrev main_c_114 : Ref sig .tc := ⟨.hbm, 540, rfl⟩
abbrev main_c_115 : Ref sig .tc := ⟨.hbm, 541, rfl⟩
abbrev main_call14_v0 : Ref sig .tc := ⟨.hbm, 542, rfl⟩
abbrev main_call14_v1 : Ref sig .tc := ⟨.hbm, 543, rfl⟩
abbrev main_call14_v2 : Ref sig .tc := ⟨.hbm, 544, rfl⟩
abbrev main_call14_v3 : Ref sig .tc := ⟨.hbm, 545, rfl⟩
abbrev main_call14_v4 : Ref sig .tc := ⟨.hbm, 546, rfl⟩
abbrev main_v339 : Ref sig .tc := ⟨.hbm, 547, rfl⟩
abbrev main_c_116 : Ref sig .tc := ⟨.hbm, 548, rfl⟩
abbrev main_c_117 : Ref sig .tc := ⟨.hbm, 549, rfl⟩
abbrev main_call15_v0 : Ref sig .tc := ⟨.hbm, 550, rfl⟩
abbrev main_call15_v1 : Ref sig .tc := ⟨.hbm, 551, rfl⟩
abbrev main_call15_v2 : Ref sig .tc := ⟨.hbm, 552, rfl⟩
abbrev main_call15_v3 : Ref sig .tc := ⟨.hbm, 553, rfl⟩
abbrev main_call15_v4 : Ref sig .tc := ⟨.hbm, 554, rfl⟩
abbrev main_v340 : Ref sig .tc := ⟨.hbm, 555, rfl⟩
abbrev main_c_118 : Ref sig .tc := ⟨.hbm, 556, rfl⟩
abbrev main_v341 : Ref sig .tc := ⟨.hbm, 557, rfl⟩
abbrev main_v342 : Ref sig .tc := ⟨.hbm, 558, rfl⟩
abbrev main_c_119 : Ref sig .tc := ⟨.hbm, 559, rfl⟩
abbrev main_v343 : Ref sig .tc := ⟨.hbm, 560, rfl⟩
abbrev main_v344 : Ref sig .tc := ⟨.hbm, 561, rfl⟩
abbrev main_v345 : Ref sig .tc := ⟨.hbm, 562, rfl⟩
abbrev main_c_120 : Ref sig .tc := ⟨.hbm, 563, rfl⟩
abbrev main_v346 : Ref sig .tc := ⟨.hbm, 564, rfl⟩
abbrev main_v347 : Ref sig .tc := ⟨.hbm, 565, rfl⟩
abbrev main_c_121 : Ref sig .tc := ⟨.hbm, 566, rfl⟩
abbrev main_v348 : Ref sig .tc := ⟨.hbm, 567, rfl⟩
abbrev main_v349 : Ref sig .tc := ⟨.hbm, 568, rfl⟩
abbrev main_v350 : Ref sig .tc := ⟨.hbm, 569, rfl⟩
abbrev main_v351 : Ref sig .tc := ⟨.hbm, 570, rfl⟩
abbrev main_v352 : Ref sig .tc := ⟨.hbm, 571, rfl⟩
abbrev main_v353 : Ref sig .tc := ⟨.hbm, 572, rfl⟩
abbrev main_v354 : Ref sig .tc := ⟨.hbm, 573, rfl⟩
abbrev main_v355 : Ref sig .tc := ⟨.hbm, 574, rfl⟩
abbrev main_v356 : Ref sig .tc := ⟨.hbm, 575, rfl⟩
abbrev main_v357 : Ref sig .tc := ⟨.hbm, 576, rfl⟩
abbrev main_v358 : Ref sig .tc := ⟨.hbm, 577, rfl⟩
abbrev main_v359 : Ref sig .tc := ⟨.hbm, 578, rfl⟩
abbrev main_v360 : Ref sig .tc := ⟨.hbm, 579, rfl⟩
abbrev main_v361 : Ref sig .tc := ⟨.hbm, 580, rfl⟩
abbrev main_v362 : Ref sig .tc := ⟨.hbm, 581, rfl⟩
abbrev main_v363 : Ref sig .tc := ⟨.hbm, 582, rfl⟩
abbrev main_cst_122 : Ref sig .tc := ⟨.hbm, 583, rfl⟩
abbrev main_v364 : Ref sig .tc := ⟨.hbm, 584, rfl⟩
abbrev main_v365 : Ref sig .tc := ⟨.hbm, 585, rfl⟩
abbrev main_cst_123 : Ref sig .tc := ⟨.hbm, 586, rfl⟩
abbrev main_v366 : Ref sig .tc := ⟨.hbm, 587, rfl⟩
abbrev main_v367 : Ref sig .tc := ⟨.hbm, 588, rfl⟩
abbrev main_cst_124 : Ref sig .tc := ⟨.hbm, 589, rfl⟩
abbrev main_v368 : Ref sig .tc := ⟨.hbm, 590, rfl⟩
abbrev main_v369 : Ref sig .tc := ⟨.hbm, 591, rfl⟩
abbrev main_cst_125 : Ref sig .tc := ⟨.hbm, 592, rfl⟩
abbrev main_v370 : Ref sig .tc := ⟨.hbm, 593, rfl⟩
abbrev main_v371 : Ref sig .tc := ⟨.hbm, 594, rfl⟩
abbrev main_cst_126 : Ref sig .tc := ⟨.hbm, 595, rfl⟩
abbrev main_v372 : Ref sig .tc := ⟨.hbm, 596, rfl⟩
abbrev main_v373 : Ref sig .tc := ⟨.hbm, 597, rfl⟩
abbrev main_cst_127 : Ref sig .tc := ⟨.hbm, 598, rfl⟩
abbrev main_v374 : Ref sig .tc := ⟨.hbm, 599, rfl⟩
abbrev main_v375 : Ref sig .tc := ⟨.hbm, 600, rfl⟩
abbrev main_v376 : Ref sig .tc := ⟨.hbm, 601, rfl⟩
abbrev main_v377 : Ref sig .tc := ⟨.hbm, 602, rfl⟩
abbrev main_v378 : Ref sig .tc := ⟨.hbm, 603, rfl⟩
abbrev main_v379 : Ref sig .tc := ⟨.hbm, 604, rfl⟩
abbrev main_v380 : Ref sig .tc := ⟨.hbm, 605, rfl⟩
abbrev main_v381 : Ref sig .tc := ⟨.hbm, 606, rfl⟩
abbrev main_c_128 : Ref sig .tc := ⟨.hbm, 607, rfl⟩
abbrev main_v382 : Ref sig .tc := ⟨.hbm, 608, rfl⟩
abbrev main_v383 : Ref sig .tc := ⟨.hbm, 609, rfl⟩
abbrev main_c_129 : Ref sig .tc := ⟨.hbm, 610, rfl⟩
abbrev main_v384 : Ref sig .tc := ⟨.hbm, 611, rfl⟩
abbrev main_v385 : Ref sig .tc := ⟨.hbm, 612, rfl⟩
abbrev main_v386 : Ref sig .tc := ⟨.hbm, 613, rfl⟩
abbrev main_c_130 : Ref sig .tc := ⟨.hbm, 614, rfl⟩
abbrev main_v387 : Ref sig .tc := ⟨.hbm, 615, rfl⟩
abbrev main_v388 : Ref sig .tc := ⟨.hbm, 616, rfl⟩
abbrev main_v389 : Ref sig .tc := ⟨.hbm, 617, rfl⟩
abbrev main_c_131 : Ref sig .tc := ⟨.hbm, 618, rfl⟩
abbrev main_v390 : Ref sig .tc := ⟨.hbm, 619, rfl⟩
abbrev main_v391 : Ref sig .tc := ⟨.hbm, 620, rfl⟩
abbrev main_v392 : Ref sig .tc := ⟨.hbm, 621, rfl⟩
abbrev main_v393 : Ref sig .tc := ⟨.hbm, 622, rfl⟩
abbrev main_c_132 : Ref sig .tc := ⟨.hbm, 623, rfl⟩
abbrev main_c_133 : Ref sig .tc := ⟨.hbm, 624, rfl⟩
abbrev main_call16_v0 : Ref sig .tc := ⟨.hbm, 625, rfl⟩
abbrev main_call16_v1 : Ref sig .tc := ⟨.hbm, 626, rfl⟩
abbrev main_call16_v2 : Ref sig .tc := ⟨.hbm, 627, rfl⟩
abbrev main_call16_v3 : Ref sig .tc := ⟨.hbm, 628, rfl⟩
abbrev main_call16_v4 : Ref sig .tc := ⟨.hbm, 629, rfl⟩
abbrev main_v394 : Ref sig .tc := ⟨.hbm, 630, rfl⟩
abbrev main_c_134 : Ref sig .tc := ⟨.hbm, 631, rfl⟩
abbrev main_c_135 : Ref sig .tc := ⟨.hbm, 632, rfl⟩
abbrev main_call17_v0 : Ref sig .tc := ⟨.hbm, 633, rfl⟩
abbrev main_call17_v1 : Ref sig .tc := ⟨.hbm, 634, rfl⟩
abbrev main_call17_v2 : Ref sig .tc := ⟨.hbm, 635, rfl⟩
abbrev main_call17_v3 : Ref sig .tc := ⟨.hbm, 636, rfl⟩
abbrev main_call17_v4 : Ref sig .tc := ⟨.hbm, 637, rfl⟩
abbrev main_v395 : Ref sig .tc := ⟨.hbm, 638, rfl⟩
abbrev main_c_136 : Ref sig .tc := ⟨.hbm, 639, rfl⟩
abbrev main_v396 : Ref sig .tc := ⟨.hbm, 640, rfl⟩
abbrev main_v397 : Ref sig .tc := ⟨.hbm, 641, rfl⟩
abbrev main_c_137 : Ref sig .tc := ⟨.hbm, 642, rfl⟩
abbrev main_v398 : Ref sig .tc := ⟨.hbm, 643, rfl⟩
abbrev main_v399 : Ref sig .tc := ⟨.hbm, 644, rfl⟩
abbrev main_v400 : Ref sig .tc := ⟨.hbm, 645, rfl⟩
abbrev main_c_138 : Ref sig .tc := ⟨.hbm, 646, rfl⟩
abbrev main_v401 : Ref sig .tc := ⟨.hbm, 647, rfl⟩
abbrev main_v402 : Ref sig .tc := ⟨.hbm, 648, rfl⟩
abbrev main_c_139 : Ref sig .tc := ⟨.hbm, 649, rfl⟩
abbrev main_v403 : Ref sig .tc := ⟨.hbm, 650, rfl⟩
abbrev main_v404 : Ref sig .tc := ⟨.hbm, 651, rfl⟩
abbrev main_v405 : Ref sig .tc := ⟨.hbm, 652, rfl⟩
abbrev main_v406 : Ref sig .tc := ⟨.hbm, 653, rfl⟩
abbrev main_v407 : Ref sig .tc := ⟨.hbm, 654, rfl⟩
abbrev main_v408 : Ref sig .tc := ⟨.hbm, 655, rfl⟩
abbrev main_v409 : Ref sig .tc := ⟨.hbm, 656, rfl⟩
abbrev main_v410 : Ref sig .tc := ⟨.hbm, 657, rfl⟩
abbrev main_v411 : Ref sig .tc := ⟨.hbm, 658, rfl⟩
abbrev main_v412 : Ref sig .tc := ⟨.hbm, 659, rfl⟩
abbrev main_cst_140 : Ref sig .tc := ⟨.hbm, 660, rfl⟩
abbrev main_v413 : Ref sig .tc := ⟨.hbm, 661, rfl⟩
abbrev main_v414 : Ref sig .tc := ⟨.hbm, 662, rfl⟩
abbrev main_cst_141 : Ref sig .tc := ⟨.hbm, 663, rfl⟩
abbrev main_v415 : Ref sig .tc := ⟨.hbm, 664, rfl⟩
abbrev main_v416 : Ref sig .tc := ⟨.hbm, 665, rfl⟩
abbrev main_v417 : Ref sig .tc := ⟨.hbm, 666, rfl⟩
abbrev main_v418 : Ref sig .tc := ⟨.hbm, 667, rfl⟩
abbrev main_v419 : Ref sig .tc := ⟨.hbm, 668, rfl⟩
abbrev main_v420 : Ref sig .tc := ⟨.hbm, 669, rfl⟩
abbrev main_c_142 : Ref sig .tc := ⟨.hbm, 670, rfl⟩
abbrev main_v421 : Ref sig .tc := ⟨.hbm, 671, rfl⟩
abbrev main_v422 : Ref sig .tc := ⟨.hbm, 672, rfl⟩
abbrev main_c_143 : Ref sig .tc := ⟨.hbm, 673, rfl⟩
abbrev main_v423 : Ref sig .tc := ⟨.hbm, 674, rfl⟩
abbrev main_v424 : Ref sig .tc := ⟨.hbm, 675, rfl⟩
abbrev main_c_144 : Ref sig .tc := ⟨.hbm, 676, rfl⟩
abbrev main_v425 : Ref sig .tc := ⟨.hbm, 677, rfl⟩
abbrev main_v426 : Ref sig .tc := ⟨.hbm, 678, rfl⟩
abbrev main_v427 : Ref sig .tc := ⟨.hbm, 679, rfl⟩
abbrev main_c_145 : Ref sig .tc := ⟨.hbm, 680, rfl⟩
abbrev main_v428 : Ref sig .tc := ⟨.hbm, 681, rfl⟩
abbrev main_v429 : Ref sig .tc := ⟨.hbm, 682, rfl⟩
abbrev main_v430 : Ref sig .tc := ⟨.hbm, 683, rfl⟩
abbrev main_c_146 : Ref sig .tc := ⟨.hbm, 684, rfl⟩
abbrev main_v431 : Ref sig .tc := ⟨.hbm, 685, rfl⟩
abbrev main_v432 : Ref sig .tc := ⟨.hbm, 686, rfl⟩
abbrev main_v433 : Ref sig .tc := ⟨.hbm, 687, rfl⟩
abbrev main_v434 : Ref sig .tc := ⟨.hbm, 688, rfl⟩
abbrev main_c_147 : Ref sig .tc := ⟨.hbm, 689, rfl⟩
abbrev main_c_148 : Ref sig .tc := ⟨.hbm, 690, rfl⟩
abbrev main_call18_v0 : Ref sig .tc := ⟨.hbm, 691, rfl⟩
abbrev main_call18_v1 : Ref sig .tc := ⟨.hbm, 692, rfl⟩
abbrev main_call18_v2 : Ref sig .tc := ⟨.hbm, 693, rfl⟩
abbrev main_call18_v3 : Ref sig .tc := ⟨.hbm, 694, rfl⟩
abbrev main_call18_v4 : Ref sig .tc := ⟨.hbm, 695, rfl⟩
abbrev main_v435 : Ref sig .tc := ⟨.hbm, 696, rfl⟩
abbrev main_c_149 : Ref sig .tc := ⟨.hbm, 697, rfl⟩
abbrev main_c_150 : Ref sig .tc := ⟨.hbm, 698, rfl⟩
abbrev main_call19_v0 : Ref sig .tc := ⟨.hbm, 699, rfl⟩
abbrev main_call19_v1 : Ref sig .tc := ⟨.hbm, 700, rfl⟩
abbrev main_call19_v2 : Ref sig .tc := ⟨.hbm, 701, rfl⟩
abbrev main_call19_v3 : Ref sig .tc := ⟨.hbm, 702, rfl⟩
abbrev main_call19_v4 : Ref sig .tc := ⟨.hbm, 703, rfl⟩
abbrev main_v436 : Ref sig .tc := ⟨.hbm, 704, rfl⟩
abbrev main_c_151 : Ref sig .tc := ⟨.hbm, 705, rfl⟩
abbrev main_v437 : Ref sig .tc := ⟨.hbm, 706, rfl⟩
abbrev main_v438 : Ref sig .tc := ⟨.hbm, 707, rfl⟩
abbrev main_c_152 : Ref sig .tc := ⟨.hbm, 708, rfl⟩
abbrev main_v439 : Ref sig .tc := ⟨.hbm, 709, rfl⟩
abbrev main_v440 : Ref sig .tc := ⟨.hbm, 710, rfl⟩
abbrev main_v441 : Ref sig .tc := ⟨.hbm, 711, rfl⟩
abbrev main_c_153 : Ref sig .tc := ⟨.hbm, 712, rfl⟩
abbrev main_v442 : Ref sig .tc := ⟨.hbm, 713, rfl⟩
abbrev main_v443 : Ref sig .tc := ⟨.hbm, 714, rfl⟩
abbrev main_c_154 : Ref sig .tc := ⟨.hbm, 715, rfl⟩
abbrev main_v444 : Ref sig .tc := ⟨.hbm, 716, rfl⟩
abbrev main_v445 : Ref sig .tc := ⟨.hbm, 717, rfl⟩
abbrev main_v446 : Ref sig .tc := ⟨.hbm, 718, rfl⟩
abbrev main_v447 : Ref sig .tc := ⟨.hbm, 719, rfl⟩
abbrev main_v448 : Ref sig .tc := ⟨.hbm, 720, rfl⟩
abbrev main_v449 : Ref sig .tc := ⟨.hbm, 721, rfl⟩
abbrev main_v450 : Ref sig .tc := ⟨.hbm, 722, rfl⟩
abbrev main_v451 : Ref sig .tc := ⟨.hbm, 723, rfl⟩
abbrev main_v452 : Ref sig .tc := ⟨.hbm, 724, rfl⟩
abbrev main_v453 : Ref sig .tc := ⟨.hbm, 725, rfl⟩
abbrev main_cst_155 : Ref sig .tc := ⟨.hbm, 726, rfl⟩
abbrev main_v454 : Ref sig .tc := ⟨.hbm, 727, rfl⟩
abbrev main_v455 : Ref sig .tc := ⟨.hbm, 728, rfl⟩
abbrev main_v456 : Ref sig .tc := ⟨.hbm, 729, rfl⟩
abbrev main_v457 : Ref sig .tc := ⟨.hbm, 730, rfl⟩
abbrev main_v458 : Ref sig .tc := ⟨.hbm, 731, rfl⟩
abbrev main_v459 : Ref sig .tc := ⟨.hbm, 732, rfl⟩
abbrev main_v460 : Ref sig .tc := ⟨.hbm, 733, rfl⟩
abbrev main_c_156 : Ref sig .tc := ⟨.hbm, 734, rfl⟩
abbrev main_v461 : Ref sig .tc := ⟨.hbm, 735, rfl⟩
abbrev main_v462 : Ref sig .tc := ⟨.hbm, 736, rfl⟩
abbrev main_c_157 : Ref sig .tc := ⟨.hbm, 737, rfl⟩
abbrev main_v463 : Ref sig .tc := ⟨.hbm, 738, rfl⟩
abbrev main_v464 : Ref sig .tc := ⟨.hbm, 739, rfl⟩
abbrev main_c_158 : Ref sig .tc := ⟨.hbm, 740, rfl⟩
abbrev main_v465 : Ref sig .tc := ⟨.hbm, 741, rfl⟩
abbrev main_v466 : Ref sig .tc := ⟨.hbm, 742, rfl⟩
abbrev main_v467 : Ref sig .tc := ⟨.hbm, 743, rfl⟩
abbrev main_c_159 : Ref sig .tc := ⟨.hbm, 744, rfl⟩
abbrev main_v468 : Ref sig .tc := ⟨.hbm, 745, rfl⟩
abbrev main_v469 : Ref sig .tc := ⟨.hbm, 746, rfl⟩
abbrev main_v470 : Ref sig .tc := ⟨.hbm, 747, rfl⟩
abbrev main_c_160 : Ref sig .tc := ⟨.hbm, 748, rfl⟩
abbrev main_v471 : Ref sig .tc := ⟨.hbm, 749, rfl⟩
abbrev main_v472 : Ref sig .tc := ⟨.hbm, 750, rfl⟩
abbrev main_v473 : Ref sig .tc := ⟨.hbm, 751, rfl⟩
abbrev main_v474 : Ref sig .tc := ⟨.hbm, 752, rfl⟩
abbrev main_c_161 : Ref sig .tc := ⟨.hbm, 753, rfl⟩
abbrev main_c_162 : Ref sig .tc := ⟨.hbm, 754, rfl⟩
abbrev main_call20_v0 : Ref sig .tc := ⟨.hbm, 755, rfl⟩
abbrev main_call20_v1 : Ref sig .tc := ⟨.hbm, 756, rfl⟩
abbrev main_call20_v2 : Ref sig .tc := ⟨.hbm, 757, rfl⟩
abbrev main_call20_v3 : Ref sig .tc := ⟨.hbm, 758, rfl⟩
abbrev main_call20_v4 : Ref sig .tc := ⟨.hbm, 759, rfl⟩
abbrev main_v475 : Ref sig .tc := ⟨.hbm, 760, rfl⟩
abbrev main_c_163 : Ref sig .tc := ⟨.hbm, 761, rfl⟩
abbrev main_c_164 : Ref sig .tc := ⟨.hbm, 762, rfl⟩
abbrev main_call21_v0 : Ref sig .tc := ⟨.hbm, 763, rfl⟩
abbrev main_call21_v1 : Ref sig .tc := ⟨.hbm, 764, rfl⟩
abbrev main_call21_v2 : Ref sig .tc := ⟨.hbm, 765, rfl⟩
abbrev main_call21_v3 : Ref sig .tc := ⟨.hbm, 766, rfl⟩
abbrev main_call21_v4 : Ref sig .tc := ⟨.hbm, 767, rfl⟩
abbrev main_v476 : Ref sig .tc := ⟨.hbm, 768, rfl⟩
abbrev main_c_165 : Ref sig .tc := ⟨.hbm, 769, rfl⟩
abbrev main_v477 : Ref sig .tc := ⟨.hbm, 770, rfl⟩
abbrev main_v478 : Ref sig .tc := ⟨.hbm, 771, rfl⟩
abbrev main_c_166 : Ref sig .tc := ⟨.hbm, 772, rfl⟩
abbrev main_v479 : Ref sig .tc := ⟨.hbm, 773, rfl⟩
abbrev main_v480 : Ref sig .tc := ⟨.hbm, 774, rfl⟩
abbrev main_v481 : Ref sig .tc := ⟨.hbm, 775, rfl⟩
abbrev main_c_167 : Ref sig .tc := ⟨.hbm, 776, rfl⟩
abbrev main_v482 : Ref sig .tc := ⟨.hbm, 777, rfl⟩
abbrev main_v483 : Ref sig .tc := ⟨.hbm, 778, rfl⟩
abbrev main_c_168 : Ref sig .tc := ⟨.hbm, 779, rfl⟩
abbrev main_v484 : Ref sig .tc := ⟨.hbm, 780, rfl⟩
abbrev main_v485 : Ref sig .tc := ⟨.hbm, 781, rfl⟩
abbrev main_v486 : Ref sig .tc := ⟨.hbm, 782, rfl⟩
abbrev main_v487 : Ref sig .tc := ⟨.hbm, 783, rfl⟩
abbrev main_v488 : Ref sig .tc := ⟨.hbm, 784, rfl⟩
abbrev main_v489 : Ref sig .tc := ⟨.hbm, 785, rfl⟩
abbrev main_v490 : Ref sig .tc := ⟨.hbm, 786, rfl⟩
abbrev main_v491 : Ref sig .tc := ⟨.hbm, 787, rfl⟩
abbrev main_v492 : Ref sig .tc := ⟨.hbm, 788, rfl⟩
abbrev main_v493 : Ref sig .tc := ⟨.hbm, 789, rfl⟩
abbrev main_cst_169 : Ref sig .tc := ⟨.hbm, 790, rfl⟩
abbrev main_v494 : Ref sig .tc := ⟨.hbm, 791, rfl⟩
abbrev main_v495 : Ref sig .tc := ⟨.hbm, 792, rfl⟩
abbrev main_v496 : Ref sig .tc := ⟨.hbm, 793, rfl⟩
abbrev main_v497 : Ref sig .tc := ⟨.hbm, 794, rfl⟩
abbrev main_v498 : Ref sig .tc := ⟨.hbm, 795, rfl⟩
abbrev main_v499 : Ref sig .tc := ⟨.hbm, 796, rfl⟩
abbrev main_v500 : Ref sig .tc := ⟨.hbm, 797, rfl⟩
abbrev main_c_170 : Ref sig .tc := ⟨.hbm, 798, rfl⟩
abbrev main_v501 : Ref sig .tc := ⟨.hbm, 799, rfl⟩
abbrev main_v502 : Ref sig .tc := ⟨.hbm, 800, rfl⟩
abbrev main_c_171 : Ref sig .tc := ⟨.hbm, 801, rfl⟩
abbrev main_v503 : Ref sig .tc := ⟨.hbm, 802, rfl⟩
abbrev main_v504 : Ref sig .tc := ⟨.hbm, 803, rfl⟩
abbrev main_c_172 : Ref sig .tc := ⟨.hbm, 804, rfl⟩
abbrev main_v505 : Ref sig .tc := ⟨.hbm, 805, rfl⟩
abbrev main_v506 : Ref sig .tc := ⟨.hbm, 806, rfl⟩
abbrev main_c_173 : Ref sig .tc := ⟨.hbm, 807, rfl⟩
abbrev main_v507 : Ref sig .tc := ⟨.hbm, 808, rfl⟩
abbrev main_v508 : Ref sig .tc := ⟨.hbm, 809, rfl⟩
abbrev main_v509 : Ref sig .tc := ⟨.hbm, 810, rfl⟩
abbrev main_c_174 : Ref sig .tc := ⟨.hbm, 811, rfl⟩
abbrev main_v510 : Ref sig .tc := ⟨.hbm, 812, rfl⟩
abbrev main_v511 : Ref sig .tc := ⟨.hbm, 813, rfl⟩
abbrev main_v512 : Ref sig .tc := ⟨.hbm, 814, rfl⟩
abbrev main_c_175 : Ref sig .tc := ⟨.hbm, 815, rfl⟩
abbrev main_v513 : Ref sig .tc := ⟨.hbm, 816, rfl⟩
abbrev main_v514 : Ref sig .tc := ⟨.hbm, 817, rfl⟩
abbrev main_v515 : Ref sig .tc := ⟨.hbm, 818, rfl⟩
abbrev main_v516 : Ref sig .tc := ⟨.hbm, 819, rfl⟩
abbrev main_c_176 : Ref sig .tc := ⟨.hbm, 820, rfl⟩
abbrev main_c_177 : Ref sig .tc := ⟨.hbm, 821, rfl⟩
abbrev main_call22_v0 : Ref sig .tc := ⟨.hbm, 822, rfl⟩
abbrev main_call22_v1 : Ref sig .tc := ⟨.hbm, 823, rfl⟩
abbrev main_call22_v2 : Ref sig .tc := ⟨.hbm, 824, rfl⟩
abbrev main_call22_v3 : Ref sig .tc := ⟨.hbm, 825, rfl⟩
abbrev main_call22_v4 : Ref sig .tc := ⟨.hbm, 826, rfl⟩
abbrev main_v517 : Ref sig .tc := ⟨.hbm, 827, rfl⟩
abbrev main_c_178 : Ref sig .tc := ⟨.hbm, 828, rfl⟩
abbrev main_c_179 : Ref sig .tc := ⟨.hbm, 829, rfl⟩
abbrev main_call23_v0 : Ref sig .tc := ⟨.hbm, 830, rfl⟩
abbrev main_call23_v1 : Ref sig .tc := ⟨.hbm, 831, rfl⟩
abbrev main_call23_v2 : Ref sig .tc := ⟨.hbm, 832, rfl⟩
abbrev main_call23_v3 : Ref sig .tc := ⟨.hbm, 833, rfl⟩
abbrev main_call23_v4 : Ref sig .tc := ⟨.hbm, 834, rfl⟩
abbrev main_v518 : Ref sig .tc := ⟨.hbm, 835, rfl⟩
abbrev main_c_180 : Ref sig .tc := ⟨.hbm, 836, rfl⟩
abbrev main_v519 : Ref sig .tc := ⟨.hbm, 837, rfl⟩
abbrev main_v520 : Ref sig .tc := ⟨.hbm, 838, rfl⟩
abbrev main_c_181 : Ref sig .tc := ⟨.hbm, 839, rfl⟩
abbrev main_v521 : Ref sig .tc := ⟨.hbm, 840, rfl⟩
abbrev main_v522 : Ref sig .tc := ⟨.hbm, 841, rfl⟩
abbrev main_v523 : Ref sig .tc := ⟨.hbm, 842, rfl⟩
abbrev main_c_182 : Ref sig .tc := ⟨.hbm, 843, rfl⟩
abbrev main_v524 : Ref sig .tc := ⟨.hbm, 844, rfl⟩
abbrev main_v525 : Ref sig .tc := ⟨.hbm, 845, rfl⟩
abbrev main_c_183 : Ref sig .tc := ⟨.hbm, 846, rfl⟩
abbrev main_v526 : Ref sig .tc := ⟨.hbm, 847, rfl⟩
abbrev main_v527 : Ref sig .tc := ⟨.hbm, 848, rfl⟩
abbrev main_v528 : Ref sig .tc := ⟨.hbm, 849, rfl⟩
abbrev main_v529 : Ref sig .tc := ⟨.hbm, 850, rfl⟩
abbrev main_v530 : Ref sig .tc := ⟨.hbm, 851, rfl⟩
abbrev main_v531 : Ref sig .tc := ⟨.hbm, 852, rfl⟩
abbrev main_v532 : Ref sig .tc := ⟨.hbm, 853, rfl⟩
abbrev main_v533 : Ref sig .tc := ⟨.hbm, 854, rfl⟩
abbrev main_v534 : Ref sig .tc := ⟨.hbm, 855, rfl⟩
abbrev main_v535 : Ref sig .tc := ⟨.hbm, 856, rfl⟩
abbrev main_v536 : Ref sig .tc := ⟨.hbm, 857, rfl⟩
abbrev main_v537 : Ref sig .tc := ⟨.hbm, 858, rfl⟩
abbrev main_v538 : Ref sig .tc := ⟨.hbm, 859, rfl⟩
abbrev main_v539 : Ref sig .tc := ⟨.hbm, 860, rfl⟩
abbrev main_v540 : Ref sig .tc := ⟨.hbm, 861, rfl⟩
abbrev main_v541 : Ref sig .tc := ⟨.hbm, 862, rfl⟩
abbrev main_v542 : Ref sig .tc := ⟨.hbm, 863, rfl⟩
abbrev main_v543 : Ref sig .tc := ⟨.hbm, 864, rfl⟩
abbrev main_v544 : Ref sig .tc := ⟨.hbm, 865, rfl⟩
abbrev main_v545 : Ref sig .tc := ⟨.hbm, 866, rfl⟩
abbrev main_v546 : Ref sig .tc := ⟨.hbm, 867, rfl⟩
abbrev main_v547 : Ref sig .tc := ⟨.hbm, 868, rfl⟩
abbrev main_call24_cst : Ref sig .tc := ⟨.hbm, 869, rfl⟩
abbrev main_call24_v0 : Ref sig .tc := ⟨.hbm, 870, rfl⟩
abbrev main_v548 : Ref sig .tc := ⟨.hbm, 871, rfl⟩
abbrev main_v549 : Ref sig .tc := ⟨.hbm, 872, rfl⟩
abbrev main_v550 : Ref sig .tc := ⟨.hbm, 873, rfl⟩
abbrev main_v551 : Ref sig .tc := ⟨.hbm, 874, rfl⟩
abbrev main_v552 : Ref sig .tc := ⟨.hbm, 875, rfl⟩
abbrev main_call25_cst : Ref sig .tc := ⟨.hbm, 876, rfl⟩
abbrev main_call25_v0 : Ref sig .tc := ⟨.hbm, 877, rfl⟩
abbrev main_v553 : Ref sig .tc := ⟨.hbm, 878, rfl⟩
abbrev main_v554 : Ref sig .tc := ⟨.hbm, 879, rfl⟩
abbrev main_v555 : Ref sig .tc := ⟨.hbm, 880, rfl⟩
abbrev main_v556 : Ref sig .tc := ⟨.hbm, 881, rfl⟩
abbrev main_v557 : Ref sig .tc := ⟨.hbm, 882, rfl⟩
abbrev main_v558 : Ref sig .tc := ⟨.hbm, 883, rfl⟩
abbrev main_v559 : Ref sig .tc := ⟨.hbm, 884, rfl⟩
abbrev main_v560 : Ref sig .tc := ⟨.hbm, 885, rfl⟩
abbrev main_v561 : Ref sig .tc := ⟨.hbm, 886, rfl⟩
abbrev main_cst_184 : Ref sig .tc := ⟨.hbm, 887, rfl⟩
abbrev main_v562 : Ref sig .tc := ⟨.hbm, 888, rfl⟩
abbrev main_v563 : Ref sig .tc := ⟨.hbm, 889, rfl⟩
abbrev main_v564 : Ref sig .tc := ⟨.hbm, 890, rfl⟩
abbrev main_v565 : Ref sig .tc := ⟨.hbm, 891, rfl⟩
abbrev main_v566 : Ref sig .tc := ⟨.hbm, 892, rfl⟩
abbrev main_v567 : Ref sig .tc := ⟨.hbm, 893, rfl⟩
abbrev main_v568 : Ref sig .tc := ⟨.hbm, 894, rfl⟩
abbrev main_v569 : Ref sig .tc := ⟨.hbm, 895, rfl⟩
abbrev main_v570 : Ref sig .tc := ⟨.hbm, 896, rfl⟩
abbrev main_v571 : Ref sig .tc := ⟨.hbm, 897, rfl⟩
abbrev main_v572 : Ref sig .tc := ⟨.hbm, 898, rfl⟩
abbrev main_v573 : Ref sig .tc := ⟨.hbm, 899, rfl⟩
abbrev main_v574 : Ref sig .tc := ⟨.hbm, 900, rfl⟩
abbrev main_v575 : Ref sig .tc := ⟨.hbm, 901, rfl⟩
abbrev main_v576 : Ref sig .tc := ⟨.hbm, 902, rfl⟩
abbrev main_v577 : Ref sig .tc := ⟨.hbm, 903, rfl⟩
abbrev main_v578 : Ref sig .tc := ⟨.hbm, 904, rfl⟩
abbrev main_v579 : Ref sig .tc := ⟨.hbm, 905, rfl⟩
abbrev main_call26_cst : Ref sig .tc := ⟨.hbm, 906, rfl⟩
abbrev main_call26_v0 : Ref sig .tc := ⟨.hbm, 907, rfl⟩
abbrev main_v580 : Ref sig .tc := ⟨.hbm, 908, rfl⟩
abbrev main_v581 : Ref sig .tc := ⟨.hbm, 909, rfl⟩
abbrev main_v582 : Ref sig .tc := ⟨.hbm, 910, rfl⟩
abbrev main_v583 : Ref sig .tc := ⟨.hbm, 911, rfl⟩
abbrev main_v584 : Ref sig .tc := ⟨.hbm, 912, rfl⟩
abbrev main_call27_cst : Ref sig .tc := ⟨.hbm, 913, rfl⟩
abbrev main_call27_v0 : Ref sig .tc := ⟨.hbm, 914, rfl⟩
abbrev main_v585 : Ref sig .tc := ⟨.hbm, 915, rfl⟩
abbrev main_v586 : Ref sig .tc := ⟨.hbm, 916, rfl⟩
abbrev main_v587 : Ref sig .tc := ⟨.hbm, 917, rfl⟩
abbrev main_v588 : Ref sig .tc := ⟨.hbm, 918, rfl⟩
abbrev main_v589 : Ref sig .tc := ⟨.hbm, 919, rfl⟩
abbrev main_v590 : Ref sig .tc := ⟨.hbm, 920, rfl⟩
abbrev main_v591 : Ref sig .tc := ⟨.hbm, 921, rfl⟩
abbrev main_v592 : Ref sig .tc := ⟨.hbm, 922, rfl⟩
abbrev main_v593 : Ref sig .tc := ⟨.hbm, 923, rfl⟩
abbrev main_v594 : Ref sig .tc := ⟨.hbm, 924, rfl⟩

abbrev nD : Nat := 1
abbrev τ : Topo := Topo.v7x

variable {F : FTy → Type} [FloatOps F]

class Facts₀ : Prop where
  slices_S1x96x256x256_S1x32x256x256_0_0_0_0 : S1x96x256x256.Slices ![0, 0, 0, 0] S1x32x256x256
  slices_S1x96x256x256_S1x32x256x256_0_32_0_0 : S1x96x256x256.Slices ![0, 32, 0, 0] S1x32x256x256
  slices_S1x96x256x256_S1x32x256x256_0_64_0_0 : S1x96x256x256.Slices ![0, 64, 0, 0] S1x32x256x256
  slices_S1x3x262144_S1x1x262144_0_0_0 : S1x3x262144.Slices ![0, 0, 0] S1x1x262144
  shapeCasts_S1x1x262144_S1x262144 : S1x1x262144.ShapeCasts S1x262144
  slices_S1x3x262144_S1x1x262144_0_1_0 : S1x3x262144.Slices ![0, 1, 0] S1x1x262144
  slices_S1x3x262144_S1x1x262144_0_2_0 : S1x3x262144.Slices ![0, 2, 0] S1x1x262144
  bcast_S_S1x262144 : S_.BroadcastsInDim S1x262144 (![] : Fin 0 → Fin S1x262144.rank)
  bcast_S1x262144_S1x262144x1_0_1 : S1x262144.BroadcastsInDim S1x262144x1 (![0, 1] : Fin 2 → Fin S1x262144x1.rank)
  concatenates_S1x262144x1_S1x262144x1_S1x262144x2_d2 : Shape.Concatenates [S1x262144x1, S1x262144x1] S1x262144x2 2
  bcast_S1x262144_S1x1x262144_0_2 : S1x262144.BroadcastsInDim S1x1x262144 (![0, 2] : Fin 2 → Fin S1x1x262144.rank)
  bcast_S1x1x262144_S1x32x262144_0_1_2 : S1x1x262144.BroadcastsInDim S1x32x262144 (![0, 1, 2] : Fin 3 → Fin S1x32x262144.rank)
  transposes_S1x32x262144_S1x262144x32_0_2_1 : S1x32x262144.Transposes [0, 2, 1] S1x262144x32
  shapeCasts_S1x262144x32_S262144x32 : S1x262144x32.ShapeCasts S262144x32
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  transposes_S1x3x262144_S1x262144x3_0_2_1 : S1x3x262144.Transposes [0, 2, 1] S1x262144x3
  shapeCasts_S1x262144x3_S262144x3 : S1x262144x3.ShapeCasts S262144x3
  bcast_S_S4 : S_.BroadcastsInDim S4 (![] : Fin 0 → Fin S4.rank)
  bcast_S262144x3_S262144x1x3_0_2 : S262144x3.BroadcastsInDim S262144x1x3 (![0, 2] : Fin 2 → Fin S262144x1x3.rank)
  bcast_S4_S1x4x1_1 : S4.BroadcastsInDim S1x4x1 (![1] : Fin 1 → Fin S1x4x1.rank)
  bcast_S262144x1x3_S262144x4x3_0_1_2 : S262144x1x3.BroadcastsInDim S262144x4x3 (![0, 1, 2] : Fin 3 → Fin S262144x4x3.rank)
  bcast_S1x4x1_S262144x4x3_0_1_2 : S1x4x1.BroadcastsInDim S262144x4x3 (![0, 1, 2] : Fin 3 → Fin S262144x4x3.rank)
  shapeCasts_S262144x4x3_S262144x12 : S262144x4x3.ShapeCasts S262144x12
  concatenates_S262144x3_S262144x12_S262144x12_S262144x27_d1 : Shape.Concatenates [S262144x3, S262144x12, S262144x12] S262144x27 1
  concatenates_S262144x32_S262144x27_S262144x59_d1 : Shape.Concatenates [S262144x32, S262144x27] S262144x59 1
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  shapeCasts_S262144x1_S1x262144x1 : S262144x1.ShapeCasts S1x262144x1
  transposes_S1x262144x1_S1x1x262144_0_2_1 : S1x262144x1.Transposes [0, 2, 1] S1x1x262144
  shapeCasts_S262144x3_S1x262144x3 : S262144x3.ShapeCasts S1x262144x3
  transposes_S1x262144x3_S1x3x262144_0_2_1 : S1x262144x3.Transposes [0, 2, 1] S1x3x262144
  concatenates_S1x1x262144_S1x3x262144_S1x4x262144_d1 : Shape.Concatenates [S1x1x262144, S1x3x262144] S1x4x262144 1
  gather_S1x32x256x256_S1x262144x2_S1x32x262144_1_23_0_0_23_2_13211_wf : GatherDims.WF S1x32x256x256 S1x262144x2 S1x32x262144 [1] [2, 3] [0] [2, 3] [0] 2 ![1, 32, 1, 1]
  dot_S262144x32_S32x128_S262144x128_1_0_0_1_n_n_wf : DotDims.WF S262144x32 S32x128 S262144x128 [1] [0] [0] [1] [] []
  dot_S262144x128_S128x128_S262144x128_1_0_0_1_n_n_wf : DotDims.WF S262144x128 S128x128 S262144x128 [1] [0] [0] [1] [] []
  dot_S262144x128_S128x1_S262144x1_1_0_0_1_n_n_wf : DotDims.WF S262144x128 S128x1 S262144x1 [1] [0] [0] [1] [] []
  dot_S262144x59_S59x128_S262144x128_1_0_0_1_n_n_wf : DotDims.WF S262144x59 S59x128 S262144x128 [1] [0] [0] [1] [] []
  dot_S262144x128_S128x3_S262144x3_1_0_0_1_n_n_wf : DotDims.WF S262144x128 S128x3 S262144x3 [1] [0] [0] [1] [] []

variable [Facts₀]

def gather_S1x32x256x256_S1x262144x2_S1x32x262144_1_23_0_0_23_2_13211 : GatherDims S1x32x256x256 S1x262144x2 S1x32x262144 where
  offsetDims := [1]
  collapsedSliceDims := [2, 3]
  operandBatchingDims := [0]
  startIndicesBatchingDims := [0]
  startIndexMap := [2, 3]
  indexVectorDim := 2
  sliceSizes := ![1, 32, 1, 1]
  wf := gather_S1x32x256x256_S1x262144x2_S1x32x262144_1_23_0_0_23_2_13211_wf
def dot_S262144x32_S32x128_S262144x128_1_0_0_1_n_n : DotDims S262144x32 S32x128 S262144x128 where
  lhsContracting := [1]
  rhsContracting := [0]
  lhsNonContracting := [0]
  rhsNonContracting := [1]
  lhsBatch := []
  rhsBatch := []
  wf := dot_S262144x32_S32x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def dot_S262144x59_S59x128_S262144x128_1_0_0_1_n_n : DotDims S262144x59 S59x128 S262144x128 where
  lhsContracting := [1]
  rhsContracting := [0]
  lhsNonContracting := [0]
  rhsNonContracting := [1]
  lhsBatch := []
  rhsBatch := []
  wf := dot_S262144x59_S59x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.KTerm.lean ====
/-
  Names for the three nested feature values inside the kernel body's one store: the feature after the first
  plane (`featX`), after the second (`featXY`) and after the third (`featXYZ`), each a 32 × 1024 array computed from
  the point block and the planes' blocks; and the body's stored block over them.
-/
import proofs.«422422_j77094662963970_3_alg».proof.Proof.Gen.KernelIdeal.Frame

noncomputable section

namespace Cert.KernelIdeal.KTerm

open Cert.KernelIdeal Cert.KernelIdeal.Gen Idealize.ShloMosaic Idealize.ShloMosaic.TcCoe Idealize.SL.Sem

variable {F : FTy → Type} [FloatOps F]

/-- The feature contributed by the first plane (rows sampled at w, columns at v). -/
def featX (x0 : Vec F S1x3x1024 .f32) (x2 : Vec F S8192x256 .bf16) : FVec F S32x1024 .f32 :=
  (k0_pay31 (k0_pay23 (k0_pay6 (View.ld x0 r0_0)) (k0_pay12 (View.ld x0 r0_0)) (k0_pay13 (View.ld x0 r0_0)) (iota .tc S256x1024 32 [0] iota_S256x1024_d0_w32) (k0_pay14 (View.ld x0 r0_0))) (k0_pay24 (k0_pay22 (k0_pay6 (View.ld x0 r0_0)) (k0_pay12 (View.ld x0 r0_0)) (k0_pay13 (View.ld x0 r0_0)) (iota .tc S256x1024 32 [0] iota_S256x1024_d0_w32) (k0_pay14 (View.ld x0 r0_0)))) (k0_pay25 (k0_pay16 (k0_pay8 (View.ld x0 r0_0))) (k0_pay17 (k0_pay9 (View.ld x0 r0_0))) (k0_pay22 (k0_pay6 (View.ld x0 r0_0)) (k0_pay12 (View.ld x0 r0_0)) (k0_pay13 (View.ld x0 r0_0)) (iota .tc S256x1024 32 [0] iota_S256x1024_d0_w32) (k0_pay14 (View.ld x0 r0_0))) (k0_pay23 (k0_pay6 (View.ld x0 r0_0)) (k0_pay12 (View.ld x0 r0_0)) (k0_pay13 (View.ld x0 r0_0)) (iota .tc S256x1024 32 [0] iota_S256x1024_d0_w32) (k0_pay14 (View.ld x0 r0_0))) (View.ld x2 r0_1)) (k0_pay26 (k0_pay16 (k0_pay8 (View.ld x0 r0_0))) (k0_pay17 (k0_pay9 (View.ld x0 r0_0))) (k0_pay22 (k0_pay6 (View.ld x0 r0_0)) (k0_pay12 (View.ld x0 r0_0)) (k0_pay13 (View.ld x0 r0_0)) (iota .tc S256x1024 32 [0] iota_S256x1024_d0_w32) (k0_pay14 (View.ld x0 r0_0))) (k0_pay23 (k0_pay6 (View.ld x0 r0_0)) (k0_pay12 (View.ld x0 r0_0)) (k0_pay13 (View.ld x0 r0_0)) (iota .tc S256x1024 32 [0] iota_S256x1024_d0_w32) (k0_pay14 (View.ld x0 r0_0))) (View.ld x2 r0_2)) (k0_pay27 (k0_pay16 (k0_pay8 (View.ld x0 r0_0))) (k0_pay17 (k0_pay9 (View.ld x0 r0_0))) (k0_pay22 (k0_pay6 (View.ld x0 r0_0)) (k0_pay12 (View.ld x0 r0_0)) (k0_pay13 (View.ld x0 r0_0)) (iota .tc S256x1024 32 [0] iota_S256x1024_d0_w32) (k0_pay14 (View.ld x0 r0_0))) (k0_pay23 (k0_pay6 (View.ld x0 r0_0)) (k0_pay12 (View.ld x0 r0_0)) (k0_pay13 (View.ld x0 r0_0)) (iota .tc S256x1024 32 [0] iota_S256x1024_d0_w32) (k0_pay14 (View.ld x0 r0_0))) (View.ld x2 r0_3)) (k0_pay29 (k0_pay16 (k0_pay8 (View.ld x0 r0_0))) (View.ld x2 r0_4)) (k0_pay30 (k0_pay17 (k0_pay9 (View.ld x0 r0_0))) (View.ld x2 r0_4)))

/-- The feature after the second plane is added (rows at w, columns at u). -/
def featXY (x0 : Vec F S1x3x1024 .f32) (x2 : Vec F S8192x256 .bf16) (x3 : Vec F S8192x256 .bf16) : FVec F S32x1024 .f32 :=
  (k0_pay38 (k0_pay16 (k0_pay8 (View.ld x0 r0_0))) (k0_pay17 (k0_pay9 (View.ld x0 r0_0))) (featX x0 x2) (k0_pay32 (k0_pay6 (View.ld x0 r0_0)) (k0_pay20 (k0_pay3 (View.ld x0 r0_0)))) (k0_pay33 (k0_pay6 (View.ld x0 r0_0)) (k0_pay20 (k0_pay3 (View.ld x0 r0_0)))) (k0_pay34 (k0_pay6 (View.ld x0 r0_0)) (k0_pay16 (k0_pay8 (View.ld x0 r0_0))) (k0_pay17 (k0_pay9 (View.ld x0 r0_0))) (k0_pay20 (k0_pay3 (View.ld x0 r0_0))) (View.ld x3 r0_1)) (k0_pay35 (k0_pay6 (View.ld x0 r0_0)) (k0_pay16 (k0_pay8 (View.ld x0 r0_0))) (k0_pay17 (k0_pay9 (View.ld x0 r0_0))) (k0_pay20 (k0_pay3 (View.ld x0 r0_0))) (View.ld x3 r0_2)) (k0_pay36 (View.ld x3 r0_3)) (k0_pay37 (k0_pay16 (k0_pay8 (View.ld x0 r0_0))) (View.ld x3 r0_3)) (constant S2048x1024 .f32 0x00000000#32) (View.ld x3 r0_4))

/-- The feature after the third plane is added (rows at v, columns at u). -/
def featXYZ (x0 : Vec F S1x3x1024 .f32) (x2 : Vec F S8192x256 .bf16) (x3 : Vec F S8192x256 .bf16) (x4 : Vec F S8192x256 .bf16) : FVec F S32x1024 .f32 :=
  (k0_pay43 (k0_pay18 (k0_pay14 (View.ld x0 r0_0))) (k0_pay19 (F := F) (k0_pay13 (View.ld x0 r0_0)) (iota .tc S256x1024 32 [0] iota_S256x1024_d0_w32)) (featXY x0 x2 x3) (k0_pay39 (k0_pay12 (View.ld x0 r0_0)) (k0_pay20 (k0_pay3 (View.ld x0 r0_0)))) (k0_pay40 (k0_pay12 (View.ld x0 r0_0)) (k0_pay20 (k0_pay3 (View.ld x0 r0_0)))) (k0_pay41 (k0_pay12 (View.ld x0 r0_0)) (k0_pay18 (k0_pay14 (View.ld x0 r0_0))) (k0_pay19 (F := F) (k0_pay13 (View.ld x0 r0_0)) (iota .tc S256x1024 32 [0] iota_S256x1024_d0_w32)) (k0_pay20 (k0_pay3 (View.ld x0 r0_0))) (View.ld x4 r0_1)) (k0_pay42 (View.ld x4 r0_2)) (constant S2048x1024 .f32 0x00000000#32) (View.ld x4 r0_3) (View.ld x4 r0_4))

/-- The body's stored block over the named feature. -/
theorem out0_11_eq (x0 : Vec F S1x3x1024 .f32) (x1 : Vec F S1x3x1024 .f32) (x2 : Vec F S8192x256 .bf16) (x3 : Vec F S8192x256 .bf16) (x4 : Vec F S8192x256 .bf16) (x5 : Vec F S256x59 .f32) (x6 : Vec F S256 .f32) (x7 : Vec F S256x256 .f32) (x8 : Vec F S256 .f32) (x9 : Vec F S4x256 .f32) (x10 : Vec F S4 .f32) :
    out0_11 x0 x1 x2 x3 x4 x5 x6 x7 x8 x9 x10 =
      View.canon [⟨r0_10, k0_pay51 (k0_pay2 (View.ld x1 r0_0)) (featXYZ x0 x2 x3 x4) (k0_pay45 (k0_pay2 (View.ld x1 r0_0))) (k0_pay46 (k0_pay2 (View.ld x1 r0_0))) (k0_pay48 (k0_pay2 (View.ld x1 r0_0))) (k0_pay49 (k0_pay2 (View.ld x1 r0_0))) (k0_pay50 (F := F)) (View.ld x5 r0_5) (View.ld x6 r0_6) (View.ld x7 r0_7) (View.ld x8 r0_6) (View.ld x9 r0_8) (View.ld x10 r0_9)⟩] := rfl

end Cert.KernelIdeal.KTerm

end
-- ==== Proof.Spec.lean ====
/-
  The mathematics both programs compute, point by point, on the extended reals.

  A query point has coordinates (u, v, w) and a view direction d. A coordinate g is mapped to the pixel
  position  pos g = (g + 1) · ½ · 255,  its cell  flo g = ⌊pos g⌋  (as an i32 word, cel g), and the fraction
  fra g = pos g − flo g.  A plane P (channel, row y, column x; 256 × 256) is sampled bilinearly at (gx, gy):
  the four neighbours (cel gx + a, cel gy + b), a, b ∈ {0, 1}, weighted by the fractions, a neighbour outside
  the 256 × 256 grid contributing nothing.

  The kernel spells the sample with one-hot rows (`ksamp`): the row one-hots pick the plane's rows y₀, y₀ + 1 by a
  matrix product, the column weights  wgt gx x = [x = x₀]·(1 − fx) + [x = x₀ + 1]·fx  are folded with the row
  fractions and summed over x.  The reference gathers the four clamped neighbours and masks the invalid ones
  (`rsamp`).  The feature of a point is the sum of the three planes' samples; the view direction is embedded
  as (d, sin(d·2^f), cos(d·2^f))_{f<4}; a three-layer perceptron follows — in the kernel ONE block-diagonal
  59 → 256 → 256 → 4 network (`kmlp`), in the reference two networks 32 → 128 → 128 → 1 and 59 → 128 → 128 → 3
  (`rmlp`).
-/
import Idealize.ShloMosaic.PureOps.Ideal
import Idealize.ShloMosaic.PureOps.Ideal.Laws

noncomputable section

namespace Cert.Tri

open Idealize.ShloMosaic

/-! ## Literals, as both programs print them -/

/-- 1.0 -/
abbrev lit1 : EReal := Ideal.ofBits .f32 0x3F800000#32
/-- 0.5 -/
abbrev litH : EReal := Ideal.ofBits .f32 0x3F000000#32
/-- 255.0 -/
abbrev lit255 : EReal := Ideal.ofBits .f32 0x437F0000#32
/-- 0.0 -/
abbrev lit0 : EReal := Ideal.ofBits .f32 0x00000000#32

/-! ## A coordinate's pixel position, cell and fraction -/

/-- The pixel position of a coordinate: (g + 1) · ½ · 255. -/
def pos (g : EReal) : EReal := (g + lit1) * litH * lit255
/-- Its floor. -/
def flo (g : EReal) : EReal := Ideal.liftRound Int.floor (pos g)
/-- The fractional part. -/
def fra (g : EReal) : EReal := pos g - flo g
/-- The cell as a 32-bit word. -/
def cel (g : EReal) : BitVec 32 := Ideal.fptosi 32 (flo g)

/-! ## The kernel's sample: one-hot rows and blended column weights -/

/-- The one-hot entry: 1 where position k is the cell i, else 0. -/
def hot (i : BitVec 32) (k : ℕ) : EReal := if BitVec.ofNat 32 k = i then 1 else 0

/-- The blended weight of column x for the coordinate gx. -/
def wgt (gx : EReal) (x : ℕ) : EReal := hot (cel gx) x * (lit1 - fra gx) + hot (cel gx + 1#32) x * fra gx

/-- The kernel's bilinear sample of plane P (channel, row y, column x) at row coordinate gy, column coordinate gx. -/
def ksamp (P : Fin 32 → Fin 256 → Fin 256 → EReal) (gy gx : EReal) (c : Fin 32) : EReal :=
  ∑ x : Fin 256, ((∑ y : Fin 256, P c y x * hot (cel gy) y.val) * ((lit1 - fra gy) * wgt gx x.val)
                 + (∑ y : Fin 256, P c y x * hot (cel gy + 1#32) y.val) * (fra gy * wgt gx x.val))

/-! ## The reference's sample: four clamped, masked neighbours -/

/-- The neighbour (xi, yi) lies in the grid: 1, else 0 (signed comparisons with 0 and 255). -/
def vld (xi yi : BitVec 32) : EReal :=
  if 0 ≤ xi.toInt ∧ xi.toInt ≤ 255 ∧ 0 ≤ yi.toInt ∧ yi.toInt ≤ 255 then 1 else 0

/-- A cell clamped into 0 … 255. -/
def clampF (i : BitVec 32) : Fin 256 :=
  ⟨(min 255 (max 0 i.toInt)).toNat, by
    have h1 : min 255 (max 0 i.toInt) ≤ 255 := min_le_left _ _
    have h2 : 0 ≤ min 255 (max 0 i.toInt) := le_min (by norm_num) (le_max_left _ _)
    omega⟩

/-- One gathered neighbour: the plane at the clamped cell, masked. -/
def rgat (P : Fin 32 → Fin 256 → Fin 256 → EReal) (xi yi : BitVec 32) (c : Fin 32) : EReal :=
  P c (clampF yi) (clampF xi) * vld xi yi

/-- The reference's bilinear sample of plane P at column coordinate gx, row coordinate gy. -/
def rsamp (P : Fin 32 → Fin 256 → Fin 256 → EReal) (gx gy : EReal) (c : Fin 32) : EReal :=
  rgat P (cel gx) (cel gy) c * ((lit1 - fra gx) * (lit1 - fra gy))
  + rgat P (cel gx + 1#32) (cel gy) c * (fra gx * (lit1 - fra gy))
  + rgat P (cel gx) (cel gy + 1#32) c * ((lit1 - fra gx) * fra gy)
  + rgat P (cel gx + 1#32) (cel gy + 1#32) c * (fra gx * fra gy)

/-! ## The view embedding -/

/-- The kernel's four frequency scales 1, 2, 4, 8 as printed literals. -/
def kscale : Fin 4 → EReal
  | ⟨0, _⟩ => Ideal.ofBits .f32 0x3F800000#32
  | ⟨1, _⟩ => Ideal.ofBits .f32 0x40000000#32
  | ⟨2, _⟩ => Ideal.ofBits .f32 0x40800000#32
  | ⟨3, _⟩ => Ideal.ofBits .f32 0x41000000#32

/-- The reference's scales: 2.0 raised to the power f. -/
def rscale (f : Fin 4) : EReal := Ideal.pow (Ideal.ofBits .f32 0x40000000#32) (((f.val : ℤ) : ℝ) : EReal)

/-- The embedding of a direction d: (d, sin (d_j · s_f), cos (d_j · s_f)), frequency-major. -/
def emb (sc : Fin 4 → EReal) (d : Fin 3 → EReal) (k : Fin 27) : EReal :=
  if h : k.val < 3 then d ⟨k.val, h⟩
  else if h' : k.val < 15 then
    Ideal.sin (d ⟨(k.val - 3) % 3, Nat.mod_lt _ (by norm_num)⟩ * sc ⟨(k.val - 3) / 3, by omega⟩)
  else
    Ideal.cos (d ⟨(k.val - 15) % 3, Nat.mod_lt _ (by norm_num)⟩ * sc ⟨(k.val - 15) / 3, by omega⟩)

/-- The colour network's input: the 32 features, then the 27 embedding entries. -/
def cin (feat : Fin 32 → EReal) (e : Fin 27 → EReal) (k : Fin 59) : EReal :=
  if h : k.val < 32 then feat ⟨k.val, h⟩ else e ⟨k.val - 32, by omega⟩

/-! ## The perceptrons -/

/-- max(·, 0) with the printed zero. -/
def relu (x : EReal) : EReal := max x lit0

/-- A layer as the kernel computes it: (Σ_k W i k · x k) + B i. -/
def kdense {a b : ℕ} (W : Fin a → Fin b → EReal) (B : Fin a → EReal) (x : Fin b → EReal) (i : Fin a) : EReal :=
  (∑ k : Fin b, W i k * x k) + B i

/-- The kernel's three-layer network. -/
def kmlp {n h o : ℕ} (W1 : Fin h → Fin n → EReal) (B1 : Fin h → EReal) (W2 : Fin h → Fin h → EReal) (B2 : Fin h → EReal)
    (W3 : Fin o → Fin h → EReal) (B3 : Fin o → EReal) (x : Fin n → EReal) : Fin o → EReal :=
  kdense W3 B3 fun k => relu (kdense W2 B2 (fun k' => relu (kdense W1 B1 x k')) k)

/-- A layer as the reference computes it: (Σ_k x k · W k j) + B j. -/
def rdense {a b : ℕ} (W : Fin b → Fin a → EReal) (B : Fin a → EReal) (x : Fin b → EReal) (j : Fin a) : EReal :=
  (∑ k : Fin b, x k * W k j) + B j

/-- The reference's three-layer network. -/
def rmlp {n h o : ℕ} (W1 : Fin n → Fin h → EReal) (B1 : Fin h → EReal) (W2 : Fin h → Fin h → EReal) (B2 : Fin h → EReal)
    (W3 : Fin h → Fin o → EReal) (B3 : Fin o → EReal) (x : Fin n → EReal) : Fin o → EReal :=
  rdense W3 B3 fun k => relu (rdense W2 B2 (fun k' => relu (rdense W1 B1 x k')) k)

/-! ## The kernel's fused weights from the reference's -/

/-- Layer 1: rows 0 … 127 are dW1ᵀ padded with 27 zero columns, rows 128 … 255 are cW1ᵀ. -/
def WA1 (dW1 : Fin 32 → Fin 128 → EReal) (cW1 : Fin 59 → Fin 128 → EReal) (i : Fin 256) (k : Fin 59) : EReal :=
  if hi : i.val < 128 then (if hk : k.val < 32 then dW1 ⟨k.val, hk⟩ ⟨i.val, hi⟩ else lit0)
  else cW1 k ⟨i.val - 128, by omega⟩
/-- A bias: the density network's entries, then the colour network's. -/
def BA {a b : ℕ} (dB : Fin a → EReal) (cB : Fin b → EReal) (i : Fin (a + b)) : EReal :=
  if hi : i.val < a then dB ⟨i.val, hi⟩ else cB ⟨i.val - a, by omega⟩
/-- Layer 2: block diagonal, dW2ᵀ and cW2ᵀ. -/
def WA2 (dW2 cW2 : Fin 128 → Fin 128 → EReal) (i k : Fin 256) : EReal :=
  if hi : i.val < 128 then (if hk : k.val < 128 then dW2 ⟨k.val, hk⟩ ⟨i.val, hi⟩ else lit0)
  else (if hk : k.val < 128 then lit0 else cW2 ⟨k.val - 128, by omega⟩ ⟨i.val - 128, by omega⟩)
/-- Layer 3: row 0 is dW3ᵀ then zeros, rows 1 … 3 zeros then cW3ᵀ. -/
def WA3 (dW3 : Fin 128 → Fin 1 → EReal) (cW3 : Fin 128 → Fin 3 → EReal) (i : Fin 4) (k : Fin 256) : EReal :=
  if hi : i.val < 1 then (if hk : k.val < 128 then dW3 ⟨k.val, hk⟩ ⟨i.val, hi⟩ else lit0)
  else (if hk : k.val < 128 then lit0 else cW3 ⟨k.val - 128, by omega⟩ ⟨i.val - 1, by omega⟩)

/-! ## One point, end to end -/

/-- The kernel's four outputs at a point. -/
def kpt (PX PY PZ : Fin 32 → Fin 256 → Fin 256 → EReal)
    (W1 : Fin 256 → Fin 59 → EReal) (B1 : Fin 256 → EReal) (W2 : Fin 256 → Fin 256 → EReal) (B2 : Fin 256 → EReal)
    (W3 : Fin 4 → Fin 256 → EReal) (B3 : Fin 4 → EReal) (u v w : EReal) (d : Fin 3 → EReal) : Fin 4 → EReal :=
  kmlp W1 B1 W2 B2 W3 B3 (cin (fun c => ksamp PX w v c + ksamp PY w u c + ksamp PZ v u c) (emb kscale d))

/-- The reference's feature of a point. -/
def rfeat (PX PY PZ : Fin 32 → Fin 256 → Fin 256 → EReal) (u v w : EReal) (c : Fin 32) : EReal :=
  rsamp PX v w c + rsamp PY u w c + rsamp PZ u v c

/-- The reference's four outputs at a point: the density, then the three colours. -/
def rpt (PX PY PZ : Fin 32 → Fin 256 → Fin 256 → EReal)
    (dW1 : Fin 32 → Fin 128 → EReal) (dB1 : Fin 128 → EReal) (dW2 : Fin 128 → Fin 128 → EReal) (dB2 : Fin 128 → EReal)
    (dW3 : Fin 128 → Fin 1 → EReal) (dB3 : Fin 1 → EReal)
    (cW1 : Fin 59 → Fin 128 → EReal) (cB1 : Fin 128 → EReal) (cW2 : Fin 128 → Fin 128 → EReal) (cB2 : Fin 128 → EReal)
    (cW3 : Fin 128 → Fin 3 → EReal) (cB3 : Fin 3 → EReal) (u v w : EReal) (d : Fin 3 → EReal) (j : Fin 4) : EReal :=
  if hj : j.val < 1 then rmlp dW1 dB1 dW2 dB2 dW3 dB3 (rfeat PX PY PZ u v w) ⟨j.val, hj⟩
  else rmlp cW1 cB1 cW2 cB2 cW3 cB3 (cin (rfeat PX PY PZ u v w) (emb rscale d)) ⟨j.val - 1, by omega⟩

end Cert.Tri

end
-- ==== Proof.Iface.lean ====
/-
  How the arrays of the two programs are read as the planes, matrices and vectors the mathematics speaks of.
-/
import proofs.«422422_j77094662963970_3_alg».proof.Proof.Spec
import Idealize.ShloMosaic.Lib.ValueIdx

noncomputable section

namespace Cert.Tri

open Idealize.ShloMosaic Idealize.ShloMosaic.ValueIdx

/-- Plane p (0, 1, 2) of the triplanes array [1, 96, 256, 256]: channel c of plane p is channel 32·p + c. -/
def plane (tri : (⟨4, ![1, 96, 256, 256]⟩ : Shape).Idx → EReal) (p : Fin 3) (c : Fin 32) (y x : Fin 256) : EReal :=
  tri (ix4 0 ⟨32 * p.val + c.val, by omega⟩ y x)

/-- The kernel's re-laid plane [8192, 256]: entry (channel c, row y, column x) sits at row c·256 + x, column y. -/
def planeK (a : (⟨2, ![8192, 256]⟩ : Shape).Idx → EReal) (c : Fin 32) (y x : Fin 256) : EReal :=
  a (ix2 ⟨c.val * 256 + x.val, by omega⟩ y)

/-- A rank-2 array as a matrix. -/
def mat2 {a b : ℕ} (w : (⟨2, ![a, b]⟩ : Shape).Idx → EReal) (i : Fin a) (k : Fin b) : EReal := w (ix2 i k)

/-- A rank-1 array as a vector. -/
def vec1 {a : ℕ} (w : (⟨1, ![a]⟩ : Shape).Idx → EReal) (i : Fin a) : EReal := w (ix1 i)

/-- The three coordinates / direction components of point q in a [1, 3, n] array. -/
def comp {n : ℕ} (p : (⟨3, ![1, 3, n]⟩ : Shape).Idx → EReal) (q : Fin n) (a : Fin 3) : EReal := p (ix3 0 a q)

end Cert.Tri

end
-- ==== Proof.KMlp.lean ====
/- The stored block read at an output row j and a point q: the fused perceptron of the feature and the embedded direction. -/
import proofs.«422422_j77094662963970_3_alg».proof.Proof.KTerm
import proofs.«422422_j77094662963970_3_alg».proof.Proof.Iface
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KMlp

open Cert.KernelIdeal Cert.KernelIdeal.Gen Cert.KernelIdeal.KTerm Cert.Tri Idealize.ShloMosaic Idealize.ShloMosaic.ValueIdx

/-! ## The three matrix products at an index -/

/-- The left operand's row at output index i is i's row. -/
theorem lhs1_0 (i : S256x1024.Idx) (c : dot_S256x59_S59x1024_S256x1024_1_0_0_1_n_n.contr.Idx) :
    (dot_S256x59_S59x1024_S256x1024_1_0_0_1_n_n.lhsIdx i c 0).val = (i 0).val := by
  unfold DotDims.lhsIdx
  rw [dif_neg (show ¬(0 : Fin S256x59.rank) ∈ dot_S256x59_S59x1024_S256x1024_1_0_0_1_n_n.lhsBatch by decide),
    dif_pos (show (0 : Fin S256x59.rank) ∈ dot_S256x59_S59x1024_S256x1024_1_0_0_1_n_n.lhsNonContracting by decide)]
  rfl
/-- The left operand's column is the contraction position. -/
theorem lhs1_1 (i : S256x1024.Idx) (c : dot_S256x59_S59x1024_S256x1024_1_0_0_1_n_n.contr.Idx) :
    (dot_S256x59_S59x1024_S256x1024_1_0_0_1_n_n.lhsIdx i c 1).val = (c ⟨0, by decide⟩).val :=
  dot_S256x59_S59x1024_S256x1024_1_0_0_1_n_n.lhsIdx_val_of_single rfl i c
/-- The right operand's row is the contraction position. -/
theorem rhs1_0 (i : S256x1024.Idx) (c : dot_S256x59_S59x1024_S256x1024_1_0_0_1_n_n.contr.Idx) :
    (dot_S256x59_S59x1024_S256x1024_1_0_0_1_n_n.rhsIdx i c 0).val = (c ⟨0, by decide⟩).val :=
  dot_S256x59_S59x1024_S256x1024_1_0_0_1_n_n.rhsIdx_val_of_single rfl i c
/-- The right operand's column at output index i is i's column. -/
theorem rhs1_1 (i : S256x1024.Idx) (c : dot_S256x59_S59x1024_S256x1024_1_0_0_1_n_n.contr.Idx) :
    (dot_S256x59_S59x1024_S256x1024_1_0_0_1_n_n.rhsIdx i c 1).val = (i 1).val := by
  unfold DotDims.rhsIdx
  rw [dif_neg (show ¬(1 : Fin S59x1024.rank) ∈ dot_S256x59_S59x1024_S256x1024_1_0_0_1_n_n.rhsBatch by decide),
    dif_pos (show (1 : Fin S59x1024.rank) ∈ dot_S256x59_S59x1024_S256x1024_1_0_0_1_n_n.rhsNonContracting by decide)]
  rfl
/-- The product into the zero accumulator at (i, q): Σ_k lhs (i, k) · rhs (k, q). -/
theorem mm1_apply (lhs : FVec Ideal S256x59 .f32) (rhs : FVec Ideal S59x1024 .f32) (i : Fin 256) (q : Fin 1024) :
    matmul dot_S256x59_S59x1024_S256x1024_1_0_0_1_n_n none lhs rhs (constant (F := Ideal) S256x1024 .f32 0x00000000#32) (ix2 i q)
      = ∑ k : Fin 59, lhs (ix2 i k) * rhs (ix2 k q) := by
  simp only [matmul]
  rw [Ideal.matmul_constant_zero_apply, ← Equiv.sum_comp (contrEquiv1 dot_S256x59_S59x1024_S256x1024_1_0_0_1_n_n 59 rfl rfl).symm]
  refine Finset.sum_congr rfl fun k _ => ?_
  have hk := contrEquiv1_symm_val dot_S256x59_S59x1024_S256x1024_1_0_0_1_n_n 59 rfl rfl k
  have el : dot_S256x59_S59x1024_S256x1024_1_0_0_1_n_n.lhsIdx (ix2 i q) ((contrEquiv1 dot_S256x59_S59x1024_S256x1024_1_0_0_1_n_n 59 rfl rfl).symm k) = ix2 i k :=
    funext fun a => Fin.ext (by
      match a with
      | ⟨0, _⟩ => exact lhs1_0 _ _
      | ⟨1, _⟩ => exact (lhs1_1 _ _).trans hk)
  have er : dot_S256x59_S59x1024_S256x1024_1_0_0_1_n_n.rhsIdx (ix2 i q) ((contrEquiv1 dot_S256x59_S59x1024_S256x1024_1_0_0_1_n_n 59 rfl rfl).symm k) = ix2 k q :=
    funext fun a => Fin.ext (by
      match a with
      | ⟨0, _⟩ => exact (rhs1_0 _ _).trans hk
      | ⟨1, _⟩ => exact rhs1_1 _ _)
  rw [el, er]

/-- The left operand's row at output index i is i's row. -/
theorem lhs2_0 (i : S256x1024.Idx) (c : dot_S256x256_S256x1024_S256x1024_1_0_0_1_n_n.contr.Idx) :
    (dot_S256x256_S256x1024_S256x1024_1_0_0_1_n_n.lhsIdx i c 0).val = (i 0).val := by
  unfold DotDims.lhsIdx
  rw [dif_neg (show ¬(0 : Fin S256x256.rank) ∈ dot_S256x256_S256x1024_S256x1024_1_0_0_1_n_n.lhsBatch by decide),
    dif_pos (show (0 : Fin S256x256.rank) ∈ dot_S256x256_S256x1024_S256x1024_1_0_0_1_n_n.lhsNonContracting by decide)]
  rfl
/-- The left operand's column is the contraction position. -/
theorem lhs2_1 (i : S256x1024.Idx) (c : dot_S256x256_S256x1024_S256x1024_1_0_0_1_n_n.contr.Idx) :
    (dot_S256x256_S256x1024_S256x1024_1_0_0_1_n_n.lhsIdx i c 1).val = (c ⟨0, by decide⟩).val :=
  dot_S256x256_S256x1024_S256x1024_1_0_0_1_n_n.lhsIdx_val_of_single rfl i c
/-- The right operand's row is the contraction position. -/
theorem rhs2_0 (i : S256x1024.Idx) (c : dot_S256x256_S256x1024_S256x1024_1_0_0_1_n_n.contr.Idx) :
    (dot_S256x256_S256x1024_S256x1024_1_0_0_1_n_n.rhsIdx i c 0).val = (c ⟨0, by decide⟩).val :=
  dot_S256x256_S256x1024_S256x1024_1_0_0_1_n_n.rhsIdx_val_of_single rfl i c
/-- The right operand's column at output index i is i's column. -/
theorem rhs2_1 (i : S256x1024.Idx) (c : dot_S256x256_S256x1024_S256x1024_1_0_0_1_n_n.contr.Idx) :
    (dot_S256x256_S256x1024_S256x1024_1_0_0_1_n_n.rhsIdx i c 1).val = (i 1).val := by
  unfold DotDims.rhsIdx
  rw [dif_neg (show ¬(1 : Fin S256x1024.rank) ∈ dot_S256x256_S256x1024_S256x1024_1_0_0_1_n_n.rhsBatch by decide),
    dif_pos (show (1 : Fin S256x1024.rank) ∈ dot_S256x256_S256x1024_S256x1024_1_0_0_1_n_n.rhsNonContracting by decide)]
  rfl
/-- The product into the zero accumulator at (i, q): Σ_k lhs (i, k) · rhs (k, q). -/
theorem mm2_apply (lhs : FVec Ideal S256x256 .f32) (rhs : FVec Ideal S256x1024 .f32) (i : Fin 256) (q : Fin 1024) :
    matmul dot_S256x256_S256x1024_S256x1024_1_0_0_1_n_n none lhs rhs (constant (F := Ideal) S256x1024 .f32 0x00000000#32) (ix2 i q)
      = ∑ k : Fin 256, lhs (ix2 i k) * rhs (ix2 k q) := by
  simp only [matmul]
  rw [Ideal.matmul_constant_zero_apply, ← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have el : dot_S256x256_S256x1024_S256x1024_1_0_0_1_n_n.lhsIdx (ix2 i q) ((contrEquiv1 dot_S256x256_S256x1024_S256x1024_1_0_0_1_n_n 256 rfl rfl).symm k) = ix2 i k :=
    funext fun a => Fin.ext (by
      match a with
      | ⟨0, _⟩ => exact lhs2_0 _ _
      | ⟨1, _⟩ => exact (lhs2_1 _ _).trans hk)
  have er : dot_S256x256_S256x1024_S256x1024_1_0_0_1_n_n.rhsIdx (ix2 i q) ((contrEquiv1 dot_S256x256_S256x1024_S256x1024_1_0_0_1_n_n 256 rfl rfl).symm k) = ix2 k q :=
    funext fun a => Fin.ext (by
      match a with
      | ⟨0, _⟩ => exact (rhs2_0 _ _).trans hk
      | ⟨1, _⟩ => exact rhs2_1 _ _)
  rw [el, er]

/-- The left operand's row at output index i is i's row. -/
theorem lhs3_0 (i : S4x1024.Idx) (c : dot_S4x256_S256x1024_S4x1024_1_0_0_1_n_n.contr.Idx) :
    (dot_S4x256_S256x1024_S4x1024_1_0_0_1_n_n.lhsIdx i c 0).val = (i 0).val := by
  unfold DotDims.lhsIdx
  rw [dif_neg (show ¬(0 : Fin S4x256.rank) ∈ dot_S4x256_S256x1024_S4x1024_1_0_0_1_n_n.lhsBatch by decide),
    dif_pos (show (0 : Fin S4x256.rank) ∈ dot_S4x256_S256x1024_S4x1024_1_0_0_1_n_n.lhsNonContracting by decide)]
  rfl
/-- The left operand's column is the contraction position. -/
theorem lhs3_1 (i : S4x1024.Idx) (c : dot_S4x256_S256x1024_S4x1024_1_0_0_1_n_n.contr.Idx) :
    (dot_S4x256_S256x1024_S4x1024_1_0_0_1_n_n.lhsIdx i c 1).val = (c ⟨0, by decide⟩).val :=
  dot_S4x256_S256x1024_S4x1024_1_0_0_1_n_n.lhsIdx_val_of_single rfl i c
/-- The right operand's row is the contraction position. -/
theorem rhs3_0 (i : S4x1024.Idx) (c : dot_S4x256_S256x1024_S4x1024_1_0_0_1_n_n.contr.Idx) :
    (dot_S4x256_S256x1024_S4x1024_1_0_0_1_n_n.rhsIdx i c 0).val = (c ⟨0, by decide⟩).val :=
  dot_S4x256_S256x1024_S4x1024_1_0_0_1_n_n.rhsIdx_val_of_single rfl i c
/-- The right operand's column at output index i is i's column. -/
theorem rhs3_1 (i : S4x1024.Idx) (c : dot_S4x256_S256x1024_S4x1024_1_0_0_1_n_n.contr.Idx) :
    (dot_S4x256_S256x1024_S4x1024_1_0_0_1_n_n.rhsIdx i c 1).val = (i 1).val := by
  unfold DotDims.rhsIdx
  rw [dif_neg (show ¬(1 : Fin S256x1024.rank) ∈ dot_S4x256_S256x1024_S4x1024_1_0_0_1_n_n.rhsBatch by decide),
    dif_pos (show (1 : Fin S256x1024.rank) ∈ dot_S4x256_S256x1024_S4x1024_1_0_0_1_n_n.rhsNonContracting by decide)]
  rfl
/-- The product into the zero accumulator at (i, q): Σ_k lhs (i, k) · rhs (k, q). -/
theorem mm3_apply (lhs : FVec Ideal S4x256 .f32) (rhs : FVec Ideal S256x1024 .f32) (i : Fin 4) (q : Fin 1024) :
    matmul dot_S4x256_S256x1024_S4x1024_1_0_0_1_n_n none lhs rhs (constant (F := Ideal) S4x1024 .f32 0x00000000#32) (ix2 i q)
      = ∑ k : Fin 256, lhs (ix2 i k) * rhs (ix2 k q) := by
  simp only [matmul]
  rw [Ideal.matmul_constant_zero_apply, ← Equiv.sum_comp (contrEquiv1 dot_S4x256_S256x1024_S4x1024_1_0_0_1_n_n 256 rfl rfl).symm]
  refine Finset.sum_congr rfl fun k _ => ?_
  have hk := contrEquiv1_symm_val dot_S4x256_S256x1024_S4x1024_1_0_0_1_n_n 256 rfl rfl k
  have el : dot_S4x256_S256x1024_S4x1024_1_0_0_1_n_n.lhsIdx (ix2 i q) ((contrEquiv1 dot_S4x256_S256x1024_S4x1024_1_0_0_1_n_n 256 rfl rfl).symm k) = ix2 i k :=
    funext fun a => Fin.ext (by
      match a with
      | ⟨0, _⟩ => exact lhs3_0 _ _
      | ⟨1, _⟩ => exact (lhs3_1 _ _).trans hk)
  have er : dot_S4x256_S256x1024_S4x1024_1_0_0_1_n_n.rhsIdx (ix2 i q) ((contrEquiv1 dot_S4x256_S256x1024_S4x1024_1_0_0_1_n_n 256 rfl rfl).symm k) = ix2 k q :=
    funext fun a => Fin.ext (by
      match a with
      | ⟨0, _⟩ => exact (rhs3_0 _ _).trans hk
      | ⟨1, _⟩ => exact rhs3_1 _ _)
  rw [el, er]

/-! ## A bias column broadcast along the points, and the three layers at an index -/

/-- A vector cast to itself, then to one column, then broadcast along the points, reads at (i, q) its entry i. -/
theorem bias_apply {a b : ℕ} (v : (⟨1, ![a]⟩ : Shape).Idx → EReal) (h0 : (⟨1, ![a]⟩ : Shape).ShapeCasts ⟨1, ![a]⟩)
    (h1 : (⟨1, ![a]⟩ : Shape).ShapeCasts ⟨2, ![a, 1]⟩) (h2 : (⟨2, ![a, 1]⟩ : Shape).Broadcasts ⟨2, ![a, b]⟩)
    (i : Fin a) (q : Fin b) :
    broadcastTo ⟨2, ![a, b]⟩ (shapeCast ⟨2, ![a, 1]⟩ (shapeCast ⟨1, ![a]⟩ v h0) h1) h2 (ix2 i q) = v (ix1 i) := by
  rw [shapeCast_self]
  refine (broadcastTo_apply _ h2 (ix2 i q) (ix2 i (0 : Fin 1)) (fun ax => ?_)).trans ?_
  · match ax with
    | ⟨0, _⟩ =>
      show i.val = if a = 1 then 0 else i.val
      split
      · have := i.isLt; omega
      · rfl
    | ⟨1, _⟩ => rfl
  · refine shapeCast_apply v h1 (ix2 i (0 : Fin 1)) (ix1 i) ?_
    rw [Shape.rowMajor_val_one, Shape.rowMajor_val_two]
    show i.val = i.val * 1 + 0
    omega

/-- max(·, 0) against the broadcast printed zero is relu. -/
theorem relu_apply {s : Shape} (y : FVec Ideal s .f32) (i : s.Idx) :
    maximumf y (broadcast s (Scalar.ofBits (F := Ideal) .f32 0x00000000#32)) i = relu (y i) := rfl

/-- The first layer before its relu. -/
def lin1 (W : Vec Ideal S256x59 .f32) (b : Vec Ideal S256 .f32) (x : FVec Ideal S59x1024 .f32) : FVec Ideal S256x1024 .f32 :=
  addf (matmul dot_S256x59_S59x1024_S256x1024_1_0_0_1_n_n none (shapeCast S256x59 W shapeCasts_S256x59_S256x59 : FVec Ideal S256x59 .f32) x
      (constant (F := Ideal) S256x1024 .f32 0x00000000#32))
    (broadcastTo S256x1024 (shapeCast S256x1 (shapeCast S256 b shapeCasts_S256_S256 : FVec Ideal S256 .f32) shapeCasts_S256_S256x1) broadcasts_S256x1_S256x1024)

/-- The second layer before its relu. -/
def lin2 (W : Vec Ideal S256x256 .f32) (b : Vec Ideal S256 .f32) (x : FVec Ideal S256x1024 .f32) : FVec Ideal S256x1024 .f32 :=
  addf (matmul dot_S256x256_S256x1024_S256x1024_1_0_0_1_n_n none (shapeCast S256x256 W shapeCasts_S256x256_S256x256 : FVec Ideal S256x256 .f32) x
      (constant (F := Ideal) S256x1024 .f32 0x00000000#32))
    (broadcastTo S256x1024 (shapeCast S256x1 (shapeCast S256 b shapeCasts_S256_S256 : FVec Ideal S256 .f32) shapeCasts_S256_S256x1) broadcasts_S256x1_S256x1024)

/-- The third layer. -/
def lin3 (W : Vec Ideal S4x256 .f32) (b : Vec Ideal S4 .f32) (x : FVec Ideal S256x1024 .f32) : FVec Ideal S4x1024 .f32 :=
  addf (matmul dot_S4x256_S256x1024_S4x1024_1_0_0_1_n_n none (shapeCast S4x256 W shapeCasts_S4x256_S4x256 : FVec Ideal S4x256 .f32) x
      (constant (F := Ideal) S4x1024 .f32 0x00000000#32))
    (broadcastTo S4x1024 (shapeCast S4x1 (shapeCast S4 b shapeCasts_S4_S4 : FVec Ideal S4 .f32) shapeCasts_S4_S4x1) broadcasts_S4x1_S4x1024)

/-- The first layer at (i, q): the dense layer of column q of its input. -/
theorem lin1_apply (W : Vec Ideal S256x59 .f32) (b : Vec Ideal S256 .f32) (x : FVec Ideal S59x1024 .f32) (i : Fin 256) (q : Fin 1024) :
    lin1 W b x (ix2 i q) = kdense (mat2 W) (vec1 b) (fun k => x (ix2 k q)) i := by
  unfold lin1
  rw [addf_apply, mm1_apply, shapeCast_self]
  exact congrArg (_ + ·) (bias_apply b _ _ _ i q)

/-- The second layer at (i, q): the dense layer of column q of its input. -/
theorem lin2_apply (W : Vec Ideal S256x256 .f32) (b : Vec Ideal S256 .f32) (x : FVec Ideal S256x1024 .f32) (i : Fin 256) (q : Fin 1024) :
    lin2 W b x (ix2 i q) = kdense (mat2 W) (vec1 b) (fun k => x (ix2 k q)) i := by
  unfold lin2
  rw [addf_apply, mm2_apply, shapeCast_self]
  exact congrArg (_ + ·) (bias_apply b _ _ _ i q)

/-- The third layer at (i, q): the dense layer of column q of its input. -/
theorem lin3_apply (W : Vec Ideal S4x256 .f32) (b : Vec Ideal S4 .f32) (x : FVec Ideal S256x1024 .f32) (i : Fin 4) (q : Fin 1024) :
    lin3 W b x (ix2 i q) = kdense (mat2 W) (vec1 b) (fun k => x (ix2 k q)) i := by
  unfold lin3
  rw [addf_apply, mm3_apply, shapeCast_self]
  exact congrArg (_ + ·) (bias_apply b _ _ _ i q)

/-! ## The concatenations along the rows, read at an index -/

/-- The network's input: rows 0 … 31 the feature, rows 32 … 58 the embedding. -/
theorem cat59_apply (v : FVec Ideal S32x1024 .f32) (e : FVec Ideal S27x1024 .f32) (k : Fin 59) (q : Fin 1024) :
    concatenate S59x1024 0 [⟨S32x1024, v⟩, ⟨S27x1024, e⟩] concatenates_S32x1024_S27x1024_S59x1024_d0 (ix2 k q)
      = cin (fun c => v (ix2 c q)) (fun k' => e (ix2 k' q)) k := by
  unfold cin
  by_cases h : k.val < 32
  · rw [dif_pos h]
    exact concatenate_pair_apply_left (0 : Fin S59x1024.rank) v e concatenates_S32x1024_S27x1024_S59x1024_d0 (ix2 k q) rfl
      (ix2 ⟨k.val, h⟩ q) (fun b => match b with | ⟨0, _⟩ => rfl | ⟨1, _⟩ => rfl)
  · rw [dif_neg h]
    exact concatenate_pair_apply_right (0 : Fin S59x1024.rank) v e concatenates_S32x1024_S27x1024_S59x1024_d0 (ix2 k q) rfl rfl
      (ix2 ⟨k.val - 32, by have := k.isLt; omega⟩ q)
      (fun b hb => match b, hb with
        | ⟨0, _⟩, hb => absurd rfl hb
        | ⟨1, _⟩, _ => rfl)
      (by show k.val - 32 + 32 = k.val; omega)

/-- Four three-row pieces stacked: row 3·f + r is row r of piece f. -/
theorem cat12_apply (P : Fin 4 → FVec Ideal S3x1024 .f32) (f : Fin 4) (r : Fin 3) (q : Fin 1024) (k : Fin 12)
    (hk : k.val = 3 * f.val + r.val) :
    concatenate S12x1024 0 [⟨S3x1024, P 0⟩, ⟨S3x1024, P 1⟩, ⟨S3x1024, P 2⟩, ⟨S3x1024, P 3⟩]
        concatenates_S3x1024_S3x1024_S3x1024_S3x1024_S12x1024_d0 (ix2 k q) = P f (ix2 r q) := by
  have hoff : ∀ b : Fin S3x1024.rank, b.cast (rfl : S3x1024.rank = S12x1024.rank) ≠ (0 : Fin S12x1024.rank) →
      ((ix2 r q : S3x1024.Idx) b).val = ((ix2 k q : S12x1024.Idx) (b.cast rfl)).val := fun b hb =>
    match b, hb with
    | ⟨0, _⟩, hb => absurd rfl hb
    | ⟨1, _⟩, _ => rfl
  match f, hk with
  | ⟨0, _⟩, hk =>
    exact concatenate_apply_piece (0 : Fin S12x1024.rank) ([⟨S3x1024, P 0⟩, ⟨S3x1024, P 1⟩, ⟨S3x1024, P 2⟩, ⟨S3x1024, P 3⟩] : List ((s : Shape) × (s.Idx → Ideal .f32)))
      concatenates_S3x1024_S3x1024_S3x1024_S3x1024_S12x1024_d0 (ix2 k q)
      0 (by simp) S3x1024 (P 0) rfl rfl 0 rfl (ix2 r q) hoff (by show 0 + r.val = k.val; have : k.val = 3 * 0 + r.val := hk; omega)
  | ⟨1, _⟩, hk =>
    exact concatenate_apply_piece (0 : Fin S12x1024.rank) ([⟨S3x1024, P 0⟩, ⟨S3x1024, P 1⟩, ⟨S3x1024, P 2⟩, ⟨S3x1024, P 3⟩] : List ((s : Shape) × (s.Idx → Ideal .f32)))
      concatenates_S3x1024_S3x1024_S3x1024_S3x1024_S12x1024_d0 (ix2 k q)
      1 (by simp) S3x1024 (P 1) rfl rfl 3 rfl (ix2 r q) hoff (by show 3 + r.val = k.val; have : k.val = 3 * 1 + r.val := hk; omega)
  | ⟨2, _⟩, hk =>
    exact concatenate_apply_piece (0 : Fin S12x1024.rank) ([⟨S3x1024, P 0⟩, ⟨S3x1024, P 1⟩, ⟨S3x1024, P 2⟩, ⟨S3x1024, P 3⟩] : List ((s : Shape) × (s.Idx → Ideal .f32)))
      concatenates_S3x1024_S3x1024_S3x1024_S3x1024_S12x1024_d0 (ix2 k q)
      2 (by simp) S3x1024 (P 2) rfl rfl 6 rfl (ix2 r q) hoff (by show 6 + r.val = k.val; have : k.val = 3 * 2 + r.val := hk; omega)
  | ⟨3, _⟩, hk =>
    exact concatenate_apply_piece (0 : Fin S12x1024.rank) ([⟨S3x1024, P 0⟩, ⟨S3x1024, P 1⟩, ⟨S3x1024, P 2⟩, ⟨S3x1024, P 3⟩] : List ((s : Shape) × (s.Idx → Ideal .f32)))
      concatenates_S3x1024_S3x1024_S3x1024_S3x1024_S12x1024_d0 (ix2 k q)
      3 (by simp) S3x1024 (P 3) rfl rfl 9 rfl (ix2 r q) hoff (by show 9 + r.val = k.val; have : k.val = 3 * 3 + r.val := hk; omega)

/-- The direction, its four sine pieces and its four cosine pieces stacked are the embedding. -/
theorem cat27_apply (v3 : FVec Ideal S3x1024 .f32) (S C : Fin 4 → FVec Ideal S3x1024 .f32) (q : Fin 1024)
    (d : Fin 3 → EReal) (sc : Fin 4 → EReal) (hd : ∀ r, v3 (ix2 r q) = d r)
    (hS : ∀ f r, S f (ix2 r q) = Ideal.sin (d r * sc f)) (hC : ∀ f r, C f (ix2 r q) = Ideal.cos (d r * sc f)) (k : Fin 27) :
    concatenate S27x1024 0 [⟨S3x1024, v3⟩,
        ⟨S12x1024, concatenate S12x1024 0 [⟨S3x1024, S 0⟩, ⟨S3x1024, S 1⟩, ⟨S3x1024, S 2⟩, ⟨S3x1024, S 3⟩]
          concatenates_S3x1024_S3x1024_S3x1024_S3x1024_S12x1024_d0⟩,
        ⟨S12x1024, concatenate S12x1024 0 [⟨S3x1024, C 0⟩, ⟨S3x1024, C 1⟩, ⟨S3x1024, C 2⟩, ⟨S3x1024, C 3⟩]
          concatenates_S3x1024_S3x1024_S3x1024_S3x1024_S12x1024_d0⟩]
        concatenates_S3x1024_S12x1024_S12x1024_S27x1024_d0 (ix2 k q) = emb sc d k := by
  have hk27 := k.isLt
  unfold emb
  by_cases h1 : k.val < 3
  · rw [dif_pos h1]
    refine (concatenate_apply_piece (0 : Fin S27x1024.rank) ([⟨S3x1024, v3⟩,
        ⟨S12x1024, concatenate S12x1024 0 [⟨S3x1024, S 0⟩, ⟨S3x1024, S 1⟩, ⟨S3x1024, S 2⟩, ⟨S3x1024, S 3⟩]
          concatenates_S3x1024_S3x1024_S3x1024_S3x1024_S12x1024_d0⟩,
        ⟨S12x1024, concatenate S12x1024 0 [⟨S3x1024, C 0⟩, ⟨S3x1024, C 1⟩, ⟨S3x1024, C 2⟩, ⟨S3x1024, C 3⟩]
          concatenates_S3x1024_S3x1024_S3x1024_S3x1024_S12x1024_d0⟩] : List ((s : Shape) × (s.Idx → Ideal .f32)))
      concatenates_S3x1024_S12x1024_S12x1024_S27x1024_d0 (ix2 k q)
      0 (by simp) S3x1024 v3 rfl rfl 0 rfl (ix2 ⟨k.val, h1⟩ q)
      (fun b hb => match b, hb with
        | ⟨0, _⟩, hb => absurd rfl hb
        | ⟨1, _⟩, _ => rfl)
      (by show 0 + k.val = k.val; omega)).trans (hd _)
  · rw [dif_neg h1]
    by_cases h2 : k.val < 15
    · rw [dif_pos h2]
      refine (concatenate_apply_piece (0 : Fin S27x1024.rank) ([⟨S3x1024, v3⟩,
        ⟨S12x1024, concatenate S12x1024 0 [⟨S3x1024, S 0⟩, ⟨S3x1024, S 1⟩, ⟨S3x1024, S 2⟩, ⟨S3x1024, S 3⟩]
          concatenates_S3x1024_S3x1024_S3x1024_S3x1024_S12x1024_d0⟩,
        ⟨S12x1024, concatenate S12x1024 0 [⟨S3x1024, C 0⟩, ⟨S3x1024, C 1⟩, ⟨S3x1024, C 2⟩, ⟨S3x1024, C 3⟩]
          concatenates_S3x1024_S3x1024_S3x1024_S3x1024_S12x1024_d0⟩] : List ((s : Shape) × (s.Idx → Ideal .f32)))
      concatenates_S3x1024_S12x1024_S12x1024_S27x1024_d0 (ix2 k q)
        1 (by simp) S12x1024 _ rfl rfl 3 rfl (ix2 ⟨k.val - 3, by omega⟩ q)
        (fun b hb => match b, hb with
          | ⟨0, _⟩, hb => absurd rfl hb
          | ⟨1, _⟩, _ => rfl)
        (by show 3 + (k.val - 3) = k.val; omega)).trans ?_
      refine (cat12_apply S ⟨(k.val - 3) / 3, by omega⟩ ⟨(k.val - 3) % 3, Nat.mod_lt _ (by norm_num)⟩ q ⟨k.val - 3, by omega⟩
        (by show k.val - 3 = 3 * ((k.val - 3) / 3) + (k.val - 3) % 3; omega)).trans ?_
      exact hS _ _
    · rw [dif_neg h2]
      refine (concatenate_apply_piece (0 : Fin S27x1024.rank) ([⟨S3x1024, v3⟩,
        ⟨S12x1024, concatenate S12x1024 0 [⟨S3x1024, S 0⟩, ⟨S3x1024, S 1⟩, ⟨S3x1024, S 2⟩, ⟨S3x1024, S 3⟩]
          concatenates_S3x1024_S3x1024_S3x1024_S3x1024_S12x1024_d0⟩,
        ⟨S12x1024, concatenate S12x1024 0 [⟨S3x1024, C 0⟩, ⟨S3x1024, C 1⟩, ⟨S3x1024, C 2⟩, ⟨S3x1024, C 3⟩]
          concatenates_S3x1024_S3x1024_S3x1024_S3x1024_S12x1024_d0⟩] : List ((s : Shape) × (s.Idx → Ideal .f32)))
      concatenates_S3x1024_S12x1024_S12x1024_S27x1024_d0 (ix2 k q)
        2 (by simp) S12x1024 _ rfl rfl 15 rfl (ix2 ⟨k.val - 15, by omega⟩ q)
        (fun b hb => match b, hb with
          | ⟨0, _⟩, hb => absurd rfl hb
          | ⟨1, _⟩, _ => rfl)
        (by show 15 + (k.val - 15) = k.val; omega)).trans ?_
      refine (cat12_apply C ⟨(k.val - 15) / 3, by omega⟩ ⟨(k.val - 15) % 3, Nat.mod_lt _ (by norm_num)⟩ q ⟨k.val - 15, by omega⟩
        (by show k.val - 15 = 3 * ((k.val - 15) / 3) + (k.val - 15) % 3; omega)).trans ?_
      exact hC _ _

/-! ## The payload and the stored block -/

/-- The embedding rows the body stacks: the direction, then its sines and its cosines at the four scales. -/
def embV (v3 v266 v267 v270 v271 v272 : FVec Ideal S3x1024 .f32) : FVec Ideal S27x1024 .f32 :=
  concatenate S27x1024 0 [⟨S3x1024, v3⟩,
      ⟨S12x1024, concatenate S12x1024 0 [⟨S3x1024, v266⟩, ⟨S3x1024, v270⟩, ⟨S3x1024, sin (mulf v3 v272)⟩,
        ⟨S3x1024, sin (mulf v3 (broadcast S3x1024 (Scalar.ofBits (F := Ideal) .f32 0x41000000#32)))⟩] concatenates_S3x1024_S3x1024_S3x1024_S3x1024_S12x1024_d0⟩,
      ⟨S12x1024, concatenate S12x1024 0 [⟨S3x1024, v267⟩, ⟨S3x1024, v271⟩, ⟨S3x1024, cos (mulf v3 v272)⟩,
        ⟨S3x1024, cos (mulf v3 (broadcast S3x1024 (Scalar.ofBits (F := Ideal) .f32 0x41000000#32)))⟩] concatenates_S3x1024_S3x1024_S3x1024_S3x1024_S12x1024_d0⟩]
    concatenates_S3x1024_S12x1024_S12x1024_S27x1024_d0

/-- The payload is the three layers over the stacked input, with a unit axis put in front. -/
theorem pay51_eq (v3 : FVec Ideal S3x1024 .f32) (v263 : FVec Ideal S32x1024 .f32) (v266 v267 v270 v271 v272 : FVec Ideal S3x1024 .f32)
    (W1 : Vec Ideal S256x59 .f32) (b1 : Vec Ideal S256 .f32) (W2 : Vec Ideal S256x256 .f32) (b2 : Vec Ideal S256 .f32)
    (W3 : Vec Ideal S4x256 .f32) (b3 : Vec Ideal S4 .f32) :
    k0_pay51 v3 v263 v266 v267 v270 v271 v272 W1 b1 W2 b2 W3 b3
      = shapeCast S1x4x1024 (lin3 W3 b3 (maximumf (lin2 W2 b2 (maximumf (lin1 W1 b1
          (concatenate S59x1024 0 [⟨S32x1024, v263⟩, ⟨S27x1024, embV v3 v266 v267 v270 v271 v272⟩]
            concatenates_S32x1024_S27x1024_S59x1024_d0)) (broadcast S256x1024 (Scalar.ofBits (F := Ideal) .f32 0x00000000#32)))) (broadcast S256x1024 (Scalar.ofBits (F := Ideal) .f32 0x00000000#32))))
          shapeCasts_S4x1024_S1x4x1024 := rfl

/-- The payload at row j, point q: the network applied to the feature column and the embedding column. -/
theorem pay51_apply (v3 : FVec Ideal S3x1024 .f32) (v263 : FVec Ideal S32x1024 .f32) (v266 v267 v270 v271 v272 : FVec Ideal S3x1024 .f32)
    (W1 : Vec Ideal S256x59 .f32) (b1 : Vec Ideal S256 .f32) (W2 : Vec Ideal S256x256 .f32) (b2 : Vec Ideal S256 .f32)
    (W3 : Vec Ideal S4x256 .f32) (b3 : Vec Ideal S4 .f32) (j : Fin 4) (q : Fin 1024) :
    k0_pay51 v3 v263 v266 v267 v270 v271 v272 W1 b1 W2 b2 W3 b3 (ix3 0 j q)
      = kmlp (mat2 W1) (vec1 b1) (mat2 W2) (vec1 b2) (mat2 W3) (vec1 b3)
          (cin (fun c => v263 (ix2 c q)) (fun k => embV v3 v266 v267 v270 v271 v272 (ix2 k q))) j := by
  rw [pay51_eq, shapeCast_ab_1ab_apply, lin3_apply]
  unfold kmlp
  refine congrArg (fun x => kdense (mat2 W3) (vec1 b3) x j) (funext fun k => ?_)
  rw [relu_apply, lin2_apply]
  refine congrArg (fun x => relu (kdense (mat2 W2) (vec1 b2) x k)) (funext fun k' => ?_)
  rw [relu_apply, lin1_apply]
  refine congrArg (fun x => relu (kdense (mat2 W1) (vec1 b1) x k')) (funext fun k'' => ?_)
  exact cat59_apply _ _ k'' q

/-- Offsets that are all zero, as the constant function (ranks 3, 2, 1). -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The direction block as 3 × 1024: row r, point q is component r of point q. -/
theorem dir_apply (x1 : Vec Ideal S1x3x1024 .f32) (r : Fin 3) (q : Fin 1024) :
    k0_pay2 (View.ld x1 r0_0) (ix2 r q) = comp x1 q r := by
  unfold k0_pay2
  rw [View.ld_unit_zero (S := S1x3x1024) hz3]
  exact shapeCast_1ab_ab_apply x1 shapeCasts_S1x3x1024_S3x1024 r q

/-- The stacked rows over the direction block are the embedding of the point's direction at the kernel's scales. -/
theorem embRows_eq (x1 : Vec Ideal S1x3x1024 .f32) (q : Fin 1024) :
    (fun k : Fin 27 => embV (k0_pay2 (View.ld x1 r0_0)) (k0_pay45 (k0_pay2 (View.ld x1 r0_0))) (k0_pay46 (k0_pay2 (View.ld x1 r0_0)))
        (k0_pay48 (k0_pay2 (View.ld x1 r0_0))) (k0_pay49 (k0_pay2 (View.ld x1 r0_0))) (k0_pay50 (F := Ideal)) (ix2 k q))
      = emb kscale (comp x1 q) := by
  funext k
  have hd : ∀ r, k0_pay2 (View.ld x1 r0_0) (ix2 r q) = comp x1 q r := fun r => dir_apply x1 r q
  generalize k0_pay2 (View.ld x1 r0_0) = v3 at hd ⊢
  refine cat27_apply v3
    (fun f => match f with
      | ⟨0, _⟩ => k0_pay45 v3
      | ⟨1, _⟩ => k0_pay48 v3
      | ⟨2, _⟩ => sin (mulf v3 (k0_pay50 (F := Ideal)))
      | ⟨3, _⟩ => sin (mulf v3 (broadcast S3x1024 (Scalar.ofBits (F := Ideal) .f32 0x41000000#32))))
    (fun f => match f with
      | ⟨0, _⟩ => k0_pay46 v3
      | ⟨1, _⟩ => k0_pay49 v3
      | ⟨2, _⟩ => cos (mulf v3 (k0_pay50 (F := Ideal)))
      | ⟨3, _⟩ => cos (mulf v3 (broadcast S3x1024 (Scalar.ofBits (F := Ideal) .f32 0x41000000#32))))
    q (comp x1 q) kscale hd ?_ ?_ k
  · intro f r
    match f with
    | ⟨0, _⟩ => show Ideal.sin (v3 (ix2 r q) * Ideal.ofBits .f32 0x3F800000#32) = _; rw [hd]; rfl
    | ⟨1, _⟩ => show Ideal.sin (v3 (ix2 r q) * Ideal.ofBits .f32 0x40000000#32) = _; rw [hd]; rfl
    | ⟨2, _⟩ => show Ideal.sin (v3 (ix2 r q) * Ideal.ofBits .f32 0x40800000#32) = _; rw [hd]; rfl
    | ⟨3, _⟩ => show Ideal.sin (v3 (ix2 r q) * Ideal.ofBits .f32 0x41000000#32) = _; rw [hd]; rfl
  · intro f r
    match f with
    | ⟨0, _⟩ => show Ideal.cos (v3 (ix2 r q) * Ideal.ofBits .f32 0x3F800000#32) = _; rw [hd]; rfl
    | ⟨1, _⟩ => show Ideal.cos (v3 (ix2 r q) * Ideal.ofBits .f32 0x40000000#32) = _; rw [hd]; rfl
    | ⟨2, _⟩ => show Ideal.cos (v3 (ix2 r q) * Ideal.ofBits .f32 0x40800000#32) = _; rw [hd]; rfl
    | ⟨3, _⟩ => show Ideal.cos (v3 (ix2 r q) * Ideal.ofBits .f32 0x41000000#32) = _; rw [hd]; rfl

/-- Row j, point q of the block the body stores. -/
theorem out_apply (x0 x1 : Vec Ideal S1x3x1024 .f32) (x2 x3 x4 : Vec Ideal S8192x256 .bf16)
    (x5 : Vec Ideal S256x59 .f32) (x6 : Vec Ideal S256 .f32) (x7 : Vec Ideal S256x256 .f32) (x8 : Vec Ideal S256 .f32)
    (x9 : Vec Ideal S4x256 .f32) (x10 : Vec Ideal S4 .f32) (j : Fin 4) (q : Fin 1024) :
    out0_11 (F := Ideal) x0 x1 x2 x3 x4 x5 x6 x7 x8 x9 x10 (ix3 0 j q)
      = kmlp (mat2 x5) (vec1 x6) (mat2 x7) (vec1 x8) (mat2 x9) (vec1 x10)
          (cin (fun c => featXYZ (F := Ideal) x0 x2 x3 x4 (ix2 c q)) (emb kscale (comp x1 q))) j := by
  rw [out0_11_eq, View.canon_unit_zero (S := S1x4x1024) hz3]
  simp only [View.ld_unit_zero (S := S256x59) hz2, View.ld_unit_zero (S := S256) hz1, View.ld_unit_zero (S := S256x256) hz2,
    View.ld_unit_zero (S := S4x256) hz2, View.ld_unit_zero (S := S4) hz1]
  rw [pay51_apply, embRows_eq x1 q]

end Cert.KernelIdeal.KMlp

end
-- ==== Proof.KFeatX.lean ====
/- The first plane's feature, read at a channel and a point of the block: the one-hot sample of the plane at (w, v). -/
import proofs.«422422_j77094662963970_3_alg».proof.Proof.KTerm
import proofs.«422422_j77094662963970_3_alg».proof.Proof.Iface
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KFeatX

open Cert.KernelIdeal Cert.KernelIdeal.Gen Cert.KernelIdeal.KTerm Cert.Tri Idealize.ShloMosaic Idealize.ShloMosaic.ValueIdx

/-- The load through the whole-block rectangle reads the block. -/
theorem ld_x0 (x0 : Vec Ideal S1x3x1024 .f32) : View.ld x0 r0_0 = x0 :=
  View.ld_unit_zero (S := S1x3x1024)
    (funext fun a => by match a with | ⟨0, _⟩ => rfl | ⟨1, _⟩ => rfl | ⟨2, _⟩ => rfl)
    inb_S1x3x1024_S1x3x1024_0_0_0 x0

/-! ## The coordinate chain at a point: position, floor, fraction, cell -/

/-- Row 2 of the point block (the coordinate w) through the kernel's reshape, slice and two reshapes. -/
theorem row2_apply (x0 : Vec Ideal S1x3x1024 .f32) (q : Fin 1024) :
    shapeCast S1x1024 (shapeCast S1024 (extractStridedSlice S1x1024 ![2, 0] (k0_pay1 (F := Ideal) x0) slices_S3x1024_o2_0_S1x1024)
      shapeCasts_S1x1024_S1024) shapeCasts_S1024_S1x1024 (ix2 (0 : Fin 1) q) = comp x0 q 2 := by
  rw [shapeCast_a_1a_apply, shapeCast_1a_a_apply, slice2_axis0_apply 2 _ _ (0 : Fin 1) q (2 : Fin 3) rfl]
  unfold k0_pay1
  exact shapeCast_1ab_ab_apply _ _ _ _

/-- Row 1 of the point block (the coordinate v) likewise. -/
theorem row1_apply (x0 : Vec Ideal S1x3x1024 .f32) (q : Fin 1024) :
    shapeCast S1x1024 (shapeCast S1024 (extractStridedSlice S1x1024 ![1, 0] (k0_pay1 (F := Ideal) x0) slices_S3x1024_o1_0_S1x1024)
      shapeCasts_S1x1024_S1024) shapeCasts_S1024_S1x1024 (ix2 (0 : Fin 1) q) = comp x0 q 1 := by
  rw [shapeCast_a_1a_apply, shapeCast_1a_a_apply, slice2_axis0_apply 1 _ _ (0 : Fin 1) q (1 : Fin 3) rfl]
  unfold k0_pay1
  exact shapeCast_1ab_ab_apply _ _ _ _

theorem pay4_apply (x0 : Vec Ideal S1x3x1024 .f32) (q : Fin 1024) :
    k0_pay4 (F := Ideal) x0 (ix2 (0 : Fin 1) q) = pos (comp x0 q 2) := by
  unfold k0_pay4 pos
  rw [mulf_apply, mulf_apply, addf_apply, row2_apply]
  rfl

theorem pay5_apply (x0 : Vec Ideal S1x3x1024 .f32) (q : Fin 1024) :
    k0_pay5 (F := Ideal) x0 (ix2 (0 : Fin 1) q) = flo (comp x0 q 2) := by
  unfold k0_pay5 flo
  show Ideal.liftRound Int.floor (k0_pay4 (F := Ideal) x0 (ix2 (0 : Fin 1) q)) = _
  rw [pay4_apply]

theorem pay6_apply (x0 : Vec Ideal S1x3x1024 .f32) (q : Fin 1024) :
    k0_pay6 (F := Ideal) x0 (ix2 (0 : Fin 1) q) = fra (comp x0 q 2) := by
  unfold k0_pay6 fra
  rw [subf_apply, pay4_apply, pay5_apply]

theorem pay7_apply (x0 : Vec Ideal S1x3x1024 .f32) (q : Fin 1024) :
    k0_pay7 (F := Ideal) x0 (ix2 (0 : Fin 1) q) = cel (comp x0 q 2) := by
  unfold k0_pay7 cel
  show Ideal.fptosi 32 (k0_pay5 (F := Ideal) x0 (ix2 (0 : Fin 1) q)) = _
  rw [pay5_apply]

theorem pay10_apply (x0 : Vec Ideal S1x3x1024 .f32) (q : Fin 1024) :
    k0_pay10 (F := Ideal) x0 (ix2 (0 : Fin 1) q) = pos (comp x0 q 1) := by
  unfold k0_pay10 pos
  rw [mulf_apply, mulf_apply, addf_apply, row1_apply]
  rfl

theorem pay11_apply (x0 : Vec Ideal S1x3x1024 .f32) (q : Fin 1024) :
    k0_pay11 (F := Ideal) x0 (ix2 (0 : Fin 1) q) = flo (comp x0 q 1) := by
  unfold k0_pay11 flo
  show Ideal.liftRound Int.floor (k0_pay10 (F := Ideal) x0 (ix2 (0 : Fin 1) q)) = _
  rw [pay10_apply]

theorem pay12_apply (x0 : Vec Ideal S1x3x1024 .f32) (q : Fin 1024) :
    k0_pay12 (F := Ideal) x0 (ix2 (0 : Fin 1) q) = fra (comp x0 q 1) := by
  unfold k0_pay12 fra
  rw [subf_apply, pay10_apply, pay11_apply]

theorem pay13_apply (x0 : Vec Ideal S1x3x1024 .f32) (q : Fin 1024) :
    k0_pay13 (F := Ideal) x0 (ix2 (0 : Fin 1) q) = cel (comp x0 q 1) := by
  unfold k0_pay13 cel
  show Ideal.fptosi 32 (k0_pay11 (F := Ideal) x0 (ix2 (0 : Fin 1) q)) = _
  rw [pay11_apply]

/-! ## The one-hot rows -/

/-- A compared pair of words, widened and converted: 1 where they agree, else 0. -/
theorem onehot_word (a b : BitVec 32) :
    ((((IntOp.cmpi .eq a b).setWidth 32).toInt : ℝ) : EReal) = if a = b then 1 else 0 := by
  have h1 : ((1#1 : BitVec 1).setWidth 32).toInt = 1 := by decide
  have h0 : ((0#1 : BitVec 1).setWidth 32).toInt = 0 := by decide
  by_cases h : a = b
  · have e : IntOp.cmpi .eq a b = 1#1 := by simp [IntOp.cmpi, h]
    rw [e, if_pos h, h1]; simp
  · have hb : (a == b) = false := beq_eq_false_iff_ne.mpr h
    have e : IntOp.cmpi .eq a b = 0#1 := by
      show BitVec.ofBool (a == b) = 0#1
      rw [hb]; rfl
    rw [e, if_neg h, h0]; simp

/-- The one-hot of a row of cells at (k, q): 1 where k is the cell of point q. -/
theorem hot_apply (cellv : IVec S1x1024 32) (k : Fin 256) (q : Fin 1024) :
    (sitofp .f32 (extui 32 (cmpi .eq (iota .tc S256x1024 32 [0] iota_S256x1024_d0_w32)
        (broadcastTo S256x1024 cellv broadcasts_S1x1024_S256x1024)) natLt_1_32) : FVec Ideal S256x1024 .f32) (ix2 k q)
      = hot (cellv (ix2 (0 : Fin 1) q)) k.val := by
  rw [sitofp_apply, extui_apply]
  show ((((IntOp.cmpi .eq (iota .tc S256x1024 32 [0] iota_S256x1024_d0_w32 (ix2 k q))
      (broadcastTo S256x1024 cellv broadcasts_S1x1024_S256x1024 (ix2 k q))).setWidth 32).toInt : ℝ) : EReal) = _
  rw [iota_single_apply, broadcastTo_1b_ab_apply, onehot_word]
  rfl

theorem pay8_apply (x0 : Vec Ideal S1x3x1024 .f32) (k : Fin 256) (q : Fin 1024) :
    k0_pay8 (F := Ideal) x0 (ix2 k q) = hot (cel (comp x0 q 2)) k.val := by
  unfold k0_pay8
  rw [hot_apply, pay7_apply]

theorem pay9_apply (x0 : Vec Ideal S1x3x1024 .f32) (k : Fin 256) (q : Fin 1024) :
    k0_pay9 (F := Ideal) x0 (ix2 k q) = hot (cel (comp x0 q 2) + 1#32) k.val := by
  unfold k0_pay9
  rw [hot_apply]
  show hot (k0_pay7 (F := Ideal) x0 (ix2 (0 : Fin 1) q) + 1#32) k.val = _
  rw [pay7_apply]

theorem pay14_apply (x0 : Vec Ideal S1x3x1024 .f32) (k : Fin 256) (q : Fin 1024) :
    k0_pay14 (F := Ideal) x0 (ix2 k q) = hot (cel (comp x0 q 1)) k.val := by
  unfold k0_pay14
  rw [hot_apply, pay13_apply]

theorem pay15_apply (cellv : IVec S1x1024 32) (k : Fin 256) (q : Fin 1024) :
    k0_pay15 (F := Ideal) cellv (iota .tc S256x1024 32 [0] iota_S256x1024_d0_w32) (ix2 k q)
      = hot (cellv (ix2 (0 : Fin 1) q) + 1#32) k.val := by
  unfold k0_pay15
  rw [hot_apply]
  rfl

/-! ## The column weights, and the two weight planes folded with the row fraction -/

theorem pay21_apply (x0 : Vec Ideal S1x3x1024 .f32) (k : Fin 256) (q : Fin 1024) :
    k0_pay21 (F := Ideal) (k0_pay12 x0) (k0_pay13 x0) (iota .tc S256x1024 32 [0] iota_S256x1024_d0_w32) (k0_pay14 x0) (ix2 k q)
      = wgt (comp x0 q 1) k.val := by
  unfold k0_pay21 wgt
  rw [addf_apply, mulf_apply, mulf_apply, broadcastTo_1b_ab_apply, broadcastTo_1b_ab_apply, subf_apply,
    pay14_apply, pay15_apply, pay12_apply, pay13_apply]
  rfl

theorem pay22_apply (x0 : Vec Ideal S1x3x1024 .f32) (k : Fin 256) (q : Fin 1024) :
    k0_pay22 (F := Ideal) (k0_pay6 x0) (k0_pay12 x0) (k0_pay13 x0) (iota .tc S256x1024 32 [0] iota_S256x1024_d0_w32) (k0_pay14 x0) (ix2 k q)
      = fra (comp x0 q 2) * wgt (comp x0 q 1) k.val := by
  unfold k0_pay22
  rw [mulf_apply, broadcastTo_1b_ab_apply, pay6_apply, pay21_apply]

theorem pay23_apply (x0 : Vec Ideal S1x3x1024 .f32) (k : Fin 256) (q : Fin 1024) :
    k0_pay23 (F := Ideal) (k0_pay6 x0) (k0_pay12 x0) (k0_pay13 x0) (iota .tc S256x1024 32 [0] iota_S256x1024_d0_w32) (k0_pay14 x0)
        (ix3 (0 : Fin 1) k q)
      = (lit1 - fra (comp x0 q 2)) * wgt (comp x0 q 1) k.val := by
  unfold k0_pay23
  rw [shapeCast_ab_1ab_apply, mulf_apply, broadcastTo_1b_ab_apply, subf_apply, pay6_apply, pay21_apply]
  rfl

theorem pay24_apply (v : FVec Ideal S256x1024 .f32) (k : Fin 256) (q : Fin 1024) :
    k0_pay24 (F := Ideal) v (ix3 (0 : Fin 1) k q) = v (ix2 k q) := by
  unfold k0_pay24
  exact shapeCast_ab_1ab_apply _ _ _ _ _

/-! ## The product of a chunk with a one-hot plane, at an index -/

theorem lhs_mm_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl
theorem lhs_mm_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs_mm_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs_mm_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl

/-- The product into the zero accumulator at (r, q): the sum over the 256 contracted positions. -/
theorem mm_apply (lhs : FVec Ideal S2048x256 .bf16) (rhs : FVec Ideal S256x1024 .bf16) (r : Fin 2048) (q : Fin 1024) :
    matmul dot_S2048x256_S256x1024_S2048x1024_1_0_0_1_n_n none lhs rhs (constant (F := Ideal) S2048x1024 .f32 0x00000000#32) (ix2 r q)
      = ∑ y : Fin 256, lhs (ix2 r y) * rhs (ix2 y q) := by
  show FloatOps.matmul dot_S2048x256_S256x1024_S2048x1024_1_0_0_1_n_n none lhs rhs (constant (F := Ideal) S2048x1024 .f32 0x00000000#32) (ix2 r q) = _
  rw [Ideal.matmul_constant_zero_apply, ← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 r q) ((contrEquiv1 dot_S2048x256_S256x1024_S2048x1024_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S2048x256_S256x1024_S2048x1024_1_0_0_1_n_n.rhsIdx (ix2 r q) ((contrEquiv1 dot_S2048x256_S256x1024_S2048x1024_1_0_0_1_n_n 256 rfl rfl).symm k) = ix2 k q := funext fun a => Fin.ext (by
    match a with
    | ⟨0, _⟩ => exact (rhs_mm_0 _ _).trans hk
    | ⟨1, _⟩ => exact rhs_mm_1 _ _)
  rw [el, er]

/-! ## The reshape to channel × column × point, the broadcast over channels, and the sum over columns -/

/-- Row c'·256 + x of a 2048-row product is entry (c', x) of its reshape. -/
theorem sc3_apply (T : FVec Ideal S2048x1024 .f32) (c' : Fin 8) (x : Fin 256) (q : Fin 1024) :
    shapeCast S8x256x1024 T shapeCasts_S2048x1024_S8x256x1024 (ix3 c' x q)
      = T (ix2 ⟨c'.val * 256 + x.val, by have := c'.isLt; have := x.isLt; omega⟩ q) :=
  shapeCast_apply T _ _ _ (by
    rw [Shape.rowMajor_val_two, Shape.rowMajor_val_three]
    rfl)

/-- A weight plane broadcast over the eight channels of a chunk. -/
theorem bc3_apply (A : FVec Ideal S1x256x1024 .f32) (c' : Fin 8) (x : Fin 256) (q : Fin 1024) :
    broadcastTo S8x256x1024 A broadcasts_S1x256x1024_S8x256x1024 (ix3 c' x q) = A (ix3 (0 : Fin 1) x q) := by
  refine broadcastTo_apply A _ (ix3 c' x q) (ix3 (0 : Fin 1) x q) fun ax => ?_
  match ax with
  | ⟨0, _⟩ => rfl
  | ⟨1, _⟩ => rfl
  | ⟨2, _⟩ => rfl

/-- The sum over the columns of the two weighted products, at channel c' of the chunk and point q. -/
theorem core_apply (T0 T1 : FVec Ideal S2048x1024 .f32) (A0 A1 : FVec Ideal S1x256x1024 .f32)
    (hφ : FKind.Formats .f32) (hacc : (0x00000000#32 : BitVec 32) = FKind.add.neutral .f32 hφ) (c' : Fin 8) (q : Fin 1024) :
    multiReduction (F := Ideal) .add [1] S8x1024
        (addf (mulf (shapeCast S8x256x1024 T0 shapeCasts_S2048x1024_S8x256x1024) (broadcastTo S8x256x1024 A0 broadcasts_S1x256x1024_S8x256x1024))
          (mulf (shapeCast S8x256x1024 T1 shapeCasts_S2048x1024_S8x256x1024) (broadcastTo S8x256x1024 A1 broadcasts_S1x256x1024_S8x256x1024)))
        0x00000000#32 reduces_S8x256x1024_S8x1024 hφ hacc (ix2 c' q)
      = ∑ x : Fin 256, (T0 (ix2 ⟨c'.val * 256 + x.val, by have := c'.isLt; have := x.isLt; omega⟩ q) * A0 (ix3 (0 : Fin 1) x q)
          + T1 (ix2 ⟨c'.val * 256 + x.val, by have := c'.isLt; have := x.isLt; omega⟩ q) * A1 (ix3 (0 : Fin 1) x q)) := by
  refine (Ideal.multiReduction_add_single _ 0x00000000#32 reduces_S8x256x1024_S8x1024 hφ hacc (ix2 c' q)).trans ?_
  show ∑ x : Fin 256, _ = _
  refine Finset.sum_congr rfl fun x _ => ?_
  have hl : reduces_S8x256x1024_S8x1024.lift (ix2 c' q) x = ix3 c' x q := funext fun a => Fin.ext (by
    match a with
    | ⟨0, _⟩ => rfl
    | ⟨1, _⟩ => rfl
    | ⟨2, _⟩ => rfl)
  rw [hl, addf_apply, mulf_apply, mulf_apply, sc3_apply, sc3_apply, bc3_apply, bc3_apply]

/-! ## The loads of the plane's chunks -/

/-- A load of 2048 rows from row o of the plane array reads row o + r at local row r. -/
theorem ld_rows (x2 : Vec Ideal S8192x256 .bf16) (o : Nat)
    (inb : ∀ a, (![o, 0] : Fin 2 → Nat) a + S2048x256.size a ≤ S8192x256.size a)
    (r : Fin 2048) (y : Fin 256) (R : Fin 8192) (hR : R.val = o + r.val) :
    View.ld x2 (Rect.unit (s := S8192x256) ![o, 0] S2048x256.size inb) (ix2 r y) = x2 (ix2 R y) := by
  show x2 _ = x2 _
  refine congrArg x2 (funext fun a => Fin.ext ?_)
  match a with
  | ⟨0, _⟩ => show o + 1 * r.val = R.val; omega
  | ⟨1, _⟩ => show 0 + 1 * y.val = y.val; omega

/-! ## The chunk payloads at an index -/

theorem pay25_apply (m0 m1 : FVec Ideal S256x1024 .bf16) (A1 : FVec Ideal S256x1024 .f32) (A0 : FVec Ideal S1x256x1024 .f32)
    (ch : Vec Ideal S2048x256 .bf16) (c' : Fin 8) (q : Fin 1024) :
    k0_pay25 (F := Ideal) m0 m1 A1 A0 ch (ix2 c' q)
      = ∑ x : Fin 256, ((∑ y : Fin 256, ch (ix2 ⟨c'.val * 256 + x.val, by have := c'.isLt; have := x.isLt; omega⟩ y) * m0 (ix2 y q)) * A0 (ix3 (0 : Fin 1) x q)
          + (∑ y : Fin 256, ch (ix2 ⟨c'.val * 256 + x.val, by have := c'.isLt; have := x.isLt; omega⟩ y) * m1 (ix2 y q)) * A1 (ix2 x q)) := by
  unfold k0_pay25
  refine (core_apply _ _ _ _ _ _ c' q).trans ?_
  refine Finset.sum_congr rfl fun x _ => ?_
  rw [mm_apply, mm_apply, pay24_apply, shapeCast_self]

theorem pay26_apply (m0 m1 : FVec Ideal S256x1024 .bf16) (A1 : FVec Ideal S256x1024 .f32) (A0 : FVec Ideal S1x256x1024 .f32)
    (ch : Vec Ideal S2048x256 .bf16) (c' : Fin 8) (q : Fin 1024) :
    k0_pay26 (F := Ideal) m0 m1 A1 A0 ch (ix2 c' q)
      = ∑ x : Fin 256, ((∑ y : Fin 256, ch (ix2 ⟨c'.val * 256 + x.val, by have := c'.isLt; have := x.isLt; omega⟩ y) * m0 (ix2 y q)) * A0 (ix3 (0 : Fin 1) x q)
          + (∑ y : Fin 256, ch (ix2 ⟨c'.val * 256 + x.val, by have := c'.isLt; have := x.isLt; omega⟩ y) * m1 (ix2 y q)) * A1 (ix2 x q)) := by
  unfold k0_pay26
  refine (core_apply _ _ _ _ _ _ c' q).trans ?_
  refine Finset.sum_congr rfl fun x _ => ?_
  rw [mm_apply, mm_apply, pay24_apply, shapeCast_self]

theorem pay27_apply (m0 m1 : FVec Ideal S256x1024 .bf16) (A1 : FVec Ideal S256x1024 .f32) (A0 : FVec Ideal S1x256x1024 .f32)
    (ch : Vec Ideal S2048x256 .bf16) (c' : Fin 8) (q : Fin 1024) :
    k0_pay27 (F := Ideal) m0 m1 A1 A0 ch (ix2 c' q)
      = ∑ x : Fin 256, ((∑ y : Fin 256, ch (ix2 ⟨c'.val * 256 + x.val, by have := c'.isLt; have := x.isLt; omega⟩ y) * m0 (ix2 y q)) * A0 (ix3 (0 : Fin 1) x q)
          + (∑ y : Fin 256, ch (ix2 ⟨c'.val * 256 + x.val, by have := c'.isLt; have := x.isLt; omega⟩ y) * m1 (ix2 y q)) * A1 (ix2 x q)) := by
  unfold k0_pay27
  refine (core_apply _ _ _ _ _ _ c' q).trans ?_
  refine Finset.sum_congr rfl fun x _ => ?_
  rw [mm_apply, mm_apply, pay24_apply, shapeCast_self]

theorem pay29_apply (m0 : FVec Ideal S256x1024 .bf16) (ch : Vec Ideal S2048x256 .bf16) (r : Fin 2048) (q : Fin 1024) :
    k0_pay29 (F := Ideal) m0 ch (ix2 r q) = ∑ y : Fin 256, ch (ix2 r y) * m0 (ix2 y q) := by
  unfold k0_pay29 k0_pay28
  rw [mm_apply, shapeCast_self]

theorem pay30_apply (m1 : FVec Ideal S256x1024 .bf16) (ch : Vec Ideal S2048x256 .bf16) (r : Fin 2048) (q : Fin 1024) :
    k0_pay30 (F := Ideal) m1 ch (ix2 r q) = ∑ y : Fin 256, ch (ix2 r y) * m1 (ix2 y q) := by
  unfold k0_pay30 k0_pay28
  rw [mm_apply, shapeCast_self]

/-! ## The four chunks laid end to end along the channels -/

theorem pay31_piece0 (v97 v98 : FVec Ideal S1x256x1024 .f32) (v110 v122 v134 : FVec Ideal S8x1024 .f32) (v137 v138 : FVec Ideal S2048x1024 .f32)
    (c : Fin 32) (c' : Fin 8) (hc : c.val = 0 + c'.val) (q : Fin 1024) :
    k0_pay31 (F := Ideal) v97 v98 v110 v122 v134 v137 v138 (ix2 c q) = v110 (ix2 c' q) := by
  unfold k0_pay31
  refine concatenate_apply_piece (0 : Fin S32x1024.rank) _ _ (ix2 c q)
    0 (by show (0 : Nat) < 4; decide) S8x1024 v110 rfl rfl 0 rfl (ix2 c' q) (fun b hb => ?_) hc.symm
  match b with
  | ⟨0, _⟩ => exact absurd rfl hb
  | ⟨1, _⟩ => rfl

theorem pay31_piece1 (v97 v98 : FVec Ideal S1x256x1024 .f32) (v110 v122 v134 : FVec Ideal S8x1024 .f32) (v137 v138 : FVec Ideal S2048x1024 .f32)
    (c : Fin 32) (c' : Fin 8) (hc : c.val = 8 + c'.val) (q : Fin 1024) :
    k0_pay31 (F := Ideal) v97 v98 v110 v122 v134 v137 v138 (ix2 c q) = v122 (ix2 c' q) := by
  unfold k0_pay31
  refine concatenate_apply_piece (0 : Fin S32x1024.rank) _ _ (ix2 c q)
    1 (by show (1 : Nat) < 4; decide) S8x1024 v122 rfl rfl 8 rfl (ix2 c' q) (fun b hb => ?_) hc.symm
  match b with
  | ⟨0, _⟩ => exact absurd rfl hb
  | ⟨1, _⟩ => rfl

theorem pay31_piece2 (v97 v98 : FVec Ideal S1x256x1024 .f32) (v110 v122 v134 : FVec Ideal S8x1024 .f32) (v137 v138 : FVec Ideal S2048x1024 .f32)
    (c : Fin 32) (c' : Fin 8) (hc : c.val = 16 + c'.val) (q : Fin 1024) :
    k0_pay31 (F := Ideal) v97 v98 v110 v122 v134 v137 v138 (ix2 c q) = v134 (ix2 c' q) := by
  unfold k0_pay31
  refine concatenate_apply_piece (0 : Fin S32x1024.rank) _ _ (ix2 c q)
    2 (by show (2 : Nat) < 4; decide) S8x1024 v134 rfl rfl 16 rfl (ix2 c' q) (fun b hb => ?_) hc.symm
  match b with
  | ⟨0, _⟩ => exact absurd rfl hb
  | ⟨1, _⟩ => rfl

theorem pay31_piece3 (v97 v98 : FVec Ideal S1x256x1024 .f32) (v110 v122 v134 : FVec Ideal S8x1024 .f32) (v137 v138 : FVec Ideal S2048x1024 .f32)
    (c : Fin 32) (c' : Fin 8) (hc : c.val = 24 + c'.val) (q : Fin 1024) :
    k0_pay31 (F := Ideal) v97 v98 v110 v122 v134 v137 v138 (ix2 c q)
      = ∑ x : Fin 256, (v137 (ix2 ⟨c'.val * 256 + x.val, by have := c'.isLt; have := x.isLt; omega⟩ q) * v97 (ix3 (0 : Fin 1) x q)
          + v138 (ix2 ⟨c'.val * 256 + x.val, by have := c'.isLt; have := x.isLt; omega⟩ q) * v98 (ix3 (0 : Fin 1) x q)) := by
  unfold k0_pay31
  refine (concatenate_apply_piece (0 : Fin S32x1024.rank) _ _ (ix2 c q)
    3 (by show (3 : Nat) < 4; decide) S8x1024 _ rfl rfl 24 rfl (ix2 c' q) (fun b hb => ?_) hc.symm).trans (core_apply _ _ _ _ _ _ c' q)
  match b with
  | ⟨0, _⟩ => exact absurd rfl hb
  | ⟨1, _⟩ => rfl

/-! ## The weighted double sum is the sample -/

/-- The narrowed row one-hot at the cell of w. -/
theorem m0_apply (x0 : Vec Ideal S1x3x1024 .f32) (y : Fin 256) (q : Fin 1024) :
    k0_pay16 (F := Ideal) (k0_pay8 x0) (ix2 y q) = hot (cel (comp x0 q 2)) y.val := by
  unfold k0_pay16
  exact pay8_apply x0 y q

/-- The narrowed row one-hot at the cell after it. -/
theorem m1_apply (x0 : Vec Ideal S1x3x1024 .f32) (y : Fin 256) (q : Fin 1024) :
    k0_pay17 (F := Ideal) (k0_pay9 x0) (ix2 y q) = hot (cel (comp x0 q 2) + 1#32) y.val := by
  unfold k0_pay17
  exact pay9_apply x0 y q

/-- A chunk whose rows c'·256 + x are channel c of the plane: the weighted double sum over its rows is the sample of
    channel c, rows at w, columns at v. -/
theorem sum_eq_ksamp (x0 : Vec Ideal S1x3x1024 .f32) (x2 : Vec Ideal S8192x256 .bf16) (ch : Vec Ideal S2048x256 .bf16)
    (c : Fin 32) (c' : Fin 8) (q : Fin 1024)
    (hch : ∀ x y : Fin 256, ch (ix2 ⟨c'.val * 256 + x.val, by have := c'.isLt; have := x.isLt; omega⟩ y) = planeK x2 c y x) :
    (∑ x : Fin 256, ((∑ y : Fin 256, ch (ix2 ⟨c'.val * 256 + x.val, by have := c'.isLt; have := x.isLt; omega⟩ y)
            * k0_pay16 (F := Ideal) (k0_pay8 x0) (ix2 y q))
          * k0_pay23 (F := Ideal) (k0_pay6 x0) (k0_pay12 x0) (k0_pay13 x0) (iota .tc S256x1024 32 [0] iota_S256x1024_d0_w32) (k0_pay14 x0) (ix3 (0 : Fin 1) x q)
        + (∑ y : Fin 256, ch (ix2 ⟨c'.val * 256 + x.val, by have := c'.isLt; have := x.isLt; omega⟩ y)
            * k0_pay17 (F := Ideal) (k0_pay9 x0) (ix2 y q))
          * k0_pay22 (F := Ideal) (k0_pay6 x0) (k0_pay12 x0) (k0_pay13 x0) (iota .tc S256x1024 32 [0] iota_S256x1024_d0_w32) (k0_pay14 x0) (ix2 x q)))
      = ksamp (planeK x2) (comp x0 q 2) (comp x0 q 1) c := by
  unfold ksamp
  refine Finset.sum_congr rfl fun x _ => ?_
  have s0 : (∑ y : Fin 256, ch (ix2 ⟨c'.val * 256 + x.val, by have := c'.isLt; have := x.isLt; omega⟩ y)
        * k0_pay16 (F := Ideal) (k0_pay8 x0) (ix2 y q))
      = ∑ y : Fin 256, planeK x2 c y x * hot (cel (comp x0 q 2)) y.val :=
    Finset.sum_congr rfl fun y _ => by rw [hch, m0_apply]
  have s1 : (∑ y : Fin 256, ch (ix2 ⟨c'.val * 256 + x.val, by have := c'.isLt; have := x.isLt; omega⟩ y)
        * k0_pay17 (F := Ideal) (k0_pay9 x0) (ix2 y q))
      = ∑ y : Fin 256, planeK x2 c y x * hot (cel (comp x0 q 2) + 1#32) y.val :=
    Finset.sum_congr rfl fun y _ => by rw [hch, m1_apply]
  rw [s0, s1, pay23_apply, pay22_apply]

/-! ## The first plane's feature -/

/-- Channel c, point q of the block: the kernel's sample of the first plane, rows at w = x0[0,2,q], columns at v = x0[0,1,q]. -/
theorem featX_apply (x0 : Vec Ideal S1x3x1024 .f32) (x2 : Vec Ideal S8192x256 .bf16) (c : Fin 32) (q : Fin 1024) :
    featX (F := Ideal) x0 x2 (ix2 c q) = ksamp (planeK x2) (comp x0 q 2) (comp x0 q 1) c := by
  unfold featX
  rw [ld_x0]
  have hc32 : c.val < 32 := c.isLt
  rcases Nat.lt_or_ge c.val 8 with h8 | h8
  · -- channels 0 … 7: the first chunk
    rw [pay31_piece0 _ _ _ _ _ _ _ c ⟨c.val, h8⟩ (Nat.zero_add _).symm q, pay25_apply]
    exact sum_eq_ksamp x0 x2 _ c ⟨c.val, h8⟩ q fun x y =>
      ld_rows x2 0 _ _ y ⟨c.val * 256 + x.val, by have := x.isLt; omega⟩ (by show c.val * 256 + x.val = 0 + (c.val * 256 + x.val); omega)
  rcases Nat.lt_or_ge c.val 16 with h16 | h16
  · -- channels 8 … 15: the second chunk
    rw [pay31_piece1 _ _ _ _ _ _ _ c ⟨c.val - 8, by omega⟩ (by show c.val = 8 + (c.val - 8); omega) q, pay26_apply]
    exact sum_eq_ksamp x0 x2 _ c ⟨c.val - 8, by omega⟩ q fun x y =>
      ld_rows x2 2048 _ _ y ⟨c.val * 256 + x.val, by have := x.isLt; omega⟩ (by show c.val * 256 + x.val = 2048 + ((c.val - 8) * 256 + x.val); omega)
  rcases Nat.lt_or_ge c.val 24 with h24 | h24
  · -- channels 16 … 23: the third chunk
    rw [pay31_piece2 _ _ _ _ _ _ _ c ⟨c.val - 16, by omega⟩ (by show c.val = 16 + (c.val - 16); omega) q, pay27_apply]
    exact sum_eq_ksamp x0 x2 _ c ⟨c.val - 16, by omega⟩ q fun x y =>
      ld_rows x2 4096 _ _ y ⟨c.val * 256 + x.val, by have := x.isLt; omega⟩ (by show c.val * 256 + x.val = 4096 + ((c.val - 16) * 256 + x.val); omega)
  · -- channels 24 … 31: the fourth chunk, its two products made apart and summed beside the concatenation
    rw [pay31_piece3 _ _ _ _ _ _ _ c ⟨c.val - 24, by omega⟩ (by show c.val = 24 + (c.val - 24); omega) q]
    refine (Finset.sum_congr rfl fun x _ => ?_).trans
      (sum_eq_ksamp x0 x2 (View.ld x2 r0_4) c ⟨c.val - 24, by omega⟩ q fun x y =>
        ld_rows x2 6144 _ _ y ⟨c.val * 256 + x.val, by have := x.isLt; omega⟩ (by show c.val * 256 + x.val = 6144 + ((c.val - 24) * 256 + x.val); omega))
    rw [pay29_apply, pay30_apply, pay24_apply]

end Cert.KernelIdeal.KFeatX

end
-- ==== Proof.KFeatYZ.lean ====
/- The second and third planes' contributions to the feature, read at a channel and a point of the block. -/
import proofs.«422422_j77094662963970_3_alg».proof.Proof.KTerm
import proofs.«422422_j77094662963970_3_alg».proof.Proof.Iface
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KFeatYZ

open Cert.KernelIdeal Cert.KernelIdeal.Gen Cert.KernelIdeal.KTerm Cert.Tri Idealize.ShloMosaic Idealize.ShloMosaic.ValueIdx

/-! ## Three more operations read at an index (definitional) -/

private theorem floor_apply {s : Shape} {φ : FTy} (x : FVec Ideal s φ) (i : s.Idx) :
    floor x i = Ideal.liftRound Int.floor (x i) := rfl
private theorem fptosi_apply {s : Shape} {φ : FTy} (x : FVec Ideal s φ) (i : s.Idx) :
    fptosi 32 x i = Ideal.fptosi 32 (x i) := rfl
private theorem addi_apply {s : Shape} {w : Nat} (x y : IVec s w) (i : s.Idx) : addi x y i = x i + y i := rfl

/-! ## The point block's rows -/

/-- The whole-block load reads the block. -/
private theorem ld0 (x0 : Vec Ideal S1x3x1024 .f32) : View.ld x0 r0_0 = x0 :=
  View.ld_unit_zero (funext fun a => match a with | ⟨0, _⟩ => rfl | ⟨1, _⟩ => rfl | ⟨2, _⟩ => rfl) _ x0

/-- The block viewed as three rows. -/
private theorem pay1_apply (v0 : Vec Ideal S1x3x1024 .f32) (a : Fin 3) (q : Fin 1024) :
    k0_pay1 v0 (ix2 a q) = v0 (ix3 0 a q) :=
  shapeCast_1ab_ab_apply v0 _ a q

/-- Row 0 as a vector: the first coordinate. -/
private theorem pay3_apply (v0 : Vec Ideal S1x3x1024 .f32) (q : Fin 1024) :
    k0_pay3 v0 (ix1 q) = comp v0 q 0 := by
  unfold k0_pay3
  rw [shapeCast_1a_a_apply, slice2_axis0_eq, pay1_apply]
  rfl

/-! ## A coordinate's position, floor, fraction and cell -/

/-- Row 2's pixel position. -/
private theorem pay4_apply (v0 : Vec Ideal S1x3x1024 .f32) (u : Fin 1) (q : Fin 1024) :
    k0_pay4 v0 (ix2 u q) = pos (comp v0 q 2) := by
  unfold k0_pay4 pos
  simp only [mulf_apply, addf_apply, broadcast_apply]
  rw [shapeCast_a_1a_apply, shapeCast_1a_a_apply, slice2_axis0_eq, pay1_apply]
  rfl

private theorem pay5_apply (v0 : Vec Ideal S1x3x1024 .f32) (u : Fin 1) (q : Fin 1024) :
    k0_pay5 v0 (ix2 u q) = flo (comp v0 q 2) := by
  unfold k0_pay5 flo
  show Ideal.liftRound Int.floor (k0_pay4 v0 (ix2 u q)) = _
  rw [pay4_apply]

private theorem pay6_apply (v0 : Vec Ideal S1x3x1024 .f32) (u : Fin 1) (q : Fin 1024) :
    k0_pay6 v0 (ix2 u q) = fra (comp v0 q 2) := by
  unfold k0_pay6 fra
  rw [subf_apply, pay4_apply, pay5_apply]

private theorem pay7_apply (v0 : Vec Ideal S1x3x1024 .f32) (u : Fin 1) (q : Fin 1024) :
    k0_pay7 v0 (ix2 u q) = cel (comp v0 q 2) := by
  unfold k0_pay7 cel
  show Ideal.fptosi 32 (k0_pay5 v0 (ix2 u q)) = _
  rw [pay5_apply]

/-! ## One-hot rows -/

/-- A decided equality of words, widened and converted, is 1 or 0. -/
private theorem hot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [IntOp.cmpi_eq.mpr h, if_pos h]
    norm_num
  · rw [eq_zero_of_ne_one (fun h1 => h (IntOp.cmpi_eq.mp h1)), if_neg h]
    norm_num

/-- The one-hot of a row of cells against the row counter: entry (k, q) is 1 where k is cell q. -/
private theorem onehot_apply (cv : IVec S1x1024 32) (k : Fin 256) (q : Fin 1024) :
    (sitofp (F := Ideal) .f32 (extui 32 (cmpi .eq (iota .tc S256x1024 32 [0] iota_S256x1024_d0_w32)
        (broadcastTo S256x1024 cv broadcasts_S1x1024_S256x1024)) natLt_1_32)) (ix2 k q)
      = hot (cv (ix2 0 q)) k.val := by
  rw [sitofp_apply, extui_apply]
  show FloatOps.sitofp (F := Ideal) .f32 ((IntOp.cmpi .eq (iota .tc S256x1024 32 [0] iota_S256x1024_d0_w32 (ix2 k q))
      (broadcastTo S256x1024 cv broadcasts_S1x1024_S256x1024 (ix2 k q))).setWidth 32) = _
  rw [iota_single_apply, broadcastTo_1b_ab_apply, hot_word]
  rfl

private theorem pay8_apply (v0 : Vec Ideal S1x3x1024 .f32) (k : Fin 256) (q : Fin 1024) :
    k0_pay8 v0 (ix2 k q) = hot (cel (comp v0 q 2)) k.val := by
  unfold k0_pay8
  exact (onehot_apply (k0_pay7 v0) k q).trans (by rw [pay7_apply])

private theorem pay9_apply (v0 : Vec Ideal S1x3x1024 .f32) (k : Fin 256) (q : Fin 1024) :
    k0_pay9 v0 (ix2 k q) = hot (cel (comp v0 q 2) + 1#32) k.val := by
  unfold k0_pay9
  refine (onehot_apply (addi (k0_pay7 v0) (broadcast S1x1024 1#32)) k q).trans ?_
  show hot (k0_pay7 v0 (ix2 0 q) + 1#32) k.val = _
  rw [pay7_apply]

/-! ## The same for row 1 -/

private theorem pay10_apply (v0 : Vec Ideal S1x3x1024 .f32) (u : Fin 1) (q : Fin 1024) :
    k0_pay10 v0 (ix2 u q) = pos (comp v0 q 1) := by
  unfold k0_pay10 pos
  simp only [mulf_apply, addf_apply, broadcast_apply]
  rw [shapeCast_a_1a_apply, shapeCast_1a_a_apply, slice2_axis0_eq, pay1_apply]
  rfl

private theorem pay11_apply (v0 : Vec Ideal S1x3x1024 .f32) (u : Fin 1) (q : Fin 1024) :
    k0_pay11 v0 (ix2 u q) = flo (comp v0 q 1) := by
  unfold k0_pay11 flo
  show Ideal.liftRound Int.floor (k0_pay10 v0 (ix2 u q)) = _
  rw [pay10_apply]

private theorem pay12_apply (v0 : Vec Ideal S1x3x1024 .f32) (u : Fin 1) (q : Fin 1024) :
    k0_pay12 v0 (ix2 u q) = fra (comp v0 q 1) := by
  unfold k0_pay12 fra
  rw [subf_apply, pay10_apply, pay11_apply]

private theorem pay13_apply (v0 : Vec Ideal S1x3x1024 .f32) (u : Fin 1) (q : Fin 1024) :
    k0_pay13 v0 (ix2 u q) = cel (comp v0 q 1) := by
  unfold k0_pay13 cel
  show Ideal.fptosi 32 (k0_pay11 v0 (ix2 u q)) = _
  rw [pay11_apply]

private theorem pay14_apply (v0 : Vec Ideal S1x3x1024 .f32) (k : Fin 256) (q : Fin 1024) :
    k0_pay14 v0 (ix2 k q) = hot (cel (comp v0 q 1)) k.val := by
  unfold k0_pay14
  exact (onehot_apply (k0_pay13 v0) k q).trans (by rw [pay13_apply])

/-- The one-hot of the next cell, over any row of cells. -/
private theorem pay15_apply (cv : IVec S1x1024 32) (k : Fin 256) (q : Fin 1024) :
    k0_pay15 (F := Ideal) cv (iota .tc S256x1024 32 [0] iota_S256x1024_d0_w32) (ix2 k q)
      = hot (cv (ix2 0 q) + 1#32) k.val := by
  unfold k0_pay15
  exact onehot_apply (addi cv (broadcast S1x1024 1#32)) k q

/-! ## The narrowed one-hots (a change of format is the identity) -/

private theorem pay16_apply (v : FVec Ideal S256x1024 .f32) (i : S256x1024.Idx) : k0_pay16 v i = v i := rfl
private theorem pay17_apply (v : FVec Ideal S256x1024 .f32) (i : S256x1024.Idx) : k0_pay17 v i = v i := rfl
private theorem pay18_apply (v : FVec Ideal S256x1024 .f32) (i : S256x1024.Idx) : k0_pay18 v i = v i := rfl

private theorem pay19_apply (cv : IVec S1x1024 32) (k : Fin 256) (q : Fin 1024) :
    k0_pay19 (F := Ideal) cv (iota .tc S256x1024 32 [0] iota_S256x1024_d0_w32) (ix2 k q)
      = hot (cv (ix2 0 q) + 1#32) k.val := by
  unfold k0_pay19
  rw [truncf_apply, pay15_apply]

/-! ## The blended column weights -/

private theorem pay20_apply (v5 : FVec Ideal S1024 .f32) (k : Fin 256) (q : Fin 1024) :
    k0_pay20 v5 (ix2 k q) = wgt (v5 (ix1 q)) k.val := by
  unfold k0_pay20
  rw [addf_apply, mulf_apply, mulf_apply, onehot_apply, onehot_apply, broadcastTo_1b_ab_apply, broadcastTo_1b_ab_apply]
  simp only [mulf_apply, addf_apply, subf_apply, broadcast_apply, floor_apply, fptosi_apply, addi_apply,
    shapeCast_a_1a_apply]
  rfl

/-! ## The matrix product into the zero accumulator, read at an index -/

private theorem lhs_ax0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
private theorem lhs_ax1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
private theorem rhs_ax0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
private theorem rhs_ax1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- Entry (r, q) of the product is the sum over the 256 contracted positions. -/
private theorem mm_apply (L : FVec Ideal S2048x256 .bf16) (R : FVec Ideal S256x1024 .bf16) (r : Fin 2048) (q : Fin 1024) :
    matmul dot_S2048x256_S256x1024_S2048x1024_1_0_0_1_n_n none L R (constant (F := Ideal) S2048x1024 .f32 0x00000000#32) (ix2 r q)
      = ∑ y : Fin 256, L (ix2 r y) * R (ix2 y q) := by
  simp only [matmul]
  rw [Ideal.matmul_constant_zero_apply, ← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 r q) ((contrEquiv1 dot_S2048x256_S256x1024_S2048x1024_1_0_0_1_n_n 256 rfl rfl).symm k) = ix2 r k := funext fun a => Fin.ext (by
    match a with
    | ⟨0, _⟩ => exact lhs_ax0 _ _
    | ⟨1, _⟩ => exact (lhs_ax1 _ _).trans hk)
  have er : dot_S2048x256_S256x1024_S2048x1024_1_0_0_1_n_n.rhsIdx (ix2 r q) ((contrEquiv1 dot_S2048x256_S256x1024_S2048x1024_1_0_0_1_n_n 256 rfl rfl).symm k) = ix2 k q := funext fun a => Fin.ext (by
    match a with
    | ⟨0, _⟩ => exact (rhs_ax0 _ _).trans hk
    | ⟨1, _⟩ => exact rhs_ax1 _ _)
  rw [el, er]

/-! ## Layout: rows regrouped by channel, one weight slab over eight channels, the sum over columns -/

/-- Row c·256 + x of a 2048-row array is entry (c, x) of its 8 × 256 regrouping. -/
private theorem sc3_apply {α : Type} (v : S2048x1024.Idx → α) (c : Fin 8) (x : Fin 256) (q : Fin 1024) :
    shapeCast S8x256x1024 v shapeCasts_S2048x1024_S8x256x1024 (ix3 c x q)
      = v (ix2 ⟨c.val * 256 + x.val, by have := c.isLt; have := x.isLt; omega⟩ q) :=
  shapeCast_apply v _ _ _ (by
    rw [Shape.rowMajor_val_two, Shape.rowMajor_val_three]
    rfl)

/-- A one-slab array broadcast over eight channels reads its slab. -/
private theorem bc3_apply {α : Type} (v : S1x256x1024.Idx → α) (c : Fin 8) (x : Fin 256) (q : Fin 1024) :
    broadcastTo S8x256x1024 v broadcasts_S1x256x1024_S8x256x1024 (ix3 c x q) = v (ix3 (0 : Fin 1) x q) := by
  refine broadcastTo_apply v _ (ix3 c x q) (ix3 (0 : Fin 1) x q) fun ax => ?_
  match ax with
  | ⟨0, _⟩ => rfl
  | ⟨1, _⟩ => show x.val = if (256 : ℕ) = 1 then 0 else x.val; rw [if_neg (by decide)]
  | ⟨2, _⟩ => show q.val = if (1024 : ℕ) = 1 then 0 else q.val; rw [if_neg (by decide)]

/-- The sum over axis 1 into the zero accumulator. -/
private theorem red_apply (src : FVec Ideal S8x256x1024 .f32) (hφ : FKind.Formats .f32)
    (hacc : (0x00000000#32 : BitVec 32) = FKind.add.neutral .f32 hφ) (c : Fin 8) (q : Fin 1024) :
    multiReduction (F := Ideal) .add [1] S8x1024 src 0x00000000#32 reduces_S8x256x1024_S8x1024 hφ hacc (ix2 c q)
      = ∑ x : Fin 256, src (ix3 c x q) := by
  refine (Ideal.multiReduction_add_single src 0x00000000#32 reduces_S8x256x1024_S8x1024 hφ hacc (ix2 c q)).trans ?_
  refine Finset.sum_congr rfl fun x _ => congrArg src (funext fun a => Fin.ext ?_)
  match a with
  | ⟨0, _⟩ => rfl
  | ⟨1, _⟩ => rfl
  | ⟨2, _⟩ => rfl

/-! ## One eight-channel chunk -/

/-- An eight-channel chunk's feature: the two row products regrouped, weighted by the two slabs, summed over columns. -/
private def chunk (L : FVec Ideal S2048x256 .bf16) (m0 m1 : FVec Ideal S256x1024 .bf16) (A0 A1 : FVec Ideal S1x256x1024 .f32) :
    FVec Ideal S8x1024 .f32 :=
  multiReduction (F := Ideal) .add [1] S8x1024
    (addf
      (mulf (shapeCast S8x256x1024 (matmul dot_S2048x256_S256x1024_S2048x1024_1_0_0_1_n_n none L m0 (constant (F := Ideal) S2048x1024 .f32 0x00000000#32)) shapeCasts_S2048x1024_S8x256x1024)
        (broadcastTo S8x256x1024 A0 broadcasts_S1x256x1024_S8x256x1024))
      (mulf (shapeCast S8x256x1024 (matmul dot_S2048x256_S256x1024_S2048x1024_1_0_0_1_n_n none L m1 (constant (F := Ideal) S2048x1024 .f32 0x00000000#32)) shapeCasts_S2048x1024_S8x256x1024)
        (broadcastTo S8x256x1024 A1 broadcasts_S1x256x1024_S8x256x1024)))
    0x00000000#32 reduces_S8x256x1024_S8x1024 (.inl rfl) rfl

private theorem chunk_apply (L : FVec Ideal S2048x256 .bf16) (m0 m1 : FVec Ideal S256x1024 .bf16) (A0 A1 : FVec Ideal S1x256x1024 .f32)
    (c : Fin 8) (q : Fin 1024) :
    chunk L m0 m1 A0 A1 (ix2 c q)
      = ∑ x : Fin 256,
          ((∑ y : Fin 256, L (ix2 ⟨c.val * 256 + x.val, by have := c.isLt; have := x.isLt; omega⟩ y) * m0 (ix2 y q)) * A0 (ix3 (0 : Fin 1) x q)
           + (∑ y : Fin 256, L (ix2 ⟨c.val * 256 + x.val, by have := c.isLt; have := x.isLt; omega⟩ y) * m1 (ix2 y q)) * A1 (ix3 (0 : Fin 1) x q)) := by
  unfold chunk
  refine (red_apply _ _ _ c q).trans ?_
  refine Finset.sum_congr rfl fun x _ => ?_
  rw [addf_apply, mulf_apply, mulf_apply, sc3_apply, sc3_apply, bc3_apply, bc3_apply, mm_apply, mm_apply]

/-! ## The two weight slabs -/

private theorem pay32_apply (v18 : FVec Ideal S1x1024 .f32) (v83 : FVec Ideal S256x1024 .f32) (u : Fin 1) (x : Fin 256) (q : Fin 1024) :
    k0_pay32 v18 v83 (ix3 u x q) = (lit1 - v18 (ix2 0 q)) * v83 (ix2 x q) := by
  unfold k0_pay32
  rw [shapeCast_ab_1ab_apply, mulf_apply, broadcastTo_1b_ab_apply]
  rfl

private theorem pay33_apply (v18 : FVec Ideal S1x1024 .f32) (v83 : FVec Ideal S256x1024 .f32) (u : Fin 1) (x : Fin 256) (q : Fin 1024) :
    k0_pay33 v18 v83 (ix3 u x q) = v18 (ix2 0 q) * v83 (ix2 x q) := by
  unfold k0_pay33
  rw [shapeCast_ab_1ab_apply, mulf_apply, broadcastTo_1b_ab_apply]

private theorem pay39_apply (v39 : FVec Ideal S1x1024 .f32) (v83 : FVec Ideal S256x1024 .f32) (u : Fin 1) (x : Fin 256) (q : Fin 1024) :
    k0_pay39 v39 v83 (ix3 u x q) = (lit1 - v39 (ix2 0 q)) * v83 (ix2 x q) := by
  unfold k0_pay39
  rw [shapeCast_ab_1ab_apply, mulf_apply, broadcastTo_1b_ab_apply]
  rfl

private theorem pay40_apply (v39 : FVec Ideal S1x1024 .f32) (v83 : FVec Ideal S256x1024 .f32) (u : Fin 1) (x : Fin 256) (q : Fin 1024) :
    k0_pay40 v39 v83 (ix3 u x q) = v39 (ix2 0 q) * v83 (ix2 x q) := by
  unfold k0_pay40
  rw [shapeCast_ab_1ab_apply, mulf_apply, broadcastTo_1b_ab_apply]

/-! ## The four chunks stacked, and a plane's four row blocks -/

/-- Off the stacking axis a piece's index and the stack's agree. -/
private theorem cat_hi (c' : Fin 8) (q : Fin 1024) (cc : Fin 32) :
    ∀ b : Fin S8x1024.rank, b.cast (rfl : S8x1024.rank = S32x1024.rank) ≠ (0 : Fin S32x1024.rank) →
      ((ix2 c' q : S8x1024.Idx) b).val = ((ix2 cc q : S32x1024.Idx) (b.cast rfl)).val :=
  fun b hb => match b, hb with
    | ⟨0, _⟩, hb => absurd rfl hb
    | ⟨1, _⟩, _ => rfl

/-- Channel 8·k + c' of the stack is channel c' of chunk k. -/
private theorem cat_apply (p0 p1 p2 p3 : FVec Ideal S8x1024 .f32) (k : Fin 4) (c' : Fin 8) (q : Fin 1024) :
    concatenate S32x1024 0 [⟨S8x1024, p0⟩, ⟨S8x1024, p1⟩, ⟨S8x1024, p2⟩, ⟨S8x1024, p3⟩]
        concatenates_S8x1024_S8x1024_S8x1024_S8x1024_S32x1024_d0
        (ix2 (⟨8 * k.val + c'.val, by have := k.isLt; have := c'.isLt; omega⟩ : Fin 32) q)
      = (![p0, p1, p2, p3] k) (ix2 c' q) := by
  match k with
  | ⟨0, _⟩ =>
    exact concatenate_apply_piece (0 : Fin S32x1024.rank) [⟨S8x1024, p0⟩, ⟨S8x1024, p1⟩, ⟨S8x1024, p2⟩, ⟨S8x1024, p3⟩]
      concatenates_S8x1024_S8x1024_S8x1024_S8x1024_S32x1024_d0 _ 0 (by show (0 : ℕ) < 4; decide) S8x1024 p0 rfl rfl 0 rfl (ix2 c' q) (cat_hi c' q _)
      (by show 0 + c'.val = 8 * 0 + c'.val; omega)
  | ⟨1, _⟩ =>
    exact concatenate_apply_piece (0 : Fin S32x1024.rank) [⟨S8x1024, p0⟩, ⟨S8x1024, p1⟩, ⟨S8x1024, p2⟩, ⟨S8x1024, p3⟩]
      concatenates_S8x1024_S8x1024_S8x1024_S8x1024_S32x1024_d0 _ 1 (by show (1 : ℕ) < 4; decide) S8x1024 p1 rfl rfl 8 rfl (ix2 c' q) (cat_hi c' q _)
      (by show 8 + c'.val = 8 * 1 + c'.val; omega)
  | ⟨2, _⟩ =>
    exact concatenate_apply_piece (0 : Fin S32x1024.rank) [⟨S8x1024, p0⟩, ⟨S8x1024, p1⟩, ⟨S8x1024, p2⟩, ⟨S8x1024, p3⟩]
      concatenates_S8x1024_S8x1024_S8x1024_S8x1024_S32x1024_d0 _ 2 (by show (2 : ℕ) < 4; decide) S8x1024 p2 rfl rfl 16 rfl (ix2 c' q) (cat_hi c' q _)
      (by show 16 + c'.val = 8 * 2 + c'.val; omega)
  | ⟨3, _⟩ =>
    exact concatenate_apply_piece (0 : Fin S32x1024.rank) [⟨S8x1024, p0⟩, ⟨S8x1024, p1⟩, ⟨S8x1024, p2⟩, ⟨S8x1024, p3⟩]
      concatenates_S8x1024_S8x1024_S8x1024_S8x1024_S32x1024_d0 _ 3 (by show (3 : ℕ) < 4; decide) S8x1024 p3 rfl rfl 24 rfl (ix2 c' q) (cat_hi c' q _)
      (by show 24 + c'.val = 8 * 3 + c'.val; omega)

/-- A block of 2048 rows from row `off` lies inside the 8192 rows. -/
private theorem row_lt (off : ℕ) (inb : ∀ a, (![off, 0] : Fin 2 → ℕ) a + S2048x256.size a ≤ S8192x256.size a) (r : Fin 2048) :
    off + r.val < 8192 := by
  have h0 : off + 2048 ≤ 8192 := inb 0
  have := r.isLt
  omega

/-- A load of 2048 rows from row `off` of a plane array reads the rows from `off`. -/
private theorem ldrows_apply (x : Vec Ideal S8192x256 .bf16) (off : ℕ)
    (inb : ∀ a, (![off, 0] : Fin 2 → ℕ) a + S2048x256.size a ≤ S8192x256.size a) (r : Fin 2048) (y : Fin 256) :
    View.ld x (Rect.unit (s := S8192x256) ![off, 0] S2048x256.size inb) (ix2 r y)
      = x (ix2 ⟨off + r.val, row_lt off inb r⟩ y) := by
  show x _ = x _
  refine congrArg x (funext fun a => Fin.ext ?_)
  match a with
  | ⟨0, _⟩ => show off + 1 * r.val = off + r.val; omega
  | ⟨1, _⟩ => show 0 + 1 * y.val = y.val; omega

/-! ## A chunk over a plane's row block is the plane's sample -/

/-- Chunk k of a plane (rows 2048·k …), with the row one-hots of gy and the slabs of gy's fractions times gx's column
    weights, is the plane's sample at channel 8·k + c'. -/
private theorem chunk_samp (xp : Vec Ideal S8192x256 .bf16) (k : Fin 4) (L : FVec Ideal S2048x256 .bf16)
    (hL : ∀ (r : Fin 2048) (y : Fin 256),
      L (ix2 r y) = xp (ix2 ⟨2048 * k.val + r.val, by have := k.isLt; have := r.isLt; omega⟩ y))
    (m0 m1 : FVec Ideal S256x1024 .bf16) (A0 A1 : FVec Ideal S1x256x1024 .f32) (q : Fin 1024) (gy gx : EReal)
    (h0 : ∀ y : Fin 256, m0 (ix2 y q) = hot (cel gy) y.val)
    (h1 : ∀ y : Fin 256, m1 (ix2 y q) = hot (cel gy + 1#32) y.val)
    (hA0 : ∀ x : Fin 256, A0 (ix3 (0 : Fin 1) x q) = (lit1 - fra gy) * wgt gx x.val)
    (hA1 : ∀ x : Fin 256, A1 (ix3 (0 : Fin 1) x q) = fra gy * wgt gx x.val) (c' : Fin 8) :
    chunk L m0 m1 A0 A1 (ix2 c' q)
      = ksamp (planeK xp) gy gx ⟨8 * k.val + c'.val, by have := k.isLt; have := c'.isLt; omega⟩ := by
  rw [chunk_apply]
  unfold ksamp
  refine Finset.sum_congr rfl fun x _ => ?_
  have hP : ∀ y : Fin 256,
      L (ix2 ⟨c'.val * 256 + x.val, by have := c'.isLt; have := x.isLt; omega⟩ y)
        = planeK xp ⟨8 * k.val + c'.val, by have := k.isLt; have := c'.isLt; omega⟩ y x := fun y => by
    rw [hL]
    unfold planeK
    refine congrArg xp (funext fun a => Fin.ext ?_)
    match a with
    | ⟨0, _⟩ => show 2048 * k.val + (c'.val * 256 + x.val) = (8 * k.val + c'.val) * 256 + x.val; omega
    | ⟨1, _⟩ => rfl
  rw [hA0, hA1]
  simp only [hP, h0, h1]

/-- A channel below 32 is 8·k + c'. -/
private theorem split32 (c : Fin 32) :
    ∃ (k : Fin 4) (c' : Fin 8), c = ⟨8 * k.val + c'.val, by have := k.isLt; have := c'.isLt; omega⟩ :=
  ⟨⟨c.val / 8, by have := c.isLt; omega⟩, ⟨c.val % 8, by omega⟩,
    Fin.ext (by show c.val = 8 * (c.val / 8) + c.val % 8; omega)⟩

/-! ## The second plane -/

/-- The feature after the second plane: the first plane's, plus the four chunks of the second stacked. -/
private theorem featXY_eq (x0 : Vec Ideal S1x3x1024 .f32) (x2 x3 : Vec Ideal S8192x256 .bf16) :
    featXY (F := Ideal) x0 x2 x3
      = addf (featX (F := Ideal) x0 x2)
          (concatenate S32x1024 0
            [⟨S8x1024, chunk (shapeCast S2048x256 (View.ld x3 r0_1) shapeCasts_S2048x256_S2048x256)
                (k0_pay16 (k0_pay8 (View.ld x0 r0_0))) (k0_pay17 (k0_pay9 (View.ld x0 r0_0)))
                (k0_pay32 (k0_pay6 (View.ld x0 r0_0)) (k0_pay20 (k0_pay3 (View.ld x0 r0_0))))
                (k0_pay33 (k0_pay6 (View.ld x0 r0_0)) (k0_pay20 (k0_pay3 (View.ld x0 r0_0))))⟩,
             ⟨S8x1024, chunk (shapeCast S2048x256 (View.ld x3 r0_2) shapeCasts_S2048x256_S2048x256)
                (k0_pay16 (k0_pay8 (View.ld x0 r0_0))) (k0_pay17 (k0_pay9 (View.ld x0 r0_0)))
                (k0_pay32 (k0_pay6 (View.ld x0 r0_0)) (k0_pay20 (k0_pay3 (View.ld x0 r0_0))))
                (k0_pay33 (k0_pay6 (View.ld x0 r0_0)) (k0_pay20 (k0_pay3 (View.ld x0 r0_0))))⟩,
             ⟨S8x1024, chunk (shapeCast S2048x256 (View.ld x3 r0_3) shapeCasts_S2048x256_S2048x256)
                (k0_pay16 (k0_pay8 (View.ld x0 r0_0))) (k0_pay17 (k0_pay9 (View.ld x0 r0_0)))
                (k0_pay32 (k0_pay6 (View.ld x0 r0_0)) (k0_pay20 (k0_pay3 (View.ld x0 r0_0))))
                (k0_pay33 (k0_pay6 (View.ld x0 r0_0)) (k0_pay20 (k0_pay3 (View.ld x0 r0_0))))⟩,
             ⟨S8x1024, chunk (shapeCast S2048x256 (View.ld x3 r0_4) shapeCasts_S2048x256_S2048x256)
                (k0_pay16 (k0_pay8 (View.ld x0 r0_0))) (k0_pay17 (k0_pay9 (View.ld x0 r0_0)))
                (k0_pay32 (k0_pay6 (View.ld x0 r0_0)) (k0_pay20 (k0_pay3 (View.ld x0 r0_0))))
                (k0_pay33 (k0_pay6 (View.ld x0 r0_0)) (k0_pay20 (k0_pay3 (View.ld x0 r0_0))))⟩]
            concatenates_S8x1024_S8x1024_S8x1024_S8x1024_S32x1024_d0) := rfl

/-- The row block k of a plane's load, recast to itself, reads the plane's rows from 2048·k. -/
private theorem rows_apply (x : Vec Ideal S8192x256 .bf16) (off : ℕ)
    (inb : ∀ a, (![off, 0] : Fin 2 → ℕ) a + S2048x256.size a ≤ S8192x256.size a) (r : Fin 2048) (y : Fin 256) :
    shapeCast S2048x256 (View.ld x (Rect.unit (s := S8192x256) ![off, 0] S2048x256.size inb)) shapeCasts_S2048x256_S2048x256 (ix2 r y)
      = x (ix2 ⟨off + r.val, row_lt off inb r⟩ y) :=
  (congrFun (shapeCast_self (s := S2048x256) (View.ld x (Rect.unit (s := S8192x256) ![off, 0] S2048x256.size inb))
    shapeCasts_S2048x256_S2048x256) (ix2 r y)).trans (ldrows_apply x off inb r y)

/-- After the second plane: the first plane's feature plus the sample of the second at rows w, columns u. -/
theorem featXY_apply (x0 : Vec Ideal S1x3x1024 .f32) (x2 x3 : Vec Ideal S8192x256 .bf16) (c : Fin 32) (q : Fin 1024) :
    featXY (F := Ideal) x0 x2 x3 (ix2 c q)
      = featX (F := Ideal) x0 x2 (ix2 c q) + ksamp (planeK x3) (comp x0 q 2) (comp x0 q 0) c := by
  obtain ⟨k, c', rfl⟩ := split32 c
  rw [featXY_eq, addf_apply, cat_apply, ld0]
  refine congrArg (featX (F := Ideal) x0 x2 (ix2 _ q) + ·) ?_
  have h0 : ∀ y : Fin 256, k0_pay16 (k0_pay8 x0) (ix2 y q) = hot (cel (comp x0 q 2)) y.val := fun y => by
    rw [pay16_apply, pay8_apply]
  have h1 : ∀ y : Fin 256, k0_pay17 (k0_pay9 x0) (ix2 y q) = hot (cel (comp x0 q 2) + 1#32) y.val := fun y => by
    rw [pay17_apply, pay9_apply]
  have hA0 : ∀ x : Fin 256, k0_pay32 (k0_pay6 x0) (k0_pay20 (k0_pay3 x0)) (ix3 (0 : Fin 1) x q)
      = (lit1 - fra (comp x0 q 2)) * wgt (comp x0 q 0) x.val := fun x => by
    rw [pay32_apply, pay6_apply, pay20_apply, pay3_apply]
  have hA1 : ∀ x : Fin 256, k0_pay33 (k0_pay6 x0) (k0_pay20 (k0_pay3 x0)) (ix3 (0 : Fin 1) x q)
      = fra (comp x0 q 2) * wgt (comp x0 q 0) x.val := fun x => by
    rw [pay33_apply, pay6_apply, pay20_apply, pay3_apply]
  match k with
  | ⟨0, _⟩ =>
    exact chunk_samp x3 0 _ (fun r y => (rows_apply x3 0 _ r y).trans
      (congrArg x3 (congrArg (fun n => ix2 n y) (Fin.ext (by show 0 + r.val = 2048 * 0 + r.val; omega))))) _ _ _ _ q _ _ h0 h1 hA0 hA1 c'
  | ⟨1, _⟩ =>
    exact chunk_samp x3 1 _ (fun r y => (rows_apply x3 2048 _ r y).trans
      (congrArg x3 (congrArg (fun n => ix2 n y) (Fin.ext (by show 2048 + r.val = 2048 * 1 + r.val; omega))))) _ _ _ _ q _ _ h0 h1 hA0 hA1 c'
  | ⟨2, _⟩ =>
    exact chunk_samp x3 2 _ (fun r y => (rows_apply x3 4096 _ r y).trans
      (congrArg x3 (congrArg (fun n => ix2 n y) (Fin.ext (by show 4096 + r.val = 2048 * 2 + r.val; omega))))) _ _ _ _ q _ _ h0 h1 hA0 hA1 c'
  | ⟨3, _⟩ =>
    exact chunk_samp x3 3 _ (fun r y => (rows_apply x3 6144 _ r y).trans
      (congrArg x3 (congrArg (fun n => ix2 n y) (Fin.ext (by show 6144 + r.val = 2048 * 3 + r.val; omega))))) _ _ _ _ q _ _ h0 h1 hA0 hA1 c'

/-! ## The third plane -/

/-- The feature after the third plane: the feature so far, plus the four chunks of the third stacked. -/
private theorem featXYZ_eq (x0 : Vec Ideal S1x3x1024 .f32) (x2 x3 x4 : Vec Ideal S8192x256 .bf16) :
    featXYZ (F := Ideal) x0 x2 x3 x4
      = addf (featXY (F := Ideal) x0 x2 x3)
          (concatenate S32x1024 0
            [⟨S8x1024, chunk (shapeCast S2048x256 (View.ld x4 r0_1) shapeCasts_S2048x256_S2048x256)
                (k0_pay18 (k0_pay14 (View.ld x0 r0_0))) (k0_pay19 (F := Ideal) (k0_pay13 (View.ld x0 r0_0)) (iota .tc S256x1024 32 [0] iota_S256x1024_d0_w32))
                (k0_pay39 (k0_pay12 (View.ld x0 r0_0)) (k0_pay20 (k0_pay3 (View.ld x0 r0_0))))
                (k0_pay40 (k0_pay12 (View.ld x0 r0_0)) (k0_pay20 (k0_pay3 (View.ld x0 r0_0))))⟩,
             ⟨S8x1024, chunk (shapeCast S2048x256 (View.ld x4 r0_2) shapeCasts_S2048x256_S2048x256)
                (k0_pay18 (k0_pay14 (View.ld x0 r0_0))) (k0_pay19 (F := Ideal) (k0_pay13 (View.ld x0 r0_0)) (iota .tc S256x1024 32 [0] iota_S256x1024_d0_w32))
                (k0_pay39 (k0_pay12 (View.ld x0 r0_0)) (k0_pay20 (k0_pay3 (View.ld x0 r0_0))))
                (k0_pay40 (k0_pay12 (View.ld x0 r0_0)) (k0_pay20 (k0_pay3 (View.ld x0 r0_0))))⟩,
             ⟨S8x1024, chunk (shapeCast S2048x256 (View.ld x4 r0_3) shapeCasts_S2048x256_S2048x256)
                (k0_pay18 (k0_pay14 (View.ld x0 r0_0))) (k0_pay19 (F := Ideal) (k0_pay13 (View.ld x0 r0_0)) (iota .tc S256x1024 32 [0] iota_S256x1024_d0_w32))
                (k0_pay39 (k0_pay12 (View.ld x0 r0_0)) (k0_pay20 (k0_pay3 (View.ld x0 r0_0))))
                (k0_pay40 (k0_pay12 (View.ld x0 r0_0)) (k0_pay20 (k0_pay3 (View.ld x0 r0_0))))⟩,
             ⟨S8x1024, chunk (shapeCast S2048x256 (View.ld x4 r0_4) shapeCasts_S2048x256_S2048x256)
                (k0_pay18 (k0_pay14 (View.ld x0 r0_0))) (k0_pay19 (F := Ideal) (k0_pay13 (View.ld x0 r0_0)) (iota .tc S256x1024 32 [0] iota_S256x1024_d0_w32))
                (k0_pay39 (k0_pay12 (View.ld x0 r0_0)) (k0_pay20 (k0_pay3 (View.ld x0 r0_0))))
                (k0_pay40 (k0_pay12 (View.ld x0 r0_0)) (k0_pay20 (k0_pay3 (View.ld x0 r0_0))))⟩]
            concatenates_S8x1024_S8x1024_S8x1024_S8x1024_S32x1024_d0) := rfl

/-- After the third plane: plus the sample of the third at rows v, columns u. -/
theorem featXYZ_apply (x0 : Vec Ideal S1x3x1024 .f32) (x2 x3 x4 : Vec Ideal S8192x256 .bf16) (c : Fin 32) (q : Fin 1024) :
    featXYZ (F := Ideal) x0 x2 x3 x4 (ix2 c q)
      = featXY (F := Ideal) x0 x2 x3 (ix2 c q) + ksamp (planeK x4) (comp x0 q 1) (comp x0 q 0) c := by
  obtain ⟨k, c', rfl⟩ := split32 c
  rw [featXYZ_eq, addf_apply, cat_apply, ld0]
  refine congrArg (featXY (F := Ideal) x0 x2 x3 (ix2 _ q) + ·) ?_
  have h0 : ∀ y : Fin 256, k0_pay18 (k0_pay14 x0) (ix2 y q) = hot (cel (comp x0 q 1)) y.val := fun y => by
    rw [pay18_apply, pay14_apply]
  have h1 : ∀ y : Fin 256, k0_pay19 (F := Ideal) (k0_pay13 x0) (iota .tc S256x1024 32 [0] iota_S256x1024_d0_w32) (ix2 y q)
      = hot (cel (comp x0 q 1) + 1#32) y.val := fun y => by
    rw [pay19_apply, pay13_apply]
  have hA0 : ∀ x : Fin 256, k0_pay39 (k0_pay12 x0) (k0_pay20 (k0_pay3 x0)) (ix3 (0 : Fin 1) x q)
      = (lit1 - fra (comp x0 q 1)) * wgt (comp x0 q 0) x.val := fun x => by
    rw [pay39_apply, pay12_apply, pay20_apply, pay3_apply]
  have hA1 : ∀ x : Fin 256, k0_pay40 (k0_pay12 x0) (k0_pay20 (k0_pay3 x0)) (ix3 (0 : Fin 1) x q)
      = fra (comp x0 q 1) * wgt (comp x0 q 0) x.val := fun x => by
    rw [pay40_apply, pay12_apply, pay20_apply, pay3_apply]
  match k with
  | ⟨0, _⟩ =>
    exact chunk_samp x4 0 _ (fun r y => (rows_apply x4 0 _ r y).trans
      (congrArg x4 (congrArg (fun n => ix2 n y) (Fin.ext (by show 0 + r.val = 2048 * 0 + r.val; omega))))) _ _ _ _ q _ _ h0 h1 hA0 hA1 c'
  | ⟨1, _⟩ =>
    exact chunk_samp x4 1 _ (fun r y => (rows_apply x4 2048 _ r y).trans
      (congrArg x4 (congrArg (fun n => ix2 n y) (Fin.ext (by show 2048 + r.val = 2048 * 1 + r.val; omega))))) _ _ _ _ q _ _ h0 h1 hA0 hA1 c'
  | ⟨2, _⟩ =>
    exact chunk_samp x4 2 _ (fun r y => (rows_apply x4 4096 _ r y).trans
      (congrArg x4 (congrArg (fun n => ix2 n y) (Fin.ext (by show 4096 + r.val = 2048 * 2 + r.val; omega))))) _ _ _ _ q _ _ h0 h1 hA0 hA1 c'
  | ⟨3, _⟩ =>
    exact chunk_samp x4 3 _ (fun r y => (rows_apply x4 6144 _ r y).trans
      (congrArg x4 (congrArg (fun n => ix2 n y) (Fin.ext (by show 6144 + r.val = 2048 * 3 + r.val; omega))))) _ _ _ _ q _ _ h0 h1 hA0 hA1 c'

end Cert.KernelIdeal.KFeatYZ

end
-- ==== Proof.Blocks.lean ====
/-
  From blocks to the array. Grid point t (of 256) stages points 1024·t … 1024·t + 1023 of the two [1, 3, 262144]
  inputs and the whole of every plane and weight array, and writes back block t of the [1, 4, 262144] result; the blocks
  tile the result, so the result array is, entry by entry, the per-point function `kpt` of the arrays the region finds.
-/
import proofs.«422422_j77094662963970_3_alg».proof.Proof.Gen.KernelIdeal.Value
import proofs.«422422_j77094662963970_3_alg».proof.Proof.KMlp
import proofs.«422422_j77094662963970_3_alg».proof.Proof.KFeatX
import proofs.«422422_j77094662963970_3_alg».proof.Proof.KFeatYZ

noncomputable section

namespace Cert.KernelIdeal.Blocks

open Cert.KernelIdeal Cert.KernelIdeal.Gen Cert.KernelIdeal.KTerm Cert.Tri Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One point of one block, over the blocks as variables -/

/-- Row j, point q of the stored block is the per-point function of the blocks' entries. -/
theorem point_eq (x0 x1 : Vec Ideal S1x3x1024 .f32) (x2 x3 x4 : Vec Ideal S8192x256 .bf16)
    (x5 : Vec Ideal S256x59 .f32) (x6 : Vec Ideal S256 .f32) (x7 : Vec Ideal S256x256 .f32) (x8 : Vec Ideal S256 .f32)
    (x9 : Vec Ideal S4x256 .f32) (x10 : Vec Ideal S4 .f32) (j : Fin 4) (q : Fin 1024) :
    out0_11 (F := Ideal) x0 x1 x2 x3 x4 x5 x6 x7 x8 x9 x10 (ix3 0 j q)
      = kpt (planeK x2) (planeK x3) (planeK x4) (mat2 x5) (vec1 x6) (mat2 x7) (vec1 x8) (mat2 x9) (vec1 x10)
          (comp x0 q 0) (comp x0 q 1) (comp x0 q 2) (comp x1 q) j := by
  rw [KMlp.out_apply]
  unfold kpt
  congr 2
  funext c
  rw [KFeatYZ.featXYZ_apply, KFeatYZ.featXY_apply, KFeatX.featX_apply]

/-! ## The index maps, decided over the grid -/

theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 3) = 0 ∧ win0_11.index t (1 : Fin 3) = 0 ∧ win0_11.index t (2 : Fin 3) = t.val :=
  (by decide +kernel : ∀ t : Fin grid0.N, _)

/-! ## The input blocks read through the arrays -/

/-- Point q of block t of the coordinates array is point 1024·t + q. -/
theorem blk0_apply (c : Dev nD) (t : Fin cfg0.N) (a : Fin 3) (q : Fin 1024) (n : Fin 262144) (hn : n.val = t.val * 1024 + q.val) :
    (iblk m c 0 t : Vec Ideal S1x3x1024 .f32) (ix3 0 a q) = (V m c main_arg0 : S1x3x262144.Idx → EReal) (ix3 0 a n) := by
  obtain ⟨e0, e1, e2, -⟩ := idx_facts t
  unfold iblk
  rw [View.read_apply]
  show V m c main_arg0 _ = V m c main_arg0 _
  congr 1
  funext d
  apply Fin.ext
  match d with
  | ⟨0, _⟩ => show win0_0.index t (0 : Fin 3) * 1 + 1 * 0 = 0; omega
  | ⟨1, _⟩ => show win0_0.index t (1 : Fin 3) * 3 + 1 * a.val = a.val; omega
  | ⟨2, _⟩ => show win0_0.index t (2 : Fin 3) * 1024 + 1 * q.val = n.val; omega

/-- The same for the directions array. -/
theorem blk1_apply (c : Dev nD) (t : Fin cfg0.N) (a : Fin 3) (q : Fin 1024) (n : Fin 262144) (hn : n.val = t.val * 1024 + q.val) :
    (iblk m c 1 t : Vec Ideal S1x3x1024 .f32) (ix3 0 a q) = (V m c main_arg1 : S1x3x262144.Idx → EReal) (ix3 0 a n) := by
  obtain ⟨-, -, -, e0, e1, e2, -⟩ := idx_facts t
  unfold iblk
  rw [View.read_apply]
  show V m c main_arg1 _ = V m c main_arg1 _
  congr 1
  funext d
  apply Fin.ext
  match d with
  | ⟨0, _⟩ => show win0_1.index t (0 : Fin 3) * 1 + 1 * 0 = 0; omega
  | ⟨1, _⟩ => show win0_1.index t (1 : Fin 3) * 3 + 1 * a.val = a.val; omega
  | ⟨2, _⟩ => show win0_1.index t (2 : Fin 3) * 1024 + 1 * q.val = n.val; omega

/-- A window that stages a whole array at every point: its block is the array. -/
theorem blk2_eq (c : Dev nD) (t : Fin cfg0.N) : (iblk m c 2 t : Vec Ideal S8192x256 .bf16) = V m c main_v4 := by
  obtain ⟨-, -, -, -, -, -, e0, e1, -⟩ := idx_facts t
  funext y
  unfold iblk
  rw [View.read_apply]
  show V m c main_v4 _ = V m c main_v4 _
  congr 1
  funext d
  apply Fin.ext
  match d with
  | ⟨0, _⟩ => show win0_2.index t (0 : Fin 2) * 8192 + 1 * (y 0).val = (y 0).val; omega
  | ⟨1, _⟩ => show win0_2.index t (1 : Fin 2) * 256 + 1 * (y 1).val = (y 1).val; omega

theorem blk3_eq (c : Dev nD) (t : Fin cfg0.N) : (iblk m c 3 t : Vec Ideal S8192x256 .bf16) = V m c main_v9 := by
  obtain ⟨-, -, -, -, -, -, -, -, e0, e1, -⟩ := idx_facts t
  funext y
  unfold iblk
  rw [View.read_apply]
  show V m c main_v9 _ = V m c main_v9 _
  congr 1
  funext d
  apply Fin.ext
  match d with
  | ⟨0, _⟩ => show win0_3.index t (0 : Fin 2) * 8192 + 1 * (y 0).val = (y 0).val; omega
  | ⟨1, _⟩ => show win0_3.index t (1 : Fin 2) * 256 + 1 * (y 1).val = (y 1).val; omega

theorem blk4_eq (c : Dev nD) (t : Fin cfg0.N) : (iblk m c 4 t : Vec Ideal S8192x256 .bf16) = V m c main_v14 := by
  obtain ⟨-, -, -, -, -, -, -, -, -, -, e0, e1, -⟩ := idx_facts t
  funext y
  unfold iblk
  rw [View.read_apply]
  show V m c main_v14 _ = V m c main_v14 _
  congr 1
  funext d
  apply Fin.ext
  match d with
  | ⟨0, _⟩ => show win0_4.index t (0 : Fin 2) * 8192 + 1 * (y 0).val = (y 0).val; omega
  | ⟨1, _⟩ => show win0_4.index t (1 : Fin 2) * 256 + 1 * (y 1).val = (y 1).val; omega

theorem blk5_eq (c : Dev nD) (t : Fin cfg0.N) : (iblk m c 5 t : Vec Ideal S256x59 .f32) = V m c main_v19 := by
  obtain ⟨-, -, -, -, -, -, -, -, -, -, -, -, e0, e1, -⟩ := idx_facts t
  funext y
  unfold iblk
  rw [View.read_apply]
  show V m c main_v19 _ = V m c main_v19 _
  congr 1
  funext d
  apply Fin.ext
  match d with
  | ⟨0, _⟩ => show win0_5.index t (0 : Fin 2) * 256 + 1 * (y 0).val = (y 0).val; omega
  | ⟨1, _⟩ => show win0_5.index t (1 : Fin 2) * 59 + 1 * (y 1).val = (y 1).val; omega

theorem blk6_eq (c : Dev nD) (t : Fin cfg0.N) : (iblk m c 6 t : Vec Ideal S256 .f32) = V m c main_v20 := by
  obtain ⟨-, -, -, -, -, -, -, -, -, -, -, -, -, -, e0, -⟩ := idx_facts t
  funext y
  unfold iblk
  rw [View.read_apply]
  show V m c main_v20 _ = V m c main_v20 _
  congr 1
  funext d
  apply Fin.ext
  match d with
  | ⟨0, _⟩ => show win0_6.index t (0 : Fin 1) * 256 + 1 * (y 0).val = (y 0).val; omega

theorem blk7_eq (c : Dev nD) (t : Fin cfg0.N) : (iblk m c 7 t : Vec Ideal S256x256 .f32) = V m c main_v27 := by
  obtain ⟨-, -, -, -, -, -, -, -, -, -, -, -, -, -, -, e0, e1, -⟩ := idx_facts t
  funext y
  unfold iblk
  rw [View.read_apply]
  show V m c main_v27 _ = V m c main_v27 _
  congr 1
  funext d
  apply Fin.ext
  match d with
  | ⟨0, _⟩ => show win0_7.index t (0 : Fin 2) * 256 + 1 * (y 0).val = (y 0).val; omega
  | ⟨1, _⟩ => show win0_7.index t (1 : Fin 2) * 256 + 1 * (y 1).val = (y 1).val; omega

theorem blk8_eq (c : Dev nD) (t : Fin cfg0.N) : (iblk m c 8 t : Vec Ideal S256 .f32) = V m c main_v28 := by
  obtain ⟨-, -, -, -, -, -, -, -, -, -, -, -, -, -, -, -, -, e0, -⟩ := idx_facts t
  funext y
  unfold iblk
  rw [View.read_apply]
  show V m c main_v28 _ = V m c main_v28 _
  congr 1
  funext d
  apply Fin.ext
  match d with
  | ⟨0, _⟩ => show win0_8.index t (0 : Fin 1) * 256 + 1 * (y 0).val = (y 0).val; omega

theorem blk9_eq (c : Dev nD) (t : Fin cfg0.N) : (iblk m c 9 t : Vec Ideal S4x256 .f32) = V m c main_v35 := by
  obtain ⟨-, -, -, -, -, -, -, -, -, -, -, -, -, -, -, -, -, -, e0, e1, -⟩ := idx_facts t
  funext y
  unfold iblk
  rw [View.read_apply]
  show V m c main_v35 _ = V m c main_v35 _
  congr 1
  funext d
  apply Fin.ext
  match d with
  | ⟨0, _⟩ => show win0_9.index t (0 : Fin 2) * 4 + 1 * (y 0).val = (y 0).val; omega
  | ⟨1, _⟩ => show win0_9.index t (1 : Fin 2) * 256 + 1 * (y 1).val = (y 1).val; omega

theorem blk10_eq (c : Dev nD) (t : Fin cfg0.N) : (iblk m c 10 t : Vec Ideal S4 .f32) = V m c main_v36 := by
  obtain ⟨-, -, -, -, -, -, -, -, -, -, -, -, -, -, -, -, -, -, -, -, e0, -⟩ := idx_facts t
  funext y
  unfold iblk
  rw [View.read_apply]
  show V m c main_v36 _ = V m c main_v36 _
  congr 1
  funext d
  apply Fin.ext
  match d with
  | ⟨0, _⟩ => show win0_10.index t (0 : Fin 1) * 4 + 1 * (y 0).val = (y 0).val; omega

/-! ## The result array as one function -/

/-- Output row j of point n, from the arrays the region finds. -/
def PT (c : Dev nD) (j : Fin 4) (n : Fin 262144) : EReal :=
  kpt (planeK (V m c main_v4)) (planeK (V m c main_v9)) (planeK (V m c main_v14))
    (mat2 (V m c main_v19)) (vec1 (V m c main_v20)) (mat2 (V m c main_v27)) (vec1 (V m c main_v28))
    (mat2 (V m c main_v35)) (vec1 (V m c main_v36))
    (comp (V m c main_arg0) n 0) (comp (V m c main_arg0) n 1) (comp (V m c main_arg0) n 2) (comp (V m c main_arg1) n) j

/-- The whole [1, 4, 262144] result. -/
def GK (c : Dev nD) : S1x4x262144.Idx → EReal := fun i => PT m c (i 1) (i 2)

/-- WHAT POINT t WRITES BACK is block t of that function. -/
theorem flushed_eq (c : Dev nD) (t : Fin cfg0.N) :
    (dats m 0 c).flushed 11 t = ((cfg0.win 11).blk t).view.read (Elt Ideal) (GK m c) := by
  rw [Value.flushed11]
  obtain ⟨-, -, -, -, -, -, -, -, -, -, -, -, -, -, -, -, -, -, -, -, -, e0, e1, e2⟩ := idx_facts t
  funext y
  obtain ⟨j, q, rfl⟩ : ∃ (j : Fin 4) (q : Fin 1024), y = ix3 0 j q :=
    ⟨y 1, y 2, funext fun d => by
      match d with
      | ⟨0, _⟩ => exact Fin.ext (by have h : (y 0).val < 1 := (y 0).isLt; show (y 0).val = 0; omega)
      | ⟨1, _⟩ => rfl
      | ⟨2, _⟩ => rfl⟩
  have ht : t.val < 256 := t.isLt
  let n : Fin 262144 := ⟨t.val * 1024 + q.val, by have := q.isLt; omega⟩
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 j q)
      = GK m c (((cfg0.win 11).blk t).view.emb (ix3 0 j q))
  have hemb : ((cfg0.win 11).blk t).view.emb (ix3 0 j q) = ix3 0 j n := by
    funext d
    apply Fin.ext
    match d with
    | ⟨0, _⟩ => show win0_11.index t (0 : Fin 3) * 1 + 1 * 0 = 0; omega
    | ⟨1, _⟩ => show win0_11.index t (1 : Fin 3) * 4 + 1 * j.val = j.val; omega
    | ⟨2, _⟩ => show win0_11.index t (2 : Fin 3) * 1024 + 1 * q.val = t.val * 1024 + q.val; omega
  rw [hemb]
  refine (point_eq (iblk m c 0 t) (iblk m c 1 t) (iblk m c 2 t) (iblk m c 3 t) (iblk m c 4 t) (iblk m c 5 t) (iblk m c 6 t) (iblk m c 7 t) (iblk m c 8 t) (iblk m c 9 t) (iblk m c 10 t) j q).trans ?_
  rw [blk2_eq m c t, blk3_eq m c t, blk4_eq m c t, blk5_eq m c t, blk6_eq m c t, blk7_eq m c t, blk8_eq m c t, blk9_eq m c t, blk10_eq m c t]
  have h0 : ∀ a : Fin 3, comp (iblk m c 0 t : Vec Ideal S1x3x1024 .f32) q a = comp (V m c main_arg0) n a :=
    fun a => blk0_apply m c t a q n rfl
  have h1 : comp (iblk m c 1 t : Vec Ideal S1x3x1024 .f32) q = comp (V m c main_arg1) n :=
    funext fun a => blk1_apply m c t a q n rfl
  rw [h0 0, h0 1, h0 2, h1]
  rfl

/-- Every entry of the result lies in some point's block: entry (0, j, n) in block n / 1024. -/
theorem cover (c : Dev nD) (i : S1x4x262144.Idx) :
    ∃ t : Fin cfg0.N, (cfg0.win 11).flush t = true ∧ i ∈ ((cfg0.win 11).blk t).view.set := by
  have h0 : (i 0).val < 1 := (i 0).isLt
  have h1 : (i 1).val < 4 := (i 1).isLt
  have h2 : (i 2).val < 262144 := (i 2).isLt
  let t : Fin cfg0.N := ⟨(i 2).val / 1024, by show (i 2).val / 1024 < 256; omega⟩
  obtain ⟨-, -, -, -, -, -, -, -, -, -, -, -, -, -, -, -, -, -, -, -, -, e0, e1, e2⟩ := idx_facts t
  have e2' : win0_11.index t (2 : Fin 3) = (i 2).val / 1024 := e2
  refine ⟨t, flush0_11 t, ?_⟩
  show i ∈ ((View.whole main_v37).slice (win0_11.rect t)).set
  rw [View.set_slice_whole, Rect.mem_set_unit]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 4 ≤ (i 1).val ∧ (i 1).val < win0_11.index t (1 : Fin 3) * 4 + 4; omega
  | ⟨2, _⟩ => show win0_11.index t (2 : Fin 3) * 1024 ≤ (i 2).val ∧ (i 2).val < win0_11.index t (2 : Fin 3) * 1024 + 1024; omega

/-- THE ARRAY after the run. -/
theorem final (c : Dev nD) : (dats m 0 c).arrAt 11 cfg0.N = GK m c :=
  (dats m 0 c).arrAt_eq_of_cover 11 (GK m c) (fun t _ => flushed_eq m c t) (cover c)

end Cert.KernelIdeal.Blocks

end
-- ==== Proof.KHost.lean ====
/- The arrays the region finds, written by the host operations before it: the three re-laid planes and the fused weights. -/
import proofs.«422422_j77094662963970_3_alg».proof.Proof.KTerm
import proofs.«422422_j77094662963970_3_alg».proof.Proof.Iface
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KHost

open Cert.KernelIdeal Cert.KernelIdeal.Gen Cert.KernelIdeal.KTerm Cert.Tri Idealize.ShloMosaic Idealize.ShloMosaic.TcCoe Idealize.SL.Sem Idealize.ShloMosaic.ValueIdx

variable (m : (ℓ : Loc nD τ sig) → Buf (Elt Ideal) ℓ)

/-- One re-laid plane read at an entry: the slice from channel o = 32·p, with the unit axis dropped, each channel's
    matrix transposed, and the channels' rows stacked, holds at row c·256 + x, column y the triplanes' entry
    (0, 32·p + c, y, x). -/
private theorem plane_read (p : Fin 3) (o : Nat) (ho : o = 32 * p.val) (X : S1x96x256x256.Idx → EReal)
    (h : S1x96x256x256.Slices ![0, o, 0, 0] S1x32x256x256) (ch : Fin 32) (y x : Fin 256) :
    (truncf (F := Ideal) .bf16
      (shapeCast S8192x256
        (transpose S32x256x256 [0, 2, 1]
          (shapeCast S32x256x256 (extractStridedSlice S1x32x256x256 ![0, o, 0, 0] X h)
            shapeCasts_S1x32x256x256_S32x256x256)
          transposes_S32x256x256_S32x256x256_0_2_1)
        shapeCasts_S32x256x256_S8192x256)
      bitsLt_bf16_f32 : S8192x256.Idx → EReal) (ix2 ⟨ch.val * 256 + x.val, by omega⟩ y)
      = X (ix4 0 ⟨32 * p.val + ch.val, by omega⟩ y x) := by
  rw [truncf_apply]
  refine (shapeCast_apply _ _ _ (ix3 ch x y) ?_).trans ?_
  · rw [Shape.rowMajor_val_three, Shape.rowMajor_val_two]
    rfl
  refine (transpose_ix3_021_apply _ _ ch x y).trans ?_
  refine (shapeCast_1abc_abc_apply _ _ ch y x).trans ?_
  exact slice4_axis1_apply o X h 0 ch y x _ (by show 32 * p.val + ch.val = o + ch.val; omega)

/-! ## Two pieces joined along one axis, read at an entry -/

section Pieces
variable {α : Type}

/-- Two matrices stacked by rows: a row above the first height is the first matrix's. -/
private theorem rows_fst {a b t n : ℕ} (x₁ : (⟨2, ![a, n]⟩ : Shape).Idx → α) (x₂ : (⟨2, ![b, n]⟩ : Shape).Idx → α)
    (h : Shape.Concatenates [⟨2, ![a, n]⟩, ⟨2, ![b, n]⟩] ⟨2, ![t, n]⟩ 0) (i : Fin t) (k : Fin n) (hi : i.val < a) :
    concatenate ⟨2, ![t, n]⟩ 0 [⟨_, x₁⟩, ⟨_, x₂⟩] h (ix2 i k) = x₁ (ix2 ⟨i.val, hi⟩ k) :=
  concatenate_pair_apply_left 0 x₁ x₂ h (ix2 i k) rfl (ix2 ⟨i.val, hi⟩ k)
    (fun d => match d with | ⟨0, _⟩ => rfl | ⟨1, _⟩ => rfl)

/-- … and a row from the first height on is the second matrix's, the first height less. -/
private theorem rows_snd {a b t n : ℕ} (x₁ : (⟨2, ![a, n]⟩ : Shape).Idx → α) (x₂ : (⟨2, ![b, n]⟩ : Shape).Idx → α)
    (h : Shape.Concatenates [⟨2, ![a, n]⟩, ⟨2, ![b, n]⟩] ⟨2, ![t, n]⟩ 0) (i : Fin t) (k : Fin n) (hi : a ≤ i.val)
    (hb : i.val - a < b) :
    concatenate ⟨2, ![t, n]⟩ 0 [⟨_, x₁⟩, ⟨_, x₂⟩] h (ix2 i k) = x₂ (ix2 ⟨i.val - a, hb⟩ k) :=
  concatenate_pair_apply_right 0 x₁ x₂ h (ix2 i k) rfl rfl (ix2 ⟨i.val - a, hb⟩ k)
    (fun d hd => match d, hd with | ⟨0, _⟩, hd => absurd rfl hd | ⟨1, _⟩, _ => rfl)
    (by show i.val - a + a = i.val; omega)

/-- Two matrices set side by side: a column left of the first width is the first matrix's. -/
private theorem cols_fst {a b t n : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, t]⟩ 1) (i : Fin n) (k : Fin t) (hk : k.val < a) :
    concatenate ⟨2, ![n, t]⟩ 1 [⟨_, x₁⟩, ⟨_, x₂⟩] h (ix2 i k) = x₁ (ix2 i ⟨k.val, hk⟩) :=
  concatenate_pair_apply_left 1 x₁ x₂ h (ix2 i k) rfl (ix2 i ⟨k.val, hk⟩)
    (fun d => match d with | ⟨0, _⟩ => rfl | ⟨1, _⟩ => rfl)

/-- … and a column from the first width on is the second matrix's, the first width less. -/
private theorem cols_snd {a b t n : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, t]⟩ 1) (i : Fin n) (k : Fin t) (hk : a ≤ k.val)
    (hb : k.val - a < b) :
    concatenate ⟨2, ![n, t]⟩ 1 [⟨_, x₁⟩, ⟨_, x₂⟩] h (ix2 i k) = x₂ (ix2 i ⟨k.val - a, hb⟩) :=
  concatenate_pair_apply_right 1 x₁ x₂ h (ix2 i k) rfl rfl (ix2 i ⟨k.val - a, hb⟩)
    (fun d hd => match d, hd with | ⟨0, _⟩, _ => rfl | ⟨1, _⟩, hd => absurd rfl hd)
    (by show k.val - a + a = k.val; omega)

/-- Two vectors joined: an entry before the first length is the first vector's. -/
private theorem vec_fst {a b t : ℕ} (x₁ : (⟨1, ![a]⟩ : Shape).Idx → α) (x₂ : (⟨1, ![b]⟩ : Shape).Idx → α)
    (h : Shape.Concatenates [⟨1, ![a]⟩, ⟨1, ![b]⟩] ⟨1, ![t]⟩ 0) (i : Fin t) (hi : i.val < a) :
    concatenate ⟨1, ![t]⟩ 0 [⟨_, x₁⟩, ⟨_, x₂⟩] h (ix1 i) = x₁ (ix1 ⟨i.val, hi⟩) :=
  concatenate_pair_apply_left 0 x₁ x₂ h (ix1 i) rfl (ix1 ⟨i.val, hi⟩)
    (fun d => match d with | ⟨0, _⟩ => rfl)

/-- … and an entry from the first length on is the second vector's, the first length less. -/
private theorem vec_snd {a b t : ℕ} (x₁ : (⟨1, ![a]⟩ : Shape).Idx → α) (x₂ : (⟨1, ![b]⟩ : Shape).Idx → α)
    (h : Shape.Concatenates [⟨1, ![a]⟩, ⟨1, ![b]⟩] ⟨1, ![t]⟩ 0) (i : Fin t) (hi : a ≤ i.val) (hb : i.val - a < b) :
    concatenate ⟨1, ![t]⟩ 0 [⟨_, x₁⟩, ⟨_, x₂⟩] h (ix1 i) = x₂ (ix1 ⟨i.val - a, hb⟩) :=
  concatenate_pair_apply_right 0 x₁ x₂ h (ix1 i) rfl rfl (ix1 ⟨i.val - a, hb⟩)
    (fun d hd => match d, hd with | ⟨0, _⟩, hd => absurd rfl hd)
    (by show i.val - a + a = i.val; omega)

end Pieces

/-- A block of zeros (the scalar zero spread over a shape) reads the printed zero everywhere. -/
private theorem zeros_apply {t : Shape} (dims : Fin S_.rank → Fin t.rank) (h : S_.BroadcastsInDim t dims) (j : t.Idx) :
    broadcastInDim t dims h (constant (F := Ideal) S_ .f32 0x00000000#32) j = lit0 := rfl

/-- The first window's plane array is plane 0 of the triplanes, transposed and flattened. -/
theorem V_px (c : Dev nD) : planeK (V m c main_v4) = plane (m ((c : Thread nD τ).loc main_arg2)) 0 := by
  have e : (V m c main_v4 : S8192x256.Idx → EReal) =
      truncf (F := Ideal) .bf16
        (shapeCast S8192x256
          (transpose S32x256x256 [0, 2, 1]
            (shapeCast S32x256x256
              (extractStridedSlice S1x32x256x256 ![0, 0, 0, 0] (m ((c : Thread nD τ).loc main_arg2))
                slices_S1x96x256x256_S1x32x256x256_0_0_0_0)
              shapeCasts_S1x32x256x256_S32x256x256)
            transposes_S32x256x256_S32x256x256_0_2_1)
          shapeCasts_S32x256x256_S8192x256)
        bitsLt_bf16_f32 := by
    dsimp only [Gen.V, Gen.hostOps0]; after_results; rfl
  funext ch y x
  unfold planeK plane
  exact (congrFun e _).trans (plane_read 0 0 rfl _ _ ch y x)
theorem V_py (c : Dev nD) : planeK (V m c main_v9) = plane (m ((c : Thread nD τ).loc main_arg2)) 1 := by
  have e : (V m c main_v9 : S8192x256.Idx → EReal) =
      truncf (F := Ideal) .bf16
        (shapeCast S8192x256
          (transpose S32x256x256 [0, 2, 1]
            (shapeCast S32x256x256
              (extractStridedSlice S1x32x256x256 ![0, 32, 0, 0] (m ((c : Thread nD τ).loc main_arg2))
                slices_S1x96x256x256_S1x32x256x256_0_32_0_0)
              shapeCasts_S1x32x256x256_S32x256x256)
            transposes_S32x256x256_S32x256x256_0_2_1)
          shapeCasts_S32x256x256_S8192x256)
        bitsLt_bf16_f32 := by
    dsimp only [Gen.V, Gen.hostOps0]; after_results; rfl
  funext ch y x
  unfold planeK plane
  exact (congrFun e _).trans (plane_read 1 32 rfl _ _ ch y x)
theorem V_pz (c : Dev nD) : planeK (V m c main_v14) = plane (m ((c : Thread nD τ).loc main_arg2)) 2 := by
  have e : (V m c main_v14 : S8192x256.Idx → EReal) =
      truncf (F := Ideal) .bf16
        (shapeCast S8192x256
          (transpose S32x256x256 [0, 2, 1]
            (shapeCast S32x256x256
              (extractStridedSlice S1x32x256x256 ![0, 64, 0, 0] (m ((c : Thread nD τ).loc main_arg2))
                slices_S1x96x256x256_S1x32x256x256_0_64_0_0)
              shapeCasts_S1x32x256x256_S32x256x256)
            transposes_S32x256x256_S32x256x256_0_2_1)
          shapeCasts_S32x256x256_S8192x256)
        bitsLt_bf16_f32 := by
    dsimp only [Gen.V, Gen.hostOps0]; after_results; rfl
  funext ch y x
  unfold planeK plane
  exact (congrFun e _).trans (plane_read 2 64 rfl _ _ ch y x)
/-- The fused first-layer weights and bias. -/
theorem V_WA1 (c : Dev nD) : mat2 (V m c main_v19)
    = WA1 (mat2 (m ((c : Thread nD τ).loc main_arg3))) (mat2 (m ((c : Thread nD τ).loc main_arg9))) := by
  funext i k
  unfold mat2 WA1
  dsimp only [Gen.V, Gen.hostOps0]
  after_results
  by_cases hi : i.val < 128
  · rw [dif_pos hi]
    refine (rows_fst _ _ _ i k hi).trans ?_
    by_cases hk : k.val < 32
    · rw [dif_pos hk]
      refine (cols_fst _ _ _ _ k hk).trans ?_
      exact transpose_ix2_apply _ _ _ _
    · rw [dif_neg hk]
      refine (cols_snd _ _ _ _ k (by omega) (by omega)).trans ?_
      exact zeros_apply _ _ _
  · rw [dif_neg hi]
    refine (rows_snd _ _ _ i k (by omega) (by omega)).trans ?_
    exact transpose_ix2_apply _ _ _ _
theorem V_BA1 (c : Dev nD) : vec1 (V m c main_v20)
    = BA (vec1 (m ((c : Thread nD τ).loc main_arg4))) (vec1 (m ((c : Thread nD τ).loc main_arg10))) := by
  funext i
  unfold vec1 BA
  dsimp only [Gen.V, Gen.hostOps0]
  after_results
  by_cases hi : i.val < 128
  · rw [dif_pos hi]
    exact vec_fst _ _ _ i hi
  · rw [dif_neg hi]
    exact vec_snd _ _ _ i (by omega) (by omega)
set_option maxHeartbeats 2000000 in
theorem V_WA2 (c : Dev nD) : mat2 (V m c main_v27)
    = WA2 (mat2 (m ((c : Thread nD τ).loc main_arg5))) (mat2 (m ((c : Thread nD τ).loc main_arg11))) := by
  funext i k
  unfold mat2 WA2
  dsimp only [Gen.V, Gen.hostOps0]
  after_results
  by_cases hi : i.val < 128
  · rw [dif_pos hi]
    refine (rows_fst _ _ _ i k hi).trans ?_
    by_cases hk : k.val < 128
    · rw [dif_pos hk]
      refine (cols_fst _ _ _ _ k hk).trans ?_
      exact transpose_ix2_apply _ _ _ _
    · rw [dif_neg hk]
      refine (cols_snd _ _ _ _ k (by omega) (by omega)).trans ?_
      exact zeros_apply _ _ _
  · rw [dif_neg hi]
    refine (rows_snd _ _ _ i k (by omega) (by omega)).trans ?_
    by_cases hk : k.val < 128
    · rw [dif_pos hk]
      refine (cols_fst _ _ _ _ k hk).trans ?_
      exact zeros_apply _ _ _
    · rw [dif_neg hk]
      refine (cols_snd _ _ _ _ k (by omega) (by omega)).trans ?_
      exact transpose_ix2_apply _ _ _ _
set_option maxHeartbeats 2000000 in
theorem V_BA2 (c : Dev nD) : vec1 (V m c main_v28)
    = BA (vec1 (m ((c : Thread nD τ).loc main_arg6))) (vec1 (m ((c : Thread nD τ).loc main_arg12))) := by
  funext i
  unfold vec1 BA
  dsimp only [Gen.V, Gen.hostOps0]
  after_results
  by_cases hi : i.val < 128
  · rw [dif_pos hi]
    exact vec_fst _ _ _ i hi
  · rw [dif_neg hi]
    exact vec_snd _ _ _ i (by omega) (by omega)
set_option maxHeartbeats 2000000 in
theorem V_WA3 (c : Dev nD) : mat2 (V m c main_v35)
    = WA3 (mat2 (m ((c : Thread nD τ).loc main_arg7))) (mat2 (m ((c : Thread nD τ).loc main_arg13))) := by
  funext i k
  unfold mat2 WA3
  dsimp only [Gen.V, Gen.hostOps0]
  after_results
  by_cases hi : i.val < 1
  · rw [dif_pos hi]
    refine (rows_fst _ _ _ i k hi).trans ?_
    by_cases hk : k.val < 128
    · rw [dif_pos hk]
      refine (cols_fst _ _ _ _ k hk).trans ?_
      exact transpose_ix2_apply _ _ _ _
    · rw [dif_neg hk]
      refine (cols_snd _ _ _ _ k (by omega) (by omega)).trans ?_
      exact zeros_apply _ _ _
  · rw [dif_neg hi]
    refine (rows_snd _ _ _ i k (by omega) (by omega)).trans ?_
    by_cases hk : k.val < 128
    · rw [dif_pos hk]
      refine (cols_fst _ _ _ _ k hk).trans ?_
      exact zeros_apply _ _ _
    · rw [dif_neg hk]
      refine (cols_snd _ _ _ _ k (by omega) (by omega)).trans ?_
      exact transpose_ix2_apply _ _ _ _
set_option maxHeartbeats 2000000 in
theorem V_BA3 (c : Dev nD) : vec1 (V m c main_v36)
    = BA (vec1 (m ((c : Thread nD τ).loc main_arg8))) (vec1 (m ((c : Thread nD τ).loc main_arg14))) := by
  funext i
  unfold vec1 BA
  dsimp only [Gen.V, Gen.hostOps0]
  after_results
  by_cases hi : i.val < 1
  · rw [dif_pos hi]
    exact vec_fst _ _ _ i hi
  · rw [dif_neg hi]
    exact vec_snd _ _ _ i (by omega) (by omega)

end Cert.KernelIdeal.KHost

end
-- ==== Proof.LawSamp.lean ====
/- The one-hot sample and the gathered sample are one function: each one-hot sum has at most one non-zero term. -/
import proofs.«422422_j77094662963970_3_alg».proof.Proof.Spec

noncomputable section

namespace Cert.Tri

open Idealize.ShloMosaic

/-! ## Words in the grid's range -/

/-- A word, read as a signed number, lies in 0 … 255. -/
private abbrev inr (i : BitVec 32) : Prop := 0 ≤ i.toInt ∧ i.toInt ≤ 255

/-- A position k below 256 whose word is i: then i lies in range and k is its clamped cell. -/
private theorem clampF_of_ofNat_eq {i : BitVec 32} {k : ℕ} (hk : k < 256) (h : BitVec.ofNat 32 k = i) :
    inr i ∧ (clampF i).val = k := by
  subst h
  have h1 : (BitVec.ofNat 32 k).toNat = k := by
    rw [BitVec.toNat_ofNat]; exact Nat.mod_eq_of_lt (by omega)
  have h2 : (BitVec.ofNat 32 k).toInt = (k : ℤ) := by
    rw [BitVec.toInt_eq_toNat_cond, h1]; split <;> omega
  refine ⟨⟨by omega, by omega⟩, ?_⟩
  simp only [clampF, h2]
  omega

/-- The clamped cell of a word in range has that word. -/
private theorem ofNat_clampF {i : BitVec 32} (h : inr i) : BitVec.ofNat 32 (clampF i).val = i := by
  obtain ⟨h0, h1⟩ := h
  have hc := BitVec.toInt_eq_toNat_cond i
  have hlt := i.isLt
  apply BitVec.eq_of_toNat_eq
  rw [BitVec.toNat_ofNat]
  simp only [clampF]
  split at hc <;> omega

/-- A word and its successor differ. -/
private theorem ne_succ (j : BitVec 32) : j ≠ j + 1#32 := by
  intro h
  have h' := congrArg BitVec.toNat h
  rw [BitVec.toNat_add] at h'
  have hlt := j.isLt
  simp only [BitVec.toNat_ofNat] at h'
  omega

/-! ## One-hot sums -/

/-- A sum over the 256 positions of a term present only where the position's word is i: the term at the clamped
cell when i lies in range, nothing otherwise. -/
private theorem sum_hot_ite (h : Fin 256 → EReal) (i : BitVec 32) :
    (∑ x : Fin 256, if BitVec.ofNat 32 x.val = i then h x else 0) = if inr i then h (clampF i) else 0 := by
  by_cases hi : inr i
  · rw [if_pos hi, Fintype.sum_eq_single (clampF i), if_pos (ofNat_clampF hi)]
    intro x hx
    rw [if_neg]
    intro hx'
    exact hx (Fin.ext (clampF_of_ofNat_eq x.isLt hx').2.symm)
  · rw [if_neg hi]
    apply Finset.sum_eq_zero
    intro x _
    rw [if_neg]
    intro hx'
    exact hi (clampF_of_ofNat_eq x.isLt hx').1

/-- A value times a one-hot entry. -/
private theorem mul_hot (v : EReal) (i : BitVec 32) (k : ℕ) :
    v * hot i k = if BitVec.ofNat 32 k = i then v else 0 := by
  unfold hot
  by_cases h : BitVec.ofNat 32 k = i
  · rw [if_pos h, if_pos h, mul_one]
  · rw [if_neg h, if_neg h, mul_zero]

/-- The plane's row at the cell i, nothing when i is outside the grid. -/
private def row (P : Fin 32 → Fin 256 → Fin 256 → EReal) (c : Fin 32) (i : BitVec 32) (x : Fin 256) : EReal :=
  if inr i then P c (clampF i) x else 0

/-- The row one-hot sum picks that row. -/
private theorem sum_row (P : Fin 32 → Fin 256 → Fin 256 → EReal) (c : Fin 32) (i : BitVec 32) (x : Fin 256) :
    (∑ y : Fin 256, P c y x * hot i y.val) = row P c i x := by
  simp only [mul_hot]
  exact sum_hot_ite (fun y => P c y x) i

/-- A term that vanishes at weight 0, taken at the blended weight [k = j]·b0 + [k = j + 1]·b1, is the sum of its two
one-hot parts: the two words differ, so at most one of the two entries is 1. -/
private theorem two_hot (g : EReal → EReal) (hg : g 0 = 0) (j : BitVec 32) (b0 b1 : EReal) (k : ℕ) :
    g (hot j k * b0 + hot (j + 1#32) k * b1)
      = (if BitVec.ofNat 32 k = j then g b0 else 0) + (if BitVec.ofNat 32 k = j + 1#32 then g b1 else 0) := by
  unfold hot
  by_cases h0 : BitVec.ofNat 32 k = j
  · have h1 : ¬ BitVec.ofNat 32 k = j + 1#32 := by rw [h0]; exact ne_succ j
    simp only [if_pos h0, if_neg h1, one_mul, zero_mul, add_zero]
  · by_cases h1 : BitVec.ofNat 32 k = j + 1#32
    · simp only [if_neg h0, if_pos h1, one_mul, zero_mul, zero_add]
    · simp only [if_neg h0, if_neg h1, zero_mul, add_zero, hg]

/-! ## The reference's neighbour -/

/-- A gathered neighbour is the picked row at the clamped column, nothing when the column is outside the grid. -/
private theorem rgat_eq (P : Fin 32 → Fin 256 → Fin 256 → EReal) (xi yi : BitVec 32) (c : Fin 32) :
    rgat P xi yi c = if inr xi then row P c yi (clampF xi) else 0 := by
  unfold rgat vld row
  by_cases hx : inr xi
  · by_cases hy : inr yi
    · rw [if_pos hx, if_pos hy, if_pos ⟨hx.1, hx.2, hy.1, hy.2⟩, mul_one]
    · rw [if_pos hx, if_neg hy, if_neg (fun h => hy ⟨h.2.2.1, h.2.2.2⟩), mul_zero]
  · rw [if_neg hx, if_neg (fun h => hx ⟨h.1, h.2.1⟩), mul_zero]

/-! ## The identity with the cells and fractions as variables -/

private theorem samp_abs (P : Fin 32 → Fin 256 → Fin 256 → EReal) (c : Fin 32) (i j : BitVec 32)
    (a0 a1 b0 b1 : EReal) :
    (∑ x : Fin 256, ((∑ y : Fin 256, P c y x * hot i y.val) * (a0 * (hot j x.val * b0 + hot (j + 1#32) x.val * b1))
        + (∑ y : Fin 256, P c y x * hot (i + 1#32) y.val) * (a1 * (hot j x.val * b0 + hot (j + 1#32) x.val * b1))))
      = rgat P j i c * (b0 * a0) + rgat P (j + 1#32) i c * (b1 * a0)
        + rgat P j (i + 1#32) c * (b0 * a1) + rgat P (j + 1#32) (i + 1#32) c * (b1 * a1) := by
  rw [mul_comm b0 a0, mul_comm b1 a0, mul_comm b0 a1, mul_comm b1 a1]
  simp only [sum_row]
  have hx : ∀ x : Fin 256,
      row P c i x * (a0 * (hot j x.val * b0 + hot (j + 1#32) x.val * b1))
        + row P c (i + 1#32) x * (a1 * (hot j x.val * b0 + hot (j + 1#32) x.val * b1))
      = (if BitVec.ofNat 32 x.val = j then row P c i x * (a0 * b0) + row P c (i + 1#32) x * (a1 * b0) else 0)
        + (if BitVec.ofNat 32 x.val = j + 1#32 then row P c i x * (a0 * b1) + row P c (i + 1#32) x * (a1 * b1) else 0) :=
    fun x => two_hot (fun w => row P c i x * (a0 * w) + row P c (i + 1#32) x * (a1 * w))
      (by simp only [mul_zero, add_zero]) j b0 b1 x.val
  rw [Finset.sum_congr rfl (fun x _ => hx x), Finset.sum_add_distrib,
    sum_hot_ite (fun x => row P c i x * (a0 * b0) + row P c (i + 1#32) x * (a1 * b0)) j,
    sum_hot_ite (fun x => row P c i x * (a0 * b1) + row P c (i + 1#32) x * (a1 * b1)) (j + 1#32)]
  simp only [rgat_eq]
  by_cases hj : inr j <;> by_cases hj1 : inr (j + 1#32)
  · simp only [if_pos hj, if_pos hj1]
    exact (add_add_add_comm _ _ _ _).trans (add_assoc _ _ _).symm
  · simp only [if_pos hj, if_neg hj1, zero_mul, add_zero]
  · simp only [if_neg hj, if_pos hj1, zero_mul, add_zero, zero_add]
  · simp only [if_neg hj, if_neg hj1, zero_mul, add_zero]

/-- The kernel's sample (rows gy, columns gx) is the reference's sample at (gx, gy). -/
theorem ksamp_eq_rsamp (P : Fin 32 → Fin 256 → Fin 256 → EReal) (gx gy : EReal) (c : Fin 32) :
    ksamp P gy gx c = rsamp P gx gy c := by
  exact samp_abs P c (cel gy) (cel gx) (lit1 - fra gy) (fra gy) (lit1 - fra gx) (fra gx)

end Cert.Tri

end
-- ==== Proof.LawMlp.lean ====
/- The block-diagonal network is the two networks side by side; the literal scales are the powers of two. -/
import proofs.«422422_j77094662963970_3_alg».proof.Proof.Spec
import Mathlib.Algebra.BigOperators.Fin
import Mathlib.Analysis.SpecialFunctions.Pow.Real

noncomputable section

namespace Cert.Tri

open Idealize.ShloMosaic

/-! ## The four literal scales -/

/-- The pattern 0x3F800000 denotes 1 (exponent field 127, empty fraction). -/
private theorem ofBits_one : Ideal.ofBits .f32 0x3F800000#32 = ((1 : ℝ) : EReal) := by
  simp [Ideal.ofBits, Ideal.ieee, -EReal.coe_mul]; norm_num

/-- The pattern 0x40000000 denotes 2 (exponent field 128). -/
private theorem ofBits_two : Ideal.ofBits .f32 0x40000000#32 = ((2 : ℝ) : EReal) := by
  simp [Ideal.ofBits, Ideal.ieee, -EReal.coe_mul]; norm_num

/-- The pattern 0x40800000 denotes 4 (exponent field 129). -/
private theorem ofBits_four : Ideal.ofBits .f32 0x40800000#32 = ((4 : ℝ) : EReal) := by
  simp [Ideal.ofBits, Ideal.ieee, -EReal.coe_mul]; norm_num

/-- The pattern 0x41000000 denotes 8 (exponent field 130). -/
private theorem ofBits_eight : Ideal.ofBits .f32 0x41000000#32 = ((8 : ℝ) : EReal) := by
  simp [Ideal.ofBits, Ideal.ieee, -EReal.coe_mul]; norm_num

/-- 1, 2, 4, 8 are 2⁰ … 2³. -/
theorem kscale_eq_rscale : kscale = rscale := by
  funext f
  -- Both sides are finite reals; the power of the real 2 with a real exponent 0, 1, 2, 3 is 1, 2, 4, 8.
  match f with
  | ⟨0, _⟩ =>
    simp only [kscale, rscale, ofBits_one, ofBits_two, Ideal.pow_coe_coe]
    congr 1
    norm_num [Real.rpow_eq_pow]
  | ⟨1, _⟩ =>
    simp only [kscale, rscale, ofBits_two, Ideal.pow_coe_coe]
    congr 1
    norm_num [Real.rpow_eq_pow]
  | ⟨2, _⟩ =>
    simp only [kscale, rscale, ofBits_four, ofBits_two, Ideal.pow_coe_coe]
    congr 1
    norm_num [Real.rpow_eq_pow]
  | ⟨3, _⟩ =>
    simp only [kscale, rscale, ofBits_eight, ofBits_two, Ideal.pow_coe_coe]
    congr 1
    norm_num [Real.rpow_eq_pow]

/-! ## Side-by-side vectors and block sums -/

/-- The printed zero is the number zero. -/
private theorem lit0_eq : lit0 = 0 := Ideal.ofBits_zero_f32

/-- A side-by-side vector read in its first part. -/
private theorem BA_castAdd {a b : ℕ} (f : Fin a → EReal) (g : Fin b → EReal) (k : Fin a) :
    BA f g (Fin.castAdd b k) = f k := by
  unfold BA
  rw [dif_pos (show (Fin.castAdd b k).val < a from k.isLt)]
  rfl

/-- A side-by-side vector read in its second part. -/
private theorem BA_natAdd {a b : ℕ} (f : Fin a → EReal) (g : Fin b → EReal) (k : Fin b) :
    BA f g (Fin.natAdd a k) = g k := by
  unfold BA
  rw [dif_neg (show ¬ (Fin.natAdd a k).val < a from by simp)]
  congr 1
  ext
  simp

/-- A side-by-side vector at an index of the first part. -/
private theorem BA_lt {a b : ℕ} (f : Fin a → EReal) (g : Fin b → EReal) (i : Fin (a + b)) (hi : i.val < a) :
    BA f g i = f ⟨i.val, hi⟩ := by
  unfold BA
  exact dif_pos hi

/-- A side-by-side vector at an index of the second part. -/
private theorem BA_ge {a b : ℕ} (f : Fin a → EReal) (g : Fin b → EReal) (i : Fin (a + b)) (hi : ¬ i.val < a) :
    BA f g i = g ⟨i.val - a, by omega⟩ := by
  unfold BA
  exact dif_neg hi

/-- max(·, 0) entrywise on a side-by-side vector is the side-by-side vector of the two entrywise results. -/
private theorem relu_BA {a b : ℕ} (f : Fin a → EReal) (g : Fin b → EReal) (i : Fin (a + b)) :
    relu (BA f g i) = BA (fun k => relu (f k)) (fun k => relu (g k)) i := by
  unfold BA
  split_ifs <;> rfl

/-- A row that is w on the first part and zero on the second sees only the first part of a side-by-side vector:
    Σ_{k < a+b} = Σ_{k < a} + Σ_{k < b}, the second sum being of terms 0 · x = 0. -/
private theorem sum_top {a b : ℕ} (w xD : Fin a → EReal) (xC : Fin b → EReal) :
    ∑ k : Fin (a + b), (if hk : k.val < a then w ⟨k.val, hk⟩ else lit0) * BA xD xC k
      = ∑ k : Fin a, xD k * w k := by
  rw [Fin.sum_univ_add]
  have h2 : ∑ k : Fin b, (if hk : (Fin.natAdd a k).val < a then w ⟨(Fin.natAdd a k).val, hk⟩ else lit0)
      * BA xD xC (Fin.natAdd a k) = 0 := by
    apply Finset.sum_eq_zero
    intro k _
    rw [dif_neg (show ¬ (Fin.natAdd a k).val < a from by simp), lit0_eq, zero_mul]
  rw [h2, add_zero]
  apply Finset.sum_congr rfl
  intro k _
  rw [dif_pos (show (Fin.castAdd b k).val < a from k.isLt), BA_castAdd, mul_comm]
  rfl

/-- A row that is zero on the first part and w on the second sees only the second part. -/
private theorem sum_bot {a b : ℕ} (w : Fin b → EReal) (xD : Fin a → EReal) (xC : Fin b → EReal) :
    ∑ k : Fin (a + b), (if hk : k.val < a then lit0 else w ⟨k.val - a, by omega⟩) * BA xD xC k
      = ∑ k : Fin b, xC k * w k := by
  rw [Fin.sum_univ_add]
  have h1 : ∑ k : Fin a, (if hk : (Fin.castAdd b k).val < a then lit0 else w ⟨(Fin.castAdd b k).val - a, by omega⟩)
      * BA xD xC (Fin.castAdd b k) = 0 := by
    apply Finset.sum_eq_zero
    intro k _
    rw [dif_pos (show (Fin.castAdd b k).val < a from k.isLt), lit0_eq, zero_mul]
  rw [h1, zero_add]
  apply Finset.sum_congr rfl
  intro k _
  rw [dif_neg (show ¬ (Fin.natAdd a k).val < a from by simp), BA_natAdd, mul_comm]
  congr 2
  ext
  simp

/-- The first block sum at 59 = 32 + 27; the colour network's input is the feature beside the embedding. -/
private theorem sum_top59 (w feat : Fin 32 → EReal) (e : Fin 27 → EReal) :
    ∑ k : Fin 59, (if hk : k.val < 32 then w ⟨k.val, hk⟩ else lit0) * cin feat e k = ∑ k : Fin 32, feat k * w k :=
  sum_top (a := 32) (b := 27) w feat e

/-- The first block sum at 256 = 128 + 128. -/
private theorem sum_top256 (w xD xC : Fin 128 → EReal) :
    ∑ k : Fin 256, (if hk : k.val < 128 then w ⟨k.val, hk⟩ else lit0) * BA xD xC k = ∑ k : Fin 128, xD k * w k :=
  sum_top (a := 128) (b := 128) w xD xC

/-- The second block sum at 256 = 128 + 128. -/
private theorem sum_bot256 (w xD xC : Fin 128 → EReal) :
    ∑ k : Fin 256, (if hk : k.val < 128 then lit0 else w ⟨k.val - 128, by omega⟩) * BA xD xC k
      = ∑ k : Fin 128, xC k * w k :=
  sum_bot (a := 128) (b := 128) w xD xC

/-! ## The three layers -/

/-- Layer 1: the first 128 rows see only the feature (the 27 padded columns are zero) and give the density
    network's layer; the last 128 rows are the colour network's layer on all 59 inputs. -/
private theorem layer1 (dW1 : Fin 32 → Fin 128 → EReal) (dB1 : Fin 128 → EReal) (cW1 : Fin 59 → Fin 128 → EReal)
    (cB1 : Fin 128 → EReal) (feat : Fin 32 → EReal) (e : Fin 27 → EReal) (i : Fin 256) :
    kdense (WA1 dW1 cW1) (BA dB1 cB1) (cin feat e) i
      = BA (rdense dW1 dB1 feat) (rdense cW1 cB1 (cin feat e)) i := by
  by_cases hi : i.val < 128
  · rw [BA_lt (a := 128) (b := 128) (rdense dW1 dB1 feat) (rdense cW1 cB1 (cin feat e)) i hi]
    unfold kdense rdense
    rw [BA_lt (a := 128) (b := 128) dB1 cB1 i hi]
    congr 1
    refine Eq.trans ?_ (sum_top59 (fun k => dW1 k ⟨i.val, hi⟩) feat e)
    apply Finset.sum_congr rfl
    intro k _
    unfold WA1
    rw [dif_pos hi]
  · rw [BA_ge (a := 128) (b := 128) (rdense dW1 dB1 feat) (rdense cW1 cB1 (cin feat e)) i hi]
    unfold kdense rdense
    rw [BA_ge (a := 128) (b := 128) dB1 cB1 i hi]
    congr 1
    apply Finset.sum_congr rfl
    intro k _
    unfold WA1
    rw [dif_neg hi, mul_comm]

/-- Layer 2: block diagonal, so each half of the output sees only its own half of the input. -/
private theorem layer2 (dW2 cW2 : Fin 128 → Fin 128 → EReal) (dB2 cB2 xD xC : Fin 128 → EReal) (i : Fin 256) :
    kdense (WA2 dW2 cW2) (BA dB2 cB2) (BA xD xC) i = BA (rdense dW2 dB2 xD) (rdense cW2 cB2 xC) i := by
  by_cases hi : i.val < 128
  · rw [BA_lt (a := 128) (b := 128) (rdense dW2 dB2 xD) (rdense cW2 cB2 xC) i hi]
    unfold kdense rdense
    rw [BA_lt (a := 128) (b := 128) dB2 cB2 i hi]
    congr 1
    refine Eq.trans ?_ (sum_top256 (fun k => dW2 k ⟨i.val, hi⟩) xD xC)
    apply Finset.sum_congr rfl
    intro k _
    unfold WA2
    rw [dif_pos hi]
  · rw [BA_ge (a := 128) (b := 128) (rdense dW2 dB2 xD) (rdense cW2 cB2 xC) i hi]
    unfold kdense rdense
    rw [BA_ge (a := 128) (b := 128) dB2 cB2 i hi]
    congr 1
    refine Eq.trans ?_ (sum_bot256 (fun k => cW2 k ⟨i.val - 128, by omega⟩) xD xC)
    apply Finset.sum_congr rfl
    intro k _
    unfold WA2
    rw [dif_neg hi]

/-- Layer 3: row 0 sees only the density half, rows 1 … 3 only the colour half. -/
private theorem layer3 (dW3 : Fin 128 → Fin 1 → EReal) (dB3 : Fin 1 → EReal) (cW3 : Fin 128 → Fin 3 → EReal)
    (cB3 : Fin 3 → EReal) (xD xC : Fin 128 → EReal) (j : Fin 4) :
    kdense (WA3 dW3 cW3) (BA dB3 cB3) (BA xD xC) j = BA (rdense dW3 dB3 xD) (rdense cW3 cB3 xC) j := by
  by_cases hj : j.val < 1
  · rw [BA_lt (a := 1) (b := 3) (rdense dW3 dB3 xD) (rdense cW3 cB3 xC) j hj]
    unfold kdense rdense
    rw [BA_lt (a := 1) (b := 3) dB3 cB3 j hj]
    congr 1
    refine Eq.trans ?_ (sum_top256 (fun k => dW3 k ⟨j.val, hj⟩) xD xC)
    apply Finset.sum_congr rfl
    intro k _
    unfold WA3
    rw [dif_pos hj]
  · rw [BA_ge (a := 1) (b := 3) (rdense dW3 dB3 xD) (rdense cW3 cB3 xC) j hj]
    unfold kdense rdense
    rw [BA_ge (a := 1) (b := 3) dB3 cB3 j hj]
    congr 1
    refine Eq.trans ?_ (sum_bot256 (fun k => cW3 k ⟨j.val - 1, by omega⟩) xD xC)
    apply Finset.sum_congr rfl
    intro k _
    unfold WA3
    rw [dif_neg hj]

/-! ## The network -/

/-- The fused network on (feature, embedding): output 0 is the density network on the feature alone, outputs 1 … 3 the
    colour network on all 59 inputs. -/
theorem kmlp_fused (dW1 : Fin 32 → Fin 128 → EReal) (dB1 : Fin 128 → EReal) (dW2 : Fin 128 → Fin 128 → EReal) (dB2 : Fin 128 → EReal)
    (dW3 : Fin 128 → Fin 1 → EReal) (dB3 : Fin 1 → EReal)
    (cW1 : Fin 59 → Fin 128 → EReal) (cB1 : Fin 128 → EReal) (cW2 : Fin 128 → Fin 128 → EReal) (cB2 : Fin 128 → EReal)
    (cW3 : Fin 128 → Fin 3 → EReal) (cB3 : Fin 3 → EReal) (feat : Fin 32 → EReal) (e : Fin 27 → EReal) (j : Fin 4) :
    kmlp (WA1 dW1 cW1) (BA dB1 cB1) (WA2 dW2 cW2) (BA dB2 cB2) (WA3 dW3 cW3) (BA dB3 cB3) (cin feat e) j
      = if hj : j.val < 1 then rmlp dW1 dB1 dW2 dB2 dW3 dB3 feat ⟨j.val, hj⟩
        else rmlp cW1 cB1 cW2 cB2 cW3 cB3 (cin feat e) ⟨j.val - 1, by omega⟩ := by
  -- The hidden vectors of the fused network are the two networks' hidden vectors side by side, layer after layer.
  have e1 : (fun k' : Fin 256 => relu (kdense (WA1 dW1 cW1) (BA dB1 cB1) (cin feat e) k'))
      = BA (fun k' => relu (rdense dW1 dB1 feat k')) (fun k' => relu (rdense cW1 cB1 (cin feat e) k')) :=
    funext fun i => by rw [layer1]; exact relu_BA (a := 128) (b := 128) _ _ i
  have e2 : ∀ xD xC : Fin 128 → EReal,
      (fun k : Fin 256 => relu (kdense (WA2 dW2 cW2) (BA dB2 cB2) (BA xD xC) k))
        = BA (fun k => relu (rdense dW2 dB2 xD k)) (fun k => relu (rdense cW2 cB2 xC k)) :=
    fun xD xC => funext fun i => by rw [layer2]; exact relu_BA (a := 128) (b := 128) _ _ i
  unfold kmlp
  rw [e1, e2, layer3]
  unfold BA rmlp
  rfl

end Cert.Tri

end
-- ==== Proof.RMlp.lean ====
/- The reference's result read at an output row and a point, over its feature array: the two perceptrons. -/
import proofs.«422422_j77094662963970_3_alg».proof.Proof.ReadP
import proofs.«422422_j77094662963970_3_alg».proof.Proof.Iface
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RMlp

open Cert.ReferenceIdeal Cert.ReferenceIdeal.ReadP Cert.Tri Idealize.ShloMosaic Idealize.ShloMosaic.ValueIdx

/-- The feature is the sum of the three samples. -/
theorem feat_read (x0 : (⟨S1x3x262144, .f32⟩ : BufTy).Contents (Elt Ideal)) (x2 : (⟨S1x96x256x256, .f32⟩ : BufTy).Contents (Elt Ideal))
    (c : Fin 32) (n : Fin 262144) :
    val_main_v541 (F := Ideal) x0 x2 (ix3 0 c n)
      = val_main_v185 (F := Ideal) x0 x2 (ix3 0 c n) + val_main_v362 (F := Ideal) x0 x2 (ix3 0 c n)
        + val_main_v540 (F := Ideal) x0 x2 (ix3 0 c n) := by
  rw [val_main_v541_apply, val_main_v363_apply]
  rfl

/-! ## The flattened feature, and one layer of a perceptron -/

/-- The flattened feature at (point n, channel c) is the feature array at (0, c, n). -/
private theorem featflat_read (x0 : (⟨S1x3x262144, .f32⟩ : BufTy).Contents (Elt Ideal)) (x2 : (⟨S1x96x256x256, .f32⟩ : BufTy).Contents (Elt Ideal))
    (n : Fin 262144) (c : Fin 32) :
    val_main_v543 (F := Ideal) x0 x2 (ix2 n c) = val_main_v541 (F := Ideal) x0 x2 (ix3 0 c n) := by
  rw [val_main_v543_apply, val_main_v542_apply]
  congr 1
  funext a
  refine Fin.ext ?_
  have hn : n.val < 262144 := n.isLt
  have hc : c.val < 32 := c.isLt
  match a with
  | ⟨0, _⟩ => rfl
  | ⟨1, _⟩ => show (n.val * 32 + c.val) % 32 = c.val; omega
  | ⟨2, _⟩ => show (n.val * 32 + c.val) / 32 % 262144 = n.val; omega

/-- The zero the first rectifier compares with is the printed 0.0. -/
private theorem zero24 (i : S262144x128.Idx) : val_main_call24_v0 (F := Ideal) i = lit0 := by
  rw [val_main_call24_v0_apply, val_main_call24_cst_apply]; rfl

/-- The first density bias, broadcast over the points. -/
private theorem bias546 (x4 : (⟨S128, .f32⟩ : BufTy).Contents (Elt Ideal)) (n : Fin 262144) (j : Fin 128) :
    val_main_v546 (F := Ideal) x4 (ix2 n j) = vec1 x4 j := by
  rw [val_main_v546_apply, val_main_v545_apply]
  unfold vec1
  congr 1
  funext a
  match a with
  | ⟨0, _⟩ => rfl

/-- The density network's first hidden layer. -/
private theorem hid548 (x0 : (⟨S1x3x262144, .f32⟩ : BufTy).Contents (Elt Ideal)) (x2 : (⟨S1x96x256x256, .f32⟩ : BufTy).Contents (Elt Ideal))
    (x3 : (⟨S32x128, .f32⟩ : BufTy).Contents (Elt Ideal)) (x4 : (⟨S128, .f32⟩ : BufTy).Contents (Elt Ideal))
    (n : Fin 262144) (j : Fin 128) :
    val_main_v548 (F := Ideal) x0 x2 x3 x4 (ix2 n j)
      = relu (rdense (mat2 x3) (vec1 x4) (fun c => val_main_v541 (F := Ideal) x0 x2 (ix3 0 c n)) j) := by
  rw [val_main_v548_apply, val_main_v547_apply, val_main_v544_apply, zero24, bias546]
  unfold relu rdense mat2
  have hl : ∀ k : Fin 32, lidx_main_v544 (ix2 n j) k = ix2 n k := fun k =>
    funext fun a => Fin.ext (by match a with | ⟨0, _⟩ => rfl | ⟨1, _⟩ => rfl)
  have hr : ∀ k : Fin 32, ridx_main_v544 (ix2 n j) k = ix2 k j := fun k =>
    funext fun a => Fin.ext (by match a with | ⟨0, _⟩ => rfl | ⟨1, _⟩ => rfl)
  simp only [hl, hr, featflat_read]
  rfl

/-- The zero the second rectifier compares with is the printed 0.0. -/
private theorem zero25 (i : S262144x128.Idx) : val_main_call25_v0 (F := Ideal) i = lit0 := by
  rw [val_main_call25_v0_apply, val_main_call25_cst_apply]; rfl

/-- The second density bias, broadcast over the points. -/
private theorem bias551 (x6 : (⟨S128, .f32⟩ : BufTy).Contents (Elt Ideal)) (n : Fin 262144) (j : Fin 128) :
    val_main_v551 (F := Ideal) x6 (ix2 n j) = vec1 x6 j := by
  rw [val_main_v551_apply, val_main_v550_apply]
  unfold vec1
  congr 1
  funext a
  match a with
  | ⟨0, _⟩ => rfl

/-- The density network's second hidden layer, over the first. -/
private theorem hid553 (x0 : (⟨S1x3x262144, .f32⟩ : BufTy).Contents (Elt Ideal)) (x2 : (⟨S1x96x256x256, .f32⟩ : BufTy).Contents (Elt Ideal))
    (x3 : (⟨S32x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (n : Fin 262144) (j : Fin 128) :
    val_main_v553 (F := Ideal) x0 x2 x3 x4 x5 x6 (ix2 n j)
      = relu (rdense (mat2 x5) (vec1 x6) (fun k => val_main_v548 (F := Ideal) x0 x2 x3 x4 (ix2 n k)) j) := by
  rw [val_main_v553_apply, val_main_v552_apply, val_main_v549_apply, zero25, bias551]
  unfold relu rdense mat2
  have hl : ∀ k : Fin 128, lidx_main_v549 (ix2 n j) k = ix2 n k := fun k =>
    funext fun a => Fin.ext (by match a with | ⟨0, _⟩ => rfl | ⟨1, _⟩ => rfl)
  have hr : ∀ k : Fin 128, ridx_main_v549 (ix2 n j) k = ix2 k j := fun k =>
    funext fun a => Fin.ext (by match a with | ⟨0, _⟩ => rfl | ⟨1, _⟩ => rfl)
  simp only [hl, hr]
  rfl

/-- The density network's output bias: one entry, broadcast over the points. -/
private theorem bias556 (x8 : (⟨S1, .f32⟩ : BufTy).Contents (Elt Ideal)) (n : Fin 262144) (j : Fin 1) :
    val_main_v556 (F := Ideal) x8 (ix2 n j) = vec1 x8 j := by
  rw [val_main_v556_apply, val_main_v555_apply]
  unfold vec1
  congr 1
  funext a
  refine Fin.ext ?_
  have hj : j.val = 0 := by have := j.isLt; omega
  match a with
  | ⟨0, _⟩ => exact hj.symm

/-- The density network's output layer, over the second hidden layer. -/
private theorem dens557 (x0 : (⟨S1x3x262144, .f32⟩ : BufTy).Contents (Elt Ideal)) (x2 : (⟨S1x96x256x256, .f32⟩ : BufTy).Contents (Elt Ideal))
    (x3 : (⟨S32x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x1, .f32⟩ : BufTy).Contents (Elt Ideal)) (x8 : (⟨S1, .f32⟩ : BufTy).Contents (Elt Ideal))
    (n : Fin 262144) (j : Fin 1) :
    val_main_v557 (F := Ideal) x0 x2 x3 x4 x5 x6 x7 x8 (ix2 n j)
      = rdense (mat2 x7) (vec1 x8) (fun k => val_main_v553 (F := Ideal) x0 x2 x3 x4 x5 x6 (ix2 n k)) j := by
  rw [val_main_v557_apply, val_main_v554_apply, bias556]
  unfold rdense mat2
  have hl : ∀ k : Fin 128, lidx_main_v554 (ix2 n j) k = ix2 n k := fun k =>
    funext fun a => Fin.ext (by match a with | ⟨0, _⟩ => rfl | ⟨1, _⟩ => rfl)
  have hr : ∀ k : Fin 128, ridx_main_v554 (ix2 n j) k = ix2 k j := fun k =>
    funext fun a => Fin.ext (by match a with | ⟨0, _⟩ => rfl | ⟨1, _⟩ => rfl)
  simp only [hl, hr]
  rfl

/-- The density network, whole: the reference's three layers on the feature. -/
private theorem dens_read (x0 : (⟨S1x3x262144, .f32⟩ : BufTy).Contents (Elt Ideal)) (x2 : (⟨S1x96x256x256, .f32⟩ : BufTy).Contents (Elt Ideal))
    (x3 : (⟨S32x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x1, .f32⟩ : BufTy).Contents (Elt Ideal)) (x8 : (⟨S1, .f32⟩ : BufTy).Contents (Elt Ideal))
    (n : Fin 262144) (j : Fin 1) :
    val_main_v557 (F := Ideal) x0 x2 x3 x4 x5 x6 x7 x8 (ix2 n j)
      = rmlp (mat2 x3) (vec1 x4) (mat2 x5) (vec1 x6) (mat2 x7) (vec1 x8)
          (fun c => val_main_v541 (F := Ideal) x0 x2 (ix3 0 c n)) j := by
  rw [dens557]
  unfold rmlp
  simp only [hid553, hid548]

/-! ## The view embedding -/

/-- The flattened direction at (point n, component j). -/
private theorem vd_read (x1 : (⟨S1x3x262144, .f32⟩ : BufTy).Contents (Elt Ideal)) (n : Fin 262144) (j : Fin 3) :
    val_main_v559 (F := Ideal) x1 (ix2 n j) = comp x1 n j := by
  rw [val_main_v559_apply, val_main_v558_apply]
  unfold comp
  congr 1
  funext a
  refine Fin.ext ?_
  have hn : n.val < 262144 := n.isLt
  have hj : j.val < 3 := j.isLt
  match a with
  | ⟨0, _⟩ => rfl
  | ⟨1, _⟩ => show (n.val * 3 + j.val) % 3 = j.val; omega
  | ⟨2, _⟩ => show (n.val * 3 + j.val) / 3 % 262144 = n.val; omega

/-- At the extended reals a signed word converts to its integer, read as a real. -/
private theorem sitofp_ideal (b : BitVec 32) :
    FloatOps.sitofp (F := Ideal) .f32 b = ((b.toInt : ℝ) : EReal) := rfl

/-- The frequency scales: 2.0 raised to the position f, read as a real. -/
private theorem scale_read (f : Fin 4) : val_main_v564 (F := Ideal) (ix1 f) = rscale f := by
  rw [val_main_v564_apply, val_main_v563_apply, val_main_cst_184_apply, val_main_v562_apply, val_main_v560_apply]
  unfold rscale
  rw [Ideal.hostPowf_def, Ideal.ofBits_def, sitofp_ideal]
  congr 3
  match f with
  | ⟨0, _⟩ => show (BitVec.ofNat 32 0).toInt = ((0 : ℕ) : ℤ); decide
  | ⟨1, _⟩ => show (BitVec.ofNat 32 1).toInt = ((1 : ℕ) : ℤ); decide
  | ⟨2, _⟩ => show (BitVec.ofNat 32 2).toInt = ((2 : ℕ) : ℤ); decide
  | ⟨3, _⟩ => show (BitVec.ofNat 32 3).toInt = ((3 : ℕ) : ℤ); decide

/-- A direction component times a frequency scale, at (point n, frequency f, component j). -/
private theorem prod_read (x1 : (⟨S1x3x262144, .f32⟩ : BufTy).Contents (Elt Ideal)) (n : Fin 262144) (f : Fin 4) (j : Fin 3) :
    val_main_v569 (F := Ideal) x1 (ix3 n f j) = comp x1 n j * rscale f := by
  rw [val_main_v569_apply, val_main_v567_apply, val_main_v565_apply, val_main_v568_apply, val_main_v566_apply]
  have h1 : idx_main_v565 (idx_main_v567 (ix3 n f j)) = ix2 n j :=
    funext fun a => Fin.ext (by match a with | ⟨0, _⟩ => rfl | ⟨1, _⟩ => rfl)
  have h2 : idx_main_v566 (idx_main_v568 (ix3 n f j)) = ix1 f :=
    funext fun a => Fin.ext (by match a with | ⟨0, _⟩ => rfl)
  rw [h1, h2, vd_read, scale_read]
  rfl

/-- The sines, flattened: entry k of point n is the sine of component k % 3 at frequency k / 3. -/
private theorem sin_read (x1 : (⟨S1x3x262144, .f32⟩ : BufTy).Contents (Elt Ideal)) (n : Fin 262144) (k : Fin 12) :
    val_main_v571 (F := Ideal) x1 (ix2 n k)
      = Ideal.sin (comp x1 n ⟨k.val % 3, Nat.mod_lt _ (by norm_num)⟩ * rscale ⟨k.val / 3, by omega⟩) := by
  rw [val_main_v571_apply, val_main_v570_apply, Ideal.hostUnary_sin_def]
  have hn : n.val < 262144 := n.isLt
  have hk : k.val < 12 := k.isLt
  have h : idx_main_v571 (ix2 n k)
      = ix3 n (⟨k.val / 3, by omega⟩ : Fin 4) (⟨k.val % 3, Nat.mod_lt _ (by norm_num)⟩ : Fin 3) :=
    funext fun a => Fin.ext (by
      match a with
      | ⟨0, _⟩ => show (n.val * 12 + k.val) / 12 = n.val; omega
      | ⟨1, _⟩ => show (n.val * 12 + k.val) / 3 % 4 = k.val / 3; omega
      | ⟨2, _⟩ => show (n.val * 12 + k.val) % 3 = k.val % 3; omega)
  rw [h, prod_read]

/-- The cosines, flattened the same way. -/
private theorem cos_read (x1 : (⟨S1x3x262144, .f32⟩ : BufTy).Contents (Elt Ideal)) (n : Fin 262144) (k : Fin 12) :
    val_main_v573 (F := Ideal) x1 (ix2 n k)
      = Ideal.cos (comp x1 n ⟨k.val % 3, Nat.mod_lt _ (by norm_num)⟩ * rscale ⟨k.val / 3, by omega⟩) := by
  rw [val_main_v573_apply, val_main_v572_apply, Ideal.hostUnary_cos_def]
  have hn : n.val < 262144 := n.isLt
  have hk : k.val < 12 := k.isLt
  have h : idx_main_v573 (ix2 n k)
      = ix3 n (⟨k.val / 3, by omega⟩ : Fin 4) (⟨k.val % 3, Nat.mod_lt _ (by norm_num)⟩ : Fin 3) :=
    funext fun a => Fin.ext (by
      match a with
      | ⟨0, _⟩ => show (n.val * 12 + k.val) / 12 = n.val; omega
      | ⟨1, _⟩ => show (n.val * 12 + k.val) / 3 % 4 = k.val / 3; omega
      | ⟨2, _⟩ => show (n.val * 12 + k.val) % 3 = k.val % 3; omega)
  rw [h, prod_read]

/-- The embedded direction: the three pieces (direction, sines, cosines) side by side are the embedding. -/
private theorem emb_read (x1 : (⟨S1x3x262144, .f32⟩ : BufTy).Contents (Elt Ideal)) (n : Fin 262144) (k : Fin 27) :
    val_main_v574 (F := Ideal) x1 (ix2 n k) = emb rscale (comp x1 n) k := by
  have hk : k.val < 27 := k.isLt
  unfold val_main_v574 emb
  by_cases h3 : k.val < 3
  · rw [dif_pos h3]
    refine (concatenate_apply_piece (1 : Fin 2) [⟨S262144x3, (val_main_v559 (F := Ideal) x1)⟩, ⟨S262144x12, (val_main_v571 (F := Ideal) x1)⟩, ⟨S262144x12, (val_main_v573 (F := Ideal) x1)⟩] _ (ix2 n k) 0 (by show (0 : ℕ) < 3; decide) S262144x3
      (val_main_v559 (F := Ideal) x1) rfl rfl 0 rfl (ix2 n (⟨k.val, h3⟩ : Fin 3)) ?_ ?_).trans (vd_read x1 n _)
    · intro b hb
      match b with
      | ⟨0, _⟩ => rfl
      | ⟨1, _⟩ => exact absurd rfl hb
    · show 0 + k.val = k.val; omega
  · rw [dif_neg h3]
    by_cases h15 : k.val < 15
    · rw [dif_pos h15]
      refine (concatenate_apply_piece (1 : Fin 2) [⟨S262144x3, (val_main_v559 (F := Ideal) x1)⟩, ⟨S262144x12, (val_main_v571 (F := Ideal) x1)⟩, ⟨S262144x12, (val_main_v573 (F := Ideal) x1)⟩] _ (ix2 n k) 1 (by show (1 : ℕ) < 3; decide) S262144x12
        (val_main_v571 (F := Ideal) x1) rfl rfl 3 rfl (ix2 n (⟨k.val - 3, by omega⟩ : Fin 12)) ?_ ?_).trans
        (sin_read x1 n _)
      · intro b hb
        match b with
        | ⟨0, _⟩ => rfl
        | ⟨1, _⟩ => exact absurd rfl hb
      · show 3 + (k.val - 3) = k.val; omega
    · rw [dif_neg h15]
      refine (concatenate_apply_piece (1 : Fin 2) [⟨S262144x3, (val_main_v559 (F := Ideal) x1)⟩, ⟨S262144x12, (val_main_v571 (F := Ideal) x1)⟩, ⟨S262144x12, (val_main_v573 (F := Ideal) x1)⟩] _ (ix2 n k) 2 (by show (2 : ℕ) < 3; decide) S262144x12
        (val_main_v573 (F := Ideal) x1) rfl rfl 15 rfl (ix2 n (⟨k.val - 15, by omega⟩ : Fin 12)) ?_ ?_).trans
        (cos_read x1 n _)
      · intro b hb
        match b with
        | ⟨0, _⟩ => rfl
        | ⟨1, _⟩ => exact absurd rfl hb
      · show 15 + (k.val - 15) = k.val; omega

/-! ## The colour network's input and layers -/

/-- The colour network's input: the flattened feature, then the embedded direction. -/
private theorem cin_read (x0 x1 : (⟨S1x3x262144, .f32⟩ : BufTy).Contents (Elt Ideal)) (x2 : (⟨S1x96x256x256, .f32⟩ : BufTy).Contents (Elt Ideal))
    (n : Fin 262144) (k : Fin 59) :
    val_main_v575 (F := Ideal) x0 x1 x2 (ix2 n k)
      = cin (fun c => val_main_v541 (F := Ideal) x0 x2 (ix3 0 c n)) (emb rscale (comp x1 n)) k := by
  have hk : k.val < 59 := k.isLt
  unfold val_main_v575 cin
  by_cases h32 : k.val < 32
  · rw [dif_pos h32]
    refine (concatenate_pair_apply_left (1 : Fin 2) (val_main_v543 (F := Ideal) x0 x2) (val_main_v574 (F := Ideal) x1) _
      (ix2 n k) rfl (ix2 n (⟨k.val, h32⟩ : Fin 32)) ?_).trans (featflat_read x0 x2 n _)
    intro b
    match b with
    | ⟨0, _⟩ => rfl
    | ⟨1, _⟩ => rfl
  · rw [dif_neg h32]
    refine (concatenate_pair_apply_right (1 : Fin 2) (val_main_v543 (F := Ideal) x0 x2) (val_main_v574 (F := Ideal) x1) _
      (ix2 n k) rfl rfl (ix2 n (⟨k.val - 32, by omega⟩ : Fin 27)) ?_ ?_).trans (emb_read x1 n _)
    · intro b hb
      match b with
      | ⟨0, _⟩ => rfl
      | ⟨1, _⟩ => exact absurd rfl hb
    · show (k.val - 32) + 32 = k.val; omega

/-- The zero the colour network's first rectifier compares with is the printed 0.0. -/
private theorem zero26 (i : S262144x128.Idx) : val_main_call26_v0 (F := Ideal) i = lit0 := by
  rw [val_main_call26_v0_apply, val_main_call26_cst_apply]; rfl

/-- The zero the colour network's second rectifier compares with is the printed 0.0. -/
private theorem zero27 (i : S262144x128.Idx) : val_main_call27_v0 (F := Ideal) i = lit0 := by
  rw [val_main_call27_v0_apply, val_main_call27_cst_apply]; rfl

/-- A colour bias, broadcast over the points. -/
private theorem bias578 (x10 : (⟨S128, .f32⟩ : BufTy).Contents (Elt Ideal)) (n : Fin 262144) (j : Fin 128) :
    val_main_v578 (F := Ideal) x10 (ix2 n j) = vec1 x10 j := by
  rw [val_main_v578_apply, val_main_v577_apply]
  unfold vec1
  congr 1
  funext a
  match a with
  | ⟨0, _⟩ => rfl

/-- A colour bias, broadcast over the points. -/
private theorem bias583 (x12 : (⟨S128, .f32⟩ : BufTy).Contents (Elt Ideal)) (n : Fin 262144) (j : Fin 128) :
    val_main_v583 (F := Ideal) x12 (ix2 n j) = vec1 x12 j := by
  rw [val_main_v583_apply, val_main_v582_apply]
  unfold vec1
  congr 1
  funext a
  match a with
  | ⟨0, _⟩ => rfl

/-- A colour bias, broadcast over the points. -/
private theorem bias588 (x14 : (⟨S3, .f32⟩ : BufTy).Contents (Elt Ideal)) (n : Fin 262144) (j : Fin 3) :
    val_main_v588 (F := Ideal) x14 (ix2 n j) = vec1 x14 j := by
  rw [val_main_v588_apply, val_main_v587_apply]
  unfold vec1
  congr 1
  funext a
  match a with
  | ⟨0, _⟩ => rfl

/-- The colour network's first hidden layer, over its input. -/
private theorem hid580 (x0 x1 : (⟨S1x3x262144, .f32⟩ : BufTy).Contents (Elt Ideal)) (x2 : (⟨S1x96x256x256, .f32⟩ : BufTy).Contents (Elt Ideal)) (x9 : (⟨S59x128, .f32⟩ : BufTy).Contents (Elt Ideal)) (x10 : (⟨S128, .f32⟩ : BufTy).Contents (Elt Ideal))
    (n : Fin 262144) (j : Fin 128) :
    val_main_v580 (F := Ideal) x0 x1 x2 x9 x10 (ix2 n j)
      = relu (rdense (mat2 x9) (vec1 x10) (fun k => val_main_v575 (F := Ideal) x0 x1 x2 (ix2 n k)) j) := by
  rw [val_main_v580_apply, val_main_v579_apply, val_main_v576_apply, zero26, bias578]
  unfold relu rdense mat2
  have hl : ∀ k : Fin 59, lidx_main_v576 (ix2 n j) k = ix2 n k := fun k =>
    funext fun a => Fin.ext (by match a with | ⟨0, _⟩ => rfl | ⟨1, _⟩ => rfl)
  have hr : ∀ k : Fin 59, ridx_main_v576 (ix2 n j) k = ix2 k j := fun k =>
    funext fun a => Fin.ext (by match a with | ⟨0, _⟩ => rfl | ⟨1, _⟩ => rfl)
  simp only [hl, hr]
  rfl

/-- The colour network's second hidden layer, over the first. -/
private theorem hid585 (x0 x1 : (⟨S1x3x262144, .f32⟩ : BufTy).Contents (Elt Ideal)) (x2 : (⟨S1x96x256x256, .f32⟩ : BufTy).Contents (Elt Ideal)) (x9 : (⟨S59x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))
    (n : Fin 262144) (j : Fin 128) :
    val_main_v585 (F := Ideal) x0 x1 x2 x9 x10 x11 x12 (ix2 n j)
      = relu (rdense (mat2 x11) (vec1 x12) (fun k => val_main_v580 (F := Ideal) x0 x1 x2 x9 x10 (ix2 n k)) j) := by
  rw [val_main_v585_apply, val_main_v584_apply, val_main_v581_apply, zero27, bias583]
  unfold relu rdense mat2
  have hl : ∀ k : Fin 128, lidx_main_v581 (ix2 n j) k = ix2 n k := fun k =>
    funext fun a => Fin.ext (by match a with | ⟨0, _⟩ => rfl | ⟨1, _⟩ => rfl)
  have hr : ∀ k : Fin 128, ridx_main_v581 (ix2 n j) k = ix2 k j := fun k =>
    funext fun a => Fin.ext (by match a with | ⟨0, _⟩ => rfl | ⟨1, _⟩ => rfl)
  simp only [hl, hr]
  rfl

/-- The colour network's output layer, over the second hidden layer. -/
private theorem col589 (x0 x1 : (⟨S1x3x262144, .f32⟩ : BufTy).Contents (Elt Ideal)) (x2 : (⟨S1x96x256x256, .f32⟩ : BufTy).Contents (Elt Ideal)) (x9 : (⟨S59x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x3, .f32⟩ : BufTy).Contents (Elt Ideal)) (x14 : (⟨S3, .f32⟩ : BufTy).Contents (Elt Ideal))
    (n : Fin 262144) (j : Fin 3) :
    val_main_v589 (F := Ideal) x0 x1 x2 x9 x10 x11 x12 x13 x14 (ix2 n j)
      = rdense (mat2 x13) (vec1 x14) (fun k => val_main_v585 (F := Ideal) x0 x1 x2 x9 x10 x11 x12 (ix2 n k)) j := by
  rw [val_main_v589_apply, val_main_v586_apply, bias588]
  unfold rdense mat2
  have hl : ∀ k : Fin 128, lidx_main_v586 (ix2 n j) k = ix2 n k := fun k =>
    funext fun a => Fin.ext (by match a with | ⟨0, _⟩ => rfl | ⟨1, _⟩ => rfl)
  have hr : ∀ k : Fin 128, ridx_main_v586 (ix2 n j) k = ix2 k j := fun k =>
    funext fun a => Fin.ext (by match a with | ⟨0, _⟩ => rfl | ⟨1, _⟩ => rfl)
  simp only [hl, hr]
  rfl

/-- The colour network, whole: the reference's three layers on the feature and the embedded direction. -/
private theorem col_read (x0 x1 : (⟨S1x3x262144, .f32⟩ : BufTy).Contents (Elt Ideal)) (x2 : (⟨S1x96x256x256, .f32⟩ : BufTy).Contents (Elt Ideal)) (x9 : (⟨S59x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x3, .f32⟩ : BufTy).Contents (Elt Ideal)) (x14 : (⟨S3, .f32⟩ : BufTy).Contents (Elt Ideal))
    (n : Fin 262144) (j : Fin 3) :
    val_main_v589 (F := Ideal) x0 x1 x2 x9 x10 x11 x12 x13 x14 (ix2 n j)
      = rmlp (mat2 x9) (vec1 x10) (mat2 x11) (vec1 x12) (mat2 x13) (vec1 x14)
          (cin (fun c => val_main_v541 (F := Ideal) x0 x2 (ix3 0 c n)) (emb rscale (comp x1 n))) j := by
  rw [col589]
  unfold rmlp
  simp only [hid585, hid580, cin_read]

/-- Row j, point n of the result: the density network on the feature (row 0), the colour network on the feature and the
    embedded direction (rows 1 … 3). -/
theorem out_read (x0 x1 : (⟨S1x3x262144, .f32⟩ : BufTy).Contents (Elt Ideal)) (x2 : (⟨S1x96x256x256, .f32⟩ : BufTy).Contents (Elt Ideal))
    (x3 : (⟨S32x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x1, .f32⟩ : BufTy).Contents (Elt Ideal)) (x8 : (⟨S1, .f32⟩ : BufTy).Contents (Elt Ideal))
    (x9 : (⟨S59x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal))
    (x13 : (⟨S128x3, .f32⟩ : BufTy).Contents (Elt Ideal)) (x14 : (⟨S3, .f32⟩ : BufTy).Contents (Elt Ideal))
    (j : Fin 4) (n : Fin 262144) :
    val_main_v594 (F := Ideal) x0 x1 x2 x3 x4 x5 x6 x7 x8 x9 x10 x11 x12 x13 x14 (ix3 0 j n)
      = if hj : j.val < 1 then
          rmlp (mat2 x3) (vec1 x4) (mat2 x5) (vec1 x6) (mat2 x7) (vec1 x8)
            (fun c => val_main_v541 (F := Ideal) x0 x2 (ix3 0 c n)) ⟨j.val, hj⟩
        else
          rmlp (mat2 x9) (vec1 x10) (mat2 x11) (vec1 x12) (mat2 x13) (vec1 x14)
            (cin (fun c => val_main_v541 (F := Ideal) x0 x2 (ix3 0 c n)) (emb rscale (comp x1 n))) ⟨j.val - 1, by omega⟩ := by
  have hn : n.val < 262144 := n.isLt
  have hj4 : j.val < 4 := j.isLt
  unfold val_main_v594
  by_cases hj : j.val < 1
  · -- row 0: the first piece, the density network's one output
    rw [dif_pos hj]
    refine (concatenate_pair_apply_left (1 : Fin 3) (val_main_v591 (F := Ideal) x0 x2 x3 x4 x5 x6 x7 x8)
      (val_main_v593 (F := Ideal) x0 x1 x2 x9 x10 x11 x12 x13 x14) _ (ix3 (0 : Fin 1) j n) rfl
      (ix3 (0 : Fin 1) (⟨j.val, hj⟩ : Fin 1) n) ?_).trans ?_
    · intro b
      match b with
      | ⟨0, _⟩ => rfl
      | ⟨1, _⟩ => rfl
      | ⟨2, _⟩ => rfl
    · rw [val_main_v591_apply, val_main_v590_apply]
      have h : idx_main_v590 (idx_main_v591 (ix3 (0 : Fin 1) (⟨j.val, hj⟩ : Fin 1) n)) = ix2 n (⟨j.val, hj⟩ : Fin 1) :=
        funext fun a => Fin.ext (by
          match a with
          | ⟨0, _⟩ => show ((0 * 262144 + n.val) * 1 + j.val) / 1 = n.val; omega
          | ⟨1, _⟩ => show 0 = j.val; omega)
      rw [h, dens_read]
  · -- rows 1 … 3: the second piece, the colour network's three outputs
    rw [dif_neg hj]
    refine (concatenate_pair_apply_right (1 : Fin 3) (val_main_v591 (F := Ideal) x0 x2 x3 x4 x5 x6 x7 x8)
      (val_main_v593 (F := Ideal) x0 x1 x2 x9 x10 x11 x12 x13 x14) _ (ix3 (0 : Fin 1) j n) rfl rfl
      (ix3 (0 : Fin 1) (⟨j.val - 1, by omega⟩ : Fin 3) n) ?_ ?_).trans ?_
    · intro b hb
      match b with
      | ⟨0, _⟩ => rfl
      | ⟨1, _⟩ => exact absurd rfl hb
      | ⟨2, _⟩ => rfl
    · show (j.val - 1) + 1 = j.val; omega
    · rw [val_main_v593_apply, val_main_v592_apply]
      have h : idx_main_v592 (idx_main_v593 (ix3 (0 : Fin 1) (⟨j.val - 1, by omega⟩ : Fin 3) n))
          = ix2 n (⟨j.val - 1, by omega⟩ : Fin 3) :=
        funext fun a => Fin.ext (by
          match a with
          | ⟨0, _⟩ => show ((0 * 262144 + n.val) * 3 + (j.val - 1)) / 3 = n.val; omega
          | ⟨1, _⟩ => show ((0 * 262144 + n.val) * 3 + (j.val - 1)) % 3 = j.val - 1; omega)
      rw [h, col_read]

end Cert.ReferenceIdeal.RMlp

end
-- ==== Proof.RGather.lean ====
/- The reference's batched gather plane[:, y_n, x_n] read at a channel and a point, for in-range indices. -/
import proofs.«422422_j77094662963970_3_alg».proof.Proof.Gen.ReferenceIdeal
import Idealize.ShloMosaic.Lib.ValueIdx
import Idealize.ShloMosaic.PureOps.Ideal

noncomputable section

namespace Cert.ReferenceIdeal.RGather

open Cert.ReferenceIdeal Cert.ReferenceIdeal.Gen Idealize.ShloMosaic Idealize.ShloMosaic.ValueIdx

/-- The gather's dimension numbers: operand [1, 32, 256, 256], start indices [1, 262144, 2], result [1, 32, 262144];
    axis 0 is the batching axis on both sides, operand axes 2 and 3 are collapsed and take the two components of the
    start index, operand axis 1 is the one offset axis (the whole channel range). -/
private abbrev G : GatherDims S1x32x256x256 S1x262144x2 S1x32x262144 :=
  gather_S1x32x256x256_S1x262144x2_S1x32x262144_1_23_0_0_23_2_13211

/-- A 32-bit word made of a number below 256 reads, as a signed integer, as that number. -/
private theorem word_small (v : Fin 256) : (BitVec.ofNat 32 v.val).toInt.toNat = v.val := by
  have hv := v.isLt
  have h1 : (BitVec.ofNat 32 v.val).toNat = v.val := by
    rw [BitVec.toNat_ofNat]; exact Nat.mod_eq_of_lt (by omega)
  have h2 : (BitVec.ofNat 32 v.val).toInt = (v.val : ℤ) := by
    rw [BitVec.toInt_eq_toNat_of_lt (by rw [h1]; omega), h1]
  rw [h2]; exact Int.toNat_natCast _

/-- Result index (0, c, n) reads component k of its start index at (0, n, k): the result's two batch axes 0 and 2
    are the start indices' axes 0 and 1, and the component sits on the index vector's axis 2. -/
private theorem siIdx_eq (c : Fin 32) (n : Fin 262144) (k : Fin 2) (hk : k.val < G.startIndexMap.length) :
    G.siIdx (ix3 (0 : Fin 1) c n) ⟨k.val, hk⟩ = ix3 (0 : Fin 1) n k := by
  funext b; refine Fin.ext ?_
  match b with
  | ⟨0, _⟩ => rfl
  | ⟨1, _⟩ => rfl
  | ⟨2, _⟩ => rfl

/-- The slice's start on a collapsed axis (operand axis 2 + k, k = 0, 1): component k of the start index, read signed
    and clamped into 0 … 255 (the axis has 256 entries and the slice one). -/
private theorem start_eq (i : (⟨S1x262144x2, .i32⟩ : BufTy).Contents (Elt Ideal)) (c : Fin 32) (n : Fin 262144)
    (k : Fin 2) (e : Fin S1x32x256x256.rank) (he : e.val = 2 + k.val) :
    G.start (ix3 (0 : Fin 1) c n) i e = min (i (ix3 (0 : Fin 1) n k)).toInt.toNat 255 := by
  match k, e, he with
  | ⟨0, _⟩, ⟨2, h2⟩, _ =>
    have hm : (⟨2, h2⟩ : Fin S1x32x256x256.rank) ∈ G.startIndexMap := List.mem_cons_self ..
    unfold GatherDims.start
    rw [dif_pos hm]
    exact congrArg (fun q => min (i q).toInt.toNat 255) (siIdx_eq c n (0 : Fin 2) (by decide))
  | ⟨1, _⟩, ⟨3, h3⟩, _ =>
    have hm : (⟨3, h3⟩ : Fin S1x32x256x256.rank) ∈ G.startIndexMap := List.mem_cons_of_mem _ (List.mem_cons_self ..)
    unfold GatherDims.start
    rw [dif_pos hm]
    exact congrArg (fun q => min (i q).toInt.toNat 255) (siIdx_eq c n (1 : Fin 2) (by decide))

/-- Channel c, point n of the gather: the operand at (c, y, x) where the index pair of point n is (y, x), both in 0 … 255. -/
theorem gather_read (a : (⟨S1x32x256x256, .f32⟩ : BufTy).Contents (Elt Ideal)) (i : (⟨S1x262144x2, .i32⟩ : BufTy).Contents (Elt Ideal))
    (c : Fin 32) (n : Fin 262144) (y x : Fin 256)
    (hy : i (ix3 (0 : Fin 1) n (0 : Fin 2)) = BitVec.ofNat 32 y.val) (hx : i (ix3 (0 : Fin 1) n (1 : Fin 2)) = BitVec.ofNat 32 x.val) :
    Host.gather gather_S1x32x256x256_S1x262144x2_S1x32x262144_1_23_0_0_23_2_13211 a i (ix3 (0 : Fin 1) c n) = a (ix4 (0 : Fin 1) c y x) := by
  -- the gather reads the operand at the operand index; compare it with (0, c, y, x) axis by axis: on each axis the
  -- operand index is  start + batching coordinate + offset coordinate
  unfold Host.gather
  congr 1
  funext e
  refine Fin.ext ?_
  show G.start (ix3 (0 : Fin 1) c n) i e + G.batchCoord (ix3 (0 : Fin 1) c n) e + G.offCoord (ix3 (0 : Fin 1) c n) e
    = (ix4 (0 : Fin 1) c y x e).val
  have hyl := y.isLt
  have hxl := x.isLt
  match e with
  | ⟨0, h0⟩ =>
    -- the batching axis: no start, no offset, the result's coordinate 0
    rfl
  | ⟨1, h1⟩ =>
    -- the offset axis: no start, no batching, the result's channel coordinate
    have hs : G.start (ix3 (0 : Fin 1) c n) i ⟨1, h1⟩ = 0 := rfl
    have hb : G.batchCoord (ix3 (0 : Fin 1) c n) ⟨1, h1⟩ = 0 := rfl
    have ho : G.offCoord (ix3 (0 : Fin 1) c n) ⟨1, h1⟩ = c.val := rfl
    rw [hs, hb, ho]
    show 0 + 0 + c.val = c.val
    omega
  | ⟨2, h2⟩ =>
    -- a collapsed axis: the clamped first component of the start index, which is y
    have hb : G.batchCoord (ix3 (0 : Fin 1) c n) ⟨2, h2⟩ = 0 := rfl
    have ho : G.offCoord (ix3 (0 : Fin 1) c n) ⟨2, h2⟩ = 0 := rfl
    rw [start_eq i c n (0 : Fin 2) ⟨2, h2⟩ rfl, hb, ho, hy, word_small]
    show min y.val 255 + 0 + 0 = y.val
    omega
  | ⟨3, h3⟩ =>
    -- a collapsed axis: the clamped second component of the start index, which is x
    have hb : G.batchCoord (ix3 (0 : Fin 1) c n) ⟨3, h3⟩ = 0 := rfl
    have ho : G.offCoord (ix3 (0 : Fin 1) c n) ⟨3, h3⟩ = 0 := rfl
    rw [start_eq i c n (1 : Fin 2) ⟨3, h3⟩ rfl, hb, ho, hx, word_small]
    show min x.val 255 + 0 + 0 = x.val
    omega

end Cert.ReferenceIdeal.RGather

end
-- ==== Proof.RSampX.lean ====
/- The reference's sample of the first plane read at a channel and a point. -/
import proofs.«422422_j77094662963970_3_alg».proof.Proof.ReadP
import proofs.«422422_j77094662963970_3_alg».proof.Proof.Iface
import proofs.«422422_j77094662963970_3_alg».proof.Proof.RGather
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RSampX

open Cert.ReferenceIdeal Cert.ReferenceIdeal.ReadP Cert.Tri Idealize.ShloMosaic Idealize.ShloMosaic.ValueIdx

/-! ## The two coordinates of a point, and their pixel position, floor, fraction and cell -/

/-- Row 1 of the query points, flattened, at point n. -/
private theorem v6_at (x0 : (⟨S1x3x262144, .f32⟩ : BufTy).Contents (Elt Ideal)) (n : Fin 262144) :
    val_main_v6 (F := Ideal) x0 (ix2 (0 : Fin 1) n) = comp x0 n 1 := by
  rw [val_main_v6_apply, val_main_v5_apply]
  unfold comp
  congr 1
  funext a
  match a with
  | ⟨0, _⟩ => rfl
  | ⟨1, _⟩ => rfl
  | ⟨2, _⟩ => exact Fin.ext (by show ((0 : ℕ) * 262144 + n.val) % 262144 = n.val; have := n.isLt; omega)

/-- Row 2 of the query points, flattened, at point n. -/
private theorem v8_at (x0 : (⟨S1x3x262144, .f32⟩ : BufTy).Contents (Elt Ideal)) (n : Fin 262144) :
    val_main_v8 (F := Ideal) x0 (ix2 (0 : Fin 1) n) = comp x0 n 2 := by
  rw [val_main_v8_apply, val_main_v7_apply]
  unfold comp
  congr 1
  funext a
  match a with
  | ⟨0, _⟩ => rfl
  | ⟨1, _⟩ => rfl
  | ⟨2, _⟩ => exact Fin.ext (by show ((0 : ℕ) * 262144 + n.val) % 262144 = n.val; have := n.isLt; omega)

/-- The column pixel position. -/
private theorem v14_at (x0 : (⟨S1x3x262144, .f32⟩ : BufTy).Contents (Elt Ideal)) (n : Fin 262144) :
    val_main_v14 (F := Ideal) x0 (ix2 (0 : Fin 1) n) = pos (comp x0 n 1) := by
  rw [val_main_v14_apply, val_main_v12_apply, val_main_v10_apply, v6_at, val_main_v9_apply, val_main_v11_apply,
    val_main_v13_apply]
  rfl

/-- The row pixel position. -/
private theorem v20_at (x0 : (⟨S1x3x262144, .f32⟩ : BufTy).Contents (Elt Ideal)) (n : Fin 262144) :
    val_main_v20 (F := Ideal) x0 (ix2 (0 : Fin 1) n) = pos (comp x0 n 2) := by
  rw [val_main_v20_apply, val_main_v18_apply, val_main_v16_apply, v8_at, val_main_v15_apply, val_main_v17_apply,
    val_main_v19_apply]
  rfl

/-- The column fraction. -/
private theorem v23_at (x0 : (⟨S1x3x262144, .f32⟩ : BufTy).Contents (Elt Ideal)) (n : Fin 262144) :
    val_main_v23 (F := Ideal) x0 (ix2 (0 : Fin 1) n) = fra (comp x0 n 1) := by
  rw [val_main_v23_apply, val_main_v21_apply, v14_at]
  rfl

/-- The row fraction. -/
private theorem v24_at (x0 : (⟨S1x3x262144, .f32⟩ : BufTy).Contents (Elt Ideal)) (n : Fin 262144) :
    val_main_v24 (F := Ideal) x0 (ix2 (0 : Fin 1) n) = fra (comp x0 n 2) := by
  rw [val_main_v24_apply, val_main_v22_apply, v20_at]
  rfl

/-- The column cell. -/
private theorem v25_at (x0 : (⟨S1x3x262144, .f32⟩ : BufTy).Contents (Elt Ideal)) (n : Fin 262144) :
    val_main_v25 (F := Ideal) x0 (ix2 (0 : Fin 1) n) = cel (comp x0 n 1) := by
  rw [val_main_v25_apply, val_main_v21_apply, v14_at]
  rfl

/-- The row cell. -/
private theorem v26_at (x0 : (⟨S1x3x262144, .f32⟩ : BufTy).Contents (Elt Ideal)) (n : Fin 262144) :
    val_main_v26 (F := Ideal) x0 (ix2 (0 : Fin 1) n) = cel (comp x0 n 2) := by
  rw [val_main_v26_apply, val_main_v22_apply, v20_at]
  rfl

/-! ## Words: the validity mask and the clamped cell -/

/-- The four signed range tests, conjoined and read as a float, are the validity indicator. -/
private theorem vld_word (xi yi : BitVec 32) :
    (FloatOps.uitofp (F := Ideal) .f32
      (IntOp.andi (IntOp.andi (IntOp.andi (IntOp.cmpi .sge xi 0#32) (IntOp.cmpi .sle xi 255#32)) (IntOp.cmpi .sge yi 0#32))
        (IntOp.cmpi .sle yi 255#32)) : EReal) = vld xi yi := by
  show (((IntOp.andi (IntOp.andi (IntOp.andi (IntOp.cmpi .sge xi 0#32) (IntOp.cmpi .sle xi 255#32)) (IntOp.cmpi .sge yi 0#32))
        (IntOp.cmpi .sle yi 255#32)).toNat : ℝ) : EReal) = vld xi yi
  have h0 : (0#32 : BitVec 32).toInt = 0 := by decide
  have h255 : (255#32 : BitVec 32).toInt = 255 := by decide
  unfold vld IntOp.andi IntOp.cmpi
  simp only [BitVec.sle, h0, h255]
  by_cases h1 : 0 ≤ xi.toInt <;> by_cases h2 : xi.toInt ≤ 255 <;> by_cases h3 : 0 ≤ yi.toInt <;>
    by_cases h4 : yi.toInt ≤ 255 <;> simp [h1, h2, h3, h4]

/-- Clamping a cell into 0 … 255 by the signed maximum and minimum, then wrapping a negative result (there is none),
    is the clamped cell as a word. -/
private theorem clip_word (xi : BitVec 32) :
    Scalar.select (IntOp.cmpi .slt (IntOp.minsi 255#32 (IntOp.maxsi 0#32 xi)) 0#32)
      (IntOp.addi (IntOp.minsi 255#32 (IntOp.maxsi 0#32 xi)) 256#32) (IntOp.minsi 255#32 (IntOp.maxsi 0#32 xi))
      = BitVec.ofNat 32 (clampF xi).val := by
  have h0 : (0#32 : BitVec 32).toInt = 0 := by decide
  have h255 : (255#32 : BitVec 32).toInt = 255 := by decide
  unfold clampF
  simp only
  rcases lt_or_ge xi.toInt 0 with hneg | hpos
  · have e1 : IntOp.maxsi 0#32 xi = 0#32 := by
      unfold IntOp.maxsi; rw [if_pos (by simp only [BitVec.slt, h0]; exact decide_eq_true hneg)]
    rw [e1]
    have e2 : (min (255 : ℤ) (max 0 xi.toInt)).toNat = 0 := by
      rw [max_eq_left (le_of_lt hneg)]; rfl
    rw [e2]
    decide
  · rcases le_or_gt xi.toInt 255 with hle | hgt
    · have e1 : IntOp.maxsi 0#32 xi = xi := by
        unfold IntOp.maxsi; rw [if_neg (by simp only [BitVec.slt, h0]; simpa using hpos)]
      have e2 : IntOp.minsi 255#32 xi = xi := by
        unfold IntOp.minsi; rw [if_neg (by simp only [BitVec.slt, h255]; simpa using hle)]
      have e3 : IntOp.cmpi .slt xi 0#32 = 0#1 := by
        unfold IntOp.cmpi; simp only [BitVec.slt, h0]; rw [decide_eq_false (by omega)]; rfl
      rw [e1, e2, e3, select_zero]
      have e4 : (min (255 : ℤ) (max 0 xi.toInt)).toNat = xi.toNat := by
        rw [max_eq_right hpos, min_eq_right hle]
        have := BitVec.toInt_eq_toNat_of_lt (x := xi) (by
          have := BitVec.toInt_eq_toNat_cond xi; by_contra hh; rw [if_neg hh] at this; have := xi.isLt; omega)
        omega
      rw [e4, BitVec.ofNat_toNat, BitVec.setWidth_eq]
    · have e1 : IntOp.maxsi 0#32 xi = xi := by
        unfold IntOp.maxsi; rw [if_neg (by simp only [BitVec.slt, h0]; simpa using hpos)]
      have e2 : IntOp.minsi 255#32 xi = 255#32 := by
        unfold IntOp.minsi; rw [if_pos (by simp only [BitVec.slt, h255]; exact decide_eq_true hgt)]
      rw [e1, e2]
      have e4 : (min (255 : ℤ) (max 0 xi.toInt)).toNat = 255 := by
        rw [max_eq_right hpos, min_eq_left (le_of_lt hgt)]; rfl
      rw [e4]
      decide

/-! ## The gather of one neighbour -/

/-- The gather at the index pairs (row word, column word) laid side by side on the last axis reads the plane at that
    row and column, when the words are the numbers y and x. -/
private theorem gat_read (a : (⟨S1x32x256x256, .f32⟩ : BufTy).Contents (Elt Ideal))
    (A B : (⟨S1x262144x1, .i32⟩ : BufTy).Contents (Elt Ideal)) (c : Fin 32) (n : Fin 262144) (y x : Fin 256)
    (hA : A (ix3 (0 : Fin 1) n (0 : Fin 1)) = BitVec.ofNat 32 y.val)
    (hB : B (ix3 (0 : Fin 1) n (0 : Fin 1)) = BitVec.ofNat 32 x.val) :
    Host.gather gather_S1x32x256x256_S1x262144x2_S1x32x262144_1_23_0_0_23_2_13211 a
      (concatenate S1x262144x2 2 [⟨S1x262144x1, A⟩, ⟨S1x262144x1, B⟩]
        Facts₀.concatenates_S1x262144x1_S1x262144x1_S1x262144x2_d2) (ix3 (0 : Fin 1) c n) = a (ix4 (0 : Fin 1) c y x) := by
  refine RGather.gather_read a _ c n y x ?_ ?_
  · rw [concatenate_pair_apply_left 2 A B _ (ix3 (0 : Fin 1) n (0 : Fin 2)) rfl (ix3 (0 : Fin 1) n (0 : Fin 1))
      (fun b => match b with | ⟨0, _⟩ => rfl | ⟨1, _⟩ => rfl | ⟨2, _⟩ => rfl)]
    exact hA
  · rw [concatenate_pair_apply_right 2 A B _ (ix3 (0 : Fin 1) n (1 : Fin 2)) rfl rfl (ix3 (0 : Fin 1) n (0 : Fin 1))
      (fun b => match b with | ⟨0, _⟩ => fun _ => rfl | ⟨1, _⟩ => fun _ => rfl | ⟨2, _⟩ => fun h => absurd rfl h) rfl]
    exact hB

/-! ## The plane, and the first neighbour (cell, cell) -/

/-- The slice of channels 0 … 31 at (c, y, x) is plane 0. -/
private theorem plane_read (x2 : (⟨S1x96x256x256, .f32⟩ : BufTy).Contents (Elt Ideal)) (c : Fin 32) (y x : Fin 256) :
    val_main_v0 (F := Ideal) x2 (ix4 (0 : Fin 1) c y x) = plane x2 0 c y x := by
  rw [val_main_v0_apply]
  unfold plane
  congr 1
  funext a
  match a with
  | ⟨0, _⟩ => rfl
  | ⟨1, _⟩ => exact Fin.ext (by show c.val = 32 * ((0 : Fin 3) : ℕ) + c.val; simp)
  | ⟨2, _⟩ => rfl
  | ⟨3, _⟩ => rfl

/-- The first neighbour's validity. -/
private theorem valid1_at (x0 : (⟨S1x3x262144, .f32⟩ : BufTy).Contents (Elt Ideal)) (n : Fin 262144) :
    val_main_v38 (F := Ideal) x0 (ix2 (0 : Fin 1) n) = vld (cel (comp x0 n 1)) (cel (comp x0 n 2)) := by
  simp only [val_main_v38_apply, val_main_v37_apply, val_main_v36_apply, val_main_v34_apply, val_main_v33_apply,
    val_main_v31_apply, val_main_v30_apply, val_main_v28_apply, val_main_v27_apply, val_main_v29_apply, val_main_v32_apply,
    val_main_v35_apply, val_main_c_apply, val_main_c_5_apply, val_main_c_6_apply, val_main_c_7_apply, v25_at, v26_at]
  exact vld_word _ _

/-- The first neighbour's row word. -/
private theorem ys1_at (x0 : (⟨S1x3x262144, .f32⟩ : BufTy).Contents (Elt Ideal)) (n : Fin 262144) :
    val_main_v51 (F := Ideal) x0 (ix3 (0 : Fin 1) n (0 : Fin 1)) = BitVec.ofNat 32 (clampF (cel (comp x0 n 2))).val := by
  have hi : idx_main_v51 (ix3 (0 : Fin 1) n (0 : Fin 1)) = ix2 (0 : Fin 1) n := by
    funext a; match a with | ⟨0, _⟩ => rfl | ⟨1, _⟩ => rfl
  rw [val_main_v51_apply, hi]
  simp only [val_main_v45_apply, val_main_v42_apply, val_main_v44_apply, val_main_v40_apply, val_main_v41_apply,
    val_main_v43_apply, val_main_call1_v4_apply, val_main_call1_v3_apply, val_main_call1_v2_apply, val_main_call1_v1_apply,
    val_main_call1_v0_apply, val_main_c_10_apply, val_main_c_11_apply, val_main_c_12_apply, val_main_c_13_apply, v26_at]
  exact clip_word _

/-- The first neighbour's column word. -/
private theorem xs1_at (x0 : (⟨S1x3x262144, .f32⟩ : BufTy).Contents (Elt Ideal)) (n : Fin 262144) :
    val_main_v52 (F := Ideal) x0 (ix3 (0 : Fin 1) n (0 : Fin 1)) = BitVec.ofNat 32 (clampF (cel (comp x0 n 1))).val := by
  have hi : idx_main_v52 (ix3 (0 : Fin 1) n (0 : Fin 1)) = ix2 (0 : Fin 1) n := by
    funext a; match a with | ⟨0, _⟩ => rfl | ⟨1, _⟩ => rfl
  rw [val_main_v52_apply, hi]
  simp only [val_main_v50_apply, val_main_v47_apply, val_main_v49_apply, val_main_v39_apply, val_main_v46_apply,
    val_main_v48_apply, val_main_call0_v4_apply, val_main_call0_v3_apply, val_main_call0_v2_apply, val_main_call0_v1_apply,
    val_main_call0_v0_apply, val_main_c_8_apply, val_main_c_9_apply, val_main_c_14_apply, val_main_c_15_apply, v25_at]
  exact clip_word _

/-- The first neighbour's weight (1 − fx)(1 − fy). -/
private theorem w1_at (x0 : (⟨S1x3x262144, .f32⟩ : BufTy).Contents (Elt Ideal)) (n : Fin 262144) :
    val_main_v62 (F := Ideal) x0 (ix2 (0 : Fin 1) n)
      = (lit1 - fra (comp x0 n 1)) * (lit1 - fra (comp x0 n 2)) := by
  simp only [val_main_v62_apply, val_main_v59_apply, val_main_v61_apply, val_main_v58_apply, val_main_v60_apply,
    val_main_cst_16_apply, val_main_cst_17_apply, v23_at, v24_at]
  rfl

/-- The first term: the gathered, masked neighbour times its weight. -/
private theorem t1_at (x0 : (⟨S1x3x262144, .f32⟩ : BufTy).Contents (Elt Ideal)) (x2 : (⟨S1x96x256x256, .f32⟩ : BufTy).Contents (Elt Ideal)) (c : Fin 32) (n : Fin 262144) :
    val_main_v65 (F := Ideal) x0 x2 (ix3 (0 : Fin 1) c n)
      = rgat (plane x2 0) (cel (comp x0 n 1)) (cel (comp x0 n 2)) c
          * ((lit1 - fra (comp x0 n 1)) * (lit1 - fra (comp x0 n 2))) := by
  have hm : idx_main_v55 (idx_main_v56 (ix3 (0 : Fin 1) c n)) = ix2 (0 : Fin 1) n := by
    funext a; match a with | ⟨0, _⟩ => rfl | ⟨1, _⟩ => rfl
  have hw : idx_main_v63 (idx_main_v64 (ix3 (0 : Fin 1) c n)) = ix2 (0 : Fin 1) n := by
    funext a; match a with | ⟨0, _⟩ => rfl | ⟨1, _⟩ => rfl
  rw [val_main_v65_apply, val_main_v57_apply, val_main_v56_apply, val_main_v55_apply, hm, valid1_at, val_main_v64_apply,
    val_main_v63_apply, hw, w1_at]
  unfold val_main_v54 val_main_v53
  rw [gat_read (val_main_v0 (F := Ideal) x2) (val_main_v51 (F := Ideal) x0) (val_main_v52 (F := Ideal) x0) c n
    (clampF (cel (comp x0 n 2))) (clampF (cel (comp x0 n 1))) (ys1_at x0 n) (xs1_at x0 n), plane_read]
  rfl

/-! ## The second neighbour (cell + 1, cell) -/

/-- The next column cell. -/
private theorem v67_at (x0 : (⟨S1x3x262144, .f32⟩ : BufTy).Contents (Elt Ideal)) (n : Fin 262144) :
    val_main_v67 (F := Ideal) x0 (ix2 (0 : Fin 1) n) = cel (comp x0 n 1) + 1#32 := by
  simp only [val_main_v67_apply, val_main_v66_apply, val_main_c_18_apply, v25_at]
  rfl

/-- The second neighbour's validity. -/
private theorem valid2_at (x0 : (⟨S1x3x262144, .f32⟩ : BufTy).Contents (Elt Ideal)) (n : Fin 262144) :
    val_main_v79 (F := Ideal) x0 (ix2 (0 : Fin 1) n) = vld (cel (comp x0 n 1) + 1#32) (cel (comp x0 n 2)) := by
  simp only [val_main_v79_apply, val_main_v78_apply, val_main_v77_apply, val_main_v75_apply, val_main_v74_apply,
    val_main_v72_apply, val_main_v71_apply, val_main_v69_apply, val_main_v68_apply, val_main_v70_apply, val_main_v73_apply,
    val_main_v76_apply, val_main_c_19_apply, val_main_c_20_apply, val_main_c_21_apply, val_main_c_22_apply, v67_at, v26_at]
  exact vld_word _ _

/-- The second neighbour's row word. -/
private theorem ys2_at (x0 : (⟨S1x3x262144, .f32⟩ : BufTy).Contents (Elt Ideal)) (n : Fin 262144) :
    val_main_v92 (F := Ideal) x0 (ix3 (0 : Fin 1) n (0 : Fin 1)) = BitVec.ofNat 32 (clampF (cel (comp x0 n 2))).val := by
  have hi : idx_main_v92 (ix3 (0 : Fin 1) n (0 : Fin 1)) = ix2 (0 : Fin 1) n := by
    funext a; match a with | ⟨0, _⟩ => rfl | ⟨1, _⟩ => rfl
  rw [val_main_v92_apply, hi]
  simp only [val_main_v86_apply, val_main_v83_apply, val_main_v85_apply, val_main_v81_apply, val_main_v82_apply,
    val_main_v84_apply, val_main_call3_v4_apply, val_main_call3_v3_apply, val_main_call3_v2_apply, val_main_call3_v1_apply,
    val_main_call3_v0_apply, val_main_c_25_apply, val_main_c_26_apply, val_main_c_27_apply, val_main_c_28_apply, v26_at]
  exact clip_word _

/-- The second neighbour's column word. -/
private theorem xs2_at (x0 : (⟨S1x3x262144, .f32⟩ : BufTy).Contents (Elt Ideal)) (n : Fin 262144) :
    val_main_v93 (F := Ideal) x0 (ix3 (0 : Fin 1) n (0 : Fin 1))
      = BitVec.ofNat 32 (clampF (cel (comp x0 n 1) + 1#32)).val := by
  have hi : idx_main_v93 (ix3 (0 : Fin 1) n (0 : Fin 1)) = ix2 (0 : Fin 1) n := by
    funext a; match a with | ⟨0, _⟩ => rfl | ⟨1, _⟩ => rfl
  rw [val_main_v93_apply, hi]
  simp only [val_main_v91_apply, val_main_v88_apply, val_main_v90_apply, val_main_v80_apply, val_main_v87_apply,
    val_main_v89_apply, val_main_call2_v4_apply, val_main_call2_v3_apply, val_main_call2_v2_apply, val_main_call2_v1_apply,
    val_main_call2_v0_apply, val_main_c_23_apply, val_main_c_24_apply, val_main_c_29_apply, val_main_c_30_apply, v67_at]
  exact clip_word _

/-- The second neighbour's weight fx (1 − fy). -/
private theorem w2_at (x0 : (⟨S1x3x262144, .f32⟩ : BufTy).Contents (Elt Ideal)) (n : Fin 262144) :
    val_main_v101 (F := Ideal) x0 (ix2 (0 : Fin 1) n) = fra (comp x0 n 1) * (lit1 - fra (comp x0 n 2)) := by
  simp only [val_main_v101_apply, val_main_v100_apply, val_main_v99_apply, val_main_cst_31_apply, v23_at, v24_at]
  rfl

/-- The second term. -/
private theorem t2_at (x0 : (⟨S1x3x262144, .f32⟩ : BufTy).Contents (Elt Ideal)) (x2 : (⟨S1x96x256x256, .f32⟩ : BufTy).Contents (Elt Ideal)) (c : Fin 32) (n : Fin 262144) :
    val_main_v104 (F := Ideal) x0 x2 (ix3 (0 : Fin 1) c n)
      = rgat (plane x2 0) (cel (comp x0 n 1) + 1#32) (cel (comp x0 n 2)) c
          * (fra (comp x0 n 1) * (lit1 - fra (comp x0 n 2))) := by
  have hm : idx_main_v96 (idx_main_v97 (ix3 (0 : Fin 1) c n)) = ix2 (0 : Fin 1) n := by
    funext a; match a with | ⟨0, _⟩ => rfl | ⟨1, _⟩ => rfl
  have hw : idx_main_v102 (idx_main_v103 (ix3 (0 : Fin 1) c n)) = ix2 (0 : Fin 1) n := by
    funext a; match a with | ⟨0, _⟩ => rfl | ⟨1, _⟩ => rfl
  rw [val_main_v104_apply, val_main_v98_apply, val_main_v97_apply, val_main_v96_apply, hm, valid2_at, val_main_v103_apply,
    val_main_v102_apply, hw, w2_at]
  unfold val_main_v95 val_main_v94
  rw [gat_read (val_main_v0 (F := Ideal) x2) (val_main_v92 (F := Ideal) x0) (val_main_v93 (F := Ideal) x0) c n
    (clampF (cel (comp x0 n 2))) (clampF (cel (comp x0 n 1) + 1#32)) (ys2_at x0 n) (xs2_at x0 n), plane_read]
  rfl

/-! ## The third neighbour (cell, cell + 1) -/

/-- The next row cell. -/
private theorem v107_at (x0 : (⟨S1x3x262144, .f32⟩ : BufTy).Contents (Elt Ideal)) (n : Fin 262144) :
    val_main_v107 (F := Ideal) x0 (ix2 (0 : Fin 1) n) = cel (comp x0 n 2) + 1#32 := by
  simp only [val_main_v107_apply, val_main_v106_apply, val_main_c_32_apply, v26_at]
  rfl

/-- The third neighbour's validity. -/
private theorem valid3_at (x0 : (⟨S1x3x262144, .f32⟩ : BufTy).Contents (Elt Ideal)) (n : Fin 262144) :
    val_main_v119 (F := Ideal) x0 (ix2 (0 : Fin 1) n) = vld (cel (comp x0 n 1)) (cel (comp x0 n 2) + 1#32) := by
  simp only [val_main_v119_apply, val_main_v118_apply, val_main_v117_apply, val_main_v115_apply, val_main_v114_apply,
    val_main_v112_apply, val_main_v111_apply, val_main_v109_apply, val_main_v108_apply, val_main_v110_apply,
    val_main_v113_apply, val_main_v116_apply, val_main_c_33_apply, val_main_c_34_apply, val_main_c_35_apply,
    val_main_c_36_apply, v25_at, v107_at]
  exact vld_word _ _

/-- The third neighbour's row word. -/
private theorem ys3_at (x0 : (⟨S1x3x262144, .f32⟩ : BufTy).Contents (Elt Ideal)) (n : Fin 262144) :
    val_main_v132 (F := Ideal) x0 (ix3 (0 : Fin 1) n (0 : Fin 1))
      = BitVec.ofNat 32 (clampF (cel (comp x0 n 2) + 1#32)).val := by
  have hi : idx_main_v132 (ix3 (0 : Fin 1) n (0 : Fin 1)) = ix2 (0 : Fin 1) n := by
    funext a; match a with | ⟨0, _⟩ => rfl | ⟨1, _⟩ => rfl
  rw [val_main_v132_apply, hi]
  simp only [val_main_v126_apply, val_main_v123_apply, val_main_v125_apply, val_main_v121_apply, val_main_v122_apply,
    val_main_v124_apply, val_main_call5_v4_apply, val_main_call5_v3_apply, val_main_call5_v2_apply, val_main_call5_v1_apply,
    val_main_call5_v0_apply, val_main_c_39_apply, val_main_c_40_apply, val_main_c_41_apply, val_main_c_42_apply, v107_at]
  exact clip_word _

/-- The third neighbour's column word. -/
private theorem xs3_at (x0 : (⟨S1x3x262144, .f32⟩ : BufTy).Contents (Elt Ideal)) (n : Fin 262144) :
    val_main_v133 (F := Ideal) x0 (ix3 (0 : Fin 1) n (0 : Fin 1)) = BitVec.ofNat 32 (clampF (cel (comp x0 n 1))).val := by
  have hi : idx_main_v133 (ix3 (0 : Fin 1) n (0 : Fin 1)) = ix2 (0 : Fin 1) n := by
    funext a; match a with | ⟨0, _⟩ => rfl | ⟨1, _⟩ => rfl
  rw [val_main_v133_apply, hi]
  simp only [val_main_v131_apply, val_main_v128_apply, val_main_v130_apply, val_main_v120_apply, val_main_v127_apply,
    val_main_v129_apply, val_main_call4_v4_apply, val_main_call4_v3_apply, val_main_call4_v2_apply, val_main_call4_v1_apply,
    val_main_call4_v0_apply, val_main_c_37_apply, val_main_c_38_apply, val_main_c_43_apply, val_main_c_44_apply, v25_at]
  exact clip_word _

/-- The third neighbour's weight (1 − fx) fy. -/
private theorem w3_at (x0 : (⟨S1x3x262144, .f32⟩ : BufTy).Contents (Elt Ideal)) (n : Fin 262144) :
    val_main_v141 (F := Ideal) x0 (ix2 (0 : Fin 1) n) = (lit1 - fra (comp x0 n 1)) * fra (comp x0 n 2) := by
  simp only [val_main_v141_apply, val_main_v140_apply, val_main_v139_apply, val_main_cst_45_apply, v23_at, v24_at]
  rfl

/-- The third term. -/
private theorem t3_at (x0 : (⟨S1x3x262144, .f32⟩ : BufTy).Contents (Elt Ideal)) (x2 : (⟨S1x96x256x256, .f32⟩ : BufTy).Contents (Elt Ideal)) (c : Fin 32) (n : Fin 262144) :
    val_main_v144 (F := Ideal) x0 x2 (ix3 (0 : Fin 1) c n)
      = rgat (plane x2 0) (cel (comp x0 n 1)) (cel (comp x0 n 2) + 1#32) c
          * ((lit1 - fra (comp x0 n 1)) * fra (comp x0 n 2)) := by
  have hm : idx_main_v136 (idx_main_v137 (ix3 (0 : Fin 1) c n)) = ix2 (0 : Fin 1) n := by
    funext a; match a with | ⟨0, _⟩ => rfl | ⟨1, _⟩ => rfl
  have hw : idx_main_v142 (idx_main_v143 (ix3 (0 : Fin 1) c n)) = ix2 (0 : Fin 1) n := by
    funext a; match a with | ⟨0, _⟩ => rfl | ⟨1, _⟩ => rfl
  rw [val_main_v144_apply, val_main_v138_apply, val_main_v137_apply, val_main_v136_apply, hm, valid3_at,
    val_main_v143_apply, val_main_v142_apply, hw, w3_at]
  unfold val_main_v135 val_main_v134
  rw [gat_read (val_main_v0 (F := Ideal) x2) (val_main_v132 (F := Ideal) x0) (val_main_v133 (F := Ideal) x0) c n
    (clampF (cel (comp x0 n 2) + 1#32)) (clampF (cel (comp x0 n 1))) (ys3_at x0 n) (xs3_at x0 n), plane_read]
  rfl

/-! ## The fourth neighbour (cell + 1, cell + 1) -/

/-- The next column cell, as the fourth neighbour computes it. -/
private theorem v147_at (x0 : (⟨S1x3x262144, .f32⟩ : BufTy).Contents (Elt Ideal)) (n : Fin 262144) :
    val_main_v147 (F := Ideal) x0 (ix2 (0 : Fin 1) n) = cel (comp x0 n 1) + 1#32 := by
  simp only [val_main_v147_apply, val_main_v146_apply, val_main_c_46_apply, v25_at]
  rfl

/-- The next row cell, as the fourth neighbour computes it. -/
private theorem v149_at (x0 : (⟨S1x3x262144, .f32⟩ : BufTy).Contents (Elt Ideal)) (n : Fin 262144) :
    val_main_v149 (F := Ideal) x0 (ix2 (0 : Fin 1) n) = cel (comp x0 n 2) + 1#32 := by
  simp only [val_main_v149_apply, val_main_v148_apply, val_main_c_47_apply, v26_at]
  rfl

/-- The fourth neighbour's validity. -/
private theorem valid4_at (x0 : (⟨S1x3x262144, .f32⟩ : BufTy).Contents (Elt Ideal)) (n : Fin 262144) :
    val_main_v161 (F := Ideal) x0 (ix2 (0 : Fin 1) n)
      = vld (cel (comp x0 n 1) + 1#32) (cel (comp x0 n 2) + 1#32) := by
  simp only [val_main_v161_apply, val_main_v160_apply, val_main_v159_apply, val_main_v157_apply, val_main_v156_apply,
    val_main_v154_apply, val_main_v153_apply, val_main_v151_apply, val_main_v150_apply, val_main_v152_apply,
    val_main_v155_apply, val_main_v158_apply, val_main_c_48_apply, val_main_c_49_apply, val_main_c_50_apply,
    val_main_c_51_apply, v147_at, v149_at]
  exact vld_word _ _

/-- The fourth neighbour's row word. -/
private theorem ys4_at (x0 : (⟨S1x3x262144, .f32⟩ : BufTy).Contents (Elt Ideal)) (n : Fin 262144) :
    val_main_v174 (F := Ideal) x0 (ix3 (0 : Fin 1) n (0 : Fin 1))
      = BitVec.ofNat 32 (clampF (cel (comp x0 n 2) + 1#32)).val := by
  have hi : idx_main_v174 (ix3 (0 : Fin 1) n (0 : Fin 1)) = ix2 (0 : Fin 1) n := by
    funext a; match a with | ⟨0, _⟩ => rfl | ⟨1, _⟩ => rfl
  rw [val_main_v174_apply, hi]
  simp only [val_main_v168_apply, val_main_v165_apply, val_main_v167_apply, val_main_v163_apply, val_main_v164_apply,
    val_main_v166_apply, val_main_call7_v4_apply, val_main_call7_v3_apply, val_main_call7_v2_apply, val_main_call7_v1_apply,
    val_main_call7_v0_apply, val_main_c_54_apply, val_main_c_55_apply, val_main_c_56_apply, val_main_c_57_apply, v149_at]
  exact clip_word _

/-- The fourth neighbour's column word. -/
private theorem xs4_at (x0 : (⟨S1x3x262144, .f32⟩ : BufTy).Contents (Elt Ideal)) (n : Fin 262144) :
    val_main_v175 (F := Ideal) x0 (ix3 (0 : Fin 1) n (0 : Fin 1))
      = BitVec.ofNat 32 (clampF (cel (comp x0 n 1) + 1#32)).val := by
  have hi : idx_main_v175 (ix3 (0 : Fin 1) n (0 : Fin 1)) = ix2 (0 : Fin 1) n := by
    funext a; match a with | ⟨0, _⟩ => rfl | ⟨1, _⟩ => rfl
  rw [val_main_v175_apply, hi]
  simp only [val_main_v173_apply, val_main_v170_apply, val_main_v172_apply, val_main_v162_apply, val_main_v169_apply,
    val_main_v171_apply, val_main_call6_v4_apply, val_main_call6_v3_apply, val_main_call6_v2_apply, val_main_call6_v1_apply,
    val_main_call6_v0_apply, val_main_c_52_apply, val_main_c_53_apply, val_main_c_58_apply, val_main_c_59_apply, v147_at]
  exact clip_word _

/-- The fourth neighbour's weight fx fy. -/
private theorem w4_at (x0 : (⟨S1x3x262144, .f32⟩ : BufTy).Contents (Elt Ideal)) (n : Fin 262144) :
    val_main_v181 (F := Ideal) x0 (ix2 (0 : Fin 1) n) = fra (comp x0 n 1) * fra (comp x0 n 2) := by
  simp only [val_main_v181_apply, v23_at, v24_at]
  rfl

/-- The fourth term. -/
private theorem t4_at (x0 : (⟨S1x3x262144, .f32⟩ : BufTy).Contents (Elt Ideal)) (x2 : (⟨S1x96x256x256, .f32⟩ : BufTy).Contents (Elt Ideal)) (c : Fin 32) (n : Fin 262144) :
    val_main_v184 (F := Ideal) x0 x2 (ix3 (0 : Fin 1) c n)
      = rgat (plane x2 0) (cel (comp x0 n 1) + 1#32) (cel (comp x0 n 2) + 1#32) c
          * (fra (comp x0 n 1) * fra (comp x0 n 2)) := by
  have hm : idx_main_v178 (idx_main_v179 (ix3 (0 : Fin 1) c n)) = ix2 (0 : Fin 1) n := by
    funext a; match a with | ⟨0, _⟩ => rfl | ⟨1, _⟩ => rfl
  have hw : idx_main_v182 (idx_main_v183 (ix3 (0 : Fin 1) c n)) = ix2 (0 : Fin 1) n := by
    funext a; match a with | ⟨0, _⟩ => rfl | ⟨1, _⟩ => rfl
  rw [val_main_v184_apply, val_main_v180_apply, val_main_v179_apply, val_main_v178_apply, hm, valid4_at,
    val_main_v183_apply, val_main_v182_apply, hw, w4_at]
  unfold val_main_v177 val_main_v176
  rw [gat_read (val_main_v0 (F := Ideal) x2) (val_main_v174 (F := Ideal) x0) (val_main_v175 (F := Ideal) x0) c n
    (clampF (cel (comp x0 n 2) + 1#32)) (clampF (cel (comp x0 n 1) + 1#32)) (ys4_at x0 n) (xs4_at x0 n), plane_read]
  rfl

/-! ## The sample: the four terms, summed left to right -/

/-- Channel c, point n: the bilinear sample of plane 0 at column coordinate v, row coordinate w. -/
theorem sampX_read (x0 : (⟨S1x3x262144, .f32⟩ : BufTy).Contents (Elt Ideal)) (x2 : (⟨S1x96x256x256, .f32⟩ : BufTy).Contents (Elt Ideal))
    (c : Fin 32) (n : Fin 262144) :
    val_main_v185 (F := Ideal) x0 x2 (ix3 0 c n) = rsamp (plane x2 0) (comp x0 n 1) (comp x0 n 2) c := by
  rw [val_main_v185_apply, val_main_v145_apply, val_main_v105_apply, t1_at, t2_at, t3_at, t4_at]
  rfl

end Cert.ReferenceIdeal.RSampX

end
-- ==== Proof.RSampYZ.lean ====
/- The reference's samples of the second and third planes read at a channel and a point. -/
import proofs.«422422_j77094662963970_3_alg».proof.Proof.ReadP
import proofs.«422422_j77094662963970_3_alg».proof.Proof.Iface
import proofs.«422422_j77094662963970_3_alg».proof.Proof.RGather
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RSampYZ

open Cert.ReferenceIdeal Cert.ReferenceIdeal.ReadP Cert.Tri Idealize.ShloMosaic Idealize.ShloMosaic.ValueIdx
open Cert.ReferenceIdeal.Gen

/-! ## Layout operations read at a point

The sample's arrays are indexed by the point n alone ([1, 262144]) until the last steps, where a per-point array is
spread over the 32 channels ([1, 1, 262144] then [1, 32, 262144]) and the two cell arrays become the two columns of
the index pairs ([1, 262144, 1] each, then [1, 262144, 2]). -/

/-- A per-point array spread over the channels, read at (channel c, point n): the array at point n. -/
private theorem bcW {α : Type} (y : S1x262144.Idx → α) (c : Fin 32) (n : Fin 262144) :
    broadcastInDim S1x32x262144 ![0, 1, 2] bcast_S1x1x262144_S1x32x262144_0_1_2
      (broadcastInDim S1x1x262144 ![0, 2] bcast_S1x262144_S1x1x262144_0_2 y) (ix3 0 c n) = y (ix2 0 n) := by
  rw [broadcastInDim_apply _ bcast_S1x1x262144_S1x32x262144_0_1_2 _ (ix3 0 c n) (ix3 0 0 n) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show n.val = if (262144 : Nat) = 1 then 0 else n.val; rw [if_neg (by decide)])]
  exact broadcastInDim_apply _ bcast_S1x262144_S1x1x262144_0_2 y (ix3 0 0 n) (ix2 0 n) (fun a => match a with
    | ⟨0, _⟩ => by show 0 = if (1 : Nat) = 1 then 0 else _; rw [if_pos rfl]
    | ⟨1, _⟩ => by show n.val = if (262144 : Nat) = 1 then 0 else n.val; rw [if_neg (by decide)])

/-- A per-point array as a one-column array, read at point n. -/
private theorem bcI {α : Type} (y : S1x262144.Idx → α) (n : Fin 262144) :
    broadcastInDim S1x262144x1 ![0, 1] bcast_S1x262144_S1x262144x1_0_1 y (ix3 0 n 0) = y (ix2 0 n) :=
  broadcastInDim_apply _ bcast_S1x262144_S1x262144x1_0_1 y (ix3 0 n 0) (ix2 0 n) (fun a => match a with
    | ⟨0, _⟩ => by show 0 = if (1 : Nat) = 1 then 0 else _; rw [if_pos rfl]
    | ⟨1, _⟩ => by show n.val = if (262144 : Nat) = 1 then 0 else n.val; rw [if_neg (by decide)])

/-- Component 0 of the two-column concatenation is the first column. -/
private theorem cat0 {α : Type} (a b : S1x262144x1.Idx → α) (n : Fin 262144) :
    concatenate S1x262144x2 2 [⟨S1x262144x1, a⟩, ⟨S1x262144x1, b⟩] concatenates_S1x262144x1_S1x262144x1_S1x262144x2_d2 (ix3 0 n 0)
      = a (ix3 0 n 0) :=
  concatenate_pair_apply_left 2 a b concatenates_S1x262144x1_S1x262144x1_S1x262144x2_d2 (ix3 0 n 0) rfl (ix3 0 n 0)
    (fun b => match b with | ⟨0, _⟩ => rfl | ⟨1, _⟩ => rfl | ⟨2, _⟩ => rfl)

/-- Component 1 of the two-column concatenation is the second column. -/
private theorem cat1 {α : Type} (a b : S1x262144x1.Idx → α) (n : Fin 262144) :
    concatenate S1x262144x2 2 [⟨S1x262144x1, a⟩, ⟨S1x262144x1, b⟩] concatenates_S1x262144x1_S1x262144x1_S1x262144x2_d2 (ix3 0 n 1)
      = b (ix3 0 n 0) :=
  concatenate_pair_apply_right 2 a b concatenates_S1x262144x1_S1x262144x1_S1x262144x2_d2 (ix3 0 n 1) rfl rfl (ix3 0 n 0)
    (fun b hb => match b, hb with | ⟨0, _⟩, _ => rfl | ⟨1, _⟩, _ => rfl | ⟨2, _⟩, hb => absurd rfl hb)
    rfl

/-! ## The query points' rows and the planes -/

/-- Row 0 of the query points (u), as one row, at point n. -/
private theorem rd4 (x0 : (⟨S1x3x262144, .f32⟩ : BufTy).Contents (Elt Ideal)) (n : Fin 262144) :
    val_main_v4 (F := Ideal) x0 (ix2 0 n) = comp x0 n 0 := by
  rw [val_main_v4_apply, val_main_v3_apply]
  unfold comp
  congr 1
  funext a
  match a with
  | ⟨0, _⟩ => rfl
  | ⟨1, _⟩ => rfl
  | ⟨2, _⟩ => exact Fin.ext (by show (0 * 262144 + n.val) % 262144 = n.val; have := n.isLt; omega)

/-- Row 1 of the query points (v), as one row, at point n. -/
private theorem rd6 (x0 : (⟨S1x3x262144, .f32⟩ : BufTy).Contents (Elt Ideal)) (n : Fin 262144) :
    val_main_v6 (F := Ideal) x0 (ix2 0 n) = comp x0 n 1 := by
  rw [val_main_v6_apply, val_main_v5_apply]
  unfold comp
  congr 1
  funext a
  match a with
  | ⟨0, _⟩ => rfl
  | ⟨1, _⟩ => rfl
  | ⟨2, _⟩ => exact Fin.ext (by show (0 * 262144 + n.val) % 262144 = n.val; have := n.isLt; omega)

/-- Row 2 of the query points (w), as one row, at point n. -/
private theorem rd8 (x0 : (⟨S1x3x262144, .f32⟩ : BufTy).Contents (Elt Ideal)) (n : Fin 262144) :
    val_main_v8 (F := Ideal) x0 (ix2 0 n) = comp x0 n 2 := by
  rw [val_main_v8_apply, val_main_v7_apply]
  unfold comp
  congr 1
  funext a
  match a with
  | ⟨0, _⟩ => rfl
  | ⟨1, _⟩ => rfl
  | ⟨2, _⟩ => exact Fin.ext (by show (0 * 262144 + n.val) % 262144 = n.val; have := n.isLt; omega)

/-- Channels 32 … 63 of the triplanes are plane 1. -/
private theorem plane1 (x2 : (⟨S1x96x256x256, .f32⟩ : BufTy).Contents (Elt Ideal)) :
    (fun (c : Fin 32) (y x : Fin 256) => val_main_v1 (F := Ideal) x2 (ix4 0 c y x)) = plane x2 1 := by
  funext c y x
  rw [val_main_v1_apply]
  unfold plane
  congr 1
  funext a
  match a with
  | ⟨0, _⟩ => rfl
  | ⟨1, _⟩ => exact Fin.ext (by show 32 + c.val = 32 * 1 + c.val; omega)
  | ⟨2, _⟩ => rfl
  | ⟨3, _⟩ => rfl

/-- Channels 64 … 95 of the triplanes are plane 2. -/
private theorem plane2 (x2 : (⟨S1x96x256x256, .f32⟩ : BufTy).Contents (Elt Ideal)) :
    (fun (c : Fin 32) (y x : Fin 256) => val_main_v2 (F := Ideal) x2 (ix4 0 c y x)) = plane x2 2 := by
  funext c y x
  rw [val_main_v2_apply]
  unfold plane
  congr 1
  funext a
  match a with
  | ⟨0, _⟩ => rfl
  | ⟨1, _⟩ => exact Fin.ext (by show 64 + c.val = 32 * 2 + c.val; omega)
  | ⟨2, _⟩ => rfl
  | ⟨3, _⟩ => rfl

/-! ## Words: the clamp, the wrap of negative indices, the validity mask -/

/-- The signed maximum with 0, then the signed minimum with 255, of a cell is the clamped cell as a word:
    min 255 (max 0 i) lies in 0 … 255 and is read back from its natural number. -/
private theorem clip_eq (w : BitVec 32) :
    IntOp.minsi 255#32 (IntOp.maxsi 0#32 w) = BitVec.ofNat 32 (clampF w).val := by
  have e := BitVec.toInt_eq_toNat_cond w
  have hw := w.isLt
  have hc : (clampF w).val = (min 255 (max 0 w.toInt)).toNat := rfl
  apply BitVec.eq_of_toNat_eq
  rw [BitVec.toNat_ofNat, hc]
  unfold IntOp.minsi IntOp.maxsi
  simp only [BitVec.slt, decide_eq_true_eq]
  have t0 : (0#32 : BitVec 32).toInt = 0 := by decide
  have t255 : (255#32 : BitVec 32).toInt = 255 := by decide
  rw [t0]
  by_cases h1 : w.toInt < 0
  · rw [if_pos h1, t255, t0, if_neg (by omega)]
    show 0 = _
    omega
  · rw [if_neg h1, t255]
    by_cases h2 : 255 < w.toInt
    · rw [if_pos h2]
      show 255 = _
      omega
    · rw [if_neg h2]
      omega

/-- A clamped cell is not negative, so adding 256 to negative indices leaves it as it is. -/
private theorem wrap_eq (w : BitVec 32) :
    Scalar.select (IntOp.cmpi .slt (IntOp.minsi 255#32 (IntOp.maxsi 0#32 w)) 0#32)
      (IntOp.addi (IntOp.minsi 255#32 (IntOp.maxsi 0#32 w)) 256#32) (IntOp.minsi 255#32 (IntOp.maxsi 0#32 w))
      = BitVec.ofNat 32 (clampF w).val := by
  rw [clip_eq]
  have hk := (clampF w).isLt
  have e := BitVec.toInt_eq_toNat_cond (BitVec.ofNat 32 (clampF w).val)
  rw [BitVec.toNat_ofNat] at e
  have t0 : (0#32 : BitVec 32).toInt = 0 := by decide
  have hc : IntOp.cmpi .slt (BitVec.ofNat 32 (clampF w).val) 0#32 = 0#1 := by
    show BitVec.ofBool ((BitVec.ofNat 32 (clampF w).val).slt 0#32) = 0#1
    have : (BitVec.ofNat 32 (clampF w).val).slt 0#32 = false := by
      simp only [BitVec.slt, t0, decide_eq_false_iff_not]
      omega
    rw [this]; rfl
  rw [hc]
  exact select_zero _ _

/-- The conjunction of two one-bit truth values. -/
private theorem andi_bool (p q : Bool) : IntOp.andi (BitVec.ofBool p) (BitVec.ofBool q) = BitVec.ofBool (p && q) := by
  cases p <;> cases q <;> rfl

/-- A one-bit truth value read as an unsigned integer: 1 or 0. -/
private theorem uitofp_bool (b : Bool) : FloatOps.uitofp (F := Ideal) .f32 (BitVec.ofBool b) = if b then 1 else 0 := by
  cases b
  · show (((0 : ℕ) : ℝ) : EReal) = _
    simp
  · show (((1 : ℕ) : ℝ) : EReal) = _
    simp

/-- The four signed range tests 0 ≤ xi, xi ≤ 255, 0 ≤ yi, yi ≤ 255, conjoined and read as a number, are the
    validity of the neighbour (xi, yi). -/
private theorem valid_eq (xi yi : BitVec 32) :
    FloatOps.uitofp (F := Ideal) .f32 (IntOp.andi (IntOp.andi (IntOp.andi (IntOp.cmpi .sge xi 0#32) (IntOp.cmpi .sle xi 255#32))
      (IntOp.cmpi .sge yi 0#32)) (IntOp.cmpi .sle yi 255#32)) = vld xi yi := by
  have t0 : (0#32 : BitVec 32).toInt = 0 := by decide
  have t255 : (255#32 : BitVec 32).toInt = 255 := by decide
  have h1 : IntOp.cmpi .sge xi 0#32 = BitVec.ofBool (decide (0 ≤ xi.toInt)) := by
    show BitVec.ofBool ((0#32 : BitVec 32).sle xi) = _
    simp only [BitVec.sle, t0]
  have h2 : IntOp.cmpi .sle xi 255#32 = BitVec.ofBool (decide (xi.toInt ≤ 255)) := by
    show BitVec.ofBool (xi.sle 255#32) = _
    simp only [BitVec.sle, t255]
  have h3 : IntOp.cmpi .sge yi 0#32 = BitVec.ofBool (decide (0 ≤ yi.toInt)) := by
    show BitVec.ofBool ((0#32 : BitVec 32).sle yi) = _
    simp only [BitVec.sle, t0]
  have h4 : IntOp.cmpi .sle yi 255#32 = BitVec.ofBool (decide (yi.toInt ≤ 255)) := by
    show BitVec.ofBool (yi.sle 255#32) = _
    simp only [BitVec.sle, t255]
  rw [h1, h2, h3, h4, andi_bool, andi_bool, andi_bool, uitofp_bool]
  unfold vld
  simp only [Bool.and_eq_true, decide_eq_true_eq, and_assoc]

/-! ## The reference's sample as a function of arrays

The reference computes each of its three samples by the same sequence of array operations, applied to a plane
[1, 32, 256, 256] and two coordinate rows [1, 262144]. Below that sequence is written once, over variables: the
per-point pixel positions, floors, fractions and cells; one neighbour's term (validity mask, clamp, wrap, index
pairs, gather, mask, weight); and the sum of the four neighbours. Each of the reference's samples is this function
of its own plane and rows by unfolding definitions, and the function is read at a channel and a point once. -/

private abbrev FA := FVec Idealize.ShloMosaic.Ideal S1x262144 .f32
private abbrev IA := IVec S1x262144 32
private abbrev PA := FVec Idealize.ShloMosaic.Ideal S1x32x256x256 .f32
private abbrev RA := FVec Idealize.ShloMosaic.Ideal S1x32x262144 .f32

/-- A word constant at every point. -/
private def kI (b : BitVec 32) : IA := broadcastInDim S1x262144 ![] bcast_S_S1x262144 (constantI S_ 32 b)
/-- A float constant at every point. -/
private def kF (b : BitVec 32) : FA :=
  broadcastInDim S1x262144 ![] bcast_S_S1x262144 (constant (F := Idealize.ShloMosaic.Ideal) S_ .f32 b)

/-- The cells clamped into 0 … 255: min 255 (max 0 ·), signed. -/
private def clipA (A : IA) : IA := minsi (kI 255#32) (maxsi (kI 0#32) A)
/-- The wrap of negative indices: 256 more where the index is below 0. -/
private def wrapA (A : IA) : IA := select (cmpi .slt A (kI 0#32)) (addi A (kI 256#32)) A
/-- The validity of the neighbour cells (X, Y), as a number. -/
private def vldA (X Y : IA) : FA :=
  uitofp (F := Idealize.ShloMosaic.Ideal) .f32
    (andi (andi (andi (cmpi .sge X (kI 0#32)) (cmpi .sle X (kI 255#32))) (cmpi .sge Y (kI 0#32))) (cmpi .sle Y (kI 255#32)))
/-- A per-point word array as one column. -/
private def colA (A : IA) : IVec S1x262144x1 32 :=
  broadcastInDim S1x262144x1 ![0, 1] bcast_S1x262144_S1x262144x1_0_1 A
/-- A per-point array over the 32 channels. -/
private def chanA (W : FA) : RA :=
  broadcastInDim S1x32x262144 ![0, 1, 2] bcast_S1x1x262144_S1x32x262144_0_1_2
    (broadcastInDim S1x1x262144 ![0, 2] bcast_S1x262144_S1x1x262144_0_2 W)

/-- One neighbour's term: the plane gathered at the clamped cells (row from Y, column from X), times the
    validity, times the weight W. -/
private def nbA (P : PA) (X Y : IA) (W : FA) : RA :=
  mulf (mulf (Host.gather gather_S1x32x256x256_S1x262144x2_S1x32x262144_1_23_0_0_23_2_13211 P
      (concatenate S1x262144x2 2 [⟨S1x262144x1, colA (wrapA (clipA Y))⟩, ⟨S1x262144x1, colA (wrapA (clipA X))⟩]
        concatenates_S1x262144x1_S1x262144x1_S1x262144x2_d2))
    (chanA (vldA X Y))) (chanA W)

/-- THE NEIGHBOUR at a channel and a point: the masked gathered entry of the cell pair at the point, times the
    weight at the point. The index pair of point n is (clamped Y n, clamped X n), both in 0 … 255, so the gather
    reads the plane there. -/
private theorem nbA_apply (P : PA) (X Y : IA) (W : FA) (c : Fin 32) (n : Fin 262144) :
    nbA P X Y W (ix3 0 c n) = rgat (fun c y x => P (ix4 0 c y x)) (X (ix2 0 n)) (Y (ix2 0 n)) c * W (ix2 0 n) := by
  show Host.gather gather_S1x32x256x256_S1x262144x2_S1x32x262144_1_23_0_0_23_2_13211 P _ (ix3 0 c n)
    * chanA (vldA X Y) (ix3 0 c n) * chanA W (ix3 0 c n) = _
  unfold chanA
  rw [bcW, bcW]
  rw [RGather.gather_read P _ c n (clampF (Y (ix2 0 n))) (clampF (X (ix2 0 n)))
    (by rw [cat0]; unfold colA; rw [bcI]; exact wrap_eq (Y (ix2 0 n)))
    (by rw [cat1]; unfold colA; rw [bcI]; exact wrap_eq (X (ix2 0 n)))]
  unfold rgat
  congr 2
  exact valid_eq (X (ix2 0 n)) (Y (ix2 0 n))

/-- The pixel positions (g + 1) · ½ · 255 per point. -/
private def posA (g : FA) : FA := mulf (mulf (addf g (kF 0x3F800000#32)) (kF 0x3F000000#32)) (kF 0x437F0000#32)
/-- Their floors. -/
private def floA (g : FA) : FA := Host.floor (posA g)
/-- The fractions. -/
private def fraA (g : FA) : FA := subf (posA g) (floA g)
/-- The cells as words. -/
private def celA (g : FA) : IA := fptosi 32 (floA g)

/-- The sample of plane P at column coordinates gx, row coordinates gy: the four neighbours (x₀, y₀), (x₀ + 1, y₀),
    (x₀, y₀ + 1), (x₀ + 1, y₀ + 1) with weights (1 − fx)(1 − fy), fx (1 − fy), (1 − fx) fy, fx fy, summed from the left. -/
private def sampA (P : PA) (gx gy : FA) : RA :=
  addf (addf (addf
    (nbA P (celA gx) (celA gy) (mulf (subf (kF 0x3F800000#32) (fraA gx)) (subf (kF 0x3F800000#32) (fraA gy))))
    (nbA P (addi (celA gx) (kI 1#32)) (celA gy) (mulf (fraA gx) (subf (kF 0x3F800000#32) (fraA gy)))))
    (nbA P (celA gx) (addi (celA gy) (kI 1#32)) (mulf (subf (kF 0x3F800000#32) (fraA gx)) (fraA gy))))
    (nbA P (addi (celA gx) (kI 1#32)) (addi (celA gy) (kI 1#32)) (mulf (fraA gx) (fraA gy)))

/-- THE SAMPLE at a channel and a point is the bilinear sample of the plane at the point's two coordinates: the
    positions, fractions, cells and weights at a point are the specification's by unfolding. -/
private theorem sampA_apply (P : PA) (gx gy : FA) (c : Fin 32) (n : Fin 262144) :
    sampA P gx gy (ix3 0 c n) = rsamp (fun c y x => P (ix4 0 c y x)) (gx (ix2 0 n)) (gy (ix2 0 n)) c := by
  show nbA P _ _ _ (ix3 0 c n) + nbA P _ _ _ (ix3 0 c n) + nbA P _ _ _ (ix3 0 c n) + nbA P _ _ _ (ix3 0 c n) = _
  rw [nbA_apply, nbA_apply, nbA_apply, nbA_apply]
  rfl

/-- The second sample is the sample of channels 32 … 63 at rows u and w of the query points. -/
private theorem v362_eq (x0 : (⟨S1x3x262144, .f32⟩ : BufTy).Contents (Elt Ideal)) (x2 : (⟨S1x96x256x256, .f32⟩ : BufTy).Contents (Elt Ideal)) :
    val_main_v362 (F := Ideal) x0 x2
      = sampA (val_main_v1 (F := Ideal) x2) (val_main_v4 (F := Ideal) x0) (val_main_v8 (F := Ideal) x0) := rfl

/-- The third sample is the sample of channels 64 … 95 at rows u and v of the query points. -/
private theorem v540_eq (x0 : (⟨S1x3x262144, .f32⟩ : BufTy).Contents (Elt Ideal)) (x2 : (⟨S1x96x256x256, .f32⟩ : BufTy).Contents (Elt Ideal)) :
    val_main_v540 (F := Ideal) x0 x2
      = sampA (val_main_v2 (F := Ideal) x2) (val_main_v4 (F := Ideal) x0) (val_main_v6 (F := Ideal) x0) := rfl

/-- Plane 1 at column coordinate u, row coordinate w. -/
theorem sampY_read (x0 : (⟨S1x3x262144, .f32⟩ : BufTy).Contents (Elt Ideal)) (x2 : (⟨S1x96x256x256, .f32⟩ : BufTy).Contents (Elt Ideal))
    (c : Fin 32) (n : Fin 262144) :
    val_main_v362 (F := Ideal) x0 x2 (ix3 0 c n) = rsamp (plane x2 1) (comp x0 n 0) (comp x0 n 2) c := by
  rw [v362_eq, sampA_apply, rd4, rd8, plane1]

/-- Plane 2 at column coordinate u, row coordinate v. -/
theorem sampZ_read (x0 : (⟨S1x3x262144, .f32⟩ : BufTy).Contents (Elt Ideal)) (x2 : (⟨S1x96x256x256, .f32⟩ : BufTy).Contents (Elt Ideal))
    (c : Fin 32) (n : Fin 262144) :
    val_main_v540 (F := Ideal) x0 x2 (ix3 0 c n) = rsamp (plane x2 2) (comp x0 n 0) (comp x0 n 1) c := by
  rw [v540_eq, sampA_apply, rd4, rd6, plane2]

end Cert.ReferenceIdeal.RSampYZ

end
-- ==== Proof.Bridge.lean ====
/-
  Both programs end at ONE function of the argument arrays: entry (0, j, n) of the result is the reference's per-point
  value `rpt` of point n — two perceptrons over the feature (the three planes' bilinear samples at the point's coordinates)
  and the embedded view direction. The kernel's block-diagonal perceptron over one-hot samples is that function by
  `ksamp_eq_rsamp`, `kscale_eq_rscale` and `kmlp_fused`; the reference's program reads as it operation by operation.
-/
import proofs.«422422_j77094662963970_3_alg».proof.Proof.Blocks
import proofs.«422422_j77094662963970_3_alg».proof.Proof.KHost
import proofs.«422422_j77094662963970_3_alg».proof.Proof.LawSamp
import proofs.«422422_j77094662963970_3_alg».proof.Proof.LawMlp
import proofs.«422422_j77094662963970_3_alg».proof.Proof.RMlp
import proofs.«422422_j77094662963970_3_alg».proof.Proof.RSampX
import proofs.«422422_j77094662963970_3_alg».proof.Proof.RSampYZ

noncomputable section

namespace Cert.Bridge

open Cert.Tri Idealize.ShloMosaic Idealize.ShloMosaic.TcCoe Idealize.SL.Sem Idealize.ShloMosaic.ValueIdx

/-- The result array [1, 4, 262144] as a function of the fifteen argument arrays. -/
def OUT (a0 a1 : (⟨3, ![1, 3, 262144]⟩ : Shape).Idx → EReal) (a2 : (⟨4, ![1, 96, 256, 256]⟩ : Shape).Idx → EReal)
    (a3 : (⟨2, ![32, 128]⟩ : Shape).Idx → EReal) (a4 : (⟨1, ![128]⟩ : Shape).Idx → EReal)
    (a5 : (⟨2, ![128, 128]⟩ : Shape).Idx → EReal) (a6 : (⟨1, ![128]⟩ : Shape).Idx → EReal)
    (a7 : (⟨2, ![128, 1]⟩ : Shape).Idx → EReal) (a8 : (⟨1, ![1]⟩ : Shape).Idx → EReal)
    (a9 : (⟨2, ![59, 128]⟩ : Shape).Idx → EReal) (a10 : (⟨1, ![128]⟩ : Shape).Idx → EReal)
    (a11 : (⟨2, ![128, 128]⟩ : Shape).Idx → EReal) (a12 : (⟨1, ![128]⟩ : Shape).Idx → EReal)
    (a13 : (⟨2, ![128, 3]⟩ : Shape).Idx → EReal) (a14 : (⟨1, ![3]⟩ : Shape).Idx → EReal) :
    (⟨3, ![1, 4, 262144]⟩ : Shape).Idx → EReal := fun i =>
  rpt (plane a2 0) (plane a2 1) (plane a2 2) (mat2 a3) (vec1 a4) (mat2 a5) (vec1 a6) (mat2 a7) (vec1 a8)
    (mat2 a9) (vec1 a10) (mat2 a11) (vec1 a12) (mat2 a13) (vec1 a14)
    (comp a0 (i 2) 0) (comp a0 (i 2) 1) (comp a0 (i 2) 2) (comp a1 (i 2)) (i 1)

/-- The kernel's point function with the fused weights is the reference's. -/
theorem kpt_eq_rpt (PX PY PZ : Fin 32 → Fin 256 → Fin 256 → EReal)
    (dW1 : Fin 32 → Fin 128 → EReal) (dB1 : Fin 128 → EReal) (dW2 : Fin 128 → Fin 128 → EReal) (dB2 : Fin 128 → EReal)
    (dW3 : Fin 128 → Fin 1 → EReal) (dB3 : Fin 1 → EReal)
    (cW1 : Fin 59 → Fin 128 → EReal) (cB1 : Fin 128 → EReal) (cW2 : Fin 128 → Fin 128 → EReal) (cB2 : Fin 128 → EReal)
    (cW3 : Fin 128 → Fin 3 → EReal) (cB3 : Fin 3 → EReal) (u v w : EReal) (d : Fin 3 → EReal) (j : Fin 4) :
    kpt PX PY PZ (WA1 dW1 cW1) (BA dB1 cB1) (WA2 dW2 cW2) (BA dB2 cB2) (WA3 dW3 cW3) (BA dB3 cB3) u v w d j
      = rpt PX PY PZ dW1 dB1 dW2 dB2 dW3 dB3 cW1 cB1 cW2 cB2 cW3 cB3 u v w d j := by
  unfold kpt rpt
  have hf : (fun c => ksamp PX w v c + ksamp PY w u c + ksamp PZ v u c) = rfeat PX PY PZ u v w := by
    funext c
    rw [ksamp_eq_rsamp, ksamp_eq_rsamp, ksamp_eq_rsamp]
    rfl
  rw [hf, kscale_eq_rscale]
  exact kmlp_fused dW1 dB1 dW2 dB2 dW3 dB3 cW1 cB1 cW2 cB2 cW3 cB3 (rfeat PX PY PZ u v w) (emb rscale d) j

section Kernel
open Cert.KernelIdeal Cert.KernelIdeal.Gen

variable (m : (ℓ : Loc Cert.KernelIdeal.nD Cert.KernelIdeal.τ Cert.KernelIdeal.sig) → Buf (Elt Ideal) ℓ)

/-- The kernel's result array is `OUT` of its arguments. -/
theorem kernel_final (c : Dev Cert.KernelIdeal.nD) :
    (dats m 0 c).arrAt 11 cfg0.N
      = OUT (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) := by
  rw [Cert.KernelIdeal.Blocks.final m c]
  funext i
  show Cert.KernelIdeal.Blocks.PT m c (i 1) (i 2) = _
  unfold Cert.KernelIdeal.Blocks.PT OUT
  rw [Cert.KernelIdeal.KHost.V_px, Cert.KernelIdeal.KHost.V_py, Cert.KernelIdeal.KHost.V_pz,
    Cert.KernelIdeal.KHost.V_WA1, Cert.KernelIdeal.KHost.V_BA1, Cert.KernelIdeal.KHost.V_WA2, Cert.KernelIdeal.KHost.V_BA2,
    Cert.KernelIdeal.KHost.V_WA3, Cert.KernelIdeal.KHost.V_BA3, V_main_arg0, V_main_arg1]
  exact kpt_eq_rpt _ _ _ _ _ _ _ _ _ _ _ _ _ _ _ _ _ _ _ _

end Kernel

section Reference
open Cert.ReferenceIdeal Cert.ReferenceIdeal.ReadP

/-- The reference's last stage is `OUT` of its arguments. -/
theorem reference_final (x0 x1 : (⟨S1x3x262144, .f32⟩ : BufTy).Contents (Elt Ideal)) (x2 : (⟨S1x96x256x256, .f32⟩ : BufTy).Contents (Elt Ideal))
    (x3 : (⟨S32x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x1, .f32⟩ : BufTy).Contents (Elt Ideal)) (x8 : (⟨S1, .f32⟩ : BufTy).Contents (Elt Ideal))
    (x9 : (⟨S59x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal))
    (x13 : (⟨S128x3, .f32⟩ : BufTy).Contents (Elt Ideal)) (x14 : (⟨S3, .f32⟩ : BufTy).Contents (Elt Ideal)) :
    val_main_v594 (F := Ideal) x0 x1 x2 x3 x4 x5 x6 x7 x8 x9 x10 x11 x12 x13 x14
      = OUT x0 x1 x2 x3 x4 x5 x6 x7 x8 x9 x10 x11 x12 x13 x14 := by
  funext i
  obtain ⟨j, n, rfl⟩ : ∃ (j : Fin 4) (n : Fin 262144), i = ix3 0 j n :=
    ⟨i 1, i 2, funext fun d => by
      match d with
      | ⟨0, _⟩ => exact Fin.ext (by have h : (i 0).val < 1 := (i 0).isLt; show (i 0).val = 0; omega)
      | ⟨1, _⟩ => rfl
      | ⟨2, _⟩ => rfl⟩
  rw [Cert.ReferenceIdeal.RMlp.out_read]
  have hf : (fun c => val_main_v541 (F := Ideal) x0 x2 (ix3 0 c n))
      = rfeat (plane x2 0) (plane x2 1) (plane x2 2) (comp x0 n 0) (comp x0 n 1) (comp x0 n 2) := by
    funext c
    rw [Cert.ReferenceIdeal.RMlp.feat_read, Cert.ReferenceIdeal.RSampX.sampX_read, Cert.ReferenceIdeal.RSampYZ.sampY_read,
      Cert.ReferenceIdeal.RSampYZ.sampZ_read]
    rfl
  rw [hf]
  rfl

end Reference

end Cert.Bridge

end
-- ==== Proof.lean ====
/-
  The certificate of a triplane radiance-field query kernel against its jnp reference, over the extended reals.

  For each of 262144 query points the programs sample three 32-channel 256 × 256 feature planes bilinearly at the point's
  coordinates (align-corners, zero outside the grid), add the three samples, embed the view direction by sines and cosines
  at four octaves, and run two three-layer perceptrons (density from the feature; colour from feature and embedding).
  The kernel tiles the points in 256 blocks of 1024; per block it gathers plane rows by multiplying the re-laid plane
  with one-hot row selectors and blends columns by one-hot weights summed over the column axis, and it runs both
  perceptrons as ONE block-diagonal network. The reference gathers the four clamped neighbours and masks the invalid ones.

  At the extended reals the two are one function of the arguments, entry by entry (`Cert.Bridge.OUT`): a one-hot sum has
  at most one non-zero term, the term the reference gathers (`ksamp_eq_rsamp`); the literal octaves 1, 2, 4, 8 are the
  powers 2^f the reference computes (`kscale_eq_rscale`); and a block-diagonal layer is its two blocks side by side
  because the off-diagonal products are 0 · x = 0 (`kmlp_fused`). Only commutativity and associativity of + and · and
  the laws of 0 and 1 are used, so the precondition (finite inputs) is never opened.

  The kernel's frames are the generated ones; the kernel's result array is read block by block (Blocks.lean); the
  reference's run is its operation list taken window by window (RunP.lean) and read one operation at a time.
-/
import proofs.«422422_j77094662963970_3_alg».proof.Defs
import proofs.«422422_j77094662963970_3_alg».proof.Proof.Gen.Kernel
import proofs.«422422_j77094662963970_3_alg».proof.Proof.Gen.Kernel.Skeleton
import proofs.«422422_j77094662963970_3_alg».proof.Proof.Gen.Kernel.Launch
import proofs.«422422_j77094662963970_3_alg».proof.Proof.Gen.Kernel.Points
import proofs.«422422_j77094662963970_3_alg».proof.Proof.Gen.Kernel.Frame
import proofs.«422422_j77094662963970_3_alg».proof.Proof.Gen.KernelIdeal
import proofs.«422422_j77094662963970_3_alg».proof.Proof.Gen.KernelIdeal.Skeleton
import proofs.«422422_j77094662963970_3_alg».proof.Proof.Gen.KernelIdeal.Launch
import proofs.«422422_j77094662963970_3_alg».proof.Proof.Gen.KernelIdeal.Points
import proofs.«422422_j77094662963970_3_alg».proof.Proof.Gen.KernelIdeal.Frame
import proofs.«422422_j77094662963970_3_alg».proof.Proof.Gen.ReferenceIdeal
import proofs.«422422_j77094662963970_3_alg».proof.Proof.Gen.Pre_finite_inputs
import proofs.«422422_j77094662963970_3_alg».proof.Proof.Gen.KernelIdeal.Value
import proofs.«422422_j77094662963970_3_alg».proof.Proof.Bridge
import proofs.«422422_j77094662963970_3_alg».proof.Proof.RunP
import Idealize.ShloMosaic.Adequacy
import Idealize.ShloMosaic.Init

noncomputable section

namespace Cert.Proof

open Idealize.ShloMosaic Idealize.SL.Sem

/-- The word-level kernel runs and leaves its arguments: the generated frame. -/
theorem frame_k : Cert.frame_Kernel := fun m ρ _ => Cert.Kernel.Gen.frame m ρ

/-- The idealized kernel runs and leaves its arguments: the generated frame. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories agreeing on the arguments both programs end with the result array at `OUT` of the arguments. -/
theorem algebraic : Cert.algebraic_KernelIdeal_ReferenceIdeal := by
  intro m ρ m' ρ' _ hagree
  refine ⟨fun c => Cert.Bridge.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.Bridge.kernel_final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5, h6, h7, h8, h9, h10, h11, h12, h13, h14⟩ := hagree c
    rw [h0, h1, h2, h3, h4, h5, h6, h7, h8, h9, h10, h11, h12, h13, h14]
    exact Cert.Bridge.reference_final _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
